-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S600000 : S_.BroadcastsInDim S600000 (![] : Fin 0 → Fin S600000.rank)
  reducesTo_S600000_S_d0 : S600000.ReducesTo [0] S_

variable [Facts]

def fn_part1 {F : FTy → Type} [FloatOps F] (main_arg1 : IVec S600000 32) (main_arg2 : IVec S600000 32) (main_v13 : IVec S_ 1) (main_v15 : IVec S600000 1) (main_c_5 : IVec S_ 1) : IVec S_ 1 :=
  let main_v16 : IVec S_ 1 := (fun x v => Host.reduce IntOp.andi x v reducesTo_S600000_S_d0 h_S_) main_v15 main_c_5
  let main_v17 : IVec S_ 1 := andi main_v13 main_v16
  let main_c_6 : IVec S_ 32 := constantI S_ 32 100000#32
  let main_v18 : IVec S600000 32 := broadcastInDim S600000 ![] bcast_S_S600000 main_c_6
  let main_v19 : IVec S600000 1 := cmpi .slt main_arg1 main_v18
  let main_c_7 : IVec S_ 1 := constantI S_ 1 1#1
  let main_v20 : IVec S_ 1 := (fun x v => Host.reduce IntOp.andi x v reducesTo_S600000_S_d0 h_S_) main_v19 main_c_7
  let main_v21 : IVec S_ 1 := andi main_v17 main_v20
  let main_c_8 : IVec S_ 32 := constantI S_ 32 0#32
  let main_v22 : IVec S600000 32 := broadcastInDim S600000 ![] bcast_S_S600000 main_c_8
  let main_v23 : IVec S600000 1 := cmpi .sge main_arg2 main_v22
  let main_c_9 : IVec S_ 1 := constantI S_ 1 1#1
  let main_v24 : IVec S_ 1 := (fun x v => Host.reduce IntOp.andi x v reducesTo_S600000_S_d0 h_S_) main_v23 main_c_9
  let main_v25 : IVec S_ 1 := andi main_v21 main_v24
  let main_c_10 : IVec S_ 32 := constantI S_ 32 100000#32
  let main_v26 : IVec S600000 32 := broadcastInDim S600000 ![] bcast_S_S600000 main_c_10
  let main_v27 : IVec S600000 1 := cmpi .slt main_arg2 main_v26
  let main_c_11 : IVec S_ 1 := constantI S_ 1 1#1
  let main_v28 : IVec S_ 1 := (fun x v => Host.reduce IntOp.andi x v reducesTo_S600000_S_d0 h_S_) main_v27 main_c_11
  let main_v29 : IVec S_ 1 := andi main_v25 main_v28
  main_v29

def fn {F : FTy → Type} [FloatOps F] (main_arg0 : FVec F S100000x128 .f32) (main_arg1 : IVec S600000 32) (main_arg2 : IVec S600000 32) (main_arg3 : FVec F S128x1 .f32) (main_arg4 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x1 .f32 := Host.absf main_arg3
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S600000 32 := broadcastInDim S600000 ![] bcast_S_S600000 main_c_4
  let main_v15 : IVec S600000 1 := cmpi .sge main_arg1 main_v14
  let main_c_5 : IVec S_ 1 := constantI S_ 1 1#1
  fn_part1 (F := F) main_arg1 main_arg2 main_v13 main_v15 main_c_5
-- ==== Kernel.lean ====
abbrev S100000x128 : Shape := ⟨2, ![100000, 128]⟩
abbrev S600000 : Shape := ⟨1, ![600000]⟩
abbrev S128x1 : Shape := ⟨2, ![128, 1]⟩
abbrev S1 : Shape := ⟨1, ![1]⟩
abbrev S_ : Shape := ⟨0, ![]⟩
abbrev S600064 : Shape := ⟨1, ![600064]⟩
abbrev S1x128 : Shape := ⟨2, ![1, 128]⟩
abbrev S128 : Shape := ⟨1, ![128]⟩
abbrev S128x128 : Shape := ⟨2, ![128, 128]⟩
abbrev S2 : Shape := ⟨1, ![2]⟩
abbrev S1x1 : Shape := ⟨2, ![1, 1]⟩
abbrev S600000x1 : Shape := ⟨2, ![600000, 1]⟩

abbrev nBuf : Space → Nat
  | .hbm => 15
  | .vmem => 6
  | .smem => 4
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x1, .f32⟩
  | .hbm, ⟨4, _⟩ => ⟨S1, .f32⟩
  | .hbm, ⟨5, _⟩ => ⟨S_, .i32⟩
  | .hbm, ⟨6, _⟩ => ⟨S_, .i32⟩
  | .hbm, ⟨7, _⟩ => ⟨S600064, .i32⟩
  | .hbm, ⟨8, _⟩ => ⟨S_, .i32⟩
  | .hbm, ⟨9, _⟩ => ⟨S_, .i32⟩
  | .hbm, ⟨10, _⟩ => ⟨S600064, .i32⟩
  | .hbm, ⟨11, _⟩ => ⟨S1x128, .f32⟩
  | .hbm, ⟨12, _⟩ => ⟨S600064, .f32⟩
  | .hbm, ⟨13, _⟩ => ⟨S600000, .f32⟩
  | .hbm, ⟨14, _⟩ => ⟨S600000x1, .f32⟩
  | .local _ .vmem, ⟨0, _⟩ => ⟨S1x128, .f32⟩
  | .local _ .vmem, ⟨1, _⟩ => ⟨S1, .f32⟩
  | .local _ .vmem, ⟨2, _⟩ => ⟨S128, .f32⟩
  | .local _ .vmem, ⟨3, _⟩ => ⟨S128, .f32⟩
  | .local _ .vmem, ⟨4, _⟩ => ⟨S128x128, .f32⟩
  | .local _ .vmem, ⟨5, _⟩ => ⟨S128x128, .f32⟩
  | .local _ .smem, ⟨0, _⟩ => ⟨S128, .i32⟩
  | .local _ .smem, ⟨1, _⟩ => ⟨S128, .i32⟩
  | .local _ .smem, ⟨2, _⟩ => ⟨S128, .i32⟩
  | .local _ .smem, ⟨3, _⟩ => ⟨S128, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4688], ![false]⟩

def k0_off1 (v0 : BitVec 32) : Fin 2 → Nat :=
  let c0_i32_2 : BitVec 32 := 0#32
  ![v0.toNat, 0]

def k0_chk1 (v0 : BitVec 32) : Prop :=
  (∀ a, (k0_off1 v0) a + S1x128.size a ≤ S100000x128.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x128.size a ≤ S100000x128.size a := fun v0 k0_hw1 => k0_hw1

def k0_off2 (v7 : BitVec 32) : Fin 2 → Nat :=
  let c0_i32_7 : BitVec 32 := 0#32
  ![v7.toNat, 0]

def k0_chk2 (v7 : BitVec 32) : Prop :=
  (∀ a, (k0_off2 v7) a + S1x128.size a ≤ S100000x128.size a)
instance k0_chk2.dec : ∀ (v7 : BitVec 32), Decidable (k0_chk2 v7) := fun v7 => decidable_of_iff' _ (Iff.of_eq (k0_chk2.eq_1 v7))
theorem k0_off2_inb : ∀ (v7 : BitVec 32) (k0_hw2 : k0_chk2 v7), ∀ a, (k0_off2 v7) a + S1x128.size a ≤ S100000x128.size a := fun v7 k0_hw2 => k0_hw2

def k0_off3 (v26 : BitVec 32) : Fin 2 → Nat :=
  let c0_i32_20 : BitVec 32 := 0#32
  ![v26.toNat, 0]

def k0_chk3 (v26 : BitVec 32) : Prop :=
  (∀ a, (k0_off3 v26) a + S1x128.size a ≤ S100000x128.size a)
instance k0_chk3.dec : ∀ (v26 : BitVec 32), Decidable (k0_chk3 v26) := fun v26 => decidable_of_iff' _ (Iff.of_eq (k0_chk3.eq_1 v26))
theorem k0_off3_inb : ∀ (v26 : BitVec 32) (k0_hw3 : k0_chk3 v26), ∀ a, (k0_off3 v26) a + S1x128.size a ≤ S100000x128.size a := fun v26 k0_hw3 => k0_hw3

def k0_off4 (v33 : BitVec 32) : Fin 2 → Nat :=
  let c0_i32_25 : BitVec 32 := 0#32
  ![v33.toNat, 0]

def k0_chk4 (v33 : BitVec 32) : Prop :=
  (∀ a, (k0_off4 v33) a + S1x128.size a ≤ S100000x128.size a)
instance k0_chk4.dec : ∀ (v33 : BitVec 32), Decidable (k0_chk4 v33) := fun v33 => decidable_of_iff' _ (Iff.of_eq (k0_chk4.eq_1 v33))
theorem k0_off4_inb : ∀ (v33 : BitVec 32) (k0_hw4 : k0_chk4 v33), ∀ a, (k0_off4 v33) a + S1x128.size a ≤ S100000x128.size a := fun v33 k0_hw4 => k0_hw4

def k0_off5 (v52 : BitVec 32) : Fin 2 → Nat :=
  let c0_i32_38 : BitVec 32 := 0#32
  ![v52.toNat, 0]

def k0_chk5 (v52 : BitVec 32) : Prop :=
  (∀ a, (k0_off5 v52) a + S1x128.size a ≤ S100000x128.size a)
instance k0_chk5.dec : ∀ (v52 : BitVec 32), Decidable (k0_chk5 v52) := fun v52 => decidable_of_iff' _ (Iff.of_eq (k0_chk5.eq_1 v52))
theorem k0_off5_inb : ∀ (v52 : BitVec 32) (k0_hw5 : k0_chk5 v52), ∀ a, (k0_off5 v52) a + S1x128.size a ≤ S100000x128.size a := fun v52 k0_hw5 => k0_hw5

def k0_off6 (v59 : BitVec 32) : Fin 2 → Nat :=
  let c0_i32_43 : BitVec 32 := 0#32
  ![v59.toNat, 0]

def k0_chk6 (v59 : BitVec 32) : Prop :=
  (∀ a, (k0_off6 v59) a + S1x128.size a ≤ S100000x128.size a)
instance k0_chk6.dec : ∀ (v59 : BitVec 32), Decidable (k0_chk6 v59) := fun v59 => decidable_of_iff' _ (Iff.of_eq (k0_chk6.eq_1 v59))
theorem k0_off6_inb : ∀ (v59 : BitVec 32) (k0_hw6 : k0_chk6 v59), ∀ a, (k0_off6 v59) a + S1x128.size a ≤ S100000x128.size a := fun v59 k0_hw6 => k0_hw6

def k0_off7 (v78 : BitVec 32) : Fin 2 → Nat :=
  let c0_i32_56 : BitVec 32 := 0#32
  ![v78.toNat, 0]

def k0_chk7 (v78 : BitVec 32) : Prop :=
  (∀ a, (k0_off7 v78) a + S1x128.size a ≤ S100000x128.size a)
instance k0_chk7.dec : ∀ (v78 : BitVec 32), Decidable (k0_chk7 v78) := fun v78 => decidable_of_iff' _ (Iff.of_eq (k0_chk7.eq_1 v78))
theorem k0_off7_inb : ∀ (v78 : BitVec 32) (k0_hw7 : k0_chk7 v78), ∀ a, (k0_off7 v78) a + S1x128.size a ≤ S100000x128.size a := fun v78 k0_hw7 => k0_hw7

def k0_off8 (v85 : BitVec 32) : Fin 2 → Nat :=
  let c0_i32_61 : BitVec 32 := 0#32
  ![v85.toNat, 0]

def k0_chk8 (v85 : BitVec 32) : Prop :=
  (∀ a, (k0_off8 v85) a + S1x128.size a ≤ S100000x128.size a)
instance k0_chk8.dec : ∀ (v85 : BitVec 32), Decidable (k0_chk8 v85) := fun v85 => decidable_of_iff' _ (Iff.of_eq (k0_chk8.eq_1 v85))
theorem k0_off8_inb : ∀ (v85 : BitVec 32) (k0_hw8 : k0_chk8 v85), ∀ a, (k0_off8 v85) a + S1x128.size a ≤ S100000x128.size a := fun v85 k0_hw8 => k0_hw8

def k0_off9 (v104 : BitVec 32) : Fin 2 → Nat :=
  let c0_i32_74 : BitVec 32 := 0#32
  ![v104.toNat, 0]

def k0_chk9 (v104 : BitVec 32) : Prop :=
  (∀ a, (k0_off9 v104) a + S1x128.size a ≤ S100000x128.size a)
instance k0_chk9.dec : ∀ (v104 : BitVec 32), Decidable (k0_chk9 v104) := fun v104 => decidable_of_iff' _ (Iff.of_eq (k0_chk9.eq_1 v104))
theorem k0_off9_inb : ∀ (v104 : BitVec 32) (k0_hw9 : k0_chk9 v104), ∀ a, (k0_off9 v104) a + S1x128.size a ≤ S100000x128.size a := fun v104 k0_hw9 => k0_hw9

def k0_off10 (v111 : BitVec 32) : Fin 2 → Nat :=
  let c0_i32_79 : BitVec 32 := 0#32
  ![v111.toNat, 0]

def k0_chk10 (v111 : BitVec 32) : Prop :=
  (∀ a, (k0_off10 v111) a + S1x128.size a ≤ S100000x128.size a)
instance k0_chk10.dec : ∀ (v111 : BitVec 32), Decidable (k0_chk10 v111) := fun v111 => decidable_of_iff' _ (Iff.of_eq (k0_chk10.eq_1 v111))
theorem k0_off10_inb : ∀ (v111 : BitVec 32) (k0_hw10 : k0_chk10 v111), ∀ a, (k0_off10 v111) a + S1x128.size a ≤ S100000x128.size a := fun v111 k0_hw10 => k0_hw10

def k0_off11 (v130 : BitVec 32) : Fin 2 → Nat :=
  let c0_i32_92 : BitVec 32 := 0#32
  ![v130.toNat, 0]

def k0_chk11 (v130 : BitVec 32) : Prop :=
  (∀ a, (k0_off11 v130) a + S1x128.size a ≤ S100000x128.size a)
instance k0_chk11.dec : ∀ (v130 : BitVec 32), Decidable (k0_chk11 v130) := fun v130 => decidable_of_iff' _ (Iff.of_eq (k0_chk11.eq_1 v130))
theorem k0_off11_inb : ∀ (v130 : BitVec 32) (k0_hw11 : k0_chk11 v130), ∀ a, (k0_off11 v130) a + S1x128.size a ≤ S100000x128.size a := fun v130 k0_hw11 => k0_hw11

def k0_off12 (v137 : BitVec 32) : Fin 2 → Nat :=
  let c0_i32_97 : BitVec 32 := 0#32
  ![v137.toNat, 0]

def k0_chk12 (v137 : BitVec 32) : Prop :=
  (∀ a, (k0_off12 v137) a + S1x128.size a ≤ S100000x128.size a)
instance k0_chk12.dec : ∀ (v137 : BitVec 32), Decidable (k0_chk12 v137) := fun v137 => decidable_of_iff' _ (Iff.of_eq (k0_chk12.eq_1 v137))
theorem k0_off12_inb : ∀ (v137 : BitVec 32) (k0_hw12 : k0_chk12 v137), ∀ a, (k0_off12 v137) a + S1x128.size a ≤ S100000x128.size a := fun v137 k0_hw12 => k0_hw12

def k0_off13 (v156 : BitVec 32) : Fin 2 → Nat :=
  let c0_i32_110 : BitVec 32 := 0#32
  ![v156.toNat, 0]

def k0_chk13 (v156 : BitVec 32) : Prop :=
  (∀ a, (k0_off13 v156) a + S1x128.size a ≤ S100000x128.size a)
instance k0_chk13.dec : ∀ (v156 : BitVec 32), Decidable (k0_chk13 v156) := fun v156 => decidable_of_iff' _ (Iff.of_eq (k0_chk13.eq_1 v156))
theorem k0_off13_inb : ∀ (v156 : BitVec 32) (k0_hw13 : k0_chk13 v156), ∀ a, (k0_off13 v156) a + S1x128.size a ≤ S100000x128.size a := fun v156 k0_hw13 => k0_hw13

def k0_off14 (v163 : BitVec 32) : Fin 2 → Nat :=
  let c0_i32_115 : BitVec 32 := 0#32
  ![v163.toNat, 0]

def k0_chk14 (v163 : BitVec 32) : Prop :=
  (∀ a, (k0_off14 v163) a + S1x128.size a ≤ S100000x128.size a)
instance k0_chk14.dec : ∀ (v163 : BitVec 32), Decidable (k0_chk14 v163) := fun v163 => decidable_of_iff' _ (Iff.of_eq (k0_chk14.eq_1 v163))
theorem k0_off14_inb : ∀ (v163 : BitVec 32) (k0_hw14 : k0_chk14 v163), ∀ a, (k0_off14 v163) a + S1x128.size a ≤ S100000x128.size a := fun v163 k0_hw14 => k0_hw14

def k0_off15 (v182 : BitVec 32) : Fin 2 → Nat :=
  let c0_i32_128 : BitVec 32 := 0#32
  ![v182.toNat, 0]

def k0_chk15 (v182 : BitVec 32) : Prop :=
  (∀ a, (k0_off15 v182) a + S1x128.size a ≤ S100000x128.size a)
instance k0_chk15.dec : ∀ (v182 : BitVec 32), Decidable (k0_chk15 v182) := fun v182 => decidable_of_iff' _ (Iff.of_eq (k0_chk15.eq_1 v182))
theorem k0_off15_inb : ∀ (v182 : BitVec 32) (k0_hw15 : k0_chk15 v182), ∀ a, (k0_off15 v182) a + S1x128.size a ≤ S100000x128.size a := fun v182 k0_hw15 => k0_hw15

def k0_off16 (v189 : BitVec 32) : Fin 2 → Nat :=
  let c0_i32_133 : BitVec 32 := 0#32
  ![v189.toNat, 0]

def k0_chk16 (v189 : BitVec 32) : Prop :=
  (∀ a, (k0_off16 v189) a + S1x128.size a ≤ S100000x128.size a)
instance k0_chk16.dec : ∀ (v189 : BitVec 32), Decidable (k0_chk16 v189) := fun v189 => decidable_of_iff' _ (Iff.of_eq (k0_chk16.eq_1 v189))
theorem k0_off16_inb : ∀ (v189 : BitVec 32) (k0_hw16 : k0_chk16 v189), ∀ a, (k0_off16 v189) a + S1x128.size a ≤ S100000x128.size a := fun v189 k0_hw16 => k0_hw16

def k0_off17 (v208 : BitVec 32) : Fin 2 → Nat :=
  let c0_i32_146 : BitVec 32 := 0#32
  ![v208.toNat, 0]

def k0_chk17 (v208 : BitVec 32) : Prop :=
  (∀ a, (k0_off17 v208) a + S1x128.size a ≤ S100000x128.size a)
instance k0_chk17.dec : ∀ (v208 : BitVec 32), Decidable (k0_chk17 v208) := fun v208 => decidable_of_iff' _ (Iff.of_eq (k0_chk17.eq_1 v208))
theorem k0_off17_inb : ∀ (v208 : BitVec 32) (k0_hw17 : k0_chk17 v208), ∀ a, (k0_off17 v208) a + S1x128.size a ≤ S100000x128.size a := fun v208 k0_hw17 => k0_hw17

def k0_off18 (v215 : BitVec 32) : Fin 2 → Nat :=
  let c0_i32_151 : BitVec 32 := 0#32
  ![v215.toNat, 0]

def k0_chk18 (v215 : BitVec 32) : Prop :=
  (∀ a, (k0_off18 v215) a + S1x128.size a ≤ S100000x128.size a)
instance k0_chk18.dec : ∀ (v215 : BitVec 32), Decidable (k0_chk18 v215) := fun v215 => decidable_of_iff' _ (Iff.of_eq (k0_chk18.eq_1 v215))
theorem k0_off18_inb : ∀ (v215 : BitVec 32) (k0_hw18 : k0_chk18 v215), ∀ a, (k0_off18 v215) a + S1x128.size a ≤ S100000x128.size a := fun v215 k0_hw18 => k0_hw18

def k0_off19 (v234 : BitVec 32) : Fin 2 → Nat :=
  let c0_i32_164 : BitVec 32 := 0#32
  ![v234.toNat, 0]

def k0_chk19 (v234 : BitVec 32) : Prop :=
  (∀ a, (k0_off19 v234) a + S1x128.size a ≤ S100000x128.size a)
instance k0_chk19.dec : ∀ (v234 : BitVec 32), Decidable (k0_chk19 v234) := fun v234 => decidable_of_iff' _ (Iff.of_eq (k0_chk19.eq_1 v234))
theorem k0_off19_inb : ∀ (v234 : BitVec 32) (k0_hw19 : k0_chk19 v234), ∀ a, (k0_off19 v234) a + S1x128.size a ≤ S100000x128.size a := fun v234 k0_hw19 => k0_hw19

def k0_off20 (v241 : BitVec 32) : Fin 2 → Nat :=
  let c0_i32_169 : BitVec 32 := 0#32
  ![v241.toNat, 0]

def k0_chk20 (v241 : BitVec 32) : Prop :=
  (∀ a, (k0_off20 v241) a + S1x128.size a ≤ S100000x128.size a)
instance k0_chk20.dec : ∀ (v241 : BitVec 32), Decidable (k0_chk20 v241) := fun v241 => decidable_of_iff' _ (Iff.of_eq (k0_chk20.eq_1 v241))
theorem k0_off20_inb : ∀ (v241 : BitVec 32) (k0_hw20 : k0_chk20 v241), ∀ a, (k0_off20 v241) a + S1x128.size a ≤ S100000x128.size a := fun v241 k0_hw20 => k0_hw20

def k0_off21 (v260 : BitVec 32) : Fin 2 → Nat :=
  let c0_i32_182 : BitVec 32 := 0#32
  ![v260.toNat, 0]

def k0_chk21 (v260 : BitVec 32) : Prop :=
  (∀ a, (k0_off21 v260) a + S1x128.size a ≤ S100000x128.size a)
instance k0_chk21.dec : ∀ (v260 : BitVec 32), Decidable (k0_chk21 v260) := fun v260 => decidable_of_iff' _ (Iff.of_eq (k0_chk21.eq_1 v260))
theorem k0_off21_inb : ∀ (v260 : BitVec 32) (k0_hw21 : k0_chk21 v260), ∀ a, (k0_off21 v260) a + S1x128.size a ≤ S100000x128.size a := fun v260 k0_hw21 => k0_hw21

def k0_off22 (v267 : BitVec 32) : Fin 2 → Nat :=
  let c0_i32_187 : BitVec 32 := 0#32
  ![v267.toNat, 0]

def k0_chk22 (v267 : BitVec 32) : Prop :=
  (∀ a, (k0_off22 v267) a + S1x128.size a ≤ S100000x128.size a)
instance k0_chk22.dec : ∀ (v267 : BitVec 32), Decidable (k0_chk22 v267) := fun v267 => decidable_of_iff' _ (Iff.of_eq (k0_chk22.eq_1 v267))
theorem k0_off22_inb : ∀ (v267 : BitVec 32) (k0_hw22 : k0_chk22 v267), ∀ a, (k0_off22 v267) a + S1x128.size a ≤ S100000x128.size a := fun v267 k0_hw22 => k0_hw22

def k0_off23 (v286 : BitVec 32) : Fin 2 → Nat :=
  let c0_i32_200 : BitVec 32 := 0#32
  ![v286.toNat, 0]

def k0_chk23 (v286 : BitVec 32) : Prop :=
  (∀ a, (k0_off23 v286) a + S1x128.size a ≤ S100000x128.size a)
instance k0_chk23.dec : ∀ (v286 : BitVec 32), Decidable (k0_chk23 v286) := fun v286 => decidable_of_iff' _ (Iff.of_eq (k0_chk23.eq_1 v286))
theorem k0_off23_inb : ∀ (v286 : BitVec 32) (k0_hw23 : k0_chk23 v286), ∀ a, (k0_off23 v286) a + S1x128.size a ≤ S100000x128.size a := fun v286 k0_hw23 => k0_hw23

def k0_off24 (v293 : BitVec 32) : Fin 2 → Nat :=
  let c0_i32_205 : BitVec 32 := 0#32
  ![v293.toNat, 0]

def k0_chk24 (v293 : BitVec 32) : Prop :=
  (∀ a, (k0_off24 v293) a + S1x128.size a ≤ S100000x128.size a)
instance k0_chk24.dec : ∀ (v293 : BitVec 32), Decidable (k0_chk24 v293) := fun v293 => decidable_of_iff' _ (Iff.of_eq (k0_chk24.eq_1 v293))
theorem k0_off24_inb : ∀ (v293 : BitVec 32) (k0_hw24 : k0_chk24 v293), ∀ a, (k0_off24 v293) a + S1x128.size a ≤ S100000x128.size a := fun v293 k0_hw24 => k0_hw24

def k0_off25 (v312 : BitVec 32) : Fin 2 → Nat :=
  let c0_i32_218 : BitVec 32 := 0#32
  ![v312.toNat, 0]

def k0_chk25 (v312 : BitVec 32) : Prop :=
  (∀ a, (k0_off25 v312) a + S1x128.size a ≤ S100000x128.size a)
instance k0_chk25.dec : ∀ (v312 : BitVec 32), Decidable (k0_chk25 v312) := fun v312 => decidable_of_iff' _ (Iff.of_eq (k0_chk25.eq_1 v312))
theorem k0_off25_inb : ∀ (v312 : BitVec 32) (k0_hw25 : k0_chk25 v312), ∀ a, (k0_off25 v312) a + S1x128.size a ≤ S100000x128.size a := fun v312 k0_hw25 => k0_hw25

def k0_off26 (v319 : BitVec 32) : Fin 2 → Nat :=
  let c0_i32_223 : BitVec 32 := 0#32
  ![v319.toNat, 0]

def k0_chk26 (v319 : BitVec 32) : Prop :=
  (∀ a, (k0_off26 v319) a + S1x128.size a ≤ S100000x128.size a)
instance k0_chk26.dec : ∀ (v319 : BitVec 32), Decidable (k0_chk26 v319) := fun v319 => decidable_of_iff' _ (Iff.of_eq (k0_chk26.eq_1 v319))
theorem k0_off26_inb : ∀ (v319 : BitVec 32) (k0_hw26 : k0_chk26 v319), ∀ a, (k0_off26 v319) a + S1x128.size a ≤ S100000x128.size a := fun v319 k0_hw26 => k0_hw26

def k0_off27 (v338 : BitVec 32) : Fin 2 → Nat :=
  let c0_i32_236 : BitVec 32 := 0#32
  ![v338.toNat, 0]

def k0_chk27 (v338 : BitVec 32) : Prop :=
  (∀ a, (k0_off27 v338) a + S1x128.size a ≤ S100000x128.size a)
instance k0_chk27.dec : ∀ (v338 : BitVec 32), Decidable (k0_chk27 v338) := fun v338 => decidable_of_iff' _ (Iff.of_eq (k0_chk27.eq_1 v338))
theorem k0_off27_inb : ∀ (v338 : BitVec 32) (k0_hw27 : k0_chk27 v338), ∀ a, (k0_off27 v338) a + S1x128.size a ≤ S100000x128.size a := fun v338 k0_hw27 => k0_hw27

def k0_off28 (v345 : BitVec 32) : Fin 2 → Nat :=
  let c0_i32_241 : BitVec 32 := 0#32
  ![v345.toNat, 0]

def k0_chk28 (v345 : BitVec 32) : Prop :=
  (∀ a, (k0_off28 v345) a + S1x128.size a ≤ S100000x128.size a)
instance k0_chk28.dec : ∀ (v345 : BitVec 32), Decidable (k0_chk28 v345) := fun v345 => decidable_of_iff' _ (Iff.of_eq (k0_chk28.eq_1 v345))
theorem k0_off28_inb : ∀ (v345 : BitVec 32) (k0_hw28 : k0_chk28 v345), ∀ a, (k0_off28 v345) a + S1x128.size a ≤ S100000x128.size a := fun v345 k0_hw28 => k0_hw28

def k0_off29 (v364 : BitVec 32) : Fin 2 → Nat :=
  let c0_i32_254 : BitVec 32 := 0#32
  ![v364.toNat, 0]

def k0_chk29 (v364 : BitVec 32) : Prop :=
  (∀ a, (k0_off29 v364) a + S1x128.size a ≤ S100000x128.size a)
instance k0_chk29.dec : ∀ (v364 : BitVec 32), Decidable (k0_chk29 v364) := fun v364 => decidable_of_iff' _ (Iff.of_eq (k0_chk29.eq_1 v364))
theorem k0_off29_inb : ∀ (v364 : BitVec 32) (k0_hw29 : k0_chk29 v364), ∀ a, (k0_off29 v364) a + S1x128.size a ≤ S100000x128.size a := fun v364 k0_hw29 => k0_hw29

def k0_off30 (v371 : BitVec 32) : Fin 2 → Nat :=
  let c0_i32_259 : BitVec 32 := 0#32
  ![v371.toNat, 0]

def k0_chk30 (v371 : BitVec 32) : Prop :=
  (∀ a, (k0_off30 v371) a + S1x128.size a ≤ S100000x128.size a)
instance k0_chk30.dec : ∀ (v371 : BitVec 32), Decidable (k0_chk30 v371) := fun v371 => decidable_of_iff' _ (Iff.of_eq (k0_chk30.eq_1 v371))
theorem k0_off30_inb : ∀ (v371 : BitVec 32) (k0_hw30 : k0_chk30 v371), ∀ a, (k0_off30 v371) a + S1x128.size a ≤ S100000x128.size a := fun v371 k0_hw30 => k0_hw30

def k0_off31 (v390 : BitVec 32) : Fin 2 → Nat :=
  let c0_i32_272 : BitVec 32 := 0#32
  ![v390.toNat, 0]

def k0_chk31 (v390 : BitVec 32) : Prop :=
  (∀ a, (k0_off31 v390) a + S1x128.size a ≤ S100000x128.size a)
instance k0_chk31.dec : ∀ (v390 : BitVec 32), Decidable (k0_chk31 v390) := fun v390 => decidable_of_iff' _ (Iff.of_eq (k0_chk31.eq_1 v390))
theorem k0_off31_inb : ∀ (v390 : BitVec 32) (k0_hw31 : k0_chk31 v390), ∀ a, (k0_off31 v390) a + S1x128.size a ≤ S100000x128.size a := fun v390 k0_hw31 => k0_hw31

def k0_off32 (v397 : BitVec 32) : Fin 2 → Nat :=
  let c0_i32_277 : BitVec 32 := 0#32
  ![v397.toNat, 0]

def k0_chk32 (v397 : BitVec 32) : Prop :=
  (∀ a, (k0_off32 v397) a + S1x128.size a ≤ S100000x128.size a)
instance k0_chk32.dec : ∀ (v397 : BitVec 32), Decidable (k0_chk32 v397) := fun v397 => decidable_of_iff' _ (Iff.of_eq (k0_chk32.eq_1 v397))
theorem k0_off32_inb : ∀ (v397 : BitVec 32) (k0_hw32 : k0_chk32 v397), ∀ a, (k0_off32 v397) a + S1x128.size a ≤ S100000x128.size a := fun v397 k0_hw32 => k0_hw32

def k0_off33 (v416 : BitVec 32) : Fin 2 → Nat :=
  let c0_i32_290 : BitVec 32 := 0#32
  ![v416.toNat, 0]

def k0_chk33 (v416 : BitVec 32) : Prop :=
  (∀ a, (k0_off33 v416) a + S1x128.size a ≤ S100000x128.size a)
instance k0_chk33.dec : ∀ (v416 : BitVec 32), Decidable (k0_chk33 v416) := fun v416 => decidable_of_iff' _ (Iff.of_eq (k0_chk33.eq_1 v416))
theorem k0_off33_inb : ∀ (v416 : BitVec 32) (k0_hw33 : k0_chk33 v416), ∀ a, (k0_off33 v416) a + S1x128.size a ≤ S100000x128.size a := fun v416 k0_hw33 => k0_hw33

def k0_off34 (v423 : BitVec 32) : Fin 2 → Nat :=
  let c0_i32_295 : BitVec 32 := 0#32
  ![v423.toNat, 0]

def k0_chk34 (v423 : BitVec 32) : Prop :=
  (∀ a, (k0_off34 v423) a + S1x128.size a ≤ S100000x128.size a)
instance k0_chk34.dec : ∀ (v423 : BitVec 32), Decidable (k0_chk34 v423) := fun v423 => decidable_of_iff' _ (Iff.of_eq (k0_chk34.eq_1 v423))
theorem k0_off34_inb : ∀ (v423 : BitVec 32) (k0_hw34 : k0_chk34 v423), ∀ a, (k0_off34 v423) a + S1x128.size a ≤ S100000x128.size a := fun v423 k0_hw34 => k0_hw34

def k0_off35 (v442 : BitVec 32) : Fin 2 → Nat :=
  let c0_i32_308 : BitVec 32 := 0#32
  ![v442.toNat, 0]

def k0_chk35 (v442 : BitVec 32) : Prop :=
  (∀ a, (k0_off35 v442) a + S1x128.size a ≤ S100000x128.size a)
instance k0_chk35.dec : ∀ (v442 : BitVec 32), Decidable (k0_chk35 v442) := fun v442 => decidable_of_iff' _ (Iff.of_eq (k0_chk35.eq_1 v442))
theorem k0_off35_inb : ∀ (v442 : BitVec 32) (k0_hw35 : k0_chk35 v442), ∀ a, (k0_off35 v442) a + S1x128.size a ≤ S100000x128.size a := fun v442 k0_hw35 => k0_hw35

def k0_off36 (v449 : BitVec 32) : Fin 2 → Nat :=
  let c0_i32_313 : BitVec 32 := 0#32
  ![v449.toNat, 0]

def k0_chk36 (v449 : BitVec 32) : Prop :=
  (∀ a, (k0_off36 v449) a + S1x128.size a ≤ S100000x128.size a)
instance k0_chk36.dec : ∀ (v449 : BitVec 32), Decidable (k0_chk36 v449) := fun v449 => decidable_of_iff' _ (Iff.of_eq (k0_chk36.eq_1 v449))
theorem k0_off36_inb : ∀ (v449 : BitVec 32) (k0_hw36 : k0_chk36 v449), ∀ a, (k0_off36 v449) a + S1x128.size a ≤ S100000x128.size a := fun v449 k0_hw36 => k0_hw36

def k0_off37 (v468 : BitVec 32) : Fin 2 → Nat :=
  let c0_i32_326 : BitVec 32 := 0#32
  ![v468.toNat, 0]

def k0_chk37 (v468 : BitVec 32) : Prop :=
  (∀ a, (k0_off37 v468) a + S1x128.size a ≤ S100000x128.size a)
instance k0_chk37.dec : ∀ (v468 : BitVec 32), Decidable (k0_chk37 v468) := fun v468 => decidable_of_iff' _ (Iff.of_eq (k0_chk37.eq_1 v468))
theorem k0_off37_inb : ∀ (v468 : BitVec 32) (k0_hw37 : k0_chk37 v468), ∀ a, (k0_off37 v468) a + S1x128.size a ≤ S100000x128.size a := fun v468 k0_hw37 => k0_hw37

def k0_off38 (v475 : BitVec 32) : Fin 2 → Nat :=
  let c0_i32_331 : BitVec 32 := 0#32
  ![v475.toNat, 0]

def k0_chk38 (v475 : BitVec 32) : Prop :=
  (∀ a, (k0_off38 v475) a + S1x128.size a ≤ S100000x128.size a)
instance k0_chk38.dec : ∀ (v475 : BitVec 32), Decidable (k0_chk38 v475) := fun v475 => decidable_of_iff' _ (Iff.of_eq (k0_chk38.eq_1 v475))
theorem k0_off38_inb : ∀ (v475 : BitVec 32) (k0_hw38 : k0_chk38 v475), ∀ a, (k0_off38 v475) a + S1x128.size a ≤ S100000x128.size a := fun v475 k0_hw38 => k0_hw38

def k0_off39 (v494 : BitVec 32) : Fin 2 → Nat :=
  let c0_i32_344 : BitVec 32 := 0#32
  ![v494.toNat, 0]

def k0_chk39 (v494 : BitVec 32) : Prop :=
  (∀ a, (k0_off39 v494) a + S1x128.size a ≤ S100000x128.size a)
instance k0_chk39.dec : ∀ (v494 : BitVec 32), Decidable (k0_chk39 v494) := fun v494 => decidable_of_iff' _ (Iff.of_eq (k0_chk39.eq_1 v494))
theorem k0_off39_inb : ∀ (v494 : BitVec 32) (k0_hw39 : k0_chk39 v494), ∀ a, (k0_off39 v494) a + S1x128.size a ≤ S100000x128.size a := fun v494 k0_hw39 => k0_hw39

def k0_off40 (v501 : BitVec 32) : Fin 2 → Nat :=
  let c0_i32_349 : BitVec 32 := 0#32
  ![v501.toNat, 0]

def k0_chk40 (v501 : BitVec 32) : Prop :=
  (∀ a, (k0_off40 v501) a + S1x128.size a ≤ S100000x128.size a)
instance k0_chk40.dec : ∀ (v501 : BitVec 32), Decidable (k0_chk40 v501) := fun v501 => decidable_of_iff' _ (Iff.of_eq (k0_chk40.eq_1 v501))
theorem k0_off40_inb : ∀ (v501 : BitVec 32) (k0_hw40 : k0_chk40 v501), ∀ a, (k0_off40 v501) a + S1x128.size a ≤ S100000x128.size a := fun v501 k0_hw40 => k0_hw40

def k0_off41 (v520 : BitVec 32) : Fin 2 → Nat :=
  let c0_i32_362 : BitVec 32 := 0#32
  ![v520.toNat, 0]

def k0_chk41 (v520 : BitVec 32) : Prop :=
  (∀ a, (k0_off41 v520) a + S1x128.size a ≤ S100000x128.size a)
instance k0_chk41.dec : ∀ (v520 : BitVec 32), Decidable (k0_chk41 v520) := fun v520 => decidable_of_iff' _ (Iff.of_eq (k0_chk41.eq_1 v520))
theorem k0_off41_inb : ∀ (v520 : BitVec 32) (k0_hw41 : k0_chk41 v520), ∀ a, (k0_off41 v520) a + S1x128.size a ≤ S100000x128.size a := fun v520 k0_hw41 => k0_hw41

def k0_off42 (v527 : BitVec 32) : Fin 2 → Nat :=
  let c0_i32_367 : BitVec 32 := 0#32
  ![v527.toNat, 0]

def k0_chk42 (v527 : BitVec 32) : Prop :=
  (∀ a, (k0_off42 v527) a + S1x128.size a ≤ S100000x128.size a)
instance k0_chk42.dec : ∀ (v527 : BitVec 32), Decidable (k0_chk42 v527) := fun v527 => decidable_of_iff' _ (Iff.of_eq (k0_chk42.eq_1 v527))
theorem k0_off42_inb : ∀ (v527 : BitVec 32) (k0_hw42 : k0_chk42 v527), ∀ a, (k0_off42 v527) a + S1x128.size a ≤ S100000x128.size a := fun v527 k0_hw42 => k0_hw42

def k0_off43 (v546 : BitVec 32) : Fin 2 → Nat :=
  let c0_i32_380 : BitVec 32 := 0#32
  ![v546.toNat, 0]

def k0_chk43 (v546 : BitVec 32) : Prop :=
  (∀ a, (k0_off43 v546) a + S1x128.size a ≤ S100000x128.size a)
instance k0_chk43.dec : ∀ (v546 : BitVec 32), Decidable (k0_chk43 v546) := fun v546 => decidable_of_iff' _ (Iff.of_eq (k0_chk43.eq_1 v546))
theorem k0_off43_inb : ∀ (v546 : BitVec 32) (k0_hw43 : k0_chk43 v546), ∀ a, (k0_off43 v546) a + S1x128.size a ≤ S100000x128.size a := fun v546 k0_hw43 => k0_hw43

def k0_off44 (v553 : BitVec 32) : Fin 2 → Nat :=
  let c0_i32_385 : BitVec 32 := 0#32
  ![v553.toNat, 0]

def k0_chk44 (v553 : BitVec 32) : Prop :=
  (∀ a, (k0_off44 v553) a + S1x128.size a ≤ S100000x128.size a)
instance k0_chk44.dec : ∀ (v553 : BitVec 32), Decidable (k0_chk44 v553) := fun v553 => decidable_of_iff' _ (Iff.of_eq (k0_chk44.eq_1 v553))
theorem k0_off44_inb : ∀ (v553 : BitVec 32) (k0_hw44 : k0_chk44 v553), ∀ a, (k0_off44 v553) a + S1x128.size a ≤ S100000x128.size a := fun v553 k0_hw44 => k0_hw44

def k0_off45 (v572 : BitVec 32) : Fin 2 → Nat :=
  let c0_i32_398 : BitVec 32 := 0#32
  ![v572.toNat, 0]

def k0_chk45 (v572 : BitVec 32) : Prop :=
  (∀ a, (k0_off45 v572) a + S1x128.size a ≤ S100000x128.size a)
instance k0_chk45.dec : ∀ (v572 : BitVec 32), Decidable (k0_chk45 v572) := fun v572 => decidable_of_iff' _ (Iff.of_eq (k0_chk45.eq_1 v572))
theorem k0_off45_inb : ∀ (v572 : BitVec 32) (k0_hw45 : k0_chk45 v572), ∀ a, (k0_off45 v572) a + S1x128.size a ≤ S100000x128.size a := fun v572 k0_hw45 => k0_hw45

def k0_off46 (v579 : BitVec 32) : Fin 2 → Nat :=
  let c0_i32_403 : BitVec 32 := 0#32
  ![v579.toNat, 0]

def k0_chk46 (v579 : BitVec 32) : Prop :=
  (∀ a, (k0_off46 v579) a + S1x128.size a ≤ S100000x128.size a)
instance k0_chk46.dec : ∀ (v579 : BitVec 32), Decidable (k0_chk46 v579) := fun v579 => decidable_of_iff' _ (Iff.of_eq (k0_chk46.eq_1 v579))
theorem k0_off46_inb : ∀ (v579 : BitVec 32) (k0_hw46 : k0_chk46 v579), ∀ a, (k0_off46 v579) a + S1x128.size a ≤ S100000x128.size a := fun v579 k0_hw46 => k0_hw46

def k0_off47 (v598 : BitVec 32) : Fin 2 → Nat :=
  let c0_i32_416 : BitVec 32 := 0#32
  ![v598.toNat, 0]

def k0_chk47 (v598 : BitVec 32) : Prop :=
  (∀ a, (k0_off47 v598) a + S1x128.size a ≤ S100000x128.size a)
instance k0_chk47.dec : ∀ (v598 : BitVec 32), Decidable (k0_chk47 v598) := fun v598 => decidable_of_iff' _ (Iff.of_eq (k0_chk47.eq_1 v598))
theorem k0_off47_inb : ∀ (v598 : BitVec 32) (k0_hw47 : k0_chk47 v598), ∀ a, (k0_off47 v598) a + S1x128.size a ≤ S100000x128.size a := fun v598 k0_hw47 => k0_hw47

def k0_off48 (v605 : BitVec 32) : Fin 2 → Nat :=
  let c0_i32_421 : BitVec 32 := 0#32
  ![v605.toNat, 0]

def k0_chk48 (v605 : BitVec 32) : Prop :=
  (∀ a, (k0_off48 v605) a + S1x128.size a ≤ S100000x128.size a)
instance k0_chk48.dec : ∀ (v605 : BitVec 32), Decidable (k0_chk48 v605) := fun v605 => decidable_of_iff' _ (Iff.of_eq (k0_chk48.eq_1 v605))
theorem k0_off48_inb : ∀ (v605 : BitVec 32) (k0_hw48 : k0_chk48 v605), ∀ a, (k0_off48 v605) a + S1x128.size a ≤ S100000x128.size a := fun v605 k0_hw48 => k0_hw48

def k0_off49 (v624 : BitVec 32) : Fin 2 → Nat :=
  let c0_i32_434 : BitVec 32 := 0#32
  ![v624.toNat, 0]

def k0_chk49 (v624 : BitVec 32) : Prop :=
  (∀ a, (k0_off49 v624) a + S1x128.size a ≤ S100000x128.size a)
instance k0_chk49.dec : ∀ (v624 : BitVec 32), Decidable (k0_chk49 v624) := fun v624 => decidable_of_iff' _ (Iff.of_eq (k0_chk49.eq_1 v624))
theorem k0_off49_inb : ∀ (v624 : BitVec 32) (k0_hw49 : k0_chk49 v624), ∀ a, (k0_off49 v624) a + S1x128.size a ≤ S100000x128.size a := fun v624 k0_hw49 => k0_hw49

def k0_off50 (v631 : BitVec 32) : Fin 2 → Nat :=
  let c0_i32_439 : BitVec 32 := 0#32
  ![v631.toNat, 0]

def k0_chk50 (v631 : BitVec 32) : Prop :=
  (∀ a, (k0_off50 v631) a + S1x128.size a ≤ S100000x128.size a)
instance k0_chk50.dec : ∀ (v631 : BitVec 32), Decidable (k0_chk50 v631) := fun v631 => decidable_of_iff' _ (Iff.of_eq (k0_chk50.eq_1 v631))
theorem k0_off50_inb : ∀ (v631 : BitVec 32) (k0_hw50 : k0_chk50 v631), ∀ a, (k0_off50 v631) a + S1x128.size a ≤ S100000x128.size a := fun v631 k0_hw50 => k0_hw50

def k0_off51 (v650 : BitVec 32) : Fin 2 → Nat :=
  let c0_i32_452 : BitVec 32 := 0#32
  ![v650.toNat, 0]

def k0_chk51 (v650 : BitVec 32) : Prop :=
  (∀ a, (k0_off51 v650) a + S1x128.size a ≤ S100000x128.size a)
instance k0_chk51.dec : ∀ (v650 : BitVec 32), Decidable (k0_chk51 v650) := fun v650 => decidable_of_iff' _ (Iff.of_eq (k0_chk51.eq_1 v650))
theorem k0_off51_inb : ∀ (v650 : BitVec 32) (k0_hw51 : k0_chk51 v650), ∀ a, (k0_off51 v650) a + S1x128.size a ≤ S100000x128.size a := fun v650 k0_hw51 => k0_hw51

def k0_off52 (v657 : BitVec 32) : Fin 2 → Nat :=
  let c0_i32_457 : BitVec 32 := 0#32
  ![v657.toNat, 0]

def k0_chk52 (v657 : BitVec 32) : Prop :=
  (∀ a, (k0_off52 v657) a + S1x128.size a ≤ S100000x128.size a)
instance k0_chk52.dec : ∀ (v657 : BitVec 32), Decidable (k0_chk52 v657) := fun v657 => decidable_of_iff' _ (Iff.of_eq (k0_chk52.eq_1 v657))
theorem k0_off52_inb : ∀ (v657 : BitVec 32) (k0_hw52 : k0_chk52 v657), ∀ a, (k0_off52 v657) a + S1x128.size a ≤ S100000x128.size a := fun v657 k0_hw52 => k0_hw52

def k0_off53 (v676 : BitVec 32) : Fin 2 → Nat :=
  let c0_i32_470 : BitVec 32 := 0#32
  ![v676.toNat, 0]

def k0_chk53 (v676 : BitVec 32) : Prop :=
  (∀ a, (k0_off53 v676) a + S1x128.size a ≤ S100000x128.size a)
instance k0_chk53.dec : ∀ (v676 : BitVec 32), Decidable (k0_chk53 v676) := fun v676 => decidable_of_iff' _ (Iff.of_eq (k0_chk53.eq_1 v676))
theorem k0_off53_inb : ∀ (v676 : BitVec 32) (k0_hw53 : k0_chk53 v676), ∀ a, (k0_off53 v676) a + S1x128.size a ≤ S100000x128.size a := fun v676 k0_hw53 => k0_hw53

def k0_off54 (v683 : BitVec 32) : Fin 2 → Nat :=
  let c0_i32_475 : BitVec 32 := 0#32
  ![v683.toNat, 0]

def k0_chk54 (v683 : BitVec 32) : Prop :=
  (∀ a, (k0_off54 v683) a + S1x128.size a ≤ S100000x128.size a)
instance k0_chk54.dec : ∀ (v683 : BitVec 32), Decidable (k0_chk54 v683) := fun v683 => decidable_of_iff' _ (Iff.of_eq (k0_chk54.eq_1 v683))
theorem k0_off54_inb : ∀ (v683 : BitVec 32) (k0_hw54 : k0_chk54 v683), ∀ a, (k0_off54 v683) a + S1x128.size a ≤ S100000x128.size a := fun v683 k0_hw54 => k0_hw54

def k0_off55 (v702 : BitVec 32) : Fin 2 → Nat :=
  let c0_i32_488 : BitVec 32 := 0#32
  ![v702.toNat, 0]

def k0_chk55 (v702 : BitVec 32) : Prop :=
  (∀ a, (k0_off55 v702) a + S1x128.size a ≤ S100000x128.size a)
instance k0_chk55.dec : ∀ (v702 : BitVec 32), Decidable (k0_chk55 v702) := fun v702 => decidable_of_iff' _ (Iff.of_eq (k0_chk55.eq_1 v702))
theorem k0_off55_inb : ∀ (v702 : BitVec 32) (k0_hw55 : k0_chk55 v702), ∀ a, (k0_off55 v702) a + S1x128.size a ≤ S100000x128.size a := fun v702 k0_hw55 => k0_hw55

def k0_off56 (v709 : BitVec 32) : Fin 2 → Nat :=
  let c0_i32_493 : BitVec 32 := 0#32
  ![v709.toNat, 0]

def k0_chk56 (v709 : BitVec 32) : Prop :=
  (∀ a, (k0_off56 v709) a + S1x128.size a ≤ S100000x128.size a)
instance k0_chk56.dec : ∀ (v709 : BitVec 32), Decidable (k0_chk56 v709) := fun v709 => decidable_of_iff' _ (Iff.of_eq (k0_chk56.eq_1 v709))
theorem k0_off56_inb : ∀ (v709 : BitVec 32) (k0_hw56 : k0_chk56 v709), ∀ a, (k0_off56 v709) a + S1x128.size a ≤ S100000x128.size a := fun v709 k0_hw56 => k0_hw56

def k0_off57 (v728 : BitVec 32) : Fin 2 → Nat :=
  let c0_i32_506 : BitVec 32 := 0#32
  ![v728.toNat, 0]

def k0_chk57 (v728 : BitVec 32) : Prop :=
  (∀ a, (k0_off57 v728) a + S1x128.size a ≤ S100000x128.size a)
instance k0_chk57.dec : ∀ (v728 : BitVec 32), Decidable (k0_chk57 v728) := fun v728 => decidable_of_iff' _ (Iff.of_eq (k0_chk57.eq_1 v728))
theorem k0_off57_inb : ∀ (v728 : BitVec 32) (k0_hw57 : k0_chk57 v728), ∀ a, (k0_off57 v728) a + S1x128.size a ≤ S100000x128.size a := fun v728 k0_hw57 => k0_hw57

def k0_off58 (v735 : BitVec 32) : Fin 2 → Nat :=
  let c0_i32_511 : BitVec 32 := 0#32
  ![v735.toNat, 0]

def k0_chk58 (v735 : BitVec 32) : Prop :=
  (∀ a, (k0_off58 v735) a + S1x128.size a ≤ S100000x128.size a)
instance k0_chk58.dec : ∀ (v735 : BitVec 32), Decidable (k0_chk58 v735) := fun v735 => decidable_of_iff' _ (Iff.of_eq (k0_chk58.eq_1 v735))
theorem k0_off58_inb : ∀ (v735 : BitVec 32) (k0_hw58 : k0_chk58 v735), ∀ a, (k0_off58 v735) a + S1x128.size a ≤ S100000x128.size a := fun v735 k0_hw58 => k0_hw58

def k0_off59 (v754 : BitVec 32) : Fin 2 → Nat :=
  let c0_i32_524 : BitVec 32 := 0#32
  ![v754.toNat, 0]

def k0_chk59 (v754 : BitVec 32) : Prop :=
  (∀ a, (k0_off59 v754) a + S1x128.size a ≤ S100000x128.size a)
instance k0_chk59.dec : ∀ (v754 : BitVec 32), Decidable (k0_chk59 v754) := fun v754 => decidable_of_iff' _ (Iff.of_eq (k0_chk59.eq_1 v754))
theorem k0_off59_inb : ∀ (v754 : BitVec 32) (k0_hw59 : k0_chk59 v754), ∀ a, (k0_off59 v754) a + S1x128.size a ≤ S100000x128.size a := fun v754 k0_hw59 => k0_hw59

def k0_off60 (v761 : BitVec 32) : Fin 2 → Nat :=
  let c0_i32_529 : BitVec 32 := 0#32
  ![v761.toNat, 0]

def k0_chk60 (v761 : BitVec 32) : Prop :=
  (∀ a, (k0_off60 v761) a + S1x128.size a ≤ S100000x128.size a)
instance k0_chk60.dec : ∀ (v761 : BitVec 32), Decidable (k0_chk60 v761) := fun v761 => decidable_of_iff' _ (Iff.of_eq (k0_chk60.eq_1 v761))
theorem k0_off60_inb : ∀ (v761 : BitVec 32) (k0_hw60 : k0_chk60 v761), ∀ a, (k0_off60 v761) a + S1x128.size a ≤ S100000x128.size a := fun v761 k0_hw60 => k0_hw60

def k0_off61 (v780 : BitVec 32) : Fin 2 → Nat :=
  let c0_i32_542 : BitVec 32 := 0#32
  ![v780.toNat, 0]

def k0_chk61 (v780 : BitVec 32) : Prop :=
  (∀ a, (k0_off61 v780) a + S1x128.size a ≤ S100000x128.size a)
instance k0_chk61.dec : ∀ (v780 : BitVec 32), Decidable (k0_chk61 v780) := fun v780 => decidable_of_iff' _ (Iff.of_eq (k0_chk61.eq_1 v780))
theorem k0_off61_inb : ∀ (v780 : BitVec 32) (k0_hw61 : k0_chk61 v780), ∀ a, (k0_off61 v780) a + S1x128.size a ≤ S100000x128.size a := fun v780 k0_hw61 => k0_hw61

def k0_off62 (v787 : BitVec 32) : Fin 2 → Nat :=
  let c0_i32_547 : BitVec 32 := 0#32
  ![v787.toNat, 0]

def k0_chk62 (v787 : BitVec 32) : Prop :=
  (∀ a, (k0_off62 v787) a + S1x128.size a ≤ S100000x128.size a)
instance k0_chk62.dec : ∀ (v787 : BitVec 32), Decidable (k0_chk62 v787) := fun v787 => decidable_of_iff' _ (Iff.of_eq (k0_chk62.eq_1 v787))
theorem k0_off62_inb : ∀ (v787 : BitVec 32) (k0_hw62 : k0_chk62 v787), ∀ a, (k0_off62 v787) a + S1x128.size a ≤ S100000x128.size a := fun v787 k0_hw62 => k0_hw62

def k0_off63 (v806 : BitVec 32) : Fin 2 → Nat :=
  let c0_i32_560 : BitVec 32 := 0#32
  ![v806.toNat, 0]

def k0_chk63 (v806 : BitVec 32) : Prop :=
  (∀ a, (k0_off63 v806) a + S1x128.size a ≤ S100000x128.size a)
instance k0_chk63.dec : ∀ (v806 : BitVec 32), Decidable (k0_chk63 v806) := fun v806 => decidable_of_iff' _ (Iff.of_eq (k0_chk63.eq_1 v806))
theorem k0_off63_inb : ∀ (v806 : BitVec 32) (k0_hw63 : k0_chk63 v806), ∀ a, (k0_off63 v806) a + S1x128.size a ≤ S100000x128.size a := fun v806 k0_hw63 => k0_hw63

def k0_off64 (v813 : BitVec 32) : Fin 2 → Nat :=
  let c0_i32_565 : BitVec 32 := 0#32
  ![v813.toNat, 0]

def k0_chk64 (v813 : BitVec 32) : Prop :=
  (∀ a, (k0_off64 v813) a + S1x128.size a ≤ S100000x128.size a)
instance k0_chk64.dec : ∀ (v813 : BitVec 32), Decidable (k0_chk64 v813) := fun v813 => decidable_of_iff' _ (Iff.of_eq (k0_chk64.eq_1 v813))
theorem k0_off64_inb : ∀ (v813 : BitVec 32) (k0_hw64 : k0_chk64 v813), ∀ a, (k0_off64 v813) a + S1x128.size a ≤ S100000x128.size a := fun v813 k0_hw64 => k0_hw64

def k0_off65 (v832 : BitVec 32) : Fin 2 → Nat :=
  let c0_i32_578 : BitVec 32 := 0#32
  ![v832.toNat, 0]

def k0_chk65 (v832 : BitVec 32) : Prop :=
  (∀ a, (k0_off65 v832) a + S1x128.size a ≤ S100000x128.size a)
instance k0_chk65.dec : ∀ (v832 : BitVec 32), Decidable (k0_chk65 v832) := fun v832 => decidable_of_iff' _ (Iff.of_eq (k0_chk65.eq_1 v832))
theorem k0_off65_inb : ∀ (v832 : BitVec 32) (k0_hw65 : k0_chk65 v832), ∀ a, (k0_off65 v832) a + S1x128.size a ≤ S100000x128.size a := fun v832 k0_hw65 => k0_hw65

def k0_off66 (v839 : BitVec 32) : Fin 2 → Nat :=
  let c0_i32_583 : BitVec 32 := 0#32
  ![v839.toNat, 0]

def k0_chk66 (v839 : BitVec 32) : Prop :=
  (∀ a, (k0_off66 v839) a + S1x128.size a ≤ S100000x128.size a)
instance k0_chk66.dec : ∀ (v839 : BitVec 32), Decidable (k0_chk66 v839) := fun v839 => decidable_of_iff' _ (Iff.of_eq (k0_chk66.eq_1 v839))
theorem k0_off66_inb : ∀ (v839 : BitVec 32) (k0_hw66 : k0_chk66 v839), ∀ a, (k0_off66 v839) a + S1x128.size a ≤ S100000x128.size a := fun v839 k0_hw66 => k0_hw66

def k0_off67 (v858 : BitVec 32) : Fin 2 → Nat :=
  let c0_i32_596 : BitVec 32 := 0#32
  ![v858.toNat, 0]

def k0_chk67 (v858 : BitVec 32) : Prop :=
  (∀ a, (k0_off67 v858) a + S1x128.size a ≤ S100000x128.size a)
instance k0_chk67.dec : ∀ (v858 : BitVec 32), Decidable (k0_chk67 v858) := fun v858 => decidable_of_iff' _ (Iff.of_eq (k0_chk67.eq_1 v858))
theorem k0_off67_inb : ∀ (v858 : BitVec 32) (k0_hw67 : k0_chk67 v858), ∀ a, (k0_off67 v858) a + S1x128.size a ≤ S100000x128.size a := fun v858 k0_hw67 => k0_hw67

def k0_off68 (v865 : BitVec 32) : Fin 2 → Nat :=
  let c0_i32_601 : BitVec 32 := 0#32
  ![v865.toNat, 0]

def k0_chk68 (v865 : BitVec 32) : Prop :=
  (∀ a, (k0_off68 v865) a + S1x128.size a ≤ S100000x128.size a)
instance k0_chk68.dec : ∀ (v865 : BitVec 32), Decidable (k0_chk68 v865) := fun v865 => decidable_of_iff' _ (Iff.of_eq (k0_chk68.eq_1 v865))
theorem k0_off68_inb : ∀ (v865 : BitVec 32) (k0_hw68 : k0_chk68 v865), ∀ a, (k0_off68 v865) a + S1x128.size a ≤ S100000x128.size a := fun v865 k0_hw68 => k0_hw68

def k0_off69 (v884 : BitVec 32) : Fin 2 → Nat :=
  let c0_i32_614 : BitVec 32 := 0#32
  ![v884.toNat, 0]

def k0_chk69 (v884 : BitVec 32) : Prop :=
  (∀ a, (k0_off69 v884) a + S1x128.size a ≤ S100000x128.size a)
instance k0_chk69.dec : ∀ (v884 : BitVec 32), Decidable (k0_chk69 v884) := fun v884 => decidable_of_iff' _ (Iff.of_eq (k0_chk69.eq_1 v884))
theorem k0_off69_inb : ∀ (v884 : BitVec 32) (k0_hw69 : k0_chk69 v884), ∀ a, (k0_off69 v884) a + S1x128.size a ≤ S100000x128.size a := fun v884 k0_hw69 => k0_hw69

def k0_off70 (v891 : BitVec 32) : Fin 2 → Nat :=
  let c0_i32_619 : BitVec 32 := 0#32
  ![v891.toNat, 0]

def k0_chk70 (v891 : BitVec 32) : Prop :=
  (∀ a, (k0_off70 v891) a + S1x128.size a ≤ S100000x128.size a)
instance k0_chk70.dec : ∀ (v891 : BitVec 32), Decidable (k0_chk70 v891) := fun v891 => decidable_of_iff' _ (Iff.of_eq (k0_chk70.eq_1 v891))
theorem k0_off70_inb : ∀ (v891 : BitVec 32) (k0_hw70 : k0_chk70 v891), ∀ a, (k0_off70 v891) a + S1x128.size a ≤ S100000x128.size a := fun v891 k0_hw70 => k0_hw70

def k0_off71 (v910 : BitVec 32) : Fin 2 → Nat :=
  let c0_i32_632 : BitVec 32 := 0#32
  ![v910.toNat, 0]

def k0_chk71 (v910 : BitVec 32) : Prop :=
  (∀ a, (k0_off71 v910) a + S1x128.size a ≤ S100000x128.size a)
instance k0_chk71.dec : ∀ (v910 : BitVec 32), Decidable (k0_chk71 v910) := fun v910 => decidable_of_iff' _ (Iff.of_eq (k0_chk71.eq_1 v910))
theorem k0_off71_inb : ∀ (v910 : BitVec 32) (k0_hw71 : k0_chk71 v910), ∀ a, (k0_off71 v910) a + S1x128.size a ≤ S100000x128.size a := fun v910 k0_hw71 => k0_hw71

def k0_off72 (v917 : BitVec 32) : Fin 2 → Nat :=
  let c0_i32_637 : BitVec 32 := 0#32
  ![v917.toNat, 0]

def k0_chk72 (v917 : BitVec 32) : Prop :=
  (∀ a, (k0_off72 v917) a + S1x128.size a ≤ S100000x128.size a)
instance k0_chk72.dec : ∀ (v917 : BitVec 32), Decidable (k0_chk72 v917) := fun v917 => decidable_of_iff' _ (Iff.of_eq (k0_chk72.eq_1 v917))
theorem k0_off72_inb : ∀ (v917 : BitVec 32) (k0_hw72 : k0_chk72 v917), ∀ a, (k0_off72 v917) a + S1x128.size a ≤ S100000x128.size a := fun v917 k0_hw72 => k0_hw72

def k0_off73 (v936 : BitVec 32) : Fin 2 → Nat :=
  let c0_i32_650 : BitVec 32 := 0#32
  ![v936.toNat, 0]

def k0_chk73 (v936 : BitVec 32) : Prop :=
  (∀ a, (k0_off73 v936) a + S1x128.size a ≤ S100000x128.size a)
instance k0_chk73.dec : ∀ (v936 : BitVec 32), Decidable (k0_chk73 v936) := fun v936 => decidable_of_iff' _ (Iff.of_eq (k0_chk73.eq_1 v936))
theorem k0_off73_inb : ∀ (v936 : BitVec 32) (k0_hw73 : k0_chk73 v936), ∀ a, (k0_off73 v936) a + S1x128.size a ≤ S100000x128.size a := fun v936 k0_hw73 => k0_hw73

def k0_off74 (v943 : BitVec 32) : Fin 2 → Nat :=
  let c0_i32_655 : BitVec 32 := 0#32
  ![v943.toNat, 0]

def k0_chk74 (v943 : BitVec 32) : Prop :=
  (∀ a, (k0_off74 v943) a + S1x128.size a ≤ S100000x128.size a)
instance k0_chk74.dec : ∀ (v943 : BitVec 32), Decidable (k0_chk74 v943) := fun v943 => decidable_of_iff' _ (Iff.of_eq (k0_chk74.eq_1 v943))
theorem k0_off74_inb : ∀ (v943 : BitVec 32) (k0_hw74 : k0_chk74 v943), ∀ a, (k0_off74 v943) a + S1x128.size a ≤ S100000x128.size a := fun v943 k0_hw74 => k0_hw74

def k0_off75 (v962 : BitVec 32) : Fin 2 → Nat :=
  let c0_i32_668 : BitVec 32 := 0#32
  ![v962.toNat, 0]

def k0_chk75 (v962 : BitVec 32) : Prop :=
  (∀ a, (k0_off75 v962) a + S1x128.size a ≤ S100000x128.size a)
instance k0_chk75.dec : ∀ (v962 : BitVec 32), Decidable (k0_chk75 v962) := fun v962 => decidable_of_iff' _ (Iff.of_eq (k0_chk75.eq_1 v962))
theorem k0_off75_inb : ∀ (v962 : BitVec 32) (k0_hw75 : k0_chk75 v962), ∀ a, (k0_off75 v962) a + S1x128.size a ≤ S100000x128.size a := fun v962 k0_hw75 => k0_hw75

def k0_off76 (v969 : BitVec 32) : Fin 2 → Nat :=
  let c0_i32_673 : BitVec 32 := 0#32
  ![v969.toNat, 0]

def k0_chk76 (v969 : BitVec 32) : Prop :=
  (∀ a, (k0_off76 v969) a + S1x128.size a ≤ S100000x128.size a)
instance k0_chk76.dec : ∀ (v969 : BitVec 32), Decidable (k0_chk76 v969) := fun v969 => decidable_of_iff' _ (Iff.of_eq (k0_chk76.eq_1 v969))
theorem k0_off76_inb : ∀ (v969 : BitVec 32) (k0_hw76 : k0_chk76 v969), ∀ a, (k0_off76 v969) a + S1x128.size a ≤ S100000x128.size a := fun v969 k0_hw76 => k0_hw76

def k0_off77 (v988 : BitVec 32) : Fin 2 → Nat :=
  let c0_i32_686 : BitVec 32 := 0#32
  ![v988.toNat, 0]

def k0_chk77 (v988 : BitVec 32) : Prop :=
  (∀ a, (k0_off77 v988) a + S1x128.size a ≤ S100000x128.size a)
instance k0_chk77.dec : ∀ (v988 : BitVec 32), Decidable (k0_chk77 v988) := fun v988 => decidable_of_iff' _ (Iff.of_eq (k0_chk77.eq_1 v988))
theorem k0_off77_inb : ∀ (v988 : BitVec 32) (k0_hw77 : k0_chk77 v988), ∀ a, (k0_off77 v988) a + S1x128.size a ≤ S100000x128.size a := fun v988 k0_hw77 => k0_hw77

def k0_off78 (v995 : BitVec 32) : Fin 2 → Nat :=
  let c0_i32_691 : BitVec 32 := 0#32
  ![v995.toNat, 0]

def k0_chk78 (v995 : BitVec 32) : Prop :=
  (∀ a, (k0_off78 v995) a + S1x128.size a ≤ S100000x128.size a)
instance k0_chk78.dec : ∀ (v995 : BitVec 32), Decidable (k0_chk78 v995) := fun v995 => decidable_of_iff' _ (Iff.of_eq (k0_chk78.eq_1 v995))
theorem k0_off78_inb : ∀ (v995 : BitVec 32) (k0_hw78 : k0_chk78 v995), ∀ a, (k0_off78 v995) a + S1x128.size a ≤ S100000x128.size a := fun v995 k0_hw78 => k0_hw78

def k0_off79 (v1014 : BitVec 32) : Fin 2 → Nat :=
  let c0_i32_704 : BitVec 32 := 0#32
  ![v1014.toNat, 0]

def k0_chk79 (v1014 : BitVec 32) : Prop :=
  (∀ a, (k0_off79 v1014) a + S1x128.size a ≤ S100000x128.size a)
instance k0_chk79.dec : ∀ (v1014 : BitVec 32), Decidable (k0_chk79 v1014) := fun v1014 => decidable_of_iff' _ (Iff.of_eq (k0_chk79.eq_1 v1014))
theorem k0_off79_inb : ∀ (v1014 : BitVec 32) (k0_hw79 : k0_chk79 v1014), ∀ a, (k0_off79 v1014) a + S1x128.size a ≤ S100000x128.size a := fun v1014 k0_hw79 => k0_hw79

def k0_off80 (v1021 : BitVec 32) : Fin 2 → Nat :=
  let c0_i32_709 : BitVec 32 := 0#32
  ![v1021.toNat, 0]

def k0_chk80 (v1021 : BitVec 32) : Prop :=
  (∀ a, (k0_off80 v1021) a + S1x128.size a ≤ S100000x128.size a)
instance k0_chk80.dec : ∀ (v1021 : BitVec 32), Decidable (k0_chk80 v1021) := fun v1021 => decidable_of_iff' _ (Iff.of_eq (k0_chk80.eq_1 v1021))
theorem k0_off80_inb : ∀ (v1021 : BitVec 32) (k0_hw80 : k0_chk80 v1021), ∀ a, (k0_off80 v1021) a + S1x128.size a ≤ S100000x128.size a := fun v1021 k0_hw80 => k0_hw80

def k0_off81 (v1040 : BitVec 32) : Fin 2 → Nat :=
  let c0_i32_722 : BitVec 32 := 0#32
  ![v1040.toNat, 0]

def k0_chk81 (v1040 : BitVec 32) : Prop :=
  (∀ a, (k0_off81 v1040) a + S1x128.size a ≤ S100000x128.size a)
instance k0_chk81.dec : ∀ (v1040 : BitVec 32), Decidable (k0_chk81 v1040) := fun v1040 => decidable_of_iff' _ (Iff.of_eq (k0_chk81.eq_1 v1040))
theorem k0_off81_inb : ∀ (v1040 : BitVec 32) (k0_hw81 : k0_chk81 v1040), ∀ a, (k0_off81 v1040) a + S1x128.size a ≤ S100000x128.size a := fun v1040 k0_hw81 => k0_hw81

def k0_off82 (v1047 : BitVec 32) : Fin 2 → Nat :=
  let c0_i32_727 : BitVec 32 := 0#32
  ![v1047.toNat, 0]

def k0_chk82 (v1047 : BitVec 32) : Prop :=
  (∀ a, (k0_off82 v1047) a + S1x128.size a ≤ S100000x128.size a)
instance k0_chk82.dec : ∀ (v1047 : BitVec 32), Decidable (k0_chk82 v1047) := fun v1047 => decidable_of_iff' _ (Iff.of_eq (k0_chk82.eq_1 v1047))
theorem k0_off82_inb : ∀ (v1047 : BitVec 32) (k0_hw82 : k0_chk82 v1047), ∀ a, (k0_off82 v1047) a + S1x128.size a ≤ S100000x128.size a := fun v1047 k0_hw82 => k0_hw82

def k0_off83 (v1066 : BitVec 32) : Fin 2 → Nat :=
  let c0_i32_740 : BitVec 32 := 0#32
  ![v1066.toNat, 0]

def k0_chk83 (v1066 : BitVec 32) : Prop :=
  (∀ a, (k0_off83 v1066) a + S1x128.size a ≤ S100000x128.size a)
instance k0_chk83.dec : ∀ (v1066 : BitVec 32), Decidable (k0_chk83 v1066) := fun v1066 => decidable_of_iff' _ (Iff.of_eq (k0_chk83.eq_1 v1066))
theorem k0_off83_inb : ∀ (v1066 : BitVec 32) (k0_hw83 : k0_chk83 v1066), ∀ a, (k0_off83 v1066) a + S1x128.size a ≤ S100000x128.size a := fun v1066 k0_hw83 => k0_hw83

def k0_off84 (v1073 : BitVec 32) : Fin 2 → Nat :=
  let c0_i32_745 : BitVec 32 := 0#32
  ![v1073.toNat, 0]

def k0_chk84 (v1073 : BitVec 32) : Prop :=
  (∀ a, (k0_off84 v1073) a + S1x128.size a ≤ S100000x128.size a)
instance k0_chk84.dec : ∀ (v1073 : BitVec 32), Decidable (k0_chk84 v1073) := fun v1073 => decidable_of_iff' _ (Iff.of_eq (k0_chk84.eq_1 v1073))
theorem k0_off84_inb : ∀ (v1073 : BitVec 32) (k0_hw84 : k0_chk84 v1073), ∀ a, (k0_off84 v1073) a + S1x128.size a ≤ S100000x128.size a := fun v1073 k0_hw84 => k0_hw84

def k0_off85 (v1092 : BitVec 32) : Fin 2 → Nat :=
  let c0_i32_758 : BitVec 32 := 0#32
  ![v1092.toNat, 0]

def k0_chk85 (v1092 : BitVec 32) : Prop :=
  (∀ a, (k0_off85 v1092) a + S1x128.size a ≤ S100000x128.size a)
instance k0_chk85.dec : ∀ (v1092 : BitVec 32), Decidable (k0_chk85 v1092) := fun v1092 => decidable_of_iff' _ (Iff.of_eq (k0_chk85.eq_1 v1092))
theorem k0_off85_inb : ∀ (v1092 : BitVec 32) (k0_hw85 : k0_chk85 v1092), ∀ a, (k0_off85 v1092) a + S1x128.size a ≤ S100000x128.size a := fun v1092 k0_hw85 => k0_hw85

def k0_off86 (v1099 : BitVec 32) : Fin 2 → Nat :=
  let c0_i32_763 : BitVec 32 := 0#32
  ![v1099.toNat, 0]

def k0_chk86 (v1099 : BitVec 32) : Prop :=
  (∀ a, (k0_off86 v1099) a + S1x128.size a ≤ S100000x128.size a)
instance k0_chk86.dec : ∀ (v1099 : BitVec 32), Decidable (k0_chk86 v1099) := fun v1099 => decidable_of_iff' _ (Iff.of_eq (k0_chk86.eq_1 v1099))
theorem k0_off86_inb : ∀ (v1099 : BitVec 32) (k0_hw86 : k0_chk86 v1099), ∀ a, (k0_off86 v1099) a + S1x128.size a ≤ S100000x128.size a := fun v1099 k0_hw86 => k0_hw86

def k0_off87 (v1118 : BitVec 32) : Fin 2 → Nat :=
  let c0_i32_776 : BitVec 32 := 0#32
  ![v1118.toNat, 0]

def k0_chk87 (v1118 : BitVec 32) : Prop :=
  (∀ a, (k0_off87 v1118) a + S1x128.size a ≤ S100000x128.size a)
instance k0_chk87.dec : ∀ (v1118 : BitVec 32), Decidable (k0_chk87 v1118) := fun v1118 => decidable_of_iff' _ (Iff.of_eq (k0_chk87.eq_1 v1118))
theorem k0_off87_inb : ∀ (v1118 : BitVec 32) (k0_hw87 : k0_chk87 v1118), ∀ a, (k0_off87 v1118) a + S1x128.size a ≤ S100000x128.size a := fun v1118 k0_hw87 => k0_hw87

def k0_off88 (v1125 : BitVec 32) : Fin 2 → Nat :=
  let c0_i32_781 : BitVec 32 := 0#32
  ![v1125.toNat, 0]

def k0_chk88 (v1125 : BitVec 32) : Prop :=
  (∀ a, (k0_off88 v1125) a + S1x128.size a ≤ S100000x128.size a)
instance k0_chk88.dec : ∀ (v1125 : BitVec 32), Decidable (k0_chk88 v1125) := fun v1125 => decidable_of_iff' _ (Iff.of_eq (k0_chk88.eq_1 v1125))
theorem k0_off88_inb : ∀ (v1125 : BitVec 32) (k0_hw88 : k0_chk88 v1125), ∀ a, (k0_off88 v1125) a + S1x128.size a ≤ S100000x128.size a := fun v1125 k0_hw88 => k0_hw88

def k0_off89 (v1144 : BitVec 32) : Fin 2 → Nat :=
  let c0_i32_794 : BitVec 32 := 0#32
  ![v1144.toNat, 0]

def k0_chk89 (v1144 : BitVec 32) : Prop :=
  (∀ a, (k0_off89 v1144) a + S1x128.size a ≤ S100000x128.size a)
instance k0_chk89.dec : ∀ (v1144 : BitVec 32), Decidable (k0_chk89 v1144) := fun v1144 => decidable_of_iff' _ (Iff.of_eq (k0_chk89.eq_1 v1144))
theorem k0_off89_inb : ∀ (v1144 : BitVec 32) (k0_hw89 : k0_chk89 v1144), ∀ a, (k0_off89 v1144) a + S1x128.size a ≤ S100000x128.size a := fun v1144 k0_hw89 => k0_hw89

def k0_off90 (v1151 : BitVec 32) : Fin 2 → Nat :=
  let c0_i32_799 : BitVec 32 := 0#32
  ![v1151.toNat, 0]

def k0_chk90 (v1151 : BitVec 32) : Prop :=
  (∀ a, (k0_off90 v1151) a + S1x128.size a ≤ S100000x128.size a)
instance k0_chk90.dec : ∀ (v1151 : BitVec 32), Decidable (k0_chk90 v1151) := fun v1151 => decidable_of_iff' _ (Iff.of_eq (k0_chk90.eq_1 v1151))
theorem k0_off90_inb : ∀ (v1151 : BitVec 32) (k0_hw90 : k0_chk90 v1151), ∀ a, (k0_off90 v1151) a + S1x128.size a ≤ S100000x128.size a := fun v1151 k0_hw90 => k0_hw90

def k0_off91 (v1170 : BitVec 32) : Fin 2 → Nat :=
  let c0_i32_812 : BitVec 32 := 0#32
  ![v1170.toNat, 0]

def k0_chk91 (v1170 : BitVec 32) : Prop :=
  (∀ a, (k0_off91 v1170) a + S1x128.size a ≤ S100000x128.size a)
instance k0_chk91.dec : ∀ (v1170 : BitVec 32), Decidable (k0_chk91 v1170) := fun v1170 => decidable_of_iff' _ (Iff.of_eq (k0_chk91.eq_1 v1170))
theorem k0_off91_inb : ∀ (v1170 : BitVec 32) (k0_hw91 : k0_chk91 v1170), ∀ a, (k0_off91 v1170) a + S1x128.size a ≤ S100000x128.size a := fun v1170 k0_hw91 => k0_hw91

def k0_off92 (v1177 : BitVec 32) : Fin 2 → Nat :=
  let c0_i32_817 : BitVec 32 := 0#32
  ![v1177.toNat, 0]

def k0_chk92 (v1177 : BitVec 32) : Prop :=
  (∀ a, (k0_off92 v1177) a + S1x128.size a ≤ S100000x128.size a)
instance k0_chk92.dec : ∀ (v1177 : BitVec 32), Decidable (k0_chk92 v1177) := fun v1177 => decidable_of_iff' _ (Iff.of_eq (k0_chk92.eq_1 v1177))
theorem k0_off92_inb : ∀ (v1177 : BitVec 32) (k0_hw92 : k0_chk92 v1177), ∀ a, (k0_off92 v1177) a + S1x128.size a ≤ S100000x128.size a := fun v1177 k0_hw92 => k0_hw92

def k0_off93 (v1196 : BitVec 32) : Fin 2 → Nat :=
  let c0_i32_830 : BitVec 32 := 0#32
  ![v1196.toNat, 0]

def k0_chk93 (v1196 : BitVec 32) : Prop :=
  (∀ a, (k0_off93 v1196) a + S1x128.size a ≤ S100000x128.size a)
instance k0_chk93.dec : ∀ (v1196 : BitVec 32), Decidable (k0_chk93 v1196) := fun v1196 => decidable_of_iff' _ (Iff.of_eq (k0_chk93.eq_1 v1196))
theorem k0_off93_inb : ∀ (v1196 : BitVec 32) (k0_hw93 : k0_chk93 v1196), ∀ a, (k0_off93 v1196) a + S1x128.size a ≤ S100000x128.size a := fun v1196 k0_hw93 => k0_hw93

def k0_off94 (v1203 : BitVec 32) : Fin 2 → Nat :=
  let c0_i32_835 : BitVec 32 := 0#32
  ![v1203.toNat, 0]

def k0_chk94 (v1203 : BitVec 32) : Prop :=
  (∀ a, (k0_off94 v1203) a + S1x128.size a ≤ S100000x128.size a)
instance k0_chk94.dec : ∀ (v1203 : BitVec 32), Decidable (k0_chk94 v1203) := fun v1203 => decidable_of_iff' _ (Iff.of_eq (k0_chk94.eq_1 v1203))
theorem k0_off94_inb : ∀ (v1203 : BitVec 32) (k0_hw94 : k0_chk94 v1203), ∀ a, (k0_off94 v1203) a + S1x128.size a ≤ S100000x128.size a := fun v1203 k0_hw94 => k0_hw94

def k0_off95 (v1222 : BitVec 32) : Fin 2 → Nat :=
  let c0_i32_848 : BitVec 32 := 0#32
  ![v1222.toNat, 0]

def k0_chk95 (v1222 : BitVec 32) : Prop :=
  (∀ a, (k0_off95 v1222) a + S1x128.size a ≤ S100000x128.size a)
instance k0_chk95.dec : ∀ (v1222 : BitVec 32), Decidable (k0_chk95 v1222) := fun v1222 => decidable_of_iff' _ (Iff.of_eq (k0_chk95.eq_1 v1222))
theorem k0_off95_inb : ∀ (v1222 : BitVec 32) (k0_hw95 : k0_chk95 v1222), ∀ a, (k0_off95 v1222) a + S1x128.size a ≤ S100000x128.size a := fun v1222 k0_hw95 => k0_hw95

def k0_off96 (v1229 : BitVec 32) : Fin 2 → Nat :=
  let c0_i32_853 : BitVec 32 := 0#32
  ![v1229.toNat, 0]

def k0_chk96 (v1229 : BitVec 32) : Prop :=
  (∀ a, (k0_off96 v1229) a + S1x128.size a ≤ S100000x128.size a)
instance k0_chk96.dec : ∀ (v1229 : BitVec 32), Decidable (k0_chk96 v1229) := fun v1229 => decidable_of_iff' _ (Iff.of_eq (k0_chk96.eq_1 v1229))
theorem k0_off96_inb : ∀ (v1229 : BitVec 32) (k0_hw96 : k0_chk96 v1229), ∀ a, (k0_off96 v1229) a + S1x128.size a ≤ S100000x128.size a := fun v1229 k0_hw96 => k0_hw96

def k0_off97 (v1248 : BitVec 32) : Fin 2 → Nat :=
  let c0_i32_866 : BitVec 32 := 0#32
  ![v1248.toNat, 0]

def k0_chk97 (v1248 : BitVec 32) : Prop :=
  (∀ a, (k0_off97 v1248) a + S1x128.size a ≤ S100000x128.size a)
instance k0_chk97.dec : ∀ (v1248 : BitVec 32), Decidable (k0_chk97 v1248) := fun v1248 => decidable_of_iff' _ (Iff.of_eq (k0_chk97.eq_1 v1248))
theorem k0_off97_inb : ∀ (v1248 : BitVec 32) (k0_hw97 : k0_chk97 v1248), ∀ a, (k0_off97 v1248) a + S1x128.size a ≤ S100000x128.size a := fun v1248 k0_hw97 => k0_hw97

def k0_off98 (v1255 : BitVec 32) : Fin 2 → Nat :=
  let c0_i32_871 : BitVec 32 := 0#32
  ![v1255.toNat, 0]

def k0_chk98 (v1255 : BitVec 32) : Prop :=
  (∀ a, (k0_off98 v1255) a + S1x128.size a ≤ S100000x128.size a)
instance k0_chk98.dec : ∀ (v1255 : BitVec 32), Decidable (k0_chk98 v1255) := fun v1255 => decidable_of_iff' _ (Iff.of_eq (k0_chk98.eq_1 v1255))
theorem k0_off98_inb : ∀ (v1255 : BitVec 32) (k0_hw98 : k0_chk98 v1255), ∀ a, (k0_off98 v1255) a + S1x128.size a ≤ S100000x128.size a := fun v1255 k0_hw98 => k0_hw98

def k0_off99 (v1274 : BitVec 32) : Fin 2 → Nat :=
  let c0_i32_884 : BitVec 32 := 0#32
  ![v1274.toNat, 0]

def k0_chk99 (v1274 : BitVec 32) : Prop :=
  (∀ a, (k0_off99 v1274) a + S1x128.size a ≤ S100000x128.size a)
instance k0_chk99.dec : ∀ (v1274 : BitVec 32), Decidable (k0_chk99 v1274) := fun v1274 => decidable_of_iff' _ (Iff.of_eq (k0_chk99.eq_1 v1274))
theorem k0_off99_inb : ∀ (v1274 : BitVec 32) (k0_hw99 : k0_chk99 v1274), ∀ a, (k0_off99 v1274) a + S1x128.size a ≤ S100000x128.size a := fun v1274 k0_hw99 => k0_hw99

def k0_off100 (v1281 : BitVec 32) : Fin 2 → Nat :=
  let c0_i32_889 : BitVec 32 := 0#32
  ![v1281.toNat, 0]

def k0_chk100 (v1281 : BitVec 32) : Prop :=
  (∀ a, (k0_off100 v1281) a + S1x128.size a ≤ S100000x128.size a)
instance k0_chk100.dec : ∀ (v1281 : BitVec 32), Decidable (k0_chk100 v1281) := fun v1281 => decidable_of_iff' _ (Iff.of_eq (k0_chk100.eq_1 v1281))
theorem k0_off100_inb : ∀ (v1281 : BitVec 32) (k0_hw100 : k0_chk100 v1281), ∀ a, (k0_off100 v1281) a + S1x128.size a ≤ S100000x128.size a := fun v1281 k0_hw100 => k0_hw100

def k0_off101 (v1300 : BitVec 32) : Fin 2 → Nat :=
  let c0_i32_902 : BitVec 32 := 0#32
  ![v1300.toNat, 0]

def k0_chk101 (v1300 : BitVec 32) : Prop :=
  (∀ a, (k0_off101 v1300) a + S1x128.size a ≤ S100000x128.size a)
instance k0_chk101.dec : ∀ (v1300 : BitVec 32), Decidable (k0_chk101 v1300) := fun v1300 => decidable_of_iff' _ (Iff.of_eq (k0_chk101.eq_1 v1300))
theorem k0_off101_inb : ∀ (v1300 : BitVec 32) (k0_hw101 : k0_chk101 v1300), ∀ a, (k0_off101 v1300) a + S1x128.size a ≤ S100000x128.size a := fun v1300 k0_hw101 => k0_hw101

def k0_off102 (v1307 : BitVec 32) : Fin 2 → Nat :=
  let c0_i32_907 : BitVec 32 := 0#32
  ![v1307.toNat, 0]

def k0_chk102 (v1307 : BitVec 32) : Prop :=
  (∀ a, (k0_off102 v1307) a + S1x128.size a ≤ S100000x128.size a)
instance k0_chk102.dec : ∀ (v1307 : BitVec 32), Decidable (k0_chk102 v1307) := fun v1307 => decidable_of_iff' _ (Iff.of_eq (k0_chk102.eq_1 v1307))
theorem k0_off102_inb : ∀ (v1307 : BitVec 32) (k0_hw102 : k0_chk102 v1307), ∀ a, (k0_off102 v1307) a + S1x128.size a ≤ S100000x128.size a := fun v1307 k0_hw102 => k0_hw102

def k0_off103 (v1326 : BitVec 32) : Fin 2 → Nat :=
  let c0_i32_920 : BitVec 32 := 0#32
  ![v1326.toNat, 0]

def k0_chk103 (v1326 : BitVec 32) : Prop :=
  (∀ a, (k0_off103 v1326) a + S1x128.size a ≤ S100000x128.size a)
instance k0_chk103.dec : ∀ (v1326 : BitVec 32), Decidable (k0_chk103 v1326) := fun v1326 => decidable_of_iff' _ (Iff.of_eq (k0_chk103.eq_1 v1326))
theorem k0_off103_inb : ∀ (v1326 : BitVec 32) (k0_hw103 : k0_chk103 v1326), ∀ a, (k0_off103 v1326) a + S1x128.size a ≤ S100000x128.size a := fun v1326 k0_hw103 => k0_hw103

def k0_off104 (v1333 : BitVec 32) : Fin 2 → Nat :=
  let c0_i32_925 : BitVec 32 := 0#32
  ![v1333.toNat, 0]

def k0_chk104 (v1333 : BitVec 32) : Prop :=
  (∀ a, (k0_off104 v1333) a + S1x128.size a ≤ S100000x128.size a)
instance k0_chk104.dec : ∀ (v1333 : BitVec 32), Decidable (k0_chk104 v1333) := fun v1333 => decidable_of_iff' _ (Iff.of_eq (k0_chk104.eq_1 v1333))
theorem k0_off104_inb : ∀ (v1333 : BitVec 32) (k0_hw104 : k0_chk104 v1333), ∀ a, (k0_off104 v1333) a + S1x128.size a ≤ S100000x128.size a := fun v1333 k0_hw104 => k0_hw104

def k0_off105 (v1352 : BitVec 32) : Fin 2 → Nat :=
  let c0_i32_938 : BitVec 32 := 0#32
  ![v1352.toNat, 0]

def k0_chk105 (v1352 : BitVec 32) : Prop :=
  (∀ a, (k0_off105 v1352) a + S1x128.size a ≤ S100000x128.size a)
instance k0_chk105.dec : ∀ (v1352 : BitVec 32), Decidable (k0_chk105 v1352) := fun v1352 => decidable_of_iff' _ (Iff.of_eq (k0_chk105.eq_1 v1352))
theorem k0_off105_inb : ∀ (v1352 : BitVec 32) (k0_hw105 : k0_chk105 v1352), ∀ a, (k0_off105 v1352) a + S1x128.size a ≤ S100000x128.size a := fun v1352 k0_hw105 => k0_hw105

def k0_off106 (v1359 : BitVec 32) : Fin 2 → Nat :=
  let c0_i32_943 : BitVec 32 := 0#32
  ![v1359.toNat, 0]

def k0_chk106 (v1359 : BitVec 32) : Prop :=
  (∀ a, (k0_off106 v1359) a + S1x128.size a ≤ S100000x128.size a)
instance k0_chk106.dec : ∀ (v1359 : BitVec 32), Decidable (k0_chk106 v1359) := fun v1359 => decidable_of_iff' _ (Iff.of_eq (k0_chk106.eq_1 v1359))
theorem k0_off106_inb : ∀ (v1359 : BitVec 32) (k0_hw106 : k0_chk106 v1359), ∀ a, (k0_off106 v1359) a + S1x128.size a ≤ S100000x128.size a := fun v1359 k0_hw106 => k0_hw106

def k0_off107 (v1378 : BitVec 32) : Fin 2 → Nat :=
  let c0_i32_956 : BitVec 32 := 0#32
  ![v1378.toNat, 0]

def k0_chk107 (v1378 : BitVec 32) : Prop :=
  (∀ a, (k0_off107 v1378) a + S1x128.size a ≤ S100000x128.size a)
instance k0_chk107.dec : ∀ (v1378 : BitVec 32), Decidable (k0_chk107 v1378) := fun v1378 => decidable_of_iff' _ (Iff.of_eq (k0_chk107.eq_1 v1378))
theorem k0_off107_inb : ∀ (v1378 : BitVec 32) (k0_hw107 : k0_chk107 v1378), ∀ a, (k0_off107 v1378) a + S1x128.size a ≤ S100000x128.size a := fun v1378 k0_hw107 => k0_hw107

def k0_off108 (v1385 : BitVec 32) : Fin 2 → Nat :=
  let c0_i32_961 : BitVec 32 := 0#32
  ![v1385.toNat, 0]

def k0_chk108 (v1385 : BitVec 32) : Prop :=
  (∀ a, (k0_off108 v1385) a + S1x128.size a ≤ S100000x128.size a)
instance k0_chk108.dec : ∀ (v1385 : BitVec 32), Decidable (k0_chk108 v1385) := fun v1385 => decidable_of_iff' _ (Iff.of_eq (k0_chk108.eq_1 v1385))
theorem k0_off108_inb : ∀ (v1385 : BitVec 32) (k0_hw108 : k0_chk108 v1385), ∀ a, (k0_off108 v1385) a + S1x128.size a ≤ S100000x128.size a := fun v1385 k0_hw108 => k0_hw108

def k0_off109 (v1404 : BitVec 32) : Fin 2 → Nat :=
  let c0_i32_974 : BitVec 32 := 0#32
  ![v1404.toNat, 0]

def k0_chk109 (v1404 : BitVec 32) : Prop :=
  (∀ a, (k0_off109 v1404) a + S1x128.size a ≤ S100000x128.size a)
instance k0_chk109.dec : ∀ (v1404 : BitVec 32), Decidable (k0_chk109 v1404) := fun v1404 => decidable_of_iff' _ (Iff.of_eq (k0_chk109.eq_1 v1404))
theorem k0_off109_inb : ∀ (v1404 : BitVec 32) (k0_hw109 : k0_chk109 v1404), ∀ a, (k0_off109 v1404) a + S1x128.size a ≤ S100000x128.size a := fun v1404 k0_hw109 => k0_hw109

def k0_off110 (v1411 : BitVec 32) : Fin 2 → Nat :=
  let c0_i32_979 : BitVec 32 := 0#32
  ![v1411.toNat, 0]

def k0_chk110 (v1411 : BitVec 32) : Prop :=
  (∀ a, (k0_off110 v1411) a + S1x128.size a ≤ S100000x128.size a)
instance k0_chk110.dec : ∀ (v1411 : BitVec 32), Decidable (k0_chk110 v1411) := fun v1411 => decidable_of_iff' _ (Iff.of_eq (k0_chk110.eq_1 v1411))
theorem k0_off110_inb : ∀ (v1411 : BitVec 32) (k0_hw110 : k0_chk110 v1411), ∀ a, (k0_off110 v1411) a + S1x128.size a ≤ S100000x128.size a := fun v1411 k0_hw110 => k0_hw110

def k0_off111 (v1430 : BitVec 32) : Fin 2 → Nat :=
  let c0_i32_992 : BitVec 32 := 0#32
  ![v1430.toNat, 0]

def k0_chk111 (v1430 : BitVec 32) : Prop :=
  (∀ a, (k0_off111 v1430) a + S1x128.size a ≤ S100000x128.size a)
instance k0_chk111.dec : ∀ (v1430 : BitVec 32), Decidable (k0_chk111 v1430) := fun v1430 => decidable_of_iff' _ (Iff.of_eq (k0_chk111.eq_1 v1430))
theorem k0_off111_inb : ∀ (v1430 : BitVec 32) (k0_hw111 : k0_chk111 v1430), ∀ a, (k0_off111 v1430) a + S1x128.size a ≤ S100000x128.size a := fun v1430 k0_hw111 => k0_hw111

def k0_off112 (v1437 : BitVec 32) : Fin 2 → Nat :=
  let c0_i32_997 : BitVec 32 := 0#32
  ![v1437.toNat, 0]

def k0_chk112 (v1437 : BitVec 32) : Prop :=
  (∀ a, (k0_off112 v1437) a + S1x128.size a ≤ S100000x128.size a)
instance k0_chk112.dec : ∀ (v1437 : BitVec 32), Decidable (k0_chk112 v1437) := fun v1437 => decidable_of_iff' _ (Iff.of_eq (k0_chk112.eq_1 v1437))
theorem k0_off112_inb : ∀ (v1437 : BitVec 32) (k0_hw112 : k0_chk112 v1437), ∀ a, (k0_off112 v1437) a + S1x128.size a ≤ S100000x128.size a := fun v1437 k0_hw112 => k0_hw112

def k0_off113 (v1456 : BitVec 32) : Fin 2 → Nat :=
  let c0_i32_1010 : BitVec 32 := 0#32
  ![v1456.toNat, 0]

def k0_chk113 (v1456 : BitVec 32) : Prop :=
  (∀ a, (k0_off113 v1456) a + S1x128.size a ≤ S100000x128.size a)
instance k0_chk113.dec : ∀ (v1456 : BitVec 32), Decidable (k0_chk113 v1456) := fun v1456 => decidable_of_iff' _ (Iff.of_eq (k0_chk113.eq_1 v1456))
theorem k0_off113_inb : ∀ (v1456 : BitVec 32) (k0_hw113 : k0_chk113 v1456), ∀ a, (k0_off113 v1456) a + S1x128.size a ≤ S100000x128.size a := fun v1456 k0_hw113 => k0_hw113

def k0_off114 (v1463 : BitVec 32) : Fin 2 → Nat :=
  let c0_i32_1015 : BitVec 32 := 0#32
  ![v1463.toNat, 0]

def k0_chk114 (v1463 : BitVec 32) : Prop :=
  (∀ a, (k0_off114 v1463) a + S1x128.size a ≤ S100000x128.size a)
instance k0_chk114.dec : ∀ (v1463 : BitVec 32), Decidable (k0_chk114 v1463) := fun v1463 => decidable_of_iff' _ (Iff.of_eq (k0_chk114.eq_1 v1463))
theorem k0_off114_inb : ∀ (v1463 : BitVec 32) (k0_hw114 : k0_chk114 v1463), ∀ a, (k0_off114 v1463) a + S1x128.size a ≤ S100000x128.size a := fun v1463 k0_hw114 => k0_hw114

def k0_off115 (v1482 : BitVec 32) : Fin 2 → Nat :=
  let c0_i32_1028 : BitVec 32 := 0#32
  ![v1482.toNat, 0]

def k0_chk115 (v1482 : BitVec 32) : Prop :=
  (∀ a, (k0_off115 v1482) a + S1x128.size a ≤ S100000x128.size a)
instance k0_chk115.dec : ∀ (v1482 : BitVec 32), Decidable (k0_chk115 v1482) := fun v1482 => decidable_of_iff' _ (Iff.of_eq (k0_chk115.eq_1 v1482))
theorem k0_off115_inb : ∀ (v1482 : BitVec 32) (k0_hw115 : k0_chk115 v1482), ∀ a, (k0_off115 v1482) a + S1x128.size a ≤ S100000x128.size a := fun v1482 k0_hw115 => k0_hw115

def k0_off116 (v1489 : BitVec 32) : Fin 2 → Nat :=
  let c0_i32_1033 : BitVec 32 := 0#32
  ![v1489.toNat, 0]

def k0_chk116 (v1489 : BitVec 32) : Prop :=
  (∀ a, (k0_off116 v1489) a + S1x128.size a ≤ S100000x128.size a)
instance k0_chk116.dec : ∀ (v1489 : BitVec 32), Decidable (k0_chk116 v1489) := fun v1489 => decidable_of_iff' _ (Iff.of_eq (k0_chk116.eq_1 v1489))
theorem k0_off116_inb : ∀ (v1489 : BitVec 32) (k0_hw116 : k0_chk116 v1489), ∀ a, (k0_off116 v1489) a + S1x128.size a ≤ S100000x128.size a := fun v1489 k0_hw116 => k0_hw116

def k0_off117 (v1508 : BitVec 32) : Fin 2 → Nat :=
  let c0_i32_1046 : BitVec 32 := 0#32
  ![v1508.toNat, 0]

def k0_chk117 (v1508 : BitVec 32) : Prop :=
  (∀ a, (k0_off117 v1508) a + S1x128.size a ≤ S100000x128.size a)
instance k0_chk117.dec : ∀ (v1508 : BitVec 32), Decidable (k0_chk117 v1508) := fun v1508 => decidable_of_iff' _ (Iff.of_eq (k0_chk117.eq_1 v1508))
theorem k0_off117_inb : ∀ (v1508 : BitVec 32) (k0_hw117 : k0_chk117 v1508), ∀ a, (k0_off117 v1508) a + S1x128.size a ≤ S100000x128.size a := fun v1508 k0_hw117 => k0_hw117

def k0_off118 (v1515 : BitVec 32) : Fin 2 → Nat :=
  let c0_i32_1051 : BitVec 32 := 0#32
  ![v1515.toNat, 0]

def k0_chk118 (v1515 : BitVec 32) : Prop :=
  (∀ a, (k0_off118 v1515) a + S1x128.size a ≤ S100000x128.size a)
instance k0_chk118.dec : ∀ (v1515 : BitVec 32), Decidable (k0_chk118 v1515) := fun v1515 => decidable_of_iff' _ (Iff.of_eq (k0_chk118.eq_1 v1515))
theorem k0_off118_inb : ∀ (v1515 : BitVec 32) (k0_hw118 : k0_chk118 v1515), ∀ a, (k0_off118 v1515) a + S1x128.size a ≤ S100000x128.size a := fun v1515 k0_hw118 => k0_hw118

def k0_off119 (v1534 : BitVec 32) : Fin 2 → Nat :=
  let c0_i32_1064 : BitVec 32 := 0#32
  ![v1534.toNat, 0]

def k0_chk119 (v1534 : BitVec 32) : Prop :=
  (∀ a, (k0_off119 v1534) a + S1x128.size a ≤ S100000x128.size a)
instance k0_chk119.dec : ∀ (v1534 : BitVec 32), Decidable (k0_chk119 v1534) := fun v1534 => decidable_of_iff' _ (Iff.of_eq (k0_chk119.eq_1 v1534))
theorem k0_off119_inb : ∀ (v1534 : BitVec 32) (k0_hw119 : k0_chk119 v1534), ∀ a, (k0_off119 v1534) a + S1x128.size a ≤ S100000x128.size a := fun v1534 k0_hw119 => k0_hw119

def k0_off120 (v1541 : BitVec 32) : Fin 2 → Nat :=
  let c0_i32_1069 : BitVec 32 := 0#32
  ![v1541.toNat, 0]

def k0_chk120 (v1541 : BitVec 32) : Prop :=
  (∀ a, (k0_off120 v1541) a + S1x128.size a ≤ S100000x128.size a)
instance k0_chk120.dec : ∀ (v1541 : BitVec 32), Decidable (k0_chk120 v1541) := fun v1541 => decidable_of_iff' _ (Iff.of_eq (k0_chk120.eq_1 v1541))
theorem k0_off120_inb : ∀ (v1541 : BitVec 32) (k0_hw120 : k0_chk120 v1541), ∀ a, (k0_off120 v1541) a + S1x128.size a ≤ S100000x128.size a := fun v1541 k0_hw120 => k0_hw120

def k0_off121 (v1560 : BitVec 32) : Fin 2 → Nat :=
  let c0_i32_1082 : BitVec 32 := 0#32
  ![v1560.toNat, 0]

def k0_chk121 (v1560 : BitVec 32) : Prop :=
  (∀ a, (k0_off121 v1560) a + S1x128.size a ≤ S100000x128.size a)
instance k0_chk121.dec : ∀ (v1560 : BitVec 32), Decidable (k0_chk121 v1560) := fun v1560 => decidable_of_iff' _ (Iff.of_eq (k0_chk121.eq_1 v1560))
theorem k0_off121_inb : ∀ (v1560 : BitVec 32) (k0_hw121 : k0_chk121 v1560), ∀ a, (k0_off121 v1560) a + S1x128.size a ≤ S100000x128.size a := fun v1560 k0_hw121 => k0_hw121

def k0_off122 (v1567 : BitVec 32) : Fin 2 → Nat :=
  let c0_i32_1087 : BitVec 32 := 0#32
  ![v1567.toNat, 0]

def k0_chk122 (v1567 : BitVec 32) : Prop :=
  (∀ a, (k0_off122 v1567) a + S1x128.size a ≤ S100000x128.size a)
instance k0_chk122.dec : ∀ (v1567 : BitVec 32), Decidable (k0_chk122 v1567) := fun v1567 => decidable_of_iff' _ (Iff.of_eq (k0_chk122.eq_1 v1567))
theorem k0_off122_inb : ∀ (v1567 : BitVec 32) (k0_hw122 : k0_chk122 v1567), ∀ a, (k0_off122 v1567) a + S1x128.size a ≤ S100000x128.size a := fun v1567 k0_hw122 => k0_hw122

def k0_off123 (v1586 : BitVec 32) : Fin 2 → Nat :=
  let c0_i32_1100 : BitVec 32 := 0#32
  ![v1586.toNat, 0]

def k0_chk123 (v1586 : BitVec 32) : Prop :=
  (∀ a, (k0_off123 v1586) a + S1x128.size a ≤ S100000x128.size a)
instance k0_chk123.dec : ∀ (v1586 : BitVec 32), Decidable (k0_chk123 v1586) := fun v1586 => decidable_of_iff' _ (Iff.of_eq (k0_chk123.eq_1 v1586))
theorem k0_off123_inb : ∀ (v1586 : BitVec 32) (k0_hw123 : k0_chk123 v1586), ∀ a, (k0_off123 v1586) a + S1x128.size a ≤ S100000x128.size a := fun v1586 k0_hw123 => k0_hw123

def k0_off124 (v1593 : BitVec 32) : Fin 2 → Nat :=
  let c0_i32_1105 : BitVec 32 := 0#32
  ![v1593.toNat, 0]

def k0_chk124 (v1593 : BitVec 32) : Prop :=
  (∀ a, (k0_off124 v1593) a + S1x128.size a ≤ S100000x128.size a)
instance k0_chk124.dec : ∀ (v1593 : BitVec 32), Decidable (k0_chk124 v1593) := fun v1593 => decidable_of_iff' _ (Iff.of_eq (k0_chk124.eq_1 v1593))
theorem k0_off124_inb : ∀ (v1593 : BitVec 32) (k0_hw124 : k0_chk124 v1593), ∀ a, (k0_off124 v1593) a + S1x128.size a ≤ S100000x128.size a := fun v1593 k0_hw124 => k0_hw124

def k0_off125 (v1612 : BitVec 32) : Fin 2 → Nat :=
  let c0_i32_1118 : BitVec 32 := 0#32
  ![v1612.toNat, 0]

def k0_chk125 (v1612 : BitVec 32) : Prop :=
  (∀ a, (k0_off125 v1612) a + S1x128.size a ≤ S100000x128.size a)
instance k0_chk125.dec : ∀ (v1612 : BitVec 32), Decidable (k0_chk125 v1612) := fun v1612 => decidable_of_iff' _ (Iff.of_eq (k0_chk125.eq_1 v1612))
theorem k0_off125_inb : ∀ (v1612 : BitVec 32) (k0_hw125 : k0_chk125 v1612), ∀ a, (k0_off125 v1612) a + S1x128.size a ≤ S100000x128.size a := fun v1612 k0_hw125 => k0_hw125

def k0_off126 (v1619 : BitVec 32) : Fin 2 → Nat :=
  let c0_i32_1123 : BitVec 32 := 0#32
  ![v1619.toNat, 0]

def k0_chk126 (v1619 : BitVec 32) : Prop :=
  (∀ a, (k0_off126 v1619) a + S1x128.size a ≤ S100000x128.size a)
instance k0_chk126.dec : ∀ (v1619 : BitVec 32), Decidable (k0_chk126 v1619) := fun v1619 => decidable_of_iff' _ (Iff.of_eq (k0_chk126.eq_1 v1619))
theorem k0_off126_inb : ∀ (v1619 : BitVec 32) (k0_hw126 : k0_chk126 v1619), ∀ a, (k0_off126 v1619) a + S1x128.size a ≤ S100000x128.size a := fun v1619 k0_hw126 => k0_hw126

def k0_off127 (v1638 : BitVec 32) : Fin 2 → Nat :=
  let c0_i32_1136 : BitVec 32 := 0#32
  ![v1638.toNat, 0]

def k0_chk127 (v1638 : BitVec 32) : Prop :=
  (∀ a, (k0_off127 v1638) a + S1x128.size a ≤ S100000x128.size a)
instance k0_chk127.dec : ∀ (v1638 : BitVec 32), Decidable (k0_chk127 v1638) := fun v1638 => decidable_of_iff' _ (Iff.of_eq (k0_chk127.eq_1 v1638))
theorem k0_off127_inb : ∀ (v1638 : BitVec 32) (k0_hw127 : k0_chk127 v1638), ∀ a, (k0_off127 v1638) a + S1x128.size a ≤ S100000x128.size a := fun v1638 k0_hw127 => k0_hw127

def k0_off128 (v1645 : BitVec 32) : Fin 2 → Nat :=
  let c0_i32_1141 : BitVec 32 := 0#32
  ![v1645.toNat, 0]

def k0_chk128 (v1645 : BitVec 32) : Prop :=
  (∀ a, (k0_off128 v1645) a + S1x128.size a ≤ S100000x128.size a)
instance k0_chk128.dec : ∀ (v1645 : BitVec 32), Decidable (k0_chk128 v1645) := fun v1645 => decidable_of_iff' _ (Iff.of_eq (k0_chk128.eq_1 v1645))
theorem k0_off128_inb : ∀ (v1645 : BitVec 32) (k0_hw128 : k0_chk128 v1645), ∀ a, (k0_off128 v1645) a + S1x128.size a ≤ S100000x128.size a := fun v1645 k0_hw128 => k0_hw128

def k0_off129 (v1664 : BitVec 32) : Fin 2 → Nat :=
  let c0_i32_1154 : BitVec 32 := 0#32
  ![v1664.toNat, 0]

def k0_chk129 (v1664 : BitVec 32) : Prop :=
  (∀ a, (k0_off129 v1664) a + S1x128.size a ≤ S100000x128.size a)
instance k0_chk129.dec : ∀ (v1664 : BitVec 32), Decidable (k0_chk129 v1664) := fun v1664 => decidable_of_iff' _ (Iff.of_eq (k0_chk129.eq_1 v1664))
theorem k0_off129_inb : ∀ (v1664 : BitVec 32) (k0_hw129 : k0_chk129 v1664), ∀ a, (k0_off129 v1664) a + S1x128.size a ≤ S100000x128.size a := fun v1664 k0_hw129 => k0_hw129

def k0_off130 (v1671 : BitVec 32) : Fin 2 → Nat :=
  let c0_i32_1159 : BitVec 32 := 0#32
  ![v1671.toNat, 0]

def k0_chk130 (v1671 : BitVec 32) : Prop :=
  (∀ a, (k0_off130 v1671) a + S1x128.size a ≤ S100000x128.size a)
instance k0_chk130.dec : ∀ (v1671 : BitVec 32), Decidable (k0_chk130 v1671) := fun v1671 => decidable_of_iff' _ (Iff.of_eq (k0_chk130.eq_1 v1671))
theorem k0_off130_inb : ∀ (v1671 : BitVec 32) (k0_hw130 : k0_chk130 v1671), ∀ a, (k0_off130 v1671) a + S1x128.size a ≤ S100000x128.size a := fun v1671 k0_hw130 => k0_hw130

def k0_off131 (v1690 : BitVec 32) : Fin 2 → Nat :=
  let c0_i32_1172 : BitVec 32 := 0#32
  ![v1690.toNat, 0]

def k0_chk131 (v1690 : BitVec 32) : Prop :=
  (∀ a, (k0_off131 v1690) a + S1x128.size a ≤ S100000x128.size a)
instance k0_chk131.dec : ∀ (v1690 : BitVec 32), Decidable (k0_chk131 v1690) := fun v1690 => decidable_of_iff' _ (Iff.of_eq (k0_chk131.eq_1 v1690))
theorem k0_off131_inb : ∀ (v1690 : BitVec 32) (k0_hw131 : k0_chk131 v1690), ∀ a, (k0_off131 v1690) a + S1x128.size a ≤ S100000x128.size a := fun v1690 k0_hw131 => k0_hw131

def k0_off132 (v1697 : BitVec 32) : Fin 2 → Nat :=
  let c0_i32_1177 : BitVec 32 := 0#32
  ![v1697.toNat, 0]

def k0_chk132 (v1697 : BitVec 32) : Prop :=
  (∀ a, (k0_off132 v1697) a + S1x128.size a ≤ S100000x128.size a)
instance k0_chk132.dec : ∀ (v1697 : BitVec 32), Decidable (k0_chk132 v1697) := fun v1697 => decidable_of_iff' _ (Iff.of_eq (k0_chk132.eq_1 v1697))
theorem k0_off132_inb : ∀ (v1697 : BitVec 32) (k0_hw132 : k0_chk132 v1697), ∀ a, (k0_off132 v1697) a + S1x128.size a ≤ S100000x128.size a := fun v1697 k0_hw132 => k0_hw132

def k0_off133 (v1716 : BitVec 32) : Fin 2 → Nat :=
  let c0_i32_1190 : BitVec 32 := 0#32
  ![v1716.toNat, 0]

def k0_chk133 (v1716 : BitVec 32) : Prop :=
  (∀ a, (k0_off133 v1716) a + S1x128.size a ≤ S100000x128.size a)
instance k0_chk133.dec : ∀ (v1716 : BitVec 32), Decidable (k0_chk133 v1716) := fun v1716 => decidable_of_iff' _ (Iff.of_eq (k0_chk133.eq_1 v1716))
theorem k0_off133_inb : ∀ (v1716 : BitVec 32) (k0_hw133 : k0_chk133 v1716), ∀ a, (k0_off133 v1716) a + S1x128.size a ≤ S100000x128.size a := fun v1716 k0_hw133 => k0_hw133

def k0_off134 (v1723 : BitVec 32) : Fin 2 → Nat :=
  let c0_i32_1195 : BitVec 32 := 0#32
  ![v1723.toNat, 0]

def k0_chk134 (v1723 : BitVec 32) : Prop :=
  (∀ a, (k0_off134 v1723) a + S1x128.size a ≤ S100000x128.size a)
instance k0_chk134.dec : ∀ (v1723 : BitVec 32), Decidable (k0_chk134 v1723) := fun v1723 => decidable_of_iff' _ (Iff.of_eq (k0_chk134.eq_1 v1723))
theorem k0_off134_inb : ∀ (v1723 : BitVec 32) (k0_hw134 : k0_chk134 v1723), ∀ a, (k0_off134 v1723) a + S1x128.size a ≤ S100000x128.size a := fun v1723 k0_hw134 => k0_hw134

def k0_off135 (v1742 : BitVec 32) : Fin 2 → Nat :=
  let c0_i32_1208 : BitVec 32 := 0#32
  ![v1742.toNat, 0]

def k0_chk135 (v1742 : BitVec 32) : Prop :=
  (∀ a, (k0_off135 v1742) a + S1x128.size a ≤ S100000x128.size a)
instance k0_chk135.dec : ∀ (v1742 : BitVec 32), Decidable (k0_chk135 v1742) := fun v1742 => decidable_of_iff' _ (Iff.of_eq (k0_chk135.eq_1 v1742))
theorem k0_off135_inb : ∀ (v1742 : BitVec 32) (k0_hw135 : k0_chk135 v1742), ∀ a, (k0_off135 v1742) a + S1x128.size a ≤ S100000x128.size a := fun v1742 k0_hw135 => k0_hw135

def k0_off136 (v1749 : BitVec 32) : Fin 2 → Nat :=
  let c0_i32_1213 : BitVec 32 := 0#32
  ![v1749.toNat, 0]

def k0_chk136 (v1749 : BitVec 32) : Prop :=
  (∀ a, (k0_off136 v1749) a + S1x128.size a ≤ S100000x128.size a)
instance k0_chk136.dec : ∀ (v1749 : BitVec 32), Decidable (k0_chk136 v1749) := fun v1749 => decidable_of_iff' _ (Iff.of_eq (k0_chk136.eq_1 v1749))
theorem k0_off136_inb : ∀ (v1749 : BitVec 32) (k0_hw136 : k0_chk136 v1749), ∀ a, (k0_off136 v1749) a + S1x128.size a ≤ S100000x128.size a := fun v1749 k0_hw136 => k0_hw136

def k0_off137 (v1768 : BitVec 32) : Fin 2 → Nat :=
  let c0_i32_1226 : BitVec 32 := 0#32
  ![v1768.toNat, 0]

def k0_chk137 (v1768 : BitVec 32) : Prop :=
  (∀ a, (k0_off137 v1768) a + S1x128.size a ≤ S100000x128.size a)
instance k0_chk137.dec : ∀ (v1768 : BitVec 32), Decidable (k0_chk137 v1768) := fun v1768 => decidable_of_iff' _ (Iff.of_eq (k0_chk137.eq_1 v1768))
theorem k0_off137_inb : ∀ (v1768 : BitVec 32) (k0_hw137 : k0_chk137 v1768), ∀ a, (k0_off137 v1768) a + S1x128.size a ≤ S100000x128.size a := fun v1768 k0_hw137 => k0_hw137

def k0_off138 (v1775 : BitVec 32) : Fin 2 → Nat :=
  let c0_i32_1231 : BitVec 32 := 0#32
  ![v1775.toNat, 0]

def k0_chk138 (v1775 : BitVec 32) : Prop :=
  (∀ a, (k0_off138 v1775) a + S1x128.size a ≤ S100000x128.size a)
instance k0_chk138.dec : ∀ (v1775 : BitVec 32), Decidable (k0_chk138 v1775) := fun v1775 => decidable_of_iff' _ (Iff.of_eq (k0_chk138.eq_1 v1775))
theorem k0_off138_inb : ∀ (v1775 : BitVec 32) (k0_hw138 : k0_chk138 v1775), ∀ a, (k0_off138 v1775) a + S1x128.size a ≤ S100000x128.size a := fun v1775 k0_hw138 => k0_hw138

def k0_off139 (v1794 : BitVec 32) : Fin 2 → Nat :=
  let c0_i32_1244 : BitVec 32 := 0#32
  ![v1794.toNat, 0]

def k0_chk139 (v1794 : BitVec 32) : Prop :=
  (∀ a, (k0_off139 v1794) a + S1x128.size a ≤ S100000x128.size a)
instance k0_chk139.dec : ∀ (v1794 : BitVec 32), Decidable (k0_chk139 v1794) := fun v1794 => decidable_of_iff' _ (Iff.of_eq (k0_chk139.eq_1 v1794))
theorem k0_off139_inb : ∀ (v1794 : BitVec 32) (k0_hw139 : k0_chk139 v1794), ∀ a, (k0_off139 v1794) a + S1x128.size a ≤ S100000x128.size a := fun v1794 k0_hw139 => k0_hw139

def k0_off140 (v1801 : BitVec 32) : Fin 2 → Nat :=
  let c0_i32_1249 : BitVec 32 := 0#32
  ![v1801.toNat, 0]

def k0_chk140 (v1801 : BitVec 32) : Prop :=
  (∀ a, (k0_off140 v1801) a + S1x128.size a ≤ S100000x128.size a)
instance k0_chk140.dec : ∀ (v1801 : BitVec 32), Decidable (k0_chk140 v1801) := fun v1801 => decidable_of_iff' _ (Iff.of_eq (k0_chk140.eq_1 v1801))
theorem k0_off140_inb : ∀ (v1801 : BitVec 32) (k0_hw140 : k0_chk140 v1801), ∀ a, (k0_off140 v1801) a + S1x128.size a ≤ S100000x128.size a := fun v1801 k0_hw140 => k0_hw140

def k0_off141 (v1820 : BitVec 32) : Fin 2 → Nat :=
  let c0_i32_1262 : BitVec 32 := 0#32
  ![v1820.toNat, 0]

def k0_chk141 (v1820 : BitVec 32) : Prop :=
  (∀ a, (k0_off141 v1820) a + S1x128.size a ≤ S100000x128.size a)
instance k0_chk141.dec : ∀ (v1820 : BitVec 32), Decidable (k0_chk141 v1820) := fun v1820 => decidable_of_iff' _ (Iff.of_eq (k0_chk141.eq_1 v1820))
theorem k0_off141_inb : ∀ (v1820 : BitVec 32) (k0_hw141 : k0_chk141 v1820), ∀ a, (k0_off141 v1820) a + S1x128.size a ≤ S100000x128.size a := fun v1820 k0_hw141 => k0_hw141

def k0_off142 (v1827 : BitVec 32) : Fin 2 → Nat :=
  let c0_i32_1267 : BitVec 32 := 0#32
  ![v1827.toNat, 0]

def k0_chk142 (v1827 : BitVec 32) : Prop :=
  (∀ a, (k0_off142 v1827) a + S1x128.size a ≤ S100000x128.size a)
instance k0_chk142.dec : ∀ (v1827 : BitVec 32), Decidable (k0_chk142 v1827) := fun v1827 => decidable_of_iff' _ (Iff.of_eq (k0_chk142.eq_1 v1827))
theorem k0_off142_inb : ∀ (v1827 : BitVec 32) (k0_hw142 : k0_chk142 v1827), ∀ a, (k0_off142 v1827) a + S1x128.size a ≤ S100000x128.size a := fun v1827 k0_hw142 => k0_hw142

def k0_off143 (v1846 : BitVec 32) : Fin 2 → Nat :=
  let c0_i32_1280 : BitVec 32 := 0#32
  ![v1846.toNat, 0]

def k0_chk143 (v1846 : BitVec 32) : Prop :=
  (∀ a, (k0_off143 v1846) a + S1x128.size a ≤ S100000x128.size a)
instance k0_chk143.dec : ∀ (v1846 : BitVec 32), Decidable (k0_chk143 v1846) := fun v1846 => decidable_of_iff' _ (Iff.of_eq (k0_chk143.eq_1 v1846))
theorem k0_off143_inb : ∀ (v1846 : BitVec 32) (k0_hw143 : k0_chk143 v1846), ∀ a, (k0_off143 v1846) a + S1x128.size a ≤ S100000x128.size a := fun v1846 k0_hw143 => k0_hw143

def k0_off144 (v1853 : BitVec 32) : Fin 2 → Nat :=
  let c0_i32_1285 : BitVec 32 := 0#32
  ![v1853.toNat, 0]

def k0_chk144 (v1853 : BitVec 32) : Prop :=
  (∀ a, (k0_off144 v1853) a + S1x128.size a ≤ S100000x128.size a)
instance k0_chk144.dec : ∀ (v1853 : BitVec 32), Decidable (k0_chk144 v1853) := fun v1853 => decidable_of_iff' _ (Iff.of_eq (k0_chk144.eq_1 v1853))
theorem k0_off144_inb : ∀ (v1853 : BitVec 32) (k0_hw144 : k0_chk144 v1853), ∀ a, (k0_off144 v1853) a + S1x128.size a ≤ S100000x128.size a := fun v1853 k0_hw144 => k0_hw144

def k0_off145 (v1872 : BitVec 32) : Fin 2 → Nat :=
  let c0_i32_1298 : BitVec 32 := 0#32
  ![v1872.toNat, 0]

def k0_chk145 (v1872 : BitVec 32) : Prop :=
  (∀ a, (k0_off145 v1872) a + S1x128.size a ≤ S100000x128.size a)
instance k0_chk145.dec : ∀ (v1872 : BitVec 32), Decidable (k0_chk145 v1872) := fun v1872 => decidable_of_iff' _ (Iff.of_eq (k0_chk145.eq_1 v1872))
theorem k0_off145_inb : ∀ (v1872 : BitVec 32) (k0_hw145 : k0_chk145 v1872), ∀ a, (k0_off145 v1872) a + S1x128.size a ≤ S100000x128.size a := fun v1872 k0_hw145 => k0_hw145

def k0_off146 (v1879 : BitVec 32) : Fin 2 → Nat :=
  let c0_i32_1303 : BitVec 32 := 0#32
  ![v1879.toNat, 0]

def k0_chk146 (v1879 : BitVec 32) : Prop :=
  (∀ a, (k0_off146 v1879) a + S1x128.size a ≤ S100000x128.size a)
instance k0_chk146.dec : ∀ (v1879 : BitVec 32), Decidable (k0_chk146 v1879) := fun v1879 => decidable_of_iff' _ (Iff.of_eq (k0_chk146.eq_1 v1879))
theorem k0_off146_inb : ∀ (v1879 : BitVec 32) (k0_hw146 : k0_chk146 v1879), ∀ a, (k0_off146 v1879) a + S1x128.size a ≤ S100000x128.size a := fun v1879 k0_hw146 => k0_hw146

def k0_off147 (v1898 : BitVec 32) : Fin 2 → Nat :=
  let c0_i32_1316 : BitVec 32 := 0#32
  ![v1898.toNat, 0]

def k0_chk147 (v1898 : BitVec 32) : Prop :=
  (∀ a, (k0_off147 v1898) a + S1x128.size a ≤ S100000x128.size a)
instance k0_chk147.dec : ∀ (v1898 : BitVec 32), Decidable (k0_chk147 v1898) := fun v1898 => decidable_of_iff' _ (Iff.of_eq (k0_chk147.eq_1 v1898))
theorem k0_off147_inb : ∀ (v1898 : BitVec 32) (k0_hw147 : k0_chk147 v1898), ∀ a, (k0_off147 v1898) a + S1x128.size a ≤ S100000x128.size a := fun v1898 k0_hw147 => k0_hw147

def k0_off148 (v1905 : BitVec 32) : Fin 2 → Nat :=
  let c0_i32_1321 : BitVec 32 := 0#32
  ![v1905.toNat, 0]

def k0_chk148 (v1905 : BitVec 32) : Prop :=
  (∀ a, (k0_off148 v1905) a + S1x128.size a ≤ S100000x128.size a)
instance k0_chk148.dec : ∀ (v1905 : BitVec 32), Decidable (k0_chk148 v1905) := fun v1905 => decidable_of_iff' _ (Iff.of_eq (k0_chk148.eq_1 v1905))
theorem k0_off148_inb : ∀ (v1905 : BitVec 32) (k0_hw148 : k0_chk148 v1905), ∀ a, (k0_off148 v1905) a + S1x128.size a ≤ S100000x128.size a := fun v1905 k0_hw148 => k0_hw148

def k0_off149 (v1924 : BitVec 32) : Fin 2 → Nat :=
  let c0_i32_1334 : BitVec 32 := 0#32
  ![v1924.toNat, 0]

def k0_chk149 (v1924 : BitVec 32) : Prop :=
  (∀ a, (k0_off149 v1924) a + S1x128.size a ≤ S100000x128.size a)
instance k0_chk149.dec : ∀ (v1924 : BitVec 32), Decidable (k0_chk149 v1924) := fun v1924 => decidable_of_iff' _ (Iff.of_eq (k0_chk149.eq_1 v1924))
theorem k0_off149_inb : ∀ (v1924 : BitVec 32) (k0_hw149 : k0_chk149 v1924), ∀ a, (k0_off149 v1924) a + S1x128.size a ≤ S100000x128.size a := fun v1924 k0_hw149 => k0_hw149

def k0_off150 (v1931 : BitVec 32) : Fin 2 → Nat :=
  let c0_i32_1339 : BitVec 32 := 0#32
  ![v1931.toNat, 0]

def k0_chk150 (v1931 : BitVec 32) : Prop :=
  (∀ a, (k0_off150 v1931) a + S1x128.size a ≤ S100000x128.size a)
instance k0_chk150.dec : ∀ (v1931 : BitVec 32), Decidable (k0_chk150 v1931) := fun v1931 => decidable_of_iff' _ (Iff.of_eq (k0_chk150.eq_1 v1931))
theorem k0_off150_inb : ∀ (v1931 : BitVec 32) (k0_hw150 : k0_chk150 v1931), ∀ a, (k0_off150 v1931) a + S1x128.size a ≤ S100000x128.size a := fun v1931 k0_hw150 => k0_hw150

def k0_off151 (v1950 : BitVec 32) : Fin 2 → Nat :=
  let c0_i32_1352 : BitVec 32 := 0#32
  ![v1950.toNat, 0]

def k0_chk151 (v1950 : BitVec 32) : Prop :=
  (∀ a, (k0_off151 v1950) a + S1x128.size a ≤ S100000x128.size a)
instance k0_chk151.dec : ∀ (v1950 : BitVec 32), Decidable (k0_chk151 v1950) := fun v1950 => decidable_of_iff' _ (Iff.of_eq (k0_chk151.eq_1 v1950))
theorem k0_off151_inb : ∀ (v1950 : BitVec 32) (k0_hw151 : k0_chk151 v1950), ∀ a, (k0_off151 v1950) a + S1x128.size a ≤ S100000x128.size a := fun v1950 k0_hw151 => k0_hw151

def k0_off152 (v1957 : BitVec 32) : Fin 2 → Nat :=
  let c0_i32_1357 : BitVec 32 := 0#32
  ![v1957.toNat, 0]

def k0_chk152 (v1957 : BitVec 32) : Prop :=
  (∀ a, (k0_off152 v1957) a + S1x128.size a ≤ S100000x128.size a)
instance k0_chk152.dec : ∀ (v1957 : BitVec 32), Decidable (k0_chk152 v1957) := fun v1957 => decidable_of_iff' _ (Iff.of_eq (k0_chk152.eq_1 v1957))
theorem k0_off152_inb : ∀ (v1957 : BitVec 32) (k0_hw152 : k0_chk152 v1957), ∀ a, (k0_off152 v1957) a + S1x128.size a ≤ S100000x128.size a := fun v1957 k0_hw152 => k0_hw152

def k0_off153 (v1976 : BitVec 32) : Fin 2 → Nat :=
  let c0_i32_1370 : BitVec 32 := 0#32
  ![v1976.toNat, 0]

def k0_chk153 (v1976 : BitVec 32) : Prop :=
  (∀ a, (k0_off153 v1976) a + S1x128.size a ≤ S100000x128.size a)
instance k0_chk153.dec : ∀ (v1976 : BitVec 32), Decidable (k0_chk153 v1976) := fun v1976 => decidable_of_iff' _ (Iff.of_eq (k0_chk153.eq_1 v1976))
theorem k0_off153_inb : ∀ (v1976 : BitVec 32) (k0_hw153 : k0_chk153 v1976), ∀ a, (k0_off153 v1976) a + S1x128.size a ≤ S100000x128.size a := fun v1976 k0_hw153 => k0_hw153

def k0_off154 (v1983 : BitVec 32) : Fin 2 → Nat :=
  let c0_i32_1375 : BitVec 32 := 0#32
  ![v1983.toNat, 0]

def k0_chk154 (v1983 : BitVec 32) : Prop :=
  (∀ a, (k0_off154 v1983) a + S1x128.size a ≤ S100000x128.size a)
instance k0_chk154.dec : ∀ (v1983 : BitVec 32), Decidable (k0_chk154 v1983) := fun v1983 => decidable_of_iff' _ (Iff.of_eq (k0_chk154.eq_1 v1983))
theorem k0_off154_inb : ∀ (v1983 : BitVec 32) (k0_hw154 : k0_chk154 v1983), ∀ a, (k0_off154 v1983) a + S1x128.size a ≤ S100000x128.size a := fun v1983 k0_hw154 => k0_hw154

def k0_off155 (v2002 : BitVec 32) : Fin 2 → Nat :=
  let c0_i32_1388 : BitVec 32 := 0#32
  ![v2002.toNat, 0]

def k0_chk155 (v2002 : BitVec 32) : Prop :=
  (∀ a, (k0_off155 v2002) a + S1x128.size a ≤ S100000x128.size a)
instance k0_chk155.dec : ∀ (v2002 : BitVec 32), Decidable (k0_chk155 v2002) := fun v2002 => decidable_of_iff' _ (Iff.of_eq (k0_chk155.eq_1 v2002))
theorem k0_off155_inb : ∀ (v2002 : BitVec 32) (k0_hw155 : k0_chk155 v2002), ∀ a, (k0_off155 v2002) a + S1x128.size a ≤ S100000x128.size a := fun v2002 k0_hw155 => k0_hw155

def k0_off156 (v2009 : BitVec 32) : Fin 2 → Nat :=
  let c0_i32_1393 : BitVec 32 := 0#32
  ![v2009.toNat, 0]

def k0_chk156 (v2009 : BitVec 32) : Prop :=
  (∀ a, (k0_off156 v2009) a + S1x128.size a ≤ S100000x128.size a)
instance k0_chk156.dec : ∀ (v2009 : BitVec 32), Decidable (k0_chk156 v2009) := fun v2009 => decidable_of_iff' _ (Iff.of_eq (k0_chk156.eq_1 v2009))
theorem k0_off156_inb : ∀ (v2009 : BitVec 32) (k0_hw156 : k0_chk156 v2009), ∀ a, (k0_off156 v2009) a + S1x128.size a ≤ S100000x128.size a := fun v2009 k0_hw156 => k0_hw156

def k0_off157 (v2028 : BitVec 32) : Fin 2 → Nat :=
  let c0_i32_1406 : BitVec 32 := 0#32
  ![v2028.toNat, 0]

def k0_chk157 (v2028 : BitVec 32) : Prop :=
  (∀ a, (k0_off157 v2028) a + S1x128.size a ≤ S100000x128.size a)
instance k0_chk157.dec : ∀ (v2028 : BitVec 32), Decidable (k0_chk157 v2028) := fun v2028 => decidable_of_iff' _ (Iff.of_eq (k0_chk157.eq_1 v2028))
theorem k0_off157_inb : ∀ (v2028 : BitVec 32) (k0_hw157 : k0_chk157 v2028), ∀ a, (k0_off157 v2028) a + S1x128.size a ≤ S100000x128.size a := fun v2028 k0_hw157 => k0_hw157

def k0_off158 (v2035 : BitVec 32) : Fin 2 → Nat :=
  let c0_i32_1411 : BitVec 32 := 0#32
  ![v2035.toNat, 0]

def k0_chk158 (v2035 : BitVec 32) : Prop :=
  (∀ a, (k0_off158 v2035) a + S1x128.size a ≤ S100000x128.size a)
instance k0_chk158.dec : ∀ (v2035 : BitVec 32), Decidable (k0_chk158 v2035) := fun v2035 => decidable_of_iff' _ (Iff.of_eq (k0_chk158.eq_1 v2035))
theorem k0_off158_inb : ∀ (v2035 : BitVec 32) (k0_hw158 : k0_chk158 v2035), ∀ a, (k0_off158 v2035) a + S1x128.size a ≤ S100000x128.size a := fun v2035 k0_hw158 => k0_hw158

def k0_off159 (v2054 : BitVec 32) : Fin 2 → Nat :=
  let c0_i32_1424 : BitVec 32 := 0#32
  ![v2054.toNat, 0]

def k0_chk159 (v2054 : BitVec 32) : Prop :=
  (∀ a, (k0_off159 v2054) a + S1x128.size a ≤ S100000x128.size a)
instance k0_chk159.dec : ∀ (v2054 : BitVec 32), Decidable (k0_chk159 v2054) := fun v2054 => decidable_of_iff' _ (Iff.of_eq (k0_chk159.eq_1 v2054))
theorem k0_off159_inb : ∀ (v2054 : BitVec 32) (k0_hw159 : k0_chk159 v2054), ∀ a, (k0_off159 v2054) a + S1x128.size a ≤ S100000x128.size a := fun v2054 k0_hw159 => k0_hw159

def k0_off160 (v2061 : BitVec 32) : Fin 2 → Nat :=
  let c0_i32_1429 : BitVec 32 := 0#32
  ![v2061.toNat, 0]

def k0_chk160 (v2061 : BitVec 32) : Prop :=
  (∀ a, (k0_off160 v2061) a + S1x128.size a ≤ S100000x128.size a)
instance k0_chk160.dec : ∀ (v2061 : BitVec 32), Decidable (k0_chk160 v2061) := fun v2061 => decidable_of_iff' _ (Iff.of_eq (k0_chk160.eq_1 v2061))
theorem k0_off160_inb : ∀ (v2061 : BitVec 32) (k0_hw160 : k0_chk160 v2061), ∀ a, (k0_off160 v2061) a + S1x128.size a ≤ S100000x128.size a := fun v2061 k0_hw160 => k0_hw160

def k0_off161 (v2080 : BitVec 32) : Fin 2 → Nat :=
  let c0_i32_1442 : BitVec 32 := 0#32
  ![v2080.toNat, 0]

def k0_chk161 (v2080 : BitVec 32) : Prop :=
  (∀ a, (k0_off161 v2080) a + S1x128.size a ≤ S100000x128.size a)
instance k0_chk161.dec : ∀ (v2080 : BitVec 32), Decidable (k0_chk161 v2080) := fun v2080 => decidable_of_iff' _ (Iff.of_eq (k0_chk161.eq_1 v2080))
theorem k0_off161_inb : ∀ (v2080 : BitVec 32) (k0_hw161 : k0_chk161 v2080), ∀ a, (k0_off161 v2080) a + S1x128.size a ≤ S100000x128.size a := fun v2080 k0_hw161 => k0_hw161

def k0_off162 (v2087 : BitVec 32) : Fin 2 → Nat :=
  let c0_i32_1447 : BitVec 32 := 0#32
  ![v2087.toNat, 0]

def k0_chk162 (v2087 : BitVec 32) : Prop :=
  (∀ a, (k0_off162 v2087) a + S1x128.size a ≤ S100000x128.size a)
instance k0_chk162.dec : ∀ (v2087 : BitVec 32), Decidable (k0_chk162 v2087) := fun v2087 => decidable_of_iff' _ (Iff.of_eq (k0_chk162.eq_1 v2087))
theorem k0_off162_inb : ∀ (v2087 : BitVec 32) (k0_hw162 : k0_chk162 v2087), ∀ a, (k0_off162 v2087) a + S1x128.size a ≤ S100000x128.size a := fun v2087 k0_hw162 => k0_hw162

def k0_off163 (v2106 : BitVec 32) : Fin 2 → Nat :=
  let c0_i32_1460 : BitVec 32 := 0#32
  ![v2106.toNat, 0]

def k0_chk163 (v2106 : BitVec 32) : Prop :=
  (∀ a, (k0_off163 v2106) a + S1x128.size a ≤ S100000x128.size a)
instance k0_chk163.dec : ∀ (v2106 : BitVec 32), Decidable (k0_chk163 v2106) := fun v2106 => decidable_of_iff' _ (Iff.of_eq (k0_chk163.eq_1 v2106))
theorem k0_off163_inb : ∀ (v2106 : BitVec 32) (k0_hw163 : k0_chk163 v2106), ∀ a, (k0_off163 v2106) a + S1x128.size a ≤ S100000x128.size a := fun v2106 k0_hw163 => k0_hw163

def k0_off164 (v2113 : BitVec 32) : Fin 2 → Nat :=
  let c0_i32_1465 : BitVec 32 := 0#32
  ![v2113.toNat, 0]

def k0_chk164 (v2113 : BitVec 32) : Prop :=
  (∀ a, (k0_off164 v2113) a + S1x128.size a ≤ S100000x128.size a)
instance k0_chk164.dec : ∀ (v2113 : BitVec 32), Decidable (k0_chk164 v2113) := fun v2113 => decidable_of_iff' _ (Iff.of_eq (k0_chk164.eq_1 v2113))
theorem k0_off164_inb : ∀ (v2113 : BitVec 32) (k0_hw164 : k0_chk164 v2113), ∀ a, (k0_off164 v2113) a + S1x128.size a ≤ S100000x128.size a := fun v2113 k0_hw164 => k0_hw164

def k0_off165 (v2132 : BitVec 32) : Fin 2 → Nat :=
  let c0_i32_1478 : BitVec 32 := 0#32
  ![v2132.toNat, 0]

def k0_chk165 (v2132 : BitVec 32) : Prop :=
  (∀ a, (k0_off165 v2132) a + S1x128.size a ≤ S100000x128.size a)
instance k0_chk165.dec : ∀ (v2132 : BitVec 32), Decidable (k0_chk165 v2132) := fun v2132 => decidable_of_iff' _ (Iff.of_eq (k0_chk165.eq_1 v2132))
theorem k0_off165_inb : ∀ (v2132 : BitVec 32) (k0_hw165 : k0_chk165 v2132), ∀ a, (k0_off165 v2132) a + S1x128.size a ≤ S100000x128.size a := fun v2132 k0_hw165 => k0_hw165

def k0_off166 (v2139 : BitVec 32) : Fin 2 → Nat :=
  let c0_i32_1483 : BitVec 32 := 0#32
  ![v2139.toNat, 0]

def k0_chk166 (v2139 : BitVec 32) : Prop :=
  (∀ a, (k0_off166 v2139) a + S1x128.size a ≤ S100000x128.size a)
instance k0_chk166.dec : ∀ (v2139 : BitVec 32), Decidable (k0_chk166 v2139) := fun v2139 => decidable_of_iff' _ (Iff.of_eq (k0_chk166.eq_1 v2139))
theorem k0_off166_inb : ∀ (v2139 : BitVec 32) (k0_hw166 : k0_chk166 v2139), ∀ a, (k0_off166 v2139) a + S1x128.size a ≤ S100000x128.size a := fun v2139 k0_hw166 => k0_hw166

def k0_off167 (v2158 : BitVec 32) : Fin 2 → Nat :=
  let c0_i32_1496 : BitVec 32 := 0#32
  ![v2158.toNat, 0]

def k0_chk167 (v2158 : BitVec 32) : Prop :=
  (∀ a, (k0_off167 v2158) a + S1x128.size a ≤ S100000x128.size a)
instance k0_chk167.dec : ∀ (v2158 : BitVec 32), Decidable (k0_chk167 v2158) := fun v2158 => decidable_of_iff' _ (Iff.of_eq (k0_chk167.eq_1 v2158))
theorem k0_off167_inb : ∀ (v2158 : BitVec 32) (k0_hw167 : k0_chk167 v2158), ∀ a, (k0_off167 v2158) a + S1x128.size a ≤ S100000x128.size a := fun v2158 k0_hw167 => k0_hw167

def k0_off168 (v2165 : BitVec 32) : Fin 2 → Nat :=
  let c0_i32_1501 : BitVec 32 := 0#32
  ![v2165.toNat, 0]

def k0_chk168 (v2165 : BitVec 32) : Prop :=
  (∀ a, (k0_off168 v2165) a + S1x128.size a ≤ S100000x128.size a)
instance k0_chk168.dec : ∀ (v2165 : BitVec 32), Decidable (k0_chk168 v2165) := fun v2165 => decidable_of_iff' _ (Iff.of_eq (k0_chk168.eq_1 v2165))
theorem k0_off168_inb : ∀ (v2165 : BitVec 32) (k0_hw168 : k0_chk168 v2165), ∀ a, (k0_off168 v2165) a + S1x128.size a ≤ S100000x128.size a := fun v2165 k0_hw168 => k0_hw168

def k0_off169 (v2184 : BitVec 32) : Fin 2 → Nat :=
  let c0_i32_1514 : BitVec 32 := 0#32
  ![v2184.toNat, 0]

def k0_chk169 (v2184 : BitVec 32) : Prop :=
  (∀ a, (k0_off169 v2184) a + S1x128.size a ≤ S100000x128.size a)
instance k0_chk169.dec : ∀ (v2184 : BitVec 32), Decidable (k0_chk169 v2184) := fun v2184 => decidable_of_iff' _ (Iff.of_eq (k0_chk169.eq_1 v2184))
theorem k0_off169_inb : ∀ (v2184 : BitVec 32) (k0_hw169 : k0_chk169 v2184), ∀ a, (k0_off169 v2184) a + S1x128.size a ≤ S100000x128.size a := fun v2184 k0_hw169 => k0_hw169

def k0_off170 (v2191 : BitVec 32) : Fin 2 → Nat :=
  let c0_i32_1519 : BitVec 32 := 0#32
  ![v2191.toNat, 0]

def k0_chk170 (v2191 : BitVec 32) : Prop :=
  (∀ a, (k0_off170 v2191) a + S1x128.size a ≤ S100000x128.size a)
instance k0_chk170.dec : ∀ (v2191 : BitVec 32), Decidable (k0_chk170 v2191) := fun v2191 => decidable_of_iff' _ (Iff.of_eq (k0_chk170.eq_1 v2191))
theorem k0_off170_inb : ∀ (v2191 : BitVec 32) (k0_hw170 : k0_chk170 v2191), ∀ a, (k0_off170 v2191) a + S1x128.size a ≤ S100000x128.size a := fun v2191 k0_hw170 => k0_hw170

def k0_off171 (v2210 : BitVec 32) : Fin 2 → Nat :=
  let c0_i32_1532 : BitVec 32 := 0#32
  ![v2210.toNat, 0]

def k0_chk171 (v2210 : BitVec 32) : Prop :=
  (∀ a, (k0_off171 v2210) a + S1x128.size a ≤ S100000x128.size a)
instance k0_chk171.dec : ∀ (v2210 : BitVec 32), Decidable (k0_chk171 v2210) := fun v2210 => decidable_of_iff' _ (Iff.of_eq (k0_chk171.eq_1 v2210))
theorem k0_off171_inb : ∀ (v2210 : BitVec 32) (k0_hw171 : k0_chk171 v2210), ∀ a, (k0_off171 v2210) a + S1x128.size a ≤ S100000x128.size a := fun v2210 k0_hw171 => k0_hw171

def k0_off172 (v2217 : BitVec 32) : Fin 2 → Nat :=
  let c0_i32_1537 : BitVec 32 := 0#32
  ![v2217.toNat, 0]

def k0_chk172 (v2217 : BitVec 32) : Prop :=
  (∀ a, (k0_off172 v2217) a + S1x128.size a ≤ S100000x128.size a)
instance k0_chk172.dec : ∀ (v2217 : BitVec 32), Decidable (k0_chk172 v2217) := fun v2217 => decidable_of_iff' _ (Iff.of_eq (k0_chk172.eq_1 v2217))
theorem k0_off172_inb : ∀ (v2217 : BitVec 32) (k0_hw172 : k0_chk172 v2217), ∀ a, (k0_off172 v2217) a + S1x128.size a ≤ S100000x128.size a := fun v2217 k0_hw172 => k0_hw172

def k0_off173 (v2236 : BitVec 32) : Fin 2 → Nat :=
  let c0_i32_1550 : BitVec 32 := 0#32
  ![v2236.toNat, 0]

def k0_chk173 (v2236 : BitVec 32) : Prop :=
  (∀ a, (k0_off173 v2236) a + S1x128.size a ≤ S100000x128.size a)
instance k0_chk173.dec : ∀ (v2236 : BitVec 32), Decidable (k0_chk173 v2236) := fun v2236 => decidable_of_iff' _ (Iff.of_eq (k0_chk173.eq_1 v2236))
theorem k0_off173_inb : ∀ (v2236 : BitVec 32) (k0_hw173 : k0_chk173 v2236), ∀ a, (k0_off173 v2236) a + S1x128.size a ≤ S100000x128.size a := fun v2236 k0_hw173 => k0_hw173

def k0_off174 (v2243 : BitVec 32) : Fin 2 → Nat :=
  let c0_i32_1555 : BitVec 32 := 0#32
  ![v2243.toNat, 0]

def k0_chk174 (v2243 : BitVec 32) : Prop :=
  (∀ a, (k0_off174 v2243) a + S1x128.size a ≤ S100000x128.size a)
instance k0_chk174.dec : ∀ (v2243 : BitVec 32), Decidable (k0_chk174 v2243) := fun v2243 => decidable_of_iff' _ (Iff.of_eq (k0_chk174.eq_1 v2243))
theorem k0_off174_inb : ∀ (v2243 : BitVec 32) (k0_hw174 : k0_chk174 v2243), ∀ a, (k0_off174 v2243) a + S1x128.size a ≤ S100000x128.size a := fun v2243 k0_hw174 => k0_hw174

def k0_off175 (v2262 : BitVec 32) : Fin 2 → Nat :=
  let c0_i32_1568 : BitVec 32 := 0#32
  ![v2262.toNat, 0]

def k0_chk175 (v2262 : BitVec 32) : Prop :=
  (∀ a, (k0_off175 v2262) a + S1x128.size a ≤ S100000x128.size a)
instance k0_chk175.dec : ∀ (v2262 : BitVec 32), Decidable (k0_chk175 v2262) := fun v2262 => decidable_of_iff' _ (Iff.of_eq (k0_chk175.eq_1 v2262))
theorem k0_off175_inb : ∀ (v2262 : BitVec 32) (k0_hw175 : k0_chk175 v2262), ∀ a, (k0_off175 v2262) a + S1x128.size a ≤ S100000x128.size a := fun v2262 k0_hw175 => k0_hw175

def k0_off176 (v2269 : BitVec 32) : Fin 2 → Nat :=
  let c0_i32_1573 : BitVec 32 := 0#32
  ![v2269.toNat, 0]

def k0_chk176 (v2269 : BitVec 32) : Prop :=
  (∀ a, (k0_off176 v2269) a + S1x128.size a ≤ S100000x128.size a)
instance k0_chk176.dec : ∀ (v2269 : BitVec 32), Decidable (k0_chk176 v2269) := fun v2269 => decidable_of_iff' _ (Iff.of_eq (k0_chk176.eq_1 v2269))
theorem k0_off176_inb : ∀ (v2269 : BitVec 32) (k0_hw176 : k0_chk176 v2269), ∀ a, (k0_off176 v2269) a + S1x128.size a ≤ S100000x128.size a := fun v2269 k0_hw176 => k0_hw176

def k0_off177 (v2288 : BitVec 32) : Fin 2 → Nat :=
  let c0_i32_1586 : BitVec 32 := 0#32
  ![v2288.toNat, 0]

def k0_chk177 (v2288 : BitVec 32) : Prop :=
  (∀ a, (k0_off177 v2288) a + S1x128.size a ≤ S100000x128.size a)
instance k0_chk177.dec : ∀ (v2288 : BitVec 32), Decidable (k0_chk177 v2288) := fun v2288 => decidable_of_iff' _ (Iff.of_eq (k0_chk177.eq_1 v2288))
theorem k0_off177_inb : ∀ (v2288 : BitVec 32) (k0_hw177 : k0_chk177 v2288), ∀ a, (k0_off177 v2288) a + S1x128.size a ≤ S100000x128.size a := fun v2288 k0_hw177 => k0_hw177

def k0_off178 (v2295 : BitVec 32) : Fin 2 → Nat :=
  let c0_i32_1591 : BitVec 32 := 0#32
  ![v2295.toNat, 0]

def k0_chk178 (v2295 : BitVec 32) : Prop :=
  (∀ a, (k0_off178 v2295) a + S1x128.size a ≤ S100000x128.size a)
instance k0_chk178.dec : ∀ (v2295 : BitVec 32), Decidable (k0_chk178 v2295) := fun v2295 => decidable_of_iff' _ (Iff.of_eq (k0_chk178.eq_1 v2295))
theorem k0_off178_inb : ∀ (v2295 : BitVec 32) (k0_hw178 : k0_chk178 v2295), ∀ a, (k0_off178 v2295) a + S1x128.size a ≤ S100000x128.size a := fun v2295 k0_hw178 => k0_hw178

def k0_off179 (v2314 : BitVec 32) : Fin 2 → Nat :=
  let c0_i32_1604 : BitVec 32 := 0#32
  ![v2314.toNat, 0]

def k0_chk179 (v2314 : BitVec 32) : Prop :=
  (∀ a, (k0_off179 v2314) a + S1x128.size a ≤ S100000x128.size a)
instance k0_chk179.dec : ∀ (v2314 : BitVec 32), Decidable (k0_chk179 v2314) := fun v2314 => decidable_of_iff' _ (Iff.of_eq (k0_chk179.eq_1 v2314))
theorem k0_off179_inb : ∀ (v2314 : BitVec 32) (k0_hw179 : k0_chk179 v2314), ∀ a, (k0_off179 v2314) a + S1x128.size a ≤ S100000x128.size a := fun v2314 k0_hw179 => k0_hw179

def k0_off180 (v2321 : BitVec 32) : Fin 2 → Nat :=
  let c0_i32_1609 : BitVec 32 := 0#32
  ![v2321.toNat, 0]

def k0_chk180 (v2321 : BitVec 32) : Prop :=
  (∀ a, (k0_off180 v2321) a + S1x128.size a ≤ S100000x128.size a)
instance k0_chk180.dec : ∀ (v2321 : BitVec 32), Decidable (k0_chk180 v2321) := fun v2321 => decidable_of_iff' _ (Iff.of_eq (k0_chk180.eq_1 v2321))
theorem k0_off180_inb : ∀ (v2321 : BitVec 32) (k0_hw180 : k0_chk180 v2321), ∀ a, (k0_off180 v2321) a + S1x128.size a ≤ S100000x128.size a := fun v2321 k0_hw180 => k0_hw180

def k0_off181 (v2340 : BitVec 32) : Fin 2 → Nat :=
  let c0_i32_1622 : BitVec 32 := 0#32
  ![v2340.toNat, 0]

def k0_chk181 (v2340 : BitVec 32) : Prop :=
  (∀ a, (k0_off181 v2340) a + S1x128.size a ≤ S100000x128.size a)
instance k0_chk181.dec : ∀ (v2340 : BitVec 32), Decidable (k0_chk181 v2340) := fun v2340 => decidable_of_iff' _ (Iff.of_eq (k0_chk181.eq_1 v2340))
theorem k0_off181_inb : ∀ (v2340 : BitVec 32) (k0_hw181 : k0_chk181 v2340), ∀ a, (k0_off181 v2340) a + S1x128.size a ≤ S100000x128.size a := fun v2340 k0_hw181 => k0_hw181

def k0_off182 (v2347 : BitVec 32) : Fin 2 → Nat :=
  let c0_i32_1627 : BitVec 32 := 0#32
  ![v2347.toNat, 0]

def k0_chk182 (v2347 : BitVec 32) : Prop :=
  (∀ a, (k0_off182 v2347) a + S1x128.size a ≤ S100000x128.size a)
instance k0_chk182.dec : ∀ (v2347 : BitVec 32), Decidable (k0_chk182 v2347) := fun v2347 => decidable_of_iff' _ (Iff.of_eq (k0_chk182.eq_1 v2347))
theorem k0_off182_inb : ∀ (v2347 : BitVec 32) (k0_hw182 : k0_chk182 v2347), ∀ a, (k0_off182 v2347) a + S1x128.size a ≤ S100000x128.size a := fun v2347 k0_hw182 => k0_hw182

def k0_off183 (v2366 : BitVec 32) : Fin 2 → Nat :=
  let c0_i32_1640 : BitVec 32 := 0#32
  ![v2366.toNat, 0]

def k0_chk183 (v2366 : BitVec 32) : Prop :=
  (∀ a, (k0_off183 v2366) a + S1x128.size a ≤ S100000x128.size a)
instance k0_chk183.dec : ∀ (v2366 : BitVec 32), Decidable (k0_chk183 v2366) := fun v2366 => decidable_of_iff' _ (Iff.of_eq (k0_chk183.eq_1 v2366))
theorem k0_off183_inb : ∀ (v2366 : BitVec 32) (k0_hw183 : k0_chk183 v2366), ∀ a, (k0_off183 v2366) a + S1x128.size a ≤ S100000x128.size a := fun v2366 k0_hw183 => k0_hw183

def k0_off184 (v2373 : BitVec 32) : Fin 2 → Nat :=
  let c0_i32_1645 : BitVec 32 := 0#32
  ![v2373.toNat, 0]

def k0_chk184 (v2373 : BitVec 32) : Prop :=
  (∀ a, (k0_off184 v2373) a + S1x128.size a ≤ S100000x128.size a)
instance k0_chk184.dec : ∀ (v2373 : BitVec 32), Decidable (k0_chk184 v2373) := fun v2373 => decidable_of_iff' _ (Iff.of_eq (k0_chk184.eq_1 v2373))
theorem k0_off184_inb : ∀ (v2373 : BitVec 32) (k0_hw184 : k0_chk184 v2373), ∀ a, (k0_off184 v2373) a + S1x128.size a ≤ S100000x128.size a := fun v2373 k0_hw184 => k0_hw184

def k0_off185 (v2392 : BitVec 32) : Fin 2 → Nat :=
  let c0_i32_1658 : BitVec 32 := 0#32
  ![v2392.toNat, 0]

def k0_chk185 (v2392 : BitVec 32) : Prop :=
  (∀ a, (k0_off185 v2392) a + S1x128.size a ≤ S100000x128.size a)
instance k0_chk185.dec : ∀ (v2392 : BitVec 32), Decidable (k0_chk185 v2392) := fun v2392 => decidable_of_iff' _ (Iff.of_eq (k0_chk185.eq_1 v2392))
theorem k0_off185_inb : ∀ (v2392 : BitVec 32) (k0_hw185 : k0_chk185 v2392), ∀ a, (k0_off185 v2392) a + S1x128.size a ≤ S100000x128.size a := fun v2392 k0_hw185 => k0_hw185

def k0_off186 (v2399 : BitVec 32) : Fin 2 → Nat :=
  let c0_i32_1663 : BitVec 32 := 0#32
  ![v2399.toNat, 0]

def k0_chk186 (v2399 : BitVec 32) : Prop :=
  (∀ a, (k0_off186 v2399) a + S1x128.size a ≤ S100000x128.size a)
instance k0_chk186.dec : ∀ (v2399 : BitVec 32), Decidable (k0_chk186 v2399) := fun v2399 => decidable_of_iff' _ (Iff.of_eq (k0_chk186.eq_1 v2399))
theorem k0_off186_inb : ∀ (v2399 : BitVec 32) (k0_hw186 : k0_chk186 v2399), ∀ a, (k0_off186 v2399) a + S1x128.size a ≤ S100000x128.size a := fun v2399 k0_hw186 => k0_hw186

def k0_off187 (v2418 : BitVec 32) : Fin 2 → Nat :=
  let c0_i32_1676 : BitVec 32 := 0#32
  ![v2418.toNat, 0]

def k0_chk187 (v2418 : BitVec 32) : Prop :=
  (∀ a, (k0_off187 v2418) a + S1x128.size a ≤ S100000x128.size a)
instance k0_chk187.dec : ∀ (v2418 : BitVec 32), Decidable (k0_chk187 v2418) := fun v2418 => decidable_of_iff' _ (Iff.of_eq (k0_chk187.eq_1 v2418))
theorem k0_off187_inb : ∀ (v2418 : BitVec 32) (k0_hw187 : k0_chk187 v2418), ∀ a, (k0_off187 v2418) a + S1x128.size a ≤ S100000x128.size a := fun v2418 k0_hw187 => k0_hw187

def k0_off188 (v2425 : BitVec 32) : Fin 2 → Nat :=
  let c0_i32_1681 : BitVec 32 := 0#32
  ![v2425.toNat, 0]

def k0_chk188 (v2425 : BitVec 32) : Prop :=
  (∀ a, (k0_off188 v2425) a + S1x128.size a ≤ S100000x128.size a)
instance k0_chk188.dec : ∀ (v2425 : BitVec 32), Decidable (k0_chk188 v2425) := fun v2425 => decidable_of_iff' _ (Iff.of_eq (k0_chk188.eq_1 v2425))
theorem k0_off188_inb : ∀ (v2425 : BitVec 32) (k0_hw188 : k0_chk188 v2425), ∀ a, (k0_off188 v2425) a + S1x128.size a ≤ S100000x128.size a := fun v2425 k0_hw188 => k0_hw188

def k0_off189 (v2444 : BitVec 32) : Fin 2 → Nat :=
  let c0_i32_1694 : BitVec 32 := 0#32
  ![v2444.toNat, 0]

def k0_chk189 (v2444 : BitVec 32) : Prop :=
  (∀ a, (k0_off189 v2444) a + S1x128.size a ≤ S100000x128.size a)
instance k0_chk189.dec : ∀ (v2444 : BitVec 32), Decidable (k0_chk189 v2444) := fun v2444 => decidable_of_iff' _ (Iff.of_eq (k0_chk189.eq_1 v2444))
theorem k0_off189_inb : ∀ (v2444 : BitVec 32) (k0_hw189 : k0_chk189 v2444), ∀ a, (k0_off189 v2444) a + S1x128.size a ≤ S100000x128.size a := fun v2444 k0_hw189 => k0_hw189

def k0_off190 (v2451 : BitVec 32) : Fin 2 → Nat :=
  let c0_i32_1699 : BitVec 32 := 0#32
  ![v2451.toNat, 0]

def k0_chk190 (v2451 : BitVec 32) : Prop :=
  (∀ a, (k0_off190 v2451) a + S1x128.size a ≤ S100000x128.size a)
instance k0_chk190.dec : ∀ (v2451 : BitVec 32), Decidable (k0_chk190 v2451) := fun v2451 => decidable_of_iff' _ (Iff.of_eq (k0_chk190.eq_1 v2451))
theorem k0_off190_inb : ∀ (v2451 : BitVec 32) (k0_hw190 : k0_chk190 v2451), ∀ a, (k0_off190 v2451) a + S1x128.size a ≤ S100000x128.size a := fun v2451 k0_hw190 => k0_hw190

def k0_off191 (v2470 : BitVec 32) : Fin 2 → Nat :=
  let c0_i32_1712 : BitVec 32 := 0#32
  ![v2470.toNat, 0]

def k0_chk191 (v2470 : BitVec 32) : Prop :=
  (∀ a, (k0_off191 v2470) a + S1x128.size a ≤ S100000x128.size a)
instance k0_chk191.dec : ∀ (v2470 : BitVec 32), Decidable (k0_chk191 v2470) := fun v2470 => decidable_of_iff' _ (Iff.of_eq (k0_chk191.eq_1 v2470))
theorem k0_off191_inb : ∀ (v2470 : BitVec 32) (k0_hw191 : k0_chk191 v2470), ∀ a, (k0_off191 v2470) a + S1x128.size a ≤ S100000x128.size a := fun v2470 k0_hw191 => k0_hw191

def k0_off192 (v2477 : BitVec 32) : Fin 2 → Nat :=
  let c0_i32_1717 : BitVec 32 := 0#32
  ![v2477.toNat, 0]

def k0_chk192 (v2477 : BitVec 32) : Prop :=
  (∀ a, (k0_off192 v2477) a + S1x128.size a ≤ S100000x128.size a)
instance k0_chk192.dec : ∀ (v2477 : BitVec 32), Decidable (k0_chk192 v2477) := fun v2477 => decidable_of_iff' _ (Iff.of_eq (k0_chk192.eq_1 v2477))
theorem k0_off192_inb : ∀ (v2477 : BitVec 32) (k0_hw192 : k0_chk192 v2477), ∀ a, (k0_off192 v2477) a + S1x128.size a ≤ S100000x128.size a := fun v2477 k0_hw192 => k0_hw192

def k0_off193 (v2496 : BitVec 32) : Fin 2 → Nat :=
  let c0_i32_1730 : BitVec 32 := 0#32
  ![v2496.toNat, 0]

def k0_chk193 (v2496 : BitVec 32) : Prop :=
  (∀ a, (k0_off193 v2496) a + S1x128.size a ≤ S100000x128.size a)
instance k0_chk193.dec : ∀ (v2496 : BitVec 32), Decidable (k0_chk193 v2496) := fun v2496 => decidable_of_iff' _ (Iff.of_eq (k0_chk193.eq_1 v2496))
theorem k0_off193_inb : ∀ (v2496 : BitVec 32) (k0_hw193 : k0_chk193 v2496), ∀ a, (k0_off193 v2496) a + S1x128.size a ≤ S100000x128.size a := fun v2496 k0_hw193 => k0_hw193

def k0_off194 (v2503 : BitVec 32) : Fin 2 → Nat :=
  let c0_i32_1735 : BitVec 32 := 0#32
  ![v2503.toNat, 0]

def k0_chk194 (v2503 : BitVec 32) : Prop :=
  (∀ a, (k0_off194 v2503) a + S1x128.size a ≤ S100000x128.size a)
instance k0_chk194.dec : ∀ (v2503 : BitVec 32), Decidable (k0_chk194 v2503) := fun v2503 => decidable_of_iff' _ (Iff.of_eq (k0_chk194.eq_1 v2503))
theorem k0_off194_inb : ∀ (v2503 : BitVec 32) (k0_hw194 : k0_chk194 v2503), ∀ a, (k0_off194 v2503) a + S1x128.size a ≤ S100000x128.size a := fun v2503 k0_hw194 => k0_hw194

def k0_off195 (v2522 : BitVec 32) : Fin 2 → Nat :=
  let c0_i32_1748 : BitVec 32 := 0#32
  ![v2522.toNat, 0]

def k0_chk195 (v2522 : BitVec 32) : Prop :=
  (∀ a, (k0_off195 v2522) a + S1x128.size a ≤ S100000x128.size a)
instance k0_chk195.dec : ∀ (v2522 : BitVec 32), Decidable (k0_chk195 v2522) := fun v2522 => decidable_of_iff' _ (Iff.of_eq (k0_chk195.eq_1 v2522))
theorem k0_off195_inb : ∀ (v2522 : BitVec 32) (k0_hw195 : k0_chk195 v2522), ∀ a, (k0_off195 v2522) a + S1x128.size a ≤ S100000x128.size a := fun v2522 k0_hw195 => k0_hw195

def k0_off196 (v2529 : BitVec 32) : Fin 2 → Nat :=
  let c0_i32_1753 : BitVec 32 := 0#32
  ![v2529.toNat, 0]

def k0_chk196 (v2529 : BitVec 32) : Prop :=
  (∀ a, (k0_off196 v2529) a + S1x128.size a ≤ S100000x128.size a)
instance k0_chk196.dec : ∀ (v2529 : BitVec 32), Decidable (k0_chk196 v2529) := fun v2529 => decidable_of_iff' _ (Iff.of_eq (k0_chk196.eq_1 v2529))
theorem k0_off196_inb : ∀ (v2529 : BitVec 32) (k0_hw196 : k0_chk196 v2529), ∀ a, (k0_off196 v2529) a + S1x128.size a ≤ S100000x128.size a := fun v2529 k0_hw196 => k0_hw196

def k0_off197 (v2548 : BitVec 32) : Fin 2 → Nat :=
  let c0_i32_1766 : BitVec 32 := 0#32
  ![v2548.toNat, 0]

def k0_chk197 (v2548 : BitVec 32) : Prop :=
  (∀ a, (k0_off197 v2548) a + S1x128.size a ≤ S100000x128.size a)
instance k0_chk197.dec : ∀ (v2548 : BitVec 32), Decidable (k0_chk197 v2548) := fun v2548 => decidable_of_iff' _ (Iff.of_eq (k0_chk197.eq_1 v2548))
theorem k0_off197_inb : ∀ (v2548 : BitVec 32) (k0_hw197 : k0_chk197 v2548), ∀ a, (k0_off197 v2548) a + S1x128.size a ≤ S100000x128.size a := fun v2548 k0_hw197 => k0_hw197

def k0_off198 (v2555 : BitVec 32) : Fin 2 → Nat :=
  let c0_i32_1771 : BitVec 32 := 0#32
  ![v2555.toNat, 0]

def k0_chk198 (v2555 : BitVec 32) : Prop :=
  (∀ a, (k0_off198 v2555) a + S1x128.size a ≤ S100000x128.size a)
instance k0_chk198.dec : ∀ (v2555 : BitVec 32), Decidable (k0_chk198 v2555) := fun v2555 => decidable_of_iff' _ (Iff.of_eq (k0_chk198.eq_1 v2555))
theorem k0_off198_inb : ∀ (v2555 : BitVec 32) (k0_hw198 : k0_chk198 v2555), ∀ a, (k0_off198 v2555) a + S1x128.size a ≤ S100000x128.size a := fun v2555 k0_hw198 => k0_hw198

def k0_off199 (v2574 : BitVec 32) : Fin 2 → Nat :=
  let c0_i32_1784 : BitVec 32 := 0#32
  ![v2574.toNat, 0]

def k0_chk199 (v2574 : BitVec 32) : Prop :=
  (∀ a, (k0_off199 v2574) a + S1x128.size a ≤ S100000x128.size a)
instance k0_chk199.dec : ∀ (v2574 : BitVec 32), Decidable (k0_chk199 v2574) := fun v2574 => decidable_of_iff' _ (Iff.of_eq (k0_chk199.eq_1 v2574))
theorem k0_off199_inb : ∀ (v2574 : BitVec 32) (k0_hw199 : k0_chk199 v2574), ∀ a, (k0_off199 v2574) a + S1x128.size a ≤ S100000x128.size a := fun v2574 k0_hw199 => k0_hw199

def k0_off200 (v2581 : BitVec 32) : Fin 2 → Nat :=
  let c0_i32_1789 : BitVec 32 := 0#32
  ![v2581.toNat, 0]

def k0_chk200 (v2581 : BitVec 32) : Prop :=
  (∀ a, (k0_off200 v2581) a + S1x128.size a ≤ S100000x128.size a)
instance k0_chk200.dec : ∀ (v2581 : BitVec 32), Decidable (k0_chk200 v2581) := fun v2581 => decidable_of_iff' _ (Iff.of_eq (k0_chk200.eq_1 v2581))
theorem k0_off200_inb : ∀ (v2581 : BitVec 32) (k0_hw200 : k0_chk200 v2581), ∀ a, (k0_off200 v2581) a + S1x128.size a ≤ S100000x128.size a := fun v2581 k0_hw200 => k0_hw200

def k0_off201 (v2600 : BitVec 32) : Fin 2 → Nat :=
  let c0_i32_1802 : BitVec 32 := 0#32
  ![v2600.toNat, 0]

def k0_chk201 (v2600 : BitVec 32) : Prop :=
  (∀ a, (k0_off201 v2600) a + S1x128.size a ≤ S100000x128.size a)
instance k0_chk201.dec : ∀ (v2600 : BitVec 32), Decidable (k0_chk201 v2600) := fun v2600 => decidable_of_iff' _ (Iff.of_eq (k0_chk201.eq_1 v2600))
theorem k0_off201_inb : ∀ (v2600 : BitVec 32) (k0_hw201 : k0_chk201 v2600), ∀ a, (k0_off201 v2600) a + S1x128.size a ≤ S100000x128.size a := fun v2600 k0_hw201 => k0_hw201

def k0_off202 (v2607 : BitVec 32) : Fin 2 → Nat :=
  let c0_i32_1807 : BitVec 32 := 0#32
  ![v2607.toNat, 0]

def k0_chk202 (v2607 : BitVec 32) : Prop :=
  (∀ a, (k0_off202 v2607) a + S1x128.size a ≤ S100000x128.size a)
instance k0_chk202.dec : ∀ (v2607 : BitVec 32), Decidable (k0_chk202 v2607) := fun v2607 => decidable_of_iff' _ (Iff.of_eq (k0_chk202.eq_1 v2607))
theorem k0_off202_inb : ∀ (v2607 : BitVec 32) (k0_hw202 : k0_chk202 v2607), ∀ a, (k0_off202 v2607) a + S1x128.size a ≤ S100000x128.size a := fun v2607 k0_hw202 => k0_hw202

def k0_off203 (v2626 : BitVec 32) : Fin 2 → Nat :=
  let c0_i32_1820 : BitVec 32 := 0#32
  ![v2626.toNat, 0]

def k0_chk203 (v2626 : BitVec 32) : Prop :=
  (∀ a, (k0_off203 v2626) a + S1x128.size a ≤ S100000x128.size a)
instance k0_chk203.dec : ∀ (v2626 : BitVec 32), Decidable (k0_chk203 v2626) := fun v2626 => decidable_of_iff' _ (Iff.of_eq (k0_chk203.eq_1 v2626))
theorem k0_off203_inb : ∀ (v2626 : BitVec 32) (k0_hw203 : k0_chk203 v2626), ∀ a, (k0_off203 v2626) a + S1x128.size a ≤ S100000x128.size a := fun v2626 k0_hw203 => k0_hw203

def k0_off204 (v2633 : BitVec 32) : Fin 2 → Nat :=
  let c0_i32_1825 : BitVec 32 := 0#32
  ![v2633.toNat, 0]

def k0_chk204 (v2633 : BitVec 32) : Prop :=
  (∀ a, (k0_off204 v2633) a + S1x128.size a ≤ S100000x128.size a)
instance k0_chk204.dec : ∀ (v2633 : BitVec 32), Decidable (k0_chk204 v2633) := fun v2633 => decidable_of_iff' _ (Iff.of_eq (k0_chk204.eq_1 v2633))
theorem k0_off204_inb : ∀ (v2633 : BitVec 32) (k0_hw204 : k0_chk204 v2633), ∀ a, (k0_off204 v2633) a + S1x128.size a ≤ S100000x128.size a := fun v2633 k0_hw204 => k0_hw204

def k0_off205 (v2652 : BitVec 32) : Fin 2 → Nat :=
  let c0_i32_1838 : BitVec 32 := 0#32
  ![v2652.toNat, 0]

def k0_chk205 (v2652 : BitVec 32) : Prop :=
  (∀ a, (k0_off205 v2652) a + S1x128.size a ≤ S100000x128.size a)
instance k0_chk205.dec : ∀ (v2652 : BitVec 32), Decidable (k0_chk205 v2652) := fun v2652 => decidable_of_iff' _ (Iff.of_eq (k0_chk205.eq_1 v2652))
theorem k0_off205_inb : ∀ (v2652 : BitVec 32) (k0_hw205 : k0_chk205 v2652), ∀ a, (k0_off205 v2652) a + S1x128.size a ≤ S100000x128.size a := fun v2652 k0_hw205 => k0_hw205

def k0_off206 (v2659 : BitVec 32) : Fin 2 → Nat :=
  let c0_i32_1843 : BitVec 32 := 0#32
  ![v2659.toNat, 0]

def k0_chk206 (v2659 : BitVec 32) : Prop :=
  (∀ a, (k0_off206 v2659) a + S1x128.size a ≤ S100000x128.size a)
instance k0_chk206.dec : ∀ (v2659 : BitVec 32), Decidable (k0_chk206 v2659) := fun v2659 => decidable_of_iff' _ (Iff.of_eq (k0_chk206.eq_1 v2659))
theorem k0_off206_inb : ∀ (v2659 : BitVec 32) (k0_hw206 : k0_chk206 v2659), ∀ a, (k0_off206 v2659) a + S1x128.size a ≤ S100000x128.size a := fun v2659 k0_hw206 => k0_hw206

def k0_off207 (v2678 : BitVec 32) : Fin 2 → Nat :=
  let c0_i32_1856 : BitVec 32 := 0#32
  ![v2678.toNat, 0]

def k0_chk207 (v2678 : BitVec 32) : Prop :=
  (∀ a, (k0_off207 v2678) a + S1x128.size a ≤ S100000x128.size a)
instance k0_chk207.dec : ∀ (v2678 : BitVec 32), Decidable (k0_chk207 v2678) := fun v2678 => decidable_of_iff' _ (Iff.of_eq (k0_chk207.eq_1 v2678))
theorem k0_off207_inb : ∀ (v2678 : BitVec 32) (k0_hw207 : k0_chk207 v2678), ∀ a, (k0_off207 v2678) a + S1x128.size a ≤ S100000x128.size a := fun v2678 k0_hw207 => k0_hw207

def k0_off208 (v2685 : BitVec 32) : Fin 2 → Nat :=
  let c0_i32_1861 : BitVec 32 := 0#32
  ![v2685.toNat, 0]

def k0_chk208 (v2685 : BitVec 32) : Prop :=
  (∀ a, (k0_off208 v2685) a + S1x128.size a ≤ S100000x128.size a)
instance k0_chk208.dec : ∀ (v2685 : BitVec 32), Decidable (k0_chk208 v2685) := fun v2685 => decidable_of_iff' _ (Iff.of_eq (k0_chk208.eq_1 v2685))
theorem k0_off208_inb : ∀ (v2685 : BitVec 32) (k0_hw208 : k0_chk208 v2685), ∀ a, (k0_off208 v2685) a + S1x128.size a ≤ S100000x128.size a := fun v2685 k0_hw208 => k0_hw208

def k0_off209 (v2704 : BitVec 32) : Fin 2 → Nat :=
  let c0_i32_1874 : BitVec 32 := 0#32
  ![v2704.toNat, 0]

def k0_chk209 (v2704 : BitVec 32) : Prop :=
  (∀ a, (k0_off209 v2704) a + S1x128.size a ≤ S100000x128.size a)
instance k0_chk209.dec : ∀ (v2704 : BitVec 32), Decidable (k0_chk209 v2704) := fun v2704 => decidable_of_iff' _ (Iff.of_eq (k0_chk209.eq_1 v2704))
theorem k0_off209_inb : ∀ (v2704 : BitVec 32) (k0_hw209 : k0_chk209 v2704), ∀ a, (k0_off209 v2704) a + S1x128.size a ≤ S100000x128.size a := fun v2704 k0_hw209 => k0_hw209

def k0_off210 (v2711 : BitVec 32) : Fin 2 → Nat :=
  let c0_i32_1879 : BitVec 32 := 0#32
  ![v2711.toNat, 0]

def k0_chk210 (v2711 : BitVec 32) : Prop :=
  (∀ a, (k0_off210 v2711) a + S1x128.size a ≤ S100000x128.size a)
instance k0_chk210.dec : ∀ (v2711 : BitVec 32), Decidable (k0_chk210 v2711) := fun v2711 => decidable_of_iff' _ (Iff.of_eq (k0_chk210.eq_1 v2711))
theorem k0_off210_inb : ∀ (v2711 : BitVec 32) (k0_hw210 : k0_chk210 v2711), ∀ a, (k0_off210 v2711) a + S1x128.size a ≤ S100000x128.size a := fun v2711 k0_hw210 => k0_hw210

def k0_off211 (v2730 : BitVec 32) : Fin 2 → Nat :=
  let c0_i32_1892 : BitVec 32 := 0#32
  ![v2730.toNat, 0]

def k0_chk211 (v2730 : BitVec 32) : Prop :=
  (∀ a, (k0_off211 v2730) a + S1x128.size a ≤ S100000x128.size a)
instance k0_chk211.dec : ∀ (v2730 : BitVec 32), Decidable (k0_chk211 v2730) := fun v2730 => decidable_of_iff' _ (Iff.of_eq (k0_chk211.eq_1 v2730))
theorem k0_off211_inb : ∀ (v2730 : BitVec 32) (k0_hw211 : k0_chk211 v2730), ∀ a, (k0_off211 v2730) a + S1x128.size a ≤ S100000x128.size a := fun v2730 k0_hw211 => k0_hw211

def k0_off212 (v2737 : BitVec 32) : Fin 2 → Nat :=
  let c0_i32_1897 : BitVec 32 := 0#32
  ![v2737.toNat, 0]

def k0_chk212 (v2737 : BitVec 32) : Prop :=
  (∀ a, (k0_off212 v2737) a + S1x128.size a ≤ S100000x128.size a)
instance k0_chk212.dec : ∀ (v2737 : BitVec 32), Decidable (k0_chk212 v2737) := fun v2737 => decidable_of_iff' _ (Iff.of_eq (k0_chk212.eq_1 v2737))
theorem k0_off212_inb : ∀ (v2737 : BitVec 32) (k0_hw212 : k0_chk212 v2737), ∀ a, (k0_off212 v2737) a + S1x128.size a ≤ S100000x128.size a := fun v2737 k0_hw212 => k0_hw212

def k0_off213 (v2756 : BitVec 32) : Fin 2 → Nat :=
  let c0_i32_1910 : BitVec 32 := 0#32
  ![v2756.toNat, 0]

def k0_chk213 (v2756 : BitVec 32) : Prop :=
  (∀ a, (k0_off213 v2756) a + S1x128.size a ≤ S100000x128.size a)
instance k0_chk213.dec : ∀ (v2756 : BitVec 32), Decidable (k0_chk213 v2756) := fun v2756 => decidable_of_iff' _ (Iff.of_eq (k0_chk213.eq_1 v2756))
theorem k0_off213_inb : ∀ (v2756 : BitVec 32) (k0_hw213 : k0_chk213 v2756), ∀ a, (k0_off213 v2756) a + S1x128.size a ≤ S100000x128.size a := fun v2756 k0_hw213 => k0_hw213

def k0_off214 (v2763 : BitVec 32) : Fin 2 → Nat :=
  let c0_i32_1915 : BitVec 32 := 0#32
  ![v2763.toNat, 0]

def k0_chk214 (v2763 : BitVec 32) : Prop :=
  (∀ a, (k0_off214 v2763) a + S1x128.size a ≤ S100000x128.size a)
instance k0_chk214.dec : ∀ (v2763 : BitVec 32), Decidable (k0_chk214 v2763) := fun v2763 => decidable_of_iff' _ (Iff.of_eq (k0_chk214.eq_1 v2763))
theorem k0_off214_inb : ∀ (v2763 : BitVec 32) (k0_hw214 : k0_chk214 v2763), ∀ a, (k0_off214 v2763) a + S1x128.size a ≤ S100000x128.size a := fun v2763 k0_hw214 => k0_hw214

def k0_off215 (v2782 : BitVec 32) : Fin 2 → Nat :=
  let c0_i32_1928 : BitVec 32 := 0#32
  ![v2782.toNat, 0]

def k0_chk215 (v2782 : BitVec 32) : Prop :=
  (∀ a, (k0_off215 v2782) a + S1x128.size a ≤ S100000x128.size a)
instance k0_chk215.dec : ∀ (v2782 : BitVec 32), Decidable (k0_chk215 v2782) := fun v2782 => decidable_of_iff' _ (Iff.of_eq (k0_chk215.eq_1 v2782))
theorem k0_off215_inb : ∀ (v2782 : BitVec 32) (k0_hw215 : k0_chk215 v2782), ∀ a, (k0_off215 v2782) a + S1x128.size a ≤ S100000x128.size a := fun v2782 k0_hw215 => k0_hw215

def k0_off216 (v2789 : BitVec 32) : Fin 2 → Nat :=
  let c0_i32_1933 : BitVec 32 := 0#32
  ![v2789.toNat, 0]

def k0_chk216 (v2789 : BitVec 32) : Prop :=
  (∀ a, (k0_off216 v2789) a + S1x128.size a ≤ S100000x128.size a)
instance k0_chk216.dec : ∀ (v2789 : BitVec 32), Decidable (k0_chk216 v2789) := fun v2789 => decidable_of_iff' _ (Iff.of_eq (k0_chk216.eq_1 v2789))
theorem k0_off216_inb : ∀ (v2789 : BitVec 32) (k0_hw216 : k0_chk216 v2789), ∀ a, (k0_off216 v2789) a + S1x128.size a ≤ S100000x128.size a := fun v2789 k0_hw216 => k0_hw216

def k0_off217 (v2808 : BitVec 32) : Fin 2 → Nat :=
  let c0_i32_1946 : BitVec 32 := 0#32
  ![v2808.toNat, 0]

def k0_chk217 (v2808 : BitVec 32) : Prop :=
  (∀ a, (k0_off217 v2808) a + S1x128.size a ≤ S100000x128.size a)
instance k0_chk217.dec : ∀ (v2808 : BitVec 32), Decidable (k0_chk217 v2808) := fun v2808 => decidable_of_iff' _ (Iff.of_eq (k0_chk217.eq_1 v2808))
theorem k0_off217_inb : ∀ (v2808 : BitVec 32) (k0_hw217 : k0_chk217 v2808), ∀ a, (k0_off217 v2808) a + S1x128.size a ≤ S100000x128.size a := fun v2808 k0_hw217 => k0_hw217

def k0_off218 (v2815 : BitVec 32) : Fin 2 → Nat :=
  let c0_i32_1951 : BitVec 32 := 0#32
  ![v2815.toNat, 0]

def k0_chk218 (v2815 : BitVec 32) : Prop :=
  (∀ a, (k0_off218 v2815) a + S1x128.size a ≤ S100000x128.size a)
instance k0_chk218.dec : ∀ (v2815 : BitVec 32), Decidable (k0_chk218 v2815) := fun v2815 => decidable_of_iff' _ (Iff.of_eq (k0_chk218.eq_1 v2815))
theorem k0_off218_inb : ∀ (v2815 : BitVec 32) (k0_hw218 : k0_chk218 v2815), ∀ a, (k0_off218 v2815) a + S1x128.size a ≤ S100000x128.size a := fun v2815 k0_hw218 => k0_hw218

def k0_off219 (v2834 : BitVec 32) : Fin 2 → Nat :=
  let c0_i32_1964 : BitVec 32 := 0#32
  ![v2834.toNat, 0]

def k0_chk219 (v2834 : BitVec 32) : Prop :=
  (∀ a, (k0_off219 v2834) a + S1x128.size a ≤ S100000x128.size a)
instance k0_chk219.dec : ∀ (v2834 : BitVec 32), Decidable (k0_chk219 v2834) := fun v2834 => decidable_of_iff' _ (Iff.of_eq (k0_chk219.eq_1 v2834))
theorem k0_off219_inb : ∀ (v2834 : BitVec 32) (k0_hw219 : k0_chk219 v2834), ∀ a, (k0_off219 v2834) a + S1x128.size a ≤ S100000x128.size a := fun v2834 k0_hw219 => k0_hw219

def k0_off220 (v2841 : BitVec 32) : Fin 2 → Nat :=
  let c0_i32_1969 : BitVec 32 := 0#32
  ![v2841.toNat, 0]

def k0_chk220 (v2841 : BitVec 32) : Prop :=
  (∀ a, (k0_off220 v2841) a + S1x128.size a ≤ S100000x128.size a)
instance k0_chk220.dec : ∀ (v2841 : BitVec 32), Decidable (k0_chk220 v2841) := fun v2841 => decidable_of_iff' _ (Iff.of_eq (k0_chk220.eq_1 v2841))
theorem k0_off220_inb : ∀ (v2841 : BitVec 32) (k0_hw220 : k0_chk220 v2841), ∀ a, (k0_off220 v2841) a + S1x128.size a ≤ S100000x128.size a := fun v2841 k0_hw220 => k0_hw220

def k0_off221 (v2860 : BitVec 32) : Fin 2 → Nat :=
  let c0_i32_1982 : BitVec 32 := 0#32
  ![v2860.toNat, 0]

def k0_chk221 (v2860 : BitVec 32) : Prop :=
  (∀ a, (k0_off221 v2860) a + S1x128.size a ≤ S100000x128.size a)
instance k0_chk221.dec : ∀ (v2860 : BitVec 32), Decidable (k0_chk221 v2860) := fun v2860 => decidable_of_iff' _ (Iff.of_eq (k0_chk221.eq_1 v2860))
theorem k0_off221_inb : ∀ (v2860 : BitVec 32) (k0_hw221 : k0_chk221 v2860), ∀ a, (k0_off221 v2860) a + S1x128.size a ≤ S100000x128.size a := fun v2860 k0_hw221 => k0_hw221

def k0_off222 (v2867 : BitVec 32) : Fin 2 → Nat :=
  let c0_i32_1987 : BitVec 32 := 0#32
  ![v2867.toNat, 0]

def k0_chk222 (v2867 : BitVec 32) : Prop :=
  (∀ a, (k0_off222 v2867) a + S1x128.size a ≤ S100000x128.size a)
instance k0_chk222.dec : ∀ (v2867 : BitVec 32), Decidable (k0_chk222 v2867) := fun v2867 => decidable_of_iff' _ (Iff.of_eq (k0_chk222.eq_1 v2867))
theorem k0_off222_inb : ∀ (v2867 : BitVec 32) (k0_hw222 : k0_chk222 v2867), ∀ a, (k0_off222 v2867) a + S1x128.size a ≤ S100000x128.size a := fun v2867 k0_hw222 => k0_hw222

def k0_off223 (v2886 : BitVec 32) : Fin 2 → Nat :=
  let c0_i32_2000 : BitVec 32 := 0#32
  ![v2886.toNat, 0]

def k0_chk223 (v2886 : BitVec 32) : Prop :=
  (∀ a, (k0_off223 v2886) a + S1x128.size a ≤ S100000x128.size a)
instance k0_chk223.dec : ∀ (v2886 : BitVec 32), Decidable (k0_chk223 v2886) := fun v2886 => decidable_of_iff' _ (Iff.of_eq (k0_chk223.eq_1 v2886))
theorem k0_off223_inb : ∀ (v2886 : BitVec 32) (k0_hw223 : k0_chk223 v2886), ∀ a, (k0_off223 v2886) a + S1x128.size a ≤ S100000x128.size a := fun v2886 k0_hw223 => k0_hw223

def k0_off224 (v2893 : BitVec 32) : Fin 2 → Nat :=
  let c0_i32_2005 : BitVec 32 := 0#32
  ![v2893.toNat, 0]

def k0_chk224 (v2893 : BitVec 32) : Prop :=
  (∀ a, (k0_off224 v2893) a + S1x128.size a ≤ S100000x128.size a)
instance k0_chk224.dec : ∀ (v2893 : BitVec 32), Decidable (k0_chk224 v2893) := fun v2893 => decidable_of_iff' _ (Iff.of_eq (k0_chk224.eq_1 v2893))
theorem k0_off224_inb : ∀ (v2893 : BitVec 32) (k0_hw224 : k0_chk224 v2893), ∀ a, (k0_off224 v2893) a + S1x128.size a ≤ S100000x128.size a := fun v2893 k0_hw224 => k0_hw224

def k0_off225 (v2912 : BitVec 32) : Fin 2 → Nat :=
  let c0_i32_2018 : BitVec 32 := 0#32
  ![v2912.toNat, 0]

def k0_chk225 (v2912 : BitVec 32) : Prop :=
  (∀ a, (k0_off225 v2912) a + S1x128.size a ≤ S100000x128.size a)
instance k0_chk225.dec : ∀ (v2912 : BitVec 32), Decidable (k0_chk225 v2912) := fun v2912 => decidable_of_iff' _ (Iff.of_eq (k0_chk225.eq_1 v2912))
theorem k0_off225_inb : ∀ (v2912 : BitVec 32) (k0_hw225 : k0_chk225 v2912), ∀ a, (k0_off225 v2912) a + S1x128.size a ≤ S100000x128.size a := fun v2912 k0_hw225 => k0_hw225

def k0_off226 (v2919 : BitVec 32) : Fin 2 → Nat :=
  let c0_i32_2023 : BitVec 32 := 0#32
  ![v2919.toNat, 0]

def k0_chk226 (v2919 : BitVec 32) : Prop :=
  (∀ a, (k0_off226 v2919) a + S1x128.size a ≤ S100000x128.size a)
instance k0_chk226.dec : ∀ (v2919 : BitVec 32), Decidable (k0_chk226 v2919) := fun v2919 => decidable_of_iff' _ (Iff.of_eq (k0_chk226.eq_1 v2919))
theorem k0_off226_inb : ∀ (v2919 : BitVec 32) (k0_hw226 : k0_chk226 v2919), ∀ a, (k0_off226 v2919) a + S1x128.size a ≤ S100000x128.size a := fun v2919 k0_hw226 => k0_hw226

def k0_off227 (v2938 : BitVec 32) : Fin 2 → Nat :=
  let c0_i32_2036 : BitVec 32 := 0#32
  ![v2938.toNat, 0]

def k0_chk227 (v2938 : BitVec 32) : Prop :=
  (∀ a, (k0_off227 v2938) a + S1x128.size a ≤ S100000x128.size a)
instance k0_chk227.dec : ∀ (v2938 : BitVec 32), Decidable (k0_chk227 v2938) := fun v2938 => decidable_of_iff' _ (Iff.of_eq (k0_chk227.eq_1 v2938))
theorem k0_off227_inb : ∀ (v2938 : BitVec 32) (k0_hw227 : k0_chk227 v2938), ∀ a, (k0_off227 v2938) a + S1x128.size a ≤ S100000x128.size a := fun v2938 k0_hw227 => k0_hw227

def k0_off228 (v2945 : BitVec 32) : Fin 2 → Nat :=
  let c0_i32_2041 : BitVec 32 := 0#32
  ![v2945.toNat, 0]

def k0_chk228 (v2945 : BitVec 32) : Prop :=
  (∀ a, (k0_off228 v2945) a + S1x128.size a ≤ S100000x128.size a)
instance k0_chk228.dec : ∀ (v2945 : BitVec 32), Decidable (k0_chk228 v2945) := fun v2945 => decidable_of_iff' _ (Iff.of_eq (k0_chk228.eq_1 v2945))
theorem k0_off228_inb : ∀ (v2945 : BitVec 32) (k0_hw228 : k0_chk228 v2945), ∀ a, (k0_off228 v2945) a + S1x128.size a ≤ S100000x128.size a := fun v2945 k0_hw228 => k0_hw228

def k0_off229 (v2964 : BitVec 32) : Fin 2 → Nat :=
  let c0_i32_2054 : BitVec 32 := 0#32
  ![v2964.toNat, 0]

def k0_chk229 (v2964 : BitVec 32) : Prop :=
  (∀ a, (k0_off229 v2964) a + S1x128.size a ≤ S100000x128.size a)
instance k0_chk229.dec : ∀ (v2964 : BitVec 32), Decidable (k0_chk229 v2964) := fun v2964 => decidable_of_iff' _ (Iff.of_eq (k0_chk229.eq_1 v2964))
theorem k0_off229_inb : ∀ (v2964 : BitVec 32) (k0_hw229 : k0_chk229 v2964), ∀ a, (k0_off229 v2964) a + S1x128.size a ≤ S100000x128.size a := fun v2964 k0_hw229 => k0_hw229

def k0_off230 (v2971 : BitVec 32) : Fin 2 → Nat :=
  let c0_i32_2059 : BitVec 32 := 0#32
  ![v2971.toNat, 0]

def k0_chk230 (v2971 : BitVec 32) : Prop :=
  (∀ a, (k0_off230 v2971) a + S1x128.size a ≤ S100000x128.size a)
instance k0_chk230.dec : ∀ (v2971 : BitVec 32), Decidable (k0_chk230 v2971) := fun v2971 => decidable_of_iff' _ (Iff.of_eq (k0_chk230.eq_1 v2971))
theorem k0_off230_inb : ∀ (v2971 : BitVec 32) (k0_hw230 : k0_chk230 v2971), ∀ a, (k0_off230 v2971) a + S1x128.size a ≤ S100000x128.size a := fun v2971 k0_hw230 => k0_hw230

def k0_off231 (v2990 : BitVec 32) : Fin 2 → Nat :=
  let c0_i32_2072 : BitVec 32 := 0#32
  ![v2990.toNat, 0]

def k0_chk231 (v2990 : BitVec 32) : Prop :=
  (∀ a, (k0_off231 v2990) a + S1x128.size a ≤ S100000x128.size a)
instance k0_chk231.dec : ∀ (v2990 : BitVec 32), Decidable (k0_chk231 v2990) := fun v2990 => decidable_of_iff' _ (Iff.of_eq (k0_chk231.eq_1 v2990))
theorem k0_off231_inb : ∀ (v2990 : BitVec 32) (k0_hw231 : k0_chk231 v2990), ∀ a, (k0_off231 v2990) a + S1x128.size a ≤ S100000x128.size a := fun v2990 k0_hw231 => k0_hw231

def k0_off232 (v2997 : BitVec 32) : Fin 2 → Nat :=
  let c0_i32_2077 : BitVec 32 := 0#32
  ![v2997.toNat, 0]

def k0_chk232 (v2997 : BitVec 32) : Prop :=
  (∀ a, (k0_off232 v2997) a + S1x128.size a ≤ S100000x128.size a)
instance k0_chk232.dec : ∀ (v2997 : BitVec 32), Decidable (k0_chk232 v2997) := fun v2997 => decidable_of_iff' _ (Iff.of_eq (k0_chk232.eq_1 v2997))
theorem k0_off232_inb : ∀ (v2997 : BitVec 32) (k0_hw232 : k0_chk232 v2997), ∀ a, (k0_off232 v2997) a + S1x128.size a ≤ S100000x128.size a := fun v2997 k0_hw232 => k0_hw232

def k0_off233 (v3016 : BitVec 32) : Fin 2 → Nat :=
  let c0_i32_2090 : BitVec 32 := 0#32
  ![v3016.toNat, 0]

def k0_chk233 (v3016 : BitVec 32) : Prop :=
  (∀ a, (k0_off233 v3016) a + S1x128.size a ≤ S100000x128.size a)
instance k0_chk233.dec : ∀ (v3016 : BitVec 32), Decidable (k0_chk233 v3016) := fun v3016 => decidable_of_iff' _ (Iff.of_eq (k0_chk233.eq_1 v3016))
theorem k0_off233_inb : ∀ (v3016 : BitVec 32) (k0_hw233 : k0_chk233 v3016), ∀ a, (k0_off233 v3016) a + S1x128.size a ≤ S100000x128.size a := fun v3016 k0_hw233 => k0_hw233

def k0_off234 (v3023 : BitVec 32) : Fin 2 → Nat :=
  let c0_i32_2095 : BitVec 32 := 0#32
  ![v3023.toNat, 0]

def k0_chk234 (v3023 : BitVec 32) : Prop :=
  (∀ a, (k0_off234 v3023) a + S1x128.size a ≤ S100000x128.size a)
instance k0_chk234.dec : ∀ (v3023 : BitVec 32), Decidable (k0_chk234 v3023) := fun v3023 => decidable_of_iff' _ (Iff.of_eq (k0_chk234.eq_1 v3023))
theorem k0_off234_inb : ∀ (v3023 : BitVec 32) (k0_hw234 : k0_chk234 v3023), ∀ a, (k0_off234 v3023) a + S1x128.size a ≤ S100000x128.size a := fun v3023 k0_hw234 => k0_hw234

def k0_off235 (v3042 : BitVec 32) : Fin 2 → Nat :=
  let c0_i32_2108 : BitVec 32 := 0#32
  ![v3042.toNat, 0]

def k0_chk235 (v3042 : BitVec 32) : Prop :=
  (∀ a, (k0_off235 v3042) a + S1x128.size a ≤ S100000x128.size a)
instance k0_chk235.dec : ∀ (v3042 : BitVec 32), Decidable (k0_chk235 v3042) := fun v3042 => decidable_of_iff' _ (Iff.of_eq (k0_chk235.eq_1 v3042))
theorem k0_off235_inb : ∀ (v3042 : BitVec 32) (k0_hw235 : k0_chk235 v3042), ∀ a, (k0_off235 v3042) a + S1x128.size a ≤ S100000x128.size a := fun v3042 k0_hw235 => k0_hw235

def k0_off236 (v3049 : BitVec 32) : Fin 2 → Nat :=
  let c0_i32_2113 : BitVec 32 := 0#32
  ![v3049.toNat, 0]

def k0_chk236 (v3049 : BitVec 32) : Prop :=
  (∀ a, (k0_off236 v3049) a + S1x128.size a ≤ S100000x128.size a)
instance k0_chk236.dec : ∀ (v3049 : BitVec 32), Decidable (k0_chk236 v3049) := fun v3049 => decidable_of_iff' _ (Iff.of_eq (k0_chk236.eq_1 v3049))
theorem k0_off236_inb : ∀ (v3049 : BitVec 32) (k0_hw236 : k0_chk236 v3049), ∀ a, (k0_off236 v3049) a + S1x128.size a ≤ S100000x128.size a := fun v3049 k0_hw236 => k0_hw236

def k0_off237 (v3068 : BitVec 32) : Fin 2 → Nat :=
  let c0_i32_2126 : BitVec 32 := 0#32
  ![v3068.toNat, 0]

def k0_chk237 (v3068 : BitVec 32) : Prop :=
  (∀ a, (k0_off237 v3068) a + S1x128.size a ≤ S100000x128.size a)
instance k0_chk237.dec : ∀ (v3068 : BitVec 32), Decidable (k0_chk237 v3068) := fun v3068 => decidable_of_iff' _ (Iff.of_eq (k0_chk237.eq_1 v3068))
theorem k0_off237_inb : ∀ (v3068 : BitVec 32) (k0_hw237 : k0_chk237 v3068), ∀ a, (k0_off237 v3068) a + S1x128.size a ≤ S100000x128.size a := fun v3068 k0_hw237 => k0_hw237

def k0_off238 (v3075 : BitVec 32) : Fin 2 → Nat :=
  let c0_i32_2131 : BitVec 32 := 0#32
  ![v3075.toNat, 0]

def k0_chk238 (v3075 : BitVec 32) : Prop :=
  (∀ a, (k0_off238 v3075) a + S1x128.size a ≤ S100000x128.size a)
instance k0_chk238.dec : ∀ (v3075 : BitVec 32), Decidable (k0_chk238 v3075) := fun v3075 => decidable_of_iff' _ (Iff.of_eq (k0_chk238.eq_1 v3075))
theorem k0_off238_inb : ∀ (v3075 : BitVec 32) (k0_hw238 : k0_chk238 v3075), ∀ a, (k0_off238 v3075) a + S1x128.size a ≤ S100000x128.size a := fun v3075 k0_hw238 => k0_hw238

def k0_off239 (v3094 : BitVec 32) : Fin 2 → Nat :=
  let c0_i32_2144 : BitVec 32 := 0#32
  ![v3094.toNat, 0]

def k0_chk239 (v3094 : BitVec 32) : Prop :=
  (∀ a, (k0_off239 v3094) a + S1x128.size a ≤ S100000x128.size a)
instance k0_chk239.dec : ∀ (v3094 : BitVec 32), Decidable (k0_chk239 v3094) := fun v3094 => decidable_of_iff' _ (Iff.of_eq (k0_chk239.eq_1 v3094))
theorem k0_off239_inb : ∀ (v3094 : BitVec 32) (k0_hw239 : k0_chk239 v3094), ∀ a, (k0_off239 v3094) a + S1x128.size a ≤ S100000x128.size a := fun v3094 k0_hw239 => k0_hw239

def k0_off240 (v3101 : BitVec 32) : Fin 2 → Nat :=
  let c0_i32_2149 : BitVec 32 := 0#32
  ![v3101.toNat, 0]

def k0_chk240 (v3101 : BitVec 32) : Prop :=
  (∀ a, (k0_off240 v3101) a + S1x128.size a ≤ S100000x128.size a)
instance k0_chk240.dec : ∀ (v3101 : BitVec 32), Decidable (k0_chk240 v3101) := fun v3101 => decidable_of_iff' _ (Iff.of_eq (k0_chk240.eq_1 v3101))
theorem k0_off240_inb : ∀ (v3101 : BitVec 32) (k0_hw240 : k0_chk240 v3101), ∀ a, (k0_off240 v3101) a + S1x128.size a ≤ S100000x128.size a := fun v3101 k0_hw240 => k0_hw240

def k0_off241 (v3120 : BitVec 32) : Fin 2 → Nat :=
  let c0_i32_2162 : BitVec 32 := 0#32
  ![v3120.toNat, 0]

def k0_chk241 (v3120 : BitVec 32) : Prop :=
  (∀ a, (k0_off241 v3120) a + S1x128.size a ≤ S100000x128.size a)
instance k0_chk241.dec : ∀ (v3120 : BitVec 32), Decidable (k0_chk241 v3120) := fun v3120 => decidable_of_iff' _ (Iff.of_eq (k0_chk241.eq_1 v3120))
theorem k0_off241_inb : ∀ (v3120 : BitVec 32) (k0_hw241 : k0_chk241 v3120), ∀ a, (k0_off241 v3120) a + S1x128.size a ≤ S100000x128.size a := fun v3120 k0_hw241 => k0_hw241

def k0_off242 (v3127 : BitVec 32) : Fin 2 → Nat :=
  let c0_i32_2167 : BitVec 32 := 0#32
  ![v3127.toNat, 0]

def k0_chk242 (v3127 : BitVec 32) : Prop :=
  (∀ a, (k0_off242 v3127) a + S1x128.size a ≤ S100000x128.size a)
instance k0_chk242.dec : ∀ (v3127 : BitVec 32), Decidable (k0_chk242 v3127) := fun v3127 => decidable_of_iff' _ (Iff.of_eq (k0_chk242.eq_1 v3127))
theorem k0_off242_inb : ∀ (v3127 : BitVec 32) (k0_hw242 : k0_chk242 v3127), ∀ a, (k0_off242 v3127) a + S1x128.size a ≤ S100000x128.size a := fun v3127 k0_hw242 => k0_hw242

def k0_off243 (v3146 : BitVec 32) : Fin 2 → Nat :=
  let c0_i32_2180 : BitVec 32 := 0#32
  ![v3146.toNat, 0]

def k0_chk243 (v3146 : BitVec 32) : Prop :=
  (∀ a, (k0_off243 v3146) a + S1x128.size a ≤ S100000x128.size a)
instance k0_chk243.dec : ∀ (v3146 : BitVec 32), Decidable (k0_chk243 v3146) := fun v3146 => decidable_of_iff' _ (Iff.of_eq (k0_chk243.eq_1 v3146))
theorem k0_off243_inb : ∀ (v3146 : BitVec 32) (k0_hw243 : k0_chk243 v3146), ∀ a, (k0_off243 v3146) a + S1x128.size a ≤ S100000x128.size a := fun v3146 k0_hw243 => k0_hw243

def k0_off244 (v3153 : BitVec 32) : Fin 2 → Nat :=
  let c0_i32_2185 : BitVec 32 := 0#32
  ![v3153.toNat, 0]

def k0_chk244 (v3153 : BitVec 32) : Prop :=
  (∀ a, (k0_off244 v3153) a + S1x128.size a ≤ S100000x128.size a)
instance k0_chk244.dec : ∀ (v3153 : BitVec 32), Decidable (k0_chk244 v3153) := fun v3153 => decidable_of_iff' _ (Iff.of_eq (k0_chk244.eq_1 v3153))
theorem k0_off244_inb : ∀ (v3153 : BitVec 32) (k0_hw244 : k0_chk244 v3153), ∀ a, (k0_off244 v3153) a + S1x128.size a ≤ S100000x128.size a := fun v3153 k0_hw244 => k0_hw244

def k0_off245 (v3172 : BitVec 32) : Fin 2 → Nat :=
  let c0_i32_2198 : BitVec 32 := 0#32
  ![v3172.toNat, 0]

def k0_chk245 (v3172 : BitVec 32) : Prop :=
  (∀ a, (k0_off245 v3172) a + S1x128.size a ≤ S100000x128.size a)
instance k0_chk245.dec : ∀ (v3172 : BitVec 32), Decidable (k0_chk245 v3172) := fun v3172 => decidable_of_iff' _ (Iff.of_eq (k0_chk245.eq_1 v3172))
theorem k0_off245_inb : ∀ (v3172 : BitVec 32) (k0_hw245 : k0_chk245 v3172), ∀ a, (k0_off245 v3172) a + S1x128.size a ≤ S100000x128.size a := fun v3172 k0_hw245 => k0_hw245

def k0_off246 (v3179 : BitVec 32) : Fin 2 → Nat :=
  let c0_i32_2203 : BitVec 32 := 0#32
  ![v3179.toNat, 0]

def k0_chk246 (v3179 : BitVec 32) : Prop :=
  (∀ a, (k0_off246 v3179) a + S1x128.size a ≤ S100000x128.size a)
instance k0_chk246.dec : ∀ (v3179 : BitVec 32), Decidable (k0_chk246 v3179) := fun v3179 => decidable_of_iff' _ (Iff.of_eq (k0_chk246.eq_1 v3179))
theorem k0_off246_inb : ∀ (v3179 : BitVec 32) (k0_hw246 : k0_chk246 v3179), ∀ a, (k0_off246 v3179) a + S1x128.size a ≤ S100000x128.size a := fun v3179 k0_hw246 => k0_hw246

def k0_off247 (v3198 : BitVec 32) : Fin 2 → Nat :=
  let c0_i32_2216 : BitVec 32 := 0#32
  ![v3198.toNat, 0]

def k0_chk247 (v3198 : BitVec 32) : Prop :=
  (∀ a, (k0_off247 v3198) a + S1x128.size a ≤ S100000x128.size a)
instance k0_chk247.dec : ∀ (v3198 : BitVec 32), Decidable (k0_chk247 v3198) := fun v3198 => decidable_of_iff' _ (Iff.of_eq (k0_chk247.eq_1 v3198))
theorem k0_off247_inb : ∀ (v3198 : BitVec 32) (k0_hw247 : k0_chk247 v3198), ∀ a, (k0_off247 v3198) a + S1x128.size a ≤ S100000x128.size a := fun v3198 k0_hw247 => k0_hw247

def k0_off248 (v3205 : BitVec 32) : Fin 2 → Nat :=
  let c0_i32_2221 : BitVec 32 := 0#32
  ![v3205.toNat, 0]

def k0_chk248 (v3205 : BitVec 32) : Prop :=
  (∀ a, (k0_off248 v3205) a + S1x128.size a ≤ S100000x128.size a)
instance k0_chk248.dec : ∀ (v3205 : BitVec 32), Decidable (k0_chk248 v3205) := fun v3205 => decidable_of_iff' _ (Iff.of_eq (k0_chk248.eq_1 v3205))
theorem k0_off248_inb : ∀ (v3205 : BitVec 32) (k0_hw248 : k0_chk248 v3205), ∀ a, (k0_off248 v3205) a + S1x128.size a ≤ S100000x128.size a := fun v3205 k0_hw248 => k0_hw248

def k0_off249 (v3224 : BitVec 32) : Fin 2 → Nat :=
  let c0_i32_2234 : BitVec 32 := 0#32
  ![v3224.toNat, 0]

def k0_chk249 (v3224 : BitVec 32) : Prop :=
  (∀ a, (k0_off249 v3224) a + S1x128.size a ≤ S100000x128.size a)
instance k0_chk249.dec : ∀ (v3224 : BitVec 32), Decidable (k0_chk249 v3224) := fun v3224 => decidable_of_iff' _ (Iff.of_eq (k0_chk249.eq_1 v3224))
theorem k0_off249_inb : ∀ (v3224 : BitVec 32) (k0_hw249 : k0_chk249 v3224), ∀ a, (k0_off249 v3224) a + S1x128.size a ≤ S100000x128.size a := fun v3224 k0_hw249 => k0_hw249

def k0_off250 (v3231 : BitVec 32) : Fin 2 → Nat :=
  let c0_i32_2239 : BitVec 32 := 0#32
  ![v3231.toNat, 0]

def k0_chk250 (v3231 : BitVec 32) : Prop :=
  (∀ a, (k0_off250 v3231) a + S1x128.size a ≤ S100000x128.size a)
instance k0_chk250.dec : ∀ (v3231 : BitVec 32), Decidable (k0_chk250 v3231) := fun v3231 => decidable_of_iff' _ (Iff.of_eq (k0_chk250.eq_1 v3231))
theorem k0_off250_inb : ∀ (v3231 : BitVec 32) (k0_hw250 : k0_chk250 v3231), ∀ a, (k0_off250 v3231) a + S1x128.size a ≤ S100000x128.size a := fun v3231 k0_hw250 => k0_hw250

def k0_off251 (v3250 : BitVec 32) : Fin 2 → Nat :=
  let c0_i32_2252 : BitVec 32 := 0#32
  ![v3250.toNat, 0]

def k0_chk251 (v3250 : BitVec 32) : Prop :=
  (∀ a, (k0_off251 v3250) a + S1x128.size a ≤ S100000x128.size a)
instance k0_chk251.dec : ∀ (v3250 : BitVec 32), Decidable (k0_chk251 v3250) := fun v3250 => decidable_of_iff' _ (Iff.of_eq (k0_chk251.eq_1 v3250))
theorem k0_off251_inb : ∀ (v3250 : BitVec 32) (k0_hw251 : k0_chk251 v3250), ∀ a, (k0_off251 v3250) a + S1x128.size a ≤ S100000x128.size a := fun v3250 k0_hw251 => k0_hw251

def k0_off252 (v3257 : BitVec 32) : Fin 2 → Nat :=
  let c0_i32_2257 : BitVec 32 := 0#32
  ![v3257.toNat, 0]

def k0_chk252 (v3257 : BitVec 32) : Prop :=
  (∀ a, (k0_off252 v3257) a + S1x128.size a ≤ S100000x128.size a)
instance k0_chk252.dec : ∀ (v3257 : BitVec 32), Decidable (k0_chk252 v3257) := fun v3257 => decidable_of_iff' _ (Iff.of_eq (k0_chk252.eq_1 v3257))
theorem k0_off252_inb : ∀ (v3257 : BitVec 32) (k0_hw252 : k0_chk252 v3257), ∀ a, (k0_off252 v3257) a + S1x128.size a ≤ S100000x128.size a := fun v3257 k0_hw252 => k0_hw252

def k0_off253 (v3276 : BitVec 32) : Fin 2 → Nat :=
  let c0_i32_2270 : BitVec 32 := 0#32
  ![v3276.toNat, 0]

def k0_chk253 (v3276 : BitVec 32) : Prop :=
  (∀ a, (k0_off253 v3276) a + S1x128.size a ≤ S100000x128.size a)
instance k0_chk253.dec : ∀ (v3276 : BitVec 32), Decidable (k0_chk253 v3276) := fun v3276 => decidable_of_iff' _ (Iff.of_eq (k0_chk253.eq_1 v3276))
theorem k0_off253_inb : ∀ (v3276 : BitVec 32) (k0_hw253 : k0_chk253 v3276), ∀ a, (k0_off253 v3276) a + S1x128.size a ≤ S100000x128.size a := fun v3276 k0_hw253 => k0_hw253

def k0_off254 (v3283 : BitVec 32) : Fin 2 → Nat :=
  let c0_i32_2275 : BitVec 32 := 0#32
  ![v3283.toNat, 0]

def k0_chk254 (v3283 : BitVec 32) : Prop :=
  (∀ a, (k0_off254 v3283) a + S1x128.size a ≤ S100000x128.size a)
instance k0_chk254.dec : ∀ (v3283 : BitVec 32), Decidable (k0_chk254 v3283) := fun v3283 => decidable_of_iff' _ (Iff.of_eq (k0_chk254.eq_1 v3283))
theorem k0_off254_inb : ∀ (v3283 : BitVec 32) (k0_hw254 : k0_chk254 v3283), ∀ a, (k0_off254 v3283) a + S1x128.size a ≤ S100000x128.size a := fun v3283 k0_hw254 => k0_hw254

def k0_off255 (v3302 : BitVec 32) : Fin 2 → Nat :=
  let c0_i32_2288 : BitVec 32 := 0#32
  ![v3302.toNat, 0]

def k0_chk255 (v3302 : BitVec 32) : Prop :=
  (∀ a, (k0_off255 v3302) a + S1x128.size a ≤ S100000x128.size a)
instance k0_chk255.dec : ∀ (v3302 : BitVec 32), Decidable (k0_chk255 v3302) := fun v3302 => decidable_of_iff' _ (Iff.of_eq (k0_chk255.eq_1 v3302))
theorem k0_off255_inb : ∀ (v3302 : BitVec 32) (k0_hw255 : k0_chk255 v3302), ∀ a, (k0_off255 v3302) a + S1x128.size a ≤ S100000x128.size a := fun v3302 k0_hw255 => k0_hw255

def k0_off256 (v3309 : BitVec 32) : Fin 2 → Nat :=
  let c0_i32_2293 : BitVec 32 := 0#32
  ![v3309.toNat, 0]

def k0_chk256 (v3309 : BitVec 32) : Prop :=
  (∀ a, (k0_off256 v3309) a + S1x128.size a ≤ S100000x128.size a)
instance k0_chk256.dec : ∀ (v3309 : BitVec 32), Decidable (k0_chk256 v3309) := fun v3309 => decidable_of_iff' _ (Iff.of_eq (k0_chk256.eq_1 v3309))
theorem k0_off256_inb : ∀ (v3309 : BitVec 32) (k0_hw256 : k0_chk256 v3309), ∀ a, (k0_off256 v3309) a + S1x128.size a ≤ S100000x128.size a := fun v3309 k0_hw256 => k0_hw256

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .smem S128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S600000_S600064_0640 : S600000.Pads (![0] : Fin 1 → Nat) ![64] ![0] S600064
  h_S_ : 0 < S_.numel
  shapeCasts_S128x1_S1x128 : S128x1.ShapeCasts S1x128
  inb_S128_S1_0 : ∀ a, (![0] : Fin 1 → Nat) a + S1.size a ≤ S128.size a
  numel1_S1 : S1.numel = 1
  inb_S2_S1_0 : ∀ a, (![0] : Fin 1 → Nat) a + S1.size a ≤ S2.size a
  squeezes_S1_S_ : S1.Squeezes S_
  inb_S128x128_S1x128_0_0 : ∀ a, (![0, 0] : Fin 2 → Nat) a + S1x128.size a ≤ S128x128.size a
  squeezes_S1x128_S128 : S1x128.Squeezes S128
  inb_S100000x128_S1x128_0_0 : ∀ a, (![0, 0] : Fin 2 → Nat) a + S1x128.size a ≤ S100000x128.size a
  inb_S128_S1_1 : ∀ a, (![1] : Fin 1 → Nat) a + S1.size a ≤ S128.size a
  inb_S2_S1_1 : ∀ a, (![1] : Fin 1 → Nat) a + S1.size a ≤ S2.size a
  inb_S128x128_S1x128_1_0 : ∀ a, (![1, 0] : Fin 2 → Nat) a + S1x128.size a ≤ S128x128.size a
  inb_S128_S1_2 : ∀ a, (![2] : Fin 1 → Nat) a + S1.size a ≤ S128.size a
  inb_S128x128_S1x128_2_0 : ∀ a, (![2, 0] : Fin 2 → Nat) a + S1x128.size a ≤ S128x128.size a
  inb_S128_S1_3 : ∀ a, (![3] : Fin 1 → Nat) a + S1.size a ≤ S128.size a
  inb_S128x128_S1x128_3_0 : ∀ a, (![3, 0] : Fin 2 → Nat) a + S1x128.size a ≤ S128x128.size a
  inb_S128_S1_4 : ∀ a, (![4] : Fin 1 → Nat) a + S1.size a ≤ S128.size a
  inb_S128x128_S1x128_4_0 : ∀ a, (![4, 0] : Fin 2 → Nat) a + S1x128.size a ≤ S128x128.size a
  inb_S128_S1_5 : ∀ a, (![5] : Fin 1 → Nat) a + S1.size a ≤ S128.size a
  inb_S128x128_S1x128_5_0 : ∀ a, (![5, 0] : Fin 2 → Nat) a + S1x128.size a ≤ S128x128.size a
  inb_S128_S1_6 : ∀ a, (![6] : Fin 1 → Nat) a + S1.size a ≤ S128.size a
  inb_S128x128_S1x128_6_0 : ∀ a, (![6, 0] : Fin 2 → Nat) a + S1x128.size a ≤ S128x128.size a
  inb_S128_S1_7 : ∀ a, (![7] : Fin 1 → Nat) a + S1.size a ≤ S128.size a
  inb_S128x128_S1x128_7_0 : ∀ a, (![7, 0] : Fin 2 → Nat) a + S1x128.size a ≤ S128x128.size a
  inb_S128_S1_8 : ∀ a, (![8] : Fin 1 → Nat) a + S1.size a ≤ S128.size a
  inb_S128x128_S1x128_8_0 : ∀ a, (![8, 0] : Fin 2 → Nat) a + S1x128.size a ≤ S128x128.size a
  inb_S128_S1_9 : ∀ a, (![9] : Fin 1 → Nat) a + S1.size a ≤ S128.size a
  inb_S128x128_S1x128_9_0 : ∀ a, (![9, 0] : Fin 2 → Nat) a + S1x128.size a ≤ S128x128.size a
  inb_S128_S1_10 : ∀ a, (![10] : Fin 1 → Nat) a + S1.size a ≤ S128.size a
  inb_S128x128_S1x128_10_0 : ∀ a, (![10, 0] : Fin 2 → Nat) a + S1x128.size a ≤ S128x128.size a
  inb_S128_S1_11 : ∀ a, (![11] : Fin 1 → Nat) a + S1.size a ≤ S128.size a
  inb_S128x128_S1x128_11_0 : ∀ a, (![11, 0] : Fin 2 → Nat) a + S1x128.size a ≤ S128x128.size a
  inb_S128_S1_12 : ∀ a, (![12] : Fin 1 → Nat) a + S1.size a ≤ S128.size a
  inb_S128x128_S1x128_12_0 : ∀ a, (![12, 0] : Fin 2 → Nat) a + S1x128.size a ≤ S128x128.size a
  inb_S128_S1_13 : ∀ a, (![13] : Fin 1 → Nat) a + S1.size a ≤ S128.size a
  inb_S128x128_S1x128_13_0 : ∀ a, (![13, 0] : Fin 2 → Nat) a + S1x128.size a ≤ S128x128.size a
  inb_S128_S1_14 : ∀ a, (![14] : Fin 1 → Nat) a + S1.size a ≤ S128.size a
  inb_S128x128_S1x128_14_0 : ∀ a, (![14, 0] : Fin 2 → Nat) a + S1x128.size a ≤ S128x128.size a
  inb_S128_S1_15 : ∀ a, (![15] : Fin 1 → Nat) a + S1.size a ≤ S128.size a
  inb_S128x128_S1x128_15_0 : ∀ a, (![15, 0] : Fin 2 → Nat) a + S1x128.size a ≤ S128x128.size a
  inb_S128_S1_16 : ∀ a, (![16] : Fin 1 → Nat) a + S1.size a ≤ S128.size a
  inb_S128x128_S1x128_16_0 : ∀ a, (![16, 0] : Fin 2 → Nat) a + S1x128.size a ≤ S128x128.size a
  inb_S128_S1_17 : ∀ a, (![17] : Fin 1 → Nat) a + S1.size a ≤ S128.size a
  inb_S128x128_S1x128_17_0 : ∀ a, (![17, 0] : Fin 2 → Nat) a + S1x128.size a ≤ S128x128.size a
  inb_S128_S1_18 : ∀ a, (![18] : Fin 1 → Nat) a + S1.size a ≤ S128.size a
  inb_S128x128_S1x128_18_0 : ∀ a, (![18, 0] : Fin 2 → Nat) a + S1x128.size a ≤ S128x128.size a
  inb_S128_S1_19 : ∀ a, (![19] : Fin 1 → Nat) a + S1.size a ≤ S128.size a
  inb_S128x128_S1x128_19_0 : ∀ a, (![19, 0] : Fin 2 → Nat) a + S1x128.size a ≤ S128x128.size a
  inb_S128_S1_20 : ∀ a, (![20] : Fin 1 → Nat) a + S1.size a ≤ S128.size a
  inb_S128x128_S1x128_20_0 : ∀ a, (![20, 0] : Fin 2 → Nat) a + S1x128.size a ≤ S128x128.size a
  inb_S128_S1_21 : ∀ a, (![21] : Fin 1 → Nat) a + S1.size a ≤ S128.size a
  inb_S128x128_S1x128_21_0 : ∀ a, (![21, 0] : Fin 2 → Nat) a + S1x128.size a ≤ S128x128.size a
  inb_S128_S1_22 : ∀ a, (![22] : Fin 1 → Nat) a + S1.size a ≤ S128.size a
  inb_S128x128_S1x128_22_0 : ∀ a, (![22, 0] : Fin 2 → Nat) a + S1x128.size a ≤ S128x128.size a
  inb_S128_S1_23 : ∀ a, (![23] : Fin 1 → Nat) a + S1.size a ≤ S128.size a
  inb_S128x128_S1x128_23_0 : ∀ a, (![23, 0] : Fin 2 → Nat) a + S1x128.size a ≤ S128x128.size a
  inb_S128_S1_24 : ∀ a, (![24] : Fin 1 → Nat) a + S1.size a ≤ S128.size a
  inb_S128x128_S1x128_24_0 : ∀ a, (![24, 0] : Fin 2 → Nat) a + S1x128.size a ≤ S128x128.size a
  inb_S128_S1_25 : ∀ a, (![25] : Fin 1 → Nat) a + S1.size a ≤ S128.size a
  inb_S128x128_S1x128_25_0 : ∀ a, (![25, 0] : Fin 2 → Nat) a + S1x128.size a ≤ S128x128.size a
  inb_S128_S1_26 : ∀ a, (![26] : Fin 1 → Nat) a + S1.size a ≤ S128.size a
  inb_S128x128_S1x128_26_0 : ∀ a, (![26, 0] : Fin 2 → Nat) a + S1x128.size a ≤ S128x128.size a
  inb_S128_S1_27 : ∀ a, (![27] : Fin 1 → Nat) a + S1.size a ≤ S128.size a
  inb_S128x128_S1x128_27_0 : ∀ a, (![27, 0] : Fin 2 → Nat) a + S1x128.size a ≤ S128x128.size a
  inb_S128_S1_28 : ∀ a, (![28] : Fin 1 → Nat) a + S1.size a ≤ S128.size a
  inb_S128x128_S1x128_28_0 : ∀ a, (![28, 0] : Fin 2 → Nat) a + S1x128.size a ≤ S128x128.size a
  inb_S128_S1_29 : ∀ a, (![29] : Fin 1 → Nat) a + S1.size a ≤ S128.size a
  inb_S128x128_S1x128_29_0 : ∀ a, (![29, 0] : Fin 2 → Nat) a + S1x128.size a ≤ S128x128.size a
  inb_S128_S1_30 : ∀ a, (![30] : Fin 1 → Nat) a + S1.size a ≤ S128.size a
  inb_S128x128_S1x128_30_0 : ∀ a, (![30, 0] : Fin 2 → Nat) a + S1x128.size a ≤ S128x128.size a
  inb_S128_S1_31 : ∀ a, (![31] : Fin 1 → Nat) a + S1.size a ≤ S128.size a
  inb_S128x128_S1x128_31_0 : ∀ a, (![31, 0] : Fin 2 → Nat) a + S1x128.size a ≤ S128x128.size a
  inb_S128_S1_32 : ∀ a, (![32] : Fin 1 → Nat) a + S1.size a ≤ S128.size a
  inb_S128x128_S1x128_32_0 : ∀ a, (![32, 0] : Fin 2 → Nat) a + S1x128.size a ≤ S128x128.size a
  inb_S128_S1_33 : ∀ a, (![33] : Fin 1 → Nat) a + S1.size a ≤ S128.size a
  inb_S128x128_S1x128_33_0 : ∀ a, (![33, 0] : Fin 2 → Nat) a + S1x128.size a ≤ S128x128.size a
  inb_S128_S1_34 : ∀ a, (![34] : Fin 1 → Nat) a + S1.size a ≤ S128.size a
  inb_S128x128_S1x128_34_0 : ∀ a, (![34, 0] : Fin 2 → Nat) a + S1x128.size a ≤ S128x128.size a
  inb_S128_S1_35 : ∀ a, (![35] : Fin 1 → Nat) a + S1.size a ≤ S128.size a
  inb_S128x128_S1x128_35_0 : ∀ a, (![35, 0] : Fin 2 → Nat) a + S1x128.size a ≤ S128x128.size a
  inb_S128_S1_36 : ∀ a, (![36] : Fin 1 → Nat) a + S1.size a ≤ S128.size a
  inb_S128x128_S1x128_36_0 : ∀ a, (![36, 0] : Fin 2 → Nat) a + S1x128.size a ≤ S128x128.size a
  inb_S128_S1_37 : ∀ a, (![37] : Fin 1 → Nat) a + S1.size a ≤ S128.size a
  inb_S128x128_S1x128_37_0 : ∀ a, (![37, 0] : Fin 2 → Nat) a + S1x128.size a ≤ S128x128.size a
  inb_S128_S1_38 : ∀ a, (![38] : Fin 1 → Nat) a + S1.size a ≤ S128.size a
  inb_S128x128_S1x128_38_0 : ∀ a, (![38, 0] : Fin 2 → Nat) a + S1x128.size a ≤ S128x128.size a
  inb_S128_S1_39 : ∀ a, (![39] : Fin 1 → Nat) a + S1.size a ≤ S128.size a
  inb_S128x128_S1x128_39_0 : ∀ a, (![39, 0] : Fin 2 → Nat) a + S1x128.size a ≤ S128x128.size a
  inb_S128_S1_40 : ∀ a, (![40] : Fin 1 → Nat) a + S1.size a ≤ S128.size a
  inb_S128x128_S1x128_40_0 : ∀ a, (![40, 0] : Fin 2 → Nat) a + S1x128.size a ≤ S128x128.size a
  inb_S128_S1_41 : ∀ a, (![41] : Fin 1 → Nat) a + S1.size a ≤ S128.size a
  inb_S128x128_S1x128_41_0 : ∀ a, (![41, 0] : Fin 2 → Nat) a + S1x128.size a ≤ S128x128.size a
  inb_S128_S1_42 : ∀ a, (![42] : Fin 1 → Nat) a + S1.size a ≤ S128.size a
  inb_S128x128_S1x128_42_0 : ∀ a, (![42, 0] : Fin 2 → Nat) a + S1x128.size a ≤ S128x128.size a
  inb_S128_S1_43 : ∀ a, (![43] : Fin 1 → Nat) a + S1.size a ≤ S128.size a
  inb_S128x128_S1x128_43_0 : ∀ a, (![43, 0] : Fin 2 → Nat) a + S1x128.size a ≤ S128x128.size a
  inb_S128_S1_44 : ∀ a, (![44] : Fin 1 → Nat) a + S1.size a ≤ S128.size a
  inb_S128x128_S1x128_44_0 : ∀ a, (![44, 0] : Fin 2 → Nat) a + S1x128.size a ≤ S128x128.size a
  inb_S128_S1_45 : ∀ a, (![45] : Fin 1 → Nat) a + S1.size a ≤ S128.size a
  inb_S128x128_S1x128_45_0 : ∀ a, (![45, 0] : Fin 2 → Nat) a + S1x128.size a ≤ S128x128.size a
  inb_S128_S1_46 : ∀ a, (![46] : Fin 1 → Nat) a + S1.size a ≤ S128.size a
  inb_S128x128_S1x128_46_0 : ∀ a, (![46, 0] : Fin 2 → Nat) a + S1x128.size a ≤ S128x128.size a
  inb_S128_S1_47 : ∀ a, (![47] : Fin 1 → Nat) a + S1.size a ≤ S128.size a
  inb_S128x128_S1x128_47_0 : ∀ a, (![47, 0] : Fin 2 → Nat) a + S1x128.size a ≤ S128x128.size a
  inb_S128_S1_48 : ∀ a, (![48] : Fin 1 → Nat) a + S1.size a ≤ S128.size a
  inb_S128x128_S1x128_48_0 : ∀ a, (![48, 0] : Fin 2 → Nat) a + S1x128.size a ≤ S128x128.size a
  inb_S128_S1_49 : ∀ a, (![49] : Fin 1 → Nat) a + S1.size a ≤ S128.size a
  inb_S128x128_S1x128_49_0 : ∀ a, (![49, 0] : Fin 2 → Nat) a + S1x128.size a ≤ S128x128.size a
  inb_S128_S1_50 : ∀ a, (![50] : Fin 1 → Nat) a + S1.size a ≤ S128.size a
  inb_S128x128_S1x128_50_0 : ∀ a, (![50, 0] : Fin 2 → Nat) a + S1x128.size a ≤ S128x128.size a
  inb_S128_S1_51 : ∀ a, (![51] : Fin 1 → Nat) a + S1.size a ≤ S128.size a
  inb_S128x128_S1x128_51_0 : ∀ a, (![51, 0] : Fin 2 → Nat) a + S1x128.size a ≤ S128x128.size a
  inb_S128_S1_52 : ∀ a, (![52] : Fin 1 → Nat) a + S1.size a ≤ S128.size a
  inb_S128x128_S1x128_52_0 : ∀ a, (![52, 0] : Fin 2 → Nat) a + S1x128.size a ≤ S128x128.size a
  inb_S128_S1_53 : ∀ a, (![53] : Fin 1 → Nat) a + S1.size a ≤ S128.size a
  inb_S128x128_S1x128_53_0 : ∀ a, (![53, 0] : Fin 2 → Nat) a + S1x128.size a ≤ S128x128.size a
  inb_S128_S1_54 : ∀ a, (![54] : Fin 1 → Nat) a + S1.size a ≤ S128.size a
  inb_S128x128_S1x128_54_0 : ∀ a, (![54, 0] : Fin 2 → Nat) a + S1x128.size a ≤ S128x128.size a
  inb_S128_S1_55 : ∀ a, (![55] : Fin 1 → Nat) a + S1.size a ≤ S128.size a
  inb_S128x128_S1x128_55_0 : ∀ a, (![55, 0] : Fin 2 → Nat) a + S1x128.size a ≤ S128x128.size a
  inb_S128_S1_56 : ∀ a, (![56] : Fin 1 → Nat) a + S1.size a ≤ S128.size a
  inb_S128x128_S1x128_56_0 : ∀ a, (![56, 0] : Fin 2 → Nat) a + S1x128.size a ≤ S128x128.size a
  inb_S128_S1_57 : ∀ a, (![57] : Fin 1 → Nat) a + S1.size a ≤ S128.size a
  inb_S128x128_S1x128_57_0 : ∀ a, (![57, 0] : Fin 2 → Nat) a + S1x128.size a ≤ S128x128.size a
  inb_S128_S1_58 : ∀ a, (![58] : Fin 1 → Nat) a + S1.size a ≤ S128.size a
  inb_S128x128_S1x128_58_0 : ∀ a, (![58, 0] : Fin 2 → Nat) a + S1x128.size a ≤ S128x128.size a
  inb_S128_S1_59 : ∀ a, (![59] : Fin 1 → Nat) a + S1.size a ≤ S128.size a
  inb_S128x128_S1x128_59_0 : ∀ a, (![59, 0] : Fin 2 → Nat) a + S1x128.size a ≤ S128x128.size a
  inb_S128_S1_60 : ∀ a, (![60] : Fin 1 → Nat) a + S1.size a ≤ S128.size a
  inb_S128x128_S1x128_60_0 : ∀ a, (![60, 0] : Fin 2 → Nat) a + S1x128.size a ≤ S128x128.size a
  inb_S128_S1_61 : ∀ a, (![61] : Fin 1 → Nat) a + S1.size a ≤ S128.size a
  inb_S128x128_S1x128_61_0 : ∀ a, (![61, 0] : Fin 2 → Nat) a + S1x128.size a ≤ S128x128.size a
  inb_S128_S1_62 : ∀ a, (![62] : Fin 1 → Nat) a + S1.size a ≤ S128.size a
  inb_S128x128_S1x128_62_0 : ∀ a, (![62, 0] : Fin 2 → Nat) a + S1x128.size a ≤ S128x128.size a
  inb_S128_S1_63 : ∀ a, (![63] : Fin 1 → Nat) a + S1.size a ≤ S128.size a
  inb_S128x128_S1x128_63_0 : ∀ a, (![63, 0] : Fin 2 → Nat) a + S1x128.size a ≤ S128x128.size a
  inb_S128_S1_64 : ∀ a, (![64] : Fin 1 → Nat) a + S1.size a ≤ S128.size a
  inb_S128x128_S1x128_64_0 : ∀ a, (![64, 0] : Fin 2 → Nat) a + S1x128.size a ≤ S128x128.size a
  inb_S128_S1_65 : ∀ a, (![65] : Fin 1 → Nat) a + S1.size a ≤ S128.size a
  inb_S128x128_S1x128_65_0 : ∀ a, (![65, 0] : Fin 2 → Nat) a + S1x128.size a ≤ S128x128.size a
  inb_S128_S1_66 : ∀ a, (![66] : Fin 1 → Nat) a + S1.size a ≤ S128.size a
  inb_S128x128_S1x128_66_0 : ∀ a, (![66, 0] : Fin 2 → Nat) a + S1x128.size a ≤ S128x128.size a
  inb_S128_S1_67 : ∀ a, (![67] : Fin 1 → Nat) a + S1.size a ≤ S128.size a
  inb_S128x128_S1x128_67_0 : ∀ a, (![67, 0] : Fin 2 → Nat) a + S1x128.size a ≤ S128x128.size a
  inb_S128_S1_68 : ∀ a, (![68] : Fin 1 → Nat) a + S1.size a ≤ S128.size a
  inb_S128x128_S1x128_68_0 : ∀ a, (![68, 0] : Fin 2 → Nat) a + S1x128.size a ≤ S128x128.size a
  inb_S128_S1_69 : ∀ a, (![69] : Fin 1 → Nat) a + S1.size a ≤ S128.size a
  inb_S128x128_S1x128_69_0 : ∀ a, (![69, 0] : Fin 2 → Nat) a + S1x128.size a ≤ S128x128.size a
  inb_S128_S1_70 : ∀ a, (![70] : Fin 1 → Nat) a + S1.size a ≤ S128.size a
  inb_S128x128_S1x128_70_0 : ∀ a, (![70, 0] : Fin 2 → Nat) a + S1x128.size a ≤ S128x128.size a
  inb_S128_S1_71 : ∀ a, (![71] : Fin 1 → Nat) a + S1.size a ≤ S128.size a
  inb_S128x128_S1x128_71_0 : ∀ a, (![71, 0] : Fin 2 → Nat) a + S1x128.size a ≤ S128x128.size a
  inb_S128_S1_72 : ∀ a, (![72] : Fin 1 → Nat) a + S1.size a ≤ S128.size a
  inb_S128x128_S1x128_72_0 : ∀ a, (![72, 0] : Fin 2 → Nat) a + S1x128.size a ≤ S128x128.size a
  inb_S128_S1_73 : ∀ a, (![73] : Fin 1 → Nat) a + S1.size a ≤ S128.size a
  inb_S128x128_S1x128_73_0 : ∀ a, (![73, 0] : Fin 2 → Nat) a + S1x128.size a ≤ S128x128.size a
  inb_S128_S1_74 : ∀ a, (![74] : Fin 1 → Nat) a + S1.size a ≤ S128.size a
  inb_S128x128_S1x128_74_0 : ∀ a, (![74, 0] : Fin 2 → Nat) a + S1x128.size a ≤ S128x128.size a
  inb_S128_S1_75 : ∀ a, (![75] : Fin 1 → Nat) a + S1.size a ≤ S128.size a
  inb_S128x128_S1x128_75_0 : ∀ a, (![75, 0] : Fin 2 → Nat) a + S1x128.size a ≤ S128x128.size a
  inb_S128_S1_76 : ∀ a, (![76] : Fin 1 → Nat) a + S1.size a ≤ S128.size a
  inb_S128x128_S1x128_76_0 : ∀ a, (![76, 0] : Fin 2 → Nat) a + S1x128.size a ≤ S128x128.size a
  inb_S128_S1_77 : ∀ a, (![77] : Fin 1 → Nat) a + S1.size a ≤ S128.size a
  inb_S128x128_S1x128_77_0 : ∀ a, (![77, 0] : Fin 2 → Nat) a + S1x128.size a ≤ S128x128.size a
  inb_S128_S1_78 : ∀ a, (![78] : Fin 1 → Nat) a + S1.size a ≤ S128.size a
  inb_S128x128_S1x128_78_0 : ∀ a, (![78, 0] : Fin 2 → Nat) a + S1x128.size a ≤ S128x128.size a
  inb_S128_S1_79 : ∀ a, (![79] : Fin 1 → Nat) a + S1.size a ≤ S128.size a
  inb_S128x128_S1x128_79_0 : ∀ a, (![79, 0] : Fin 2 → Nat) a + S1x128.size a ≤ S128x128.size a
  inb_S128_S1_80 : ∀ a, (![80] : Fin 1 → Nat) a + S1.size a ≤ S128.size a
  inb_S128x128_S1x128_80_0 : ∀ a, (![80, 0] : Fin 2 → Nat) a + S1x128.size a ≤ S128x128.size a
  inb_S128_S1_81 : ∀ a, (![81] : Fin 1 → Nat) a + S1.size a ≤ S128.size a
  inb_S128x128_S1x128_81_0 : ∀ a, (![81, 0] : Fin 2 → Nat) a + S1x128.size a ≤ S128x128.size a
  inb_S128_S1_82 : ∀ a, (![82] : Fin 1 → Nat) a + S1.size a ≤ S128.size a
  inb_S128x128_S1x128_82_0 : ∀ a, (![82, 0] : Fin 2 → Nat) a + S1x128.size a ≤ S128x128.size a
  inb_S128_S1_83 : ∀ a, (![83] : Fin 1 → Nat) a + S1.size a ≤ S128.size a
  inb_S128x128_S1x128_83_0 : ∀ a, (![83, 0] : Fin 2 → Nat) a + S1x128.size a ≤ S128x128.size a
  inb_S128_S1_84 : ∀ a, (![84] : Fin 1 → Nat) a + S1.size a ≤ S128.size a
  inb_S128x128_S1x128_84_0 : ∀ a, (![84, 0] : Fin 2 → Nat) a + S1x128.size a ≤ S128x128.size a
  inb_S128_S1_85 : ∀ a, (![85] : Fin 1 → Nat) a + S1.size a ≤ S128.size a
  inb_S128x128_S1x128_85_0 : ∀ a, (![85, 0] : Fin 2 → Nat) a + S1x128.size a ≤ S128x128.size a
  inb_S128_S1_86 : ∀ a, (![86] : Fin 1 → Nat) a + S1.size a ≤ S128.size a
  inb_S128x128_S1x128_86_0 : ∀ a, (![86, 0] : Fin 2 → Nat) a + S1x128.size a ≤ S128x128.size a
  inb_S128_S1_87 : ∀ a, (![87] : Fin 1 → Nat) a + S1.size a ≤ S128.size a
  inb_S128x128_S1x128_87_0 : ∀ a, (![87, 0] : Fin 2 → Nat) a + S1x128.size a ≤ S128x128.size a
  inb_S128_S1_88 : ∀ a, (![88] : Fin 1 → Nat) a + S1.size a ≤ S128.size a
  inb_S128x128_S1x128_88_0 : ∀ a, (![88, 0] : Fin 2 → Nat) a + S1x128.size a ≤ S128x128.size a
  inb_S128_S1_89 : ∀ a, (![89] : Fin 1 → Nat) a + S1.size a ≤ S128.size a
  inb_S128x128_S1x128_89_0 : ∀ a, (![89, 0] : Fin 2 → Nat) a + S1x128.size a ≤ S128x128.size a
  inb_S128_S1_90 : ∀ a, (![90] : Fin 1 → Nat) a + S1.size a ≤ S128.size a
  inb_S128x128_S1x128_90_0 : ∀ a, (![90, 0] : Fin 2 → Nat) a + S1x128.size a ≤ S128x128.size a
  inb_S128_S1_91 : ∀ a, (![91] : Fin 1 → Nat) a + S1.size a ≤ S128.size a
  inb_S128x128_S1x128_91_0 : ∀ a, (![91, 0] : Fin 2 → Nat) a + S1x128.size a ≤ S128x128.size a
  inb_S128_S1_92 : ∀ a, (![92] : Fin 1 → Nat) a + S1.size a ≤ S128.size a
  inb_S128x128_S1x128_92_0 : ∀ a, (![92, 0] : Fin 2 → Nat) a + S1x128.size a ≤ S128x128.size a
  inb_S128_S1_93 : ∀ a, (![93] : Fin 1 → Nat) a + S1.size a ≤ S128.size a
  inb_S128x128_S1x128_93_0 : ∀ a, (![93, 0] : Fin 2 → Nat) a + S1x128.size a ≤ S128x128.size a
  inb_S128_S1_94 : ∀ a, (![94] : Fin 1 → Nat) a + S1.size a ≤ S128.size a
  inb_S128x128_S1x128_94_0 : ∀ a, (![94, 0] : Fin 2 → Nat) a + S1x128.size a ≤ S128x128.size a
  inb_S128_S1_95 : ∀ a, (![95] : Fin 1 → Nat) a + S1.size a ≤ S128.size a
  inb_S128x128_S1x128_95_0 : ∀ a, (![95, 0] : Fin 2 → Nat) a + S1x128.size a ≤ S128x128.size a
  inb_S128_S1_96 : ∀ a, (![96] : Fin 1 → Nat) a + S1.size a ≤ S128.size a
  inb_S128x128_S1x128_96_0 : ∀ a, (![96, 0] : Fin 2 → Nat) a + S1x128.size a ≤ S128x128.size a
  inb_S128_S1_97 : ∀ a, (![97] : Fin 1 → Nat) a + S1.size a ≤ S128.size a
  inb_S128x128_S1x128_97_0 : ∀ a, (![97, 0] : Fin 2 → Nat) a + S1x128.size a ≤ S128x128.size a
  inb_S128_S1_98 : ∀ a, (![98] : Fin 1 → Nat) a + S1.size a ≤ S128.size a
  inb_S128x128_S1x128_98_0 : ∀ a, (![98, 0] : Fin 2 → Nat) a + S1x128.size a ≤ S128x128.size a
  inb_S128_S1_99 : ∀ a, (![99] : Fin 1 → Nat) a + S1.size a ≤ S128.size a
  inb_S128x128_S1x128_99_0 : ∀ a, (![99, 0] : Fin 2 → Nat) a + S1x128.size a ≤ S128x128.size a
  inb_S128_S1_100 : ∀ a, (![100] : Fin 1 → Nat) a + S1.size a ≤ S128.size a
  inb_S128x128_S1x128_100_0 : ∀ a, (![100, 0] : Fin 2 → Nat) a + S1x128.size a ≤ S128x128.size a
  inb_S128_S1_101 : ∀ a, (![101] : Fin 1 → Nat) a + S1.size a ≤ S128.size a
  inb_S128x128_S1x128_101_0 : ∀ a, (![101, 0] : Fin 2 → Nat) a + S1x128.size a ≤ S128x128.size a
  inb_S128_S1_102 : ∀ a, (![102] : Fin 1 → Nat) a + S1.size a ≤ S128.size a
  inb_S128x128_S1x128_102_0 : ∀ a, (![102, 0] : Fin 2 → Nat) a + S1x128.size a ≤ S128x128.size a
  inb_S128_S1_103 : ∀ a, (![103] : Fin 1 → Nat) a + S1.size a ≤ S128.size a
  inb_S128x128_S1x128_103_0 : ∀ a, (![103, 0] : Fin 2 → Nat) a + S1x128.size a ≤ S128x128.size a
  inb_S128_S1_104 : ∀ a, (![104] : Fin 1 → Nat) a + S1.size a ≤ S128.size a
  inb_S128x128_S1x128_104_0 : ∀ a, (![104, 0] : Fin 2 → Nat) a + S1x128.size a ≤ S128x128.size a
  inb_S128_S1_105 : ∀ a, (![105] : Fin 1 → Nat) a + S1.size a ≤ S128.size a
  inb_S128x128_S1x128_105_0 : ∀ a, (![105, 0] : Fin 2 → Nat) a + S1x128.size a ≤ S128x128.size a
  inb_S128_S1_106 : ∀ a, (![106] : Fin 1 → Nat) a + S1.size a ≤ S128.size a
  inb_S128x128_S1x128_106_0 : ∀ a, (![106, 0] : Fin 2 → Nat) a + S1x128.size a ≤ S128x128.size a
  inb_S128_S1_107 : ∀ a, (![107] : Fin 1 → Nat) a + S1.size a ≤ S128.size a
  inb_S128x128_S1x128_107_0 : ∀ a, (![107, 0] : Fin 2 → Nat) a + S1x128.size a ≤ S128x128.size a
  inb_S128_S1_108 : ∀ a, (![108] : Fin 1 → Nat) a + S1.size a ≤ S128.size a
  inb_S128x128_S1x128_108_0 : ∀ a, (![108, 0] : Fin 2 → Nat) a + S1x128.size a ≤ S128x128.size a
  inb_S128_S1_109 : ∀ a, (![109] : Fin 1 → Nat) a + S1.size a ≤ S128.size a
  inb_S128x128_S1x128_109_0 : ∀ a, (![109, 0] : Fin 2 → Nat) a + S1x128.size a ≤ S128x128.size a
  inb_S128_S1_110 : ∀ a, (![110] : Fin 1 → Nat) a + S1.size a ≤ S128.size a
  inb_S128x128_S1x128_110_0 : ∀ a, (![110, 0] : Fin 2 → Nat) a + S1x128.size a ≤ S128x128.size a
  inb_S128_S1_111 : ∀ a, (![111] : Fin 1 → Nat) a + S1.size a ≤ S128.size a
  inb_S128x128_S1x128_111_0 : ∀ a, (![111, 0] : Fin 2 → Nat) a + S1x128.size a ≤ S128x128.size a
  inb_S128_S1_112 : ∀ a, (![112] : Fin 1 → Nat) a + S1.size a ≤ S128.size a
  inb_S128x128_S1x128_112_0 : ∀ a, (![112, 0] : Fin 2 → Nat) a + S1x128.size a ≤ S128x128.size a
  inb_S128_S1_113 : ∀ a, (![113] : Fin 1 → Nat) a + S1.size a ≤ S128.size a
  inb_S128x128_S1x128_113_0 : ∀ a, (![113, 0] : Fin 2 → Nat) a + S1x128.size a ≤ S128x128.size a
  inb_S128_S1_114 : ∀ a, (![114] : Fin 1 → Nat) a + S1.size a ≤ S128.size a
  inb_S128x128_S1x128_114_0 : ∀ a, (![114, 0] : Fin 2 → Nat) a + S1x128.size a ≤ S128x128.size a
  inb_S128_S1_115 : ∀ a, (![115] : Fin 1 → Nat) a + S1.size a ≤ S128.size a
  inb_S128x128_S1x128_115_0 : ∀ a, (![115, 0] : Fin 2 → Nat) a + S1x128.size a ≤ S128x128.size a
  inb_S128_S1_116 : ∀ a, (![116] : Fin 1 → Nat) a + S1.size a ≤ S128.size a
  inb_S128x128_S1x128_116_0 : ∀ a, (![116, 0] : Fin 2 → Nat) a + S1x128.size a ≤ S128x128.size a
  inb_S128_S1_117 : ∀ a, (![117] : Fin 1 → Nat) a + S1.size a ≤ S128.size a
  inb_S128x128_S1x128_117_0 : ∀ a, (![117, 0] : Fin 2 → Nat) a + S1x128.size a ≤ S128x128.size a
  inb_S128_S1_118 : ∀ a, (![118] : Fin 1 → Nat) a + S1.size a ≤ S128.size a
  inb_S128x128_S1x128_118_0 : ∀ a, (![118, 0] : Fin 2 → Nat) a + S1x128.size a ≤ S128x128.size a
  inb_S128_S1_119 : ∀ a, (![119] : Fin 1 → Nat) a + S1.size a ≤ S128.size a
  inb_S128x128_S1x128_119_0 : ∀ a, (![119, 0] : Fin 2 → Nat) a + S1x128.size a ≤ S128x128.size a
  inb_S128_S1_120 : ∀ a, (![120] : Fin 1 → Nat) a + S1.size a ≤ S128.size a
  inb_S128x128_S1x128_120_0 : ∀ a, (![120, 0] : Fin 2 → Nat) a + S1x128.size a ≤ S128x128.size a
  inb_S128_S1_121 : ∀ a, (![121] : Fin 1 → Nat) a + S1.size a ≤ S128.size a
  inb_S128x128_S1x128_121_0 : ∀ a, (![121, 0] : Fin 2 → Nat) a + S1x128.size a ≤ S128x128.size a
  inb_S128_S1_122 : ∀ a, (![122] : Fin 1 → Nat) a + S1.size a ≤ S128.size a
  inb_S128x128_S1x128_122_0 : ∀ a, (![122, 0] : Fin 2 → Nat) a + S1x128.size a ≤ S128x128.size a
  inb_S128_S1_123 : ∀ a, (![123] : Fin 1 → Nat) a + S1.size a ≤ S128.size a
  inb_S128x128_S1x128_123_0 : ∀ a, (![123, 0] : Fin 2 → Nat) a + S1x128.size a ≤ S128x128.size a
  inb_S128_S1_124 : ∀ a, (![124] : Fin 1 → Nat) a + S1.size a ≤ S128.size a
  inb_S128x128_S1x128_124_0 : ∀ a, (![124, 0] : Fin 2 → Nat) a + S1x128.size a ≤ S128x128.size a
  inb_S128_S1_125 : ∀ a, (![125] : Fin 1 → Nat) a + S1.size a ≤ S128.size a
  inb_S128x128_S1x128_125_0 : ∀ a, (![125, 0] : Fin 2 → Nat) a + S1x128.size a ≤ S128x128.size a
  inb_S128_S1_126 : ∀ a, (![126] : Fin 1 → Nat) a + S1.size a ≤ S128.size a
  inb_S128x128_S1x128_126_0 : ∀ a, (![126, 0] : Fin 2 → Nat) a + S1x128.size a ≤ S128x128.size a
  inb_S128_S1_127 : ∀ a, (![127] : Fin 1 → Nat) a + S1.size a ≤ S128.size a
  inb_S128x128_S1x128_127_0 : ∀ a, (![127, 0] : Fin 2 → Nat) a + S1x128.size a ≤ S128x128.size a
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  reduces_S128x128_S128 : S128x128.Reduces [1] S128
  shapeCasts_S128_S128x1 : S128.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S128x1 : S1x1.Broadcasts S128x1
  shapeCasts_S128x1_S128 : S128x1.ShapeCasts S128
  inb_S128_S128_0 : ∀ a, (![0] : Fin 1 → Nat) a + S128.size a ≤ S128.size a
  h_S128 : 0 < S128.numel
  slices_S600064_S600000_0 : S600064.Slices ![0] S600000
  shapeCasts_S600000_S600000x1 : S600000.ShapeCasts S600000x1
  hcc0_scratch2 : 8 + S2.numel ≤ 12
  hcc0_scratch3 : 10 + S2.numel ≤ 12
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128.size a ≤ S600064.size a
  hwx0_0 : ∀ i : grid0.Coords, EltTy.bits .i32 = 32 ∨ (Rect.block (s := S600064) S128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S600064.size a
  hwx0_1 : ∀ i : grid0.Coords, EltTy.bits .i32 = 32 ∨ (Rect.block (s := S600064) S128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S1x128.size a ≤ S1x128.size a
  hwx0_2 : ∀ i : grid0.Coords, EltTy.bits .f32 = 32 ∨ (Rect.block (s := S1x128) S1x128.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S1.size a ≤ S1.size a
  hwx0_3 : ∀ i : grid0.Coords, EltTy.bits .f32 = 32 ∨ (Rect.block (s := S1) S1.size (cc0_transform_4 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_5 i = cc0_transform_5 i'
  hinb0_4 : ∀ (i : grid0.Coords) a, (cc0_transform_5 i a + 1) * S128.size a ≤ S600064.size a
  hwx0_4 : ∀ i : grid0.Coords, EltTy.bits .f32 = 32 ∨ (Rect.block (s := S600064) S128.size (cc0_transform_5 i) (hinb0_4 i)).WholeWords (EltTy.packing .f32)

variable [Facts₀]

abbrev cc0_scratch2 : DmaSems sig S2 := SemArray.consecutive 8 S2 hcc0_scratch2
abbrev cc0_scratch3 : DmaSems sig S2 := SemArray.consecutive 10 S2 hcc0_scratch3

abbrev win0_0 : Pipeline.Window sig grid0 :=
  Pipeline.Window.ofSpec (Memref.whole main_v0) S128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_3 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1.size cc0_transform_4 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128.size cc0_transform_5 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000 : Shape := ⟨1, ![600000]⟩
abbrev S128x1 : Shape := ⟨2, ![128, 1]⟩
abbrev S1 : Shape := ⟨1, ![1]⟩
abbrev S_ : Shape := ⟨0, ![]⟩
abbrev S600000x1 : Shape := ⟨2, ![600000, 1]⟩
abbrev S600000x128 : Shape := ⟨2, ![600000, 128]⟩
abbrev S1x1 : Shape := ⟨2, ![1, 1]⟩

abbrev nBuf : Space → Nat
  | .hbm => 29
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x1, .f32⟩
  | .hbm, ⟨4, _⟩ => ⟨S1, .f32⟩
  | .hbm, ⟨5, _⟩ => ⟨S_, .i32⟩
  | .hbm, ⟨6, _⟩ => ⟨S600000, .i32⟩
  | .hbm, ⟨7, _⟩ => ⟨S600000, .i1⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000x1, .i32⟩
  | .hbm, ⟨13, _⟩ => ⟨S600000x128, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S600000x128, .f32⟩
  | .hbm, ⟨24, _⟩ => ⟨S600000x128, .f32⟩
  | .hbm, ⟨25, _⟩ => ⟨S600000x1, .f32⟩
  | .hbm, ⟨26, _⟩ => ⟨S1x1, .f32⟩
  | .hbm, ⟨27, _⟩ => ⟨S600000x1, .f32⟩
  | .hbm, ⟨28, _⟩ => ⟨S600000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  gather_S100000x128_S600000x1_S600000x128_1_0_n_n_0_1_1128_wf : GatherDims.WF S100000x128 S600000x1 S600000x128 [1] [0] [] [0] [] 1 ![1, 128]
  dot_S600000x128_S128x1_S600000x1_1_0_0_1_n_n_wf : DotDims.WF S600000x128 S128x1 S600000x1 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf

class Facts : Prop extends Facts₀ where

variable [Facts]
-- ==== Proof.Spec.lean ====
/-
  The edge score both programs compute, as one function of the argument arrays.

  The table `x` has 100000 rows of 128 features. Edge `e` has two endpoint words `r e` and `c e`, each naming a row of the
  table; its score is the weighted sum over the 128 features of the absolute difference of the two rows, plus the bias:

      score e = (∑ d, |x (r e, d) − x (c e, d)| · W (d, 0)) + b 0

  over the extended reals, where |t| is `max t (−t)` as both programs compute it. A word names the row of its unsigned
  value; `rowOf` clamps that value into the table so that the function is total: under the certificate's precondition
  every word is below 100000 and the clamp does nothing (`rowOf_val`).
-/
import Idealize.ShloMosaic.PureOps.Ideal
import Idealize.ShloMosaic.Lib.ValueIdx

noncomputable section

open scoped BigOperators

namespace Cert.EdgeScore

open Idealize.ShloMosaic Idealize.ShloMosaic.ValueIdx

/-- The table row a 32-bit word names, clamped into the table. -/
def rowOf (w : BitVec 32) : Fin 100000 := ⟨min w.toNat 99999, by omega⟩

/-- A word below 100000 names the row of its value. -/
theorem rowOf_val {w : BitVec 32} (h : w.toNat < 100000) : (rowOf w).val = w.toNat := by
  show min w.toNat 99999 = w.toNat
  omega

/-- The row named by the word of `k < 100000` is row `k`. -/
theorem rowOf_ofNat (k : Fin 100000) : rowOf (BitVec.ofNat 32 k.val) = k := by
  apply Fin.ext
  have hk := k.isLt
  rw [rowOf_val (by rw [BitVec.toNat_ofNat]; omega), BitVec.toNat_ofNat]
  omega

/-- A word below 100000 is the word of the row it names. -/
theorem eq_ofNat_rowOf {w : BitVec 32} (h : w.toNat < 100000) : w = BitVec.ofNat 32 (rowOf w).val := by
  apply BitVec.eq_of_toNat_eq
  rw [rowOf_val h, BitVec.toNat_ofNat]
  omega

/-- The absolute difference of two extended reals, as both programs compute it: the larger of `a − b` and its negation. -/
def absDiff (a b : EReal) : EReal := max (a - b) (-(a - b))

/-- One edge's score from its two rows `u`, `v`, the weights and the bias. -/
def rowScore (u v W : Fin 128 → EReal) (b : EReal) : EReal := (∑ d : Fin 128, absDiff (u d) (v d) * W d) + b

/-- The score of every edge: entry `(e, 0)` is the score of the rows the words `r e` and `c e` name. -/
def score (x : (⟨2, ![100000, 128]⟩ : Shape).Idx → EReal) (r c : (⟨1, ![600000]⟩ : Shape).Idx → BitVec 32)
    (W : (⟨2, ![128, 1]⟩ : Shape).Idx → EReal) (b : (⟨1, ![1]⟩ : Shape).Idx → EReal) :
    (⟨2, ![600000, 1]⟩ : Shape).Idx → EReal :=
  fun i => rowScore (fun d => x (ix2 (rowOf (r (ix1 (i 0)))) d)) (fun d => x (ix2 (rowOf (c (ix1 (i 0)))) d))
    (fun d => W (ix2 d (0 : Fin 1))) (b (ix1 (0 : Fin 1)))

end Cert.EdgeScore

end
-- ==== Proof.KernelRows.lean ====
/-
  One table row as a transfer's source.

  The [1,128] slice of the [100000,128] table at offsets (r, 0), read as a [128] vector, is at lane d the table's
  entry (r, d); when r is the value of a word below 100000 it is the row that word names.
-/
import proofs.«430914_j61323543052777_1_alg».proof.Proof.Gen.Kernel.Frame.Runs
import proofs.«430914_j61323543052777_1_alg».proof.Proof.Spec
import Idealize.ShloMosaic.Lib.Pipeline.Value
import Idealize.ShloMosaic.Lib.ValueIdx

set_option maxRecDepth 16384

noncomputable section

namespace Cert.Kernel.Rows

open Cert.Kernel Cert.Kernel.Gen
open Idealize.ShloMosaic Idealize.ShloMosaic.TcCoe Idealize.SL.Sem Idealize.ShloMosaic.ValueIdx

variable {F : FTy → Type} [FloatOps F]

/-- The [1,128] slice of the table at the offsets, as a [128] vector. -/
abbrev srcRow (off : Fin 2 → Nat) (inb : ∀ a, off a + S1x128.size a ≤ S100000x128.size a) : Memref sig .tc .hbm S128 .f32 :=
  ((Memref.whole main_arg0 : Memref sig .tc .hbm S100000x128 .f32).slice (Rect.unit (s := S100000x128) off S1x128.size inb) (fun _ => rfl)).squeeze S128 squeezes_S1x128_S128

/-- The row slice at offsets (r, 0), read at lane d, is the table's contents at (r, d). -/
theorem srcRow_read (c : Dev nD) (off : Fin 2 → Nat) (inb : ∀ a, off a + S1x128.size a ≤ S100000x128.size a) (h1 : off 1 = 0)
    (f : HbBuf0 (F := F) c hbM0_0) (d : Fin 128) :
    ReadAs.same.apply ((srcRow off inb).view.read (Elt F) f) (ix1 d)
      = f (ix2 (⟨off 0, by have := inb 0; simpa using this⟩ : Fin 100000) d) := by
  show f ((srcRow off inb).view.emb (ix1 d)) = _
  refine congrArg _ (funext fun a => Fin.ext ?_)
  have hre : Shape.reshapeEquiv (Shape.Squeezes.numel_eq squeezes_S1x128_S128) (ix1 d) = ix2 (0 : Fin 1) d :=
    Shape.reshapeEquiv_eq_of_rowMajor _ (by
      rw [Shape.rowMajor_val_two, Shape.rowMajor_val_one]
      show 0 * 128 + d.val = d.val
      rw [Nat.zero_mul, Nat.zero_add])
  show off a + 1 * ((Shape.reshapeEquiv (Shape.Squeezes.numel_eq squeezes_S1x128_S128) (ix1 d)) a).val = _
  rw [hre]
  match a with
  | ⟨0, _⟩ => show off 0 + 1 * 0 = off 0; omega
  | ⟨1, _⟩ => show off 1 + 1 * d.val = d.val; omega

/-- At the offsets (value of a word, 0), in bounds, the row slice read at lane d is the table's contents at the row the
word names. -/
theorem srcRow_read_word (c : Dev nD) (w : BitVec 32)
    (inb : ∀ a, (![w.toNat, 0] : Fin 2 → Nat) a + S1x128.size a ≤ S100000x128.size a)
    (f : HbBuf0 (F := F) c hbM0_0) (d : Fin 128) :
    ReadAs.same.apply ((srcRow ![w.toNat, 0] inb).view.read (Elt F) f) (ix1 d) = f (ix2 (Cert.EdgeScore.rowOf w) d) := by
  refine (srcRow_read c _ inb rfl f d).trans ?_
  refine congrArg (fun r => f (ix2 r d)) (Fin.ext ?_)
  have h0 : w.toNat + 1 ≤ 100000 := inb 0
  show w.toNat = (Cert.EdgeScore.rowOf w).val
  rw [Cert.EdgeScore.rowOf_val (by omega)]

/-! ## One row of a [128,128] block written through its [128] view -/

/-- The [1,128] slice of a [128,128] block at the offsets, as a [128] vector. -/
abbrev dstRow (M : Memref sig .tc .vmem S128x128 .f32) (off : Fin 2 → Nat) (inb : ∀ a, off a + S1x128.size a ≤ S128x128.size a) :
    Memref sig .tc .vmem S128 .f32 :=
  (M.slice (Rect.unit (s := S128x128) off S1x128.size inb) (fun _ => rfl)).squeeze S128 squeezes_S1x128_S128

/-- Lane d of the row slice at offsets (k, 0) is the block's element (k, d). -/
theorem dstRow_emb (M : Memref sig .tc .vmem S128x128 .f32) (off : Fin 2 → Nat) (inb : ∀ a, off a + S1x128.size a ≤ S128x128.size a)
    (k : Fin 128) (h0 : off 0 = k.val) (h1 : off 1 = 0) (d : Fin 128) :
    (dstRow M off inb).view.emb (ix1 d) = M.view.emb (ix2 k d) := by
  have hre : Shape.reshapeEquiv (Shape.Squeezes.numel_eq squeezes_S1x128_S128) (ix1 d) = ix2 (0 : Fin 1) d :=
    Shape.reshapeEquiv_eq_of_rowMajor _ (by
      rw [Shape.rowMajor_val_two, Shape.rowMajor_val_one]
      show 0 * 128 + d.val = d.val
      rw [Nat.zero_mul, Nat.zero_add])
  show M.view.emb ((Rect.unit (s := S128x128) off S1x128.size inb).emb
    (Shape.reshapeEquiv (Shape.Squeezes.numel_eq squeezes_S1x128_S128) (ix1 d))) = _
  rw [hre]
  refine congrArg _ (funext fun a => Fin.ext ?_)
  match a with
  | ⟨0, _⟩ => show off 0 + 1 * 0 = k.val; omega
  | ⟨1, _⟩ => show off 1 + 1 * d.val = d.val; omega

/-- After the row slice at offsets (k, 0) is written whole, the block reads the written vector on row k. -/
theorem read_write_row_hit' (c : Dev nD) (M : Memref sig .tc .vmem S128x128 .f32) (k : Fin 128) (off : Fin 2 → Nat)
    (inb : ∀ a, off a + S1x128.size a ≤ S128x128.size a) (h0 : off 0 = k.val) (h1 : off 1 = 0)
    (f : Buf (Elt F) (M.view.loc (c : Thread nD τ))) (w : S128.Idx → Elt F .f32) (d : Fin 128) :
    M.view.read (Elt F) ((dstRow M off inb).view.write (Elt F) f w Finset.univ) (ix2 k d) = w (ix1 d) := by
  refine Eq.trans ?_ (View.read_write_of_mem (v := (dstRow M off inb).view) f w (Finset.mem_univ (ix1 d)))
  rw [View.read_apply, View.read_apply, dstRow_emb M off inb k h0 h1 d]

/-- … and its old contents on every other row. -/
theorem read_write_row_miss' (c : Dev nD) (M : Memref sig .tc .vmem S128x128 .f32) (k : Fin 128) (off : Fin 2 → Nat)
    (inb : ∀ a, off a + S1x128.size a ≤ S128x128.size a) (h0 : off 0 = k.val) (h1 : off 1 = 0)
    (f : Buf (Elt F) (M.view.loc (c : Thread nD τ))) (w : S128.Idx → Elt F .f32) (j d : Fin 128) (hj : j ≠ k) :
    M.view.read (Elt F) ((dstRow M off inb).view.write (Elt F) f w Finset.univ) (ix2 j d) = M.view.read (Elt F) f (ix2 j d) := by
  rw [View.read_apply, View.read_apply]
  refine congrArg _ (View.write_of_not_mem (v := (dstRow M off inb).view) f w Finset.univ fun hm => hj ?_)
  obtain ⟨x, -, hx⟩ := Finset.mem_map.mp hm
  rw [eq_ix1 x] at hx
  have hx' : M.view.emb (ix2 k (x 0)) = M.view.emb (ix2 j d) := (dstRow_emb M off inb k h0 h1 (x 0)).symm.trans hx
  have := congrFun (M.view.emb.injective hx') 0
  exact this.symm

theorem read_write_row_hit (c : Dev nD) (M : Memref sig .tc .vmem S128x128 .f32) (k : Fin 128)
    (inb : ∀ a, (![k.val, 0] : Fin 2 → Nat) a + S1x128.size a ≤ S128x128.size a)
    (f : Buf (Elt F) (M.view.loc (c : Thread nD τ))) (w : S128.Idx → Elt F .f32) (d : Fin 128) :
    M.view.read (Elt F) ((dstRow M ![k.val, 0] inb).view.write (Elt F) f w Finset.univ) (ix2 k d) = w (ix1 d) :=
  read_write_row_hit' c M k _ inb rfl rfl f w d

theorem read_write_row_miss (c : Dev nD) (M : Memref sig .tc .vmem S128x128 .f32) (k : Fin 128)
    (inb : ∀ a, (![k.val, 0] : Fin 2 → Nat) a + S1x128.size a ≤ S128x128.size a)
    (f : Buf (Elt F) (M.view.loc (c : Thread nD τ))) (w : S128.Idx → Elt F .f32) (j d : Fin 128) (hj : j ≠ k) :
    M.view.read (Elt F) ((dstRow M ![k.val, 0] inb).view.write (Elt F) f w Finset.univ) (ix2 j d) = M.view.read (Elt F) f (ix2 j d) :=
  read_write_row_miss' c M k _ inb rfl rfl f w j d hj

/-- One step of filling the block row by row: rows below k hold the table T and row k is written with T's row k, so
rows below k + 1 hold T. -/
theorem rows_step' (c : Dev nD) (M : Memref sig .tc .vmem S128x128 .f32) (k : Fin 128) (off : Fin 2 → Nat)
    (inb : ∀ a, off a + S1x128.size a ≤ S128x128.size a) (h0 : off 0 = k.val) (h1 : off 1 = 0)
    (f : Buf (Elt F) (M.view.loc (c : Thread nD τ))) (w : S128.Idx → Elt F .f32) (T : Fin 128 → Fin 128 → Elt F .f32)
    (hprev : ∀ j : Fin 128, j.val < k.val → ∀ d, M.view.read (Elt F) f (ix2 j d) = T j d) (hw : ∀ d, w (ix1 d) = T k d) :
    ∀ j : Fin 128, j.val < k.val + 1 → ∀ d,
      M.view.read (Elt F) ((dstRow M off inb).view.write (Elt F) f w Finset.univ) (ix2 j d) = T j d := by
  intro j hjk d
  by_cases hj : j = k
  · subst hj
    rw [read_write_row_hit' c M j off inb h0 h1 f w d, hw]
  · have hlt : j.val < k.val := by
      have : j.val ≠ k.val := fun h => hj (Fin.ext h)
      omega
    rw [read_write_row_miss' c M k off inb h0 h1 f w j d hj, hprev j hlt d]

theorem rows_step_fin (c : Dev nD) (M : Memref sig .tc .vmem S128x128 .f32) (k : Fin 128)
    (inb : ∀ a, (![k.val, 0] : Fin 2 → Nat) a + S1x128.size a ≤ S128x128.size a)
    (f : Buf (Elt F) (M.view.loc (c : Thread nD τ))) (w : S128.Idx → Elt F .f32) (T : Fin 128 → Fin 128 → Elt F .f32)
    (hprev : ∀ j : Fin 128, j.val < k.val → ∀ d, M.view.read (Elt F) f (ix2 j d) = T j d) (hw : ∀ d, w (ix1 d) = T k d) :
    ∀ j : Fin 128, j.val < k.val + 1 → ∀ d,
      M.view.read (Elt F) ((dstRow M ![k.val, 0] inb).view.write (Elt F) f w Finset.univ) (ix2 j d) = T j d :=
  rows_step' c M k _ inb rfl rfl f w T hprev hw

/-! ## The block filled row by row -/

/-- Rows below n of the block hold the table T. -/
def RowsUpTo (c : Dev nD) (M : Memref sig .tc .vmem S128x128 .f32) (T : Fin 128 → Fin 128 → Elt F .f32) (n : Nat)
    (g : Buf (Elt F) (M.view.loc (c : Thread nD τ))) : Prop :=
  ∀ j : Fin 128, j.val < n → ∀ d : Fin 128, M.view.read (Elt F) g (ix2 j d) = T j d

/-- No row is below 0. -/
theorem rows_zero (c : Dev nD) (M : Memref sig .tc .vmem S128x128 .f32) (T : Fin 128 → Fin 128 → Elt F .f32)
    (g : Buf (Elt F) (M.view.loc (c : Thread nD τ))) : RowsUpTo c M T 0 g :=
  fun _ hj => absurd hj (Nat.not_lt_zero _)

/-- Rows below k hold T and row k is written with T's row k: rows below k + 1 hold T. -/
theorem rows_step (c : Dev nD) (M : Memref sig .tc .vmem S128x128 .f32) (T : Fin 128 → Fin 128 → Elt F .f32) (k : Nat) (hk : k < 128)
    (inb : ∀ a, (![k, 0] : Fin 2 → Nat) a + S1x128.size a ≤ S128x128.size a)
    (f : Buf (Elt F) (M.view.loc (c : Thread nD τ))) (w : S128.Idx → Elt F .f32)
    (hprev : RowsUpTo c M T k f) (hw : ∀ d : Fin 128, w (ix1 d) = T ⟨k, hk⟩ d) :
    RowsUpTo c M T (k + 1) ((dstRow M ![k, 0] inb).view.write (Elt F) f w Finset.univ) :=
  rows_step' c M ⟨k, hk⟩ _ inb rfl rfl f w T hprev hw

/-- All 128 rows hold T: the block reads T. -/
theorem rows_all (c : Dev nD) (M : Memref sig .tc .vmem S128x128 .f32) (T : Fin 128 → Fin 128 → Elt F .f32)
    (g : Buf (Elt F) (M.view.loc (c : Thread nD τ))) (h : RowsUpTo c M T 128 g) :
    M.view.read (Elt F) g = fun y => T (y 0) (y 1) :=
  funext fun y => (congrArg (M.view.read (Elt F) g) (eq_ix2 y)).trans (h (y 0) (y 0).isLt (y 1))

end Cert.Kernel.Rows

end
-- ==== Proof.KernelOut.lean ====
/-
  What the kernel body stores in the output's staging buffer at a grid point, as a value.

  The body copies, for each lane j of 128, the table row named by the j-th word of its first index block into row j of one
  scratch block and the row named by the j-th word of its second index block into row j of another, one transfer per
  row, and only after the last of them does it load the two blocks whole. Each transfer overwrites exactly its row, so
  whatever the blocks held on entry the first block reads, at (j, d), the table at (the row word j of the first index
  block names, d), and the second likewise (`rowsOf`). The one store of the output block is the body's arithmetic of
  those two blocks, the weight row and the bias (`closedOut`): it does not depend on what the scratch held before.
-/
import proofs.«430914_j61323543052777_1_alg».proof.Proof.KernelRunA
import proofs.«430914_j61323543052777_1_alg».proof.Proof.KernelRows
import proofs.«430914_j61323543052777_1_alg».proof.Proof.Spec
import Idealize.ShloMosaic.Lib.Pipeline.Value
import Idealize.ShloMosaic.Lib.ValueIdx

set_option maxRecDepth 65536

noncomputable section

namespace Cert.Kernel.Out

open Cert.Kernel Cert.Kernel.Gen Cert.Kernel.GenP Cert.Kernel.Rows
open Idealize.ShloMosaic Idealize.ShloMosaic.TcCoe Idealize.ShloMosaic.Tactic Idealize.SL.Sem Idealize.ShloMosaic.ValueIdx

variable {F : FTy → Type} [FloatOps F]

/-- The block of table rows that 128 words name: entry (j, d) is the table at (the row word j names, d). -/
def rowsOf (c : Dev nD) (tab : HbBuf0 (F := F) c hbM0_0) (x : Vec F S128 .i32) : Vec F S128x128 .f32 :=
  fun y => tab (ix2 (Cert.EdgeScore.rowOf (x (ix1 (y 0)))) (y 1))

/-- The stored block: the body's arithmetic of the two gathered blocks, the weight row and the bias. -/
def closedOut (c : Dev nD) (tab : HbBuf0 (F := F) c hbM0_0) (x0 x1 : Vec F S128 .i32) (x2 : Vec F S1x128 .f32) (x3 : Vec F S1 .f32) :
    Vec F S128 .f32 :=
  k0_pay1 (k0_pay2 (rowsOf c tab x0) (rowsOf c tab x1)) (k0_pay3 x2) x3

/-- The all-zero offsets of a vector and of a matrix, as functions. -/
theorem zeroOff1 : (![0] : Fin 1 → Nat) = fun _ => 0 := funext fun a => by fin_cases a; rfl
theorem zeroOff2 : (![0, 0] : Fin 2 → Nat) = fun _ => 0 := funext fun a => by fin_cases a <;> rfl

set_option maxHeartbeats 16000000 in
/-- What the run's pieces leave in the output's staging buffer is the stored block's closed form, whatever the two
    scratch blocks held on entry. -/
theorem out_eq (c : Dev nD) (i : grid0.Coords) (arg1 : Memref sig .tc .smem S128 .i32) (harg1 : arg1.IsWhole) (arg2 : Memref sig .tc .smem S128 .i32) (harg2 : arg2.IsWhole) (arg4 : Memref sig .tc .vmem S1x128 .f32) (harg4 : arg4.IsWhole) (arg5 : Memref sig .tc .vmem S1 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128x128 .f32) (harg8 : arg8.IsWhole)
    (x0 : Vec F S128 .i32) (x1 : Vec F S128 .i32) (x2 : Vec F S1x128 .f32) (x3 : Vec F S1 .f32) (d7 : Vec F S128x128 .f32) (d8 : Vec F S128x128 .f32) (fh0 : HbBuf0 (F := F) c hbM0_0) (k0_hw1 : k0_chk1 (arg1.view.readAt (Elt F) (Rect.unit (s := S128) ![0] S1.size inb_S128_S1_0).toLoadRect (harg1.unread x0) (Shape.Idx.first (numel1_S1.symm ▸ Nat.one_pos)))) (k0_hw2 : k0_chk2 (arg2.view.readAt (Elt F) (Rect.unit (s := S128) ![0] S1.size inb_S128_S1_0).toLoadRect (harg2.unread x1) (Shape.Idx.first (numel1_S1.symm ▸ Nat.one_pos)))) (k0_hw3 : k0_chk3 (arg1.view.readAt (Elt F) (Rect.unit (s := S128) ![1] S1.size inb_S128_S1_1).toLoadRect (harg1.unread x0) (Shape.Idx.first (numel1_S1.symm ▸ Nat.one_pos)))) (k0_hw4 : k0_chk4 (arg2.view.readAt (Elt F) (Rect.unit (s := S128) ![1] S1.size inb_S128_S1_1).toLoadRect (harg2.unread x1) (Shape.Idx.first (numel1_S1.symm ▸ Nat.one_pos)))) (k0_hw5 : k0_chk5 (arg1.view.readAt (Elt F) (Rect.unit (s := S128) ![2] S1.size inb_S128_S1_2).toLoadRect (harg1.unread x0) (Shape.Idx.first (numel1_S1.symm ▸ Nat.one_pos)))) (k0_hw6 : k0_chk6 (arg2.view.readAt (Elt F) (Rect.unit (s := S128) ![2] S1.size inb_S128_S1_2).toLoadRect (harg2.unread x1) (Shape.Idx.first (numel1_S1.symm ▸ Nat.one_pos)))) (k0_hw7 : k0_chk7 (arg1.view.readAt (Elt F) (Rect.unit (s := S128) ![3] S1.size inb_S128_S1_3).toLoadRect (harg1.unread x0) (Shape.Idx.first (numel1_S1.symm ▸ Nat.one_pos)))) (k0_hw8 : k0_chk8 (arg2.view.readAt (Elt F) (Rect.unit (s := S128) ![3] S1.size inb_S128_S1_3).toLoadRect (harg2.unread x1) (Shape.Idx.first (numel1_S1.symm ▸ Nat.one_pos)))) (k0_hw9 : k0_chk9 (arg1.view.readAt (Elt F) (Rect.unit (s := S128) ![4] S1.size inb_S128_S1_4).toLoadRect (harg1.unread x0) (Shape.Idx.first (numel1_S1.symm ▸ Nat.one_pos)))) (k0_hw10 : k0_chk10 (arg2.view.readAt (Elt F) (Rect.unit (s := S128) ![4] S1.size inb_S128_S1_4).toLoadRect (harg2.unread x1) (Shape.Idx.first (numel1_S1.symm ▸ Nat.one_pos)))) (k0_hw11 : k0_chk11 (arg1.view.readAt (Elt F) (Rect.unit (s := S128) ![5] S1.size inb_S128_S1_5).toLoadRect (harg1.unread x0) (Shape.Idx.first (numel1_S1.symm ▸ Nat.one_pos)))) (k0_hw12 : k0_chk12 (arg2.view.readAt (Elt F) (Rect.unit (s := S128) ![5] S1.size inb_S128_S1_5).toLoadRect (harg2.unread x1) (Shape.Idx.first (numel1_S1.symm ▸ Nat.one_pos)))) (k0_hw13 : k0_chk13 (arg1.view.readAt (Elt F) (Rect.unit (s := S128) ![6] S1.size inb_S128_S1_6).toLoadRect (harg1.unread x0) (Shape.Idx.first (numel1_S1.symm ▸ Nat.one_pos)))) (k0_hw14 : k0_chk14 (arg2.view.readAt (Elt F) (Rect.unit (s := S128) ![6] S1.size inb_S128_S1_6).toLoadRect (harg2.unread x1) (Shape.Idx.first (numel1_S1.symm ▸ Nat.one_pos)))) (k0_hw15 : k0_chk15 (arg1.view.readAt (Elt F) (Rect.unit (s := S128) ![7] S1.size inb_S128_S1_7).toLoadRect (harg1.unread x0) (Shape.Idx.first (numel1_S1.symm ▸ Nat.one_pos)))) (k0_hw16 : k0_chk16 (arg2.view.readAt (Elt F) (Rect.unit (s := S128) ![7] S1.size inb_S128_S1_7).toLoadRect (harg2.unread x1) (Shape.Idx.first (numel1_S1.symm ▸ Nat.one_pos)))) (k0_hw17 : k0_chk17 (arg1.view.readAt (Elt F) (Rect.unit (s := S128) ![8] S1.size inb_S128_S1_8).toLoadRect (harg1.unread x0) (Shape.Idx.first (numel1_S1.symm ▸ Nat.one_pos)))) (k0_hw18 : k0_chk18 (arg2.view.readAt (Elt F) (Rect.unit (s := S128) ![8] S1.size inb_S128_S1_8).toLoadRect (harg2.unread x1) (Shape.Idx.first (numel1_S1.symm ▸ Nat.one_pos)))) (k0_hw19 : k0_chk19 (arg1.view.readAt (Elt F) (Rect.unit (s := S128) ![9] S1.size inb_S128_S1_9).toLoadRect (harg1.unread x0) (Shape.Idx.first (numel1_S1.symm ▸ Nat.one_pos)))) (k0_hw20 : k0_chk20 (arg2.view.readAt (Elt F) (Rect.unit (s := S128) ![9] S1.size inb_S128_S1_9).toLoadRect (harg2.unread x1) (Shape.Idx.first (numel1_S1.symm ▸ Nat.one_pos)))) (k0_hw21 : k0_chk21 (arg1.view.readAt (Elt F) (Rect.unit (s := S128) ![10] S1.size inb_S128_S1_10).toLoadRect (harg1.unread x0) (Shape.Idx.first (numel1_S1.symm ▸ Nat.one_pos)))) (k0_hw22 : k0_chk22 (arg2.view.readAt (Elt F) (Rect.unit (s := S128) ![10] S1.size inb_S128_S1_10).toLoadRect (harg2.unread x1) (Shape.Idx.first (numel1_S1.symm ▸ Nat.one_pos)))) (k0_hw23 : k0_chk23 (arg1.view.readAt (Elt F) (Rect.unit (s := S128) ![11] S1.size inb_S128_S1_11).toLoadRect (harg1.unread x0) (Shape.Idx.first (numel1_S1.symm ▸ Nat.one_pos)))) (k0_hw24 : k0_chk24 (arg2.view.readAt (Elt F) (Rect.unit (s := S128) ![11] S1.size inb_S128_S1_11).toLoadRect (harg2.unread x1) (Shape.Idx.first (numel1_S1.symm ▸ Nat.one_pos)))) (k0_hw25 : k0_chk25 (arg1.view.readAt (Elt F) (Rect.unit (s := S128) ![12] S1.size inb_S128_S1_12).toLoadRect (harg1.unread x0) (Shape.Idx.first (numel1_S1.symm ▸ Nat.one_pos)))) (k0_hw26 : k0_chk26 (arg2.view.readAt (Elt F) (Rect.unit (s := S128) ![12] S1.size inb_S128_S1_12).toLoadRect (harg2.unread x1) (Shape.Idx.first (numel1_S1.symm ▸ Nat.one_pos)))) (k0_hw27 : k0_chk27 (arg1.view.readAt (Elt F) (Rect.unit (s := S128) ![13] S1.size inb_S128_S1_13).toLoadRect (harg1.unread x0) (Shape.Idx.first (numel1_S1.symm ▸ Nat.one_pos)))) (k0_hw28 : k0_chk28 (arg2.view.readAt (Elt F) (Rect.unit (s := S128) ![13] S1.size inb_S128_S1_13).toLoadRect (harg2.unread x1) (Shape.Idx.first (numel1_S1.symm ▸ Nat.one_pos)))) (k0_hw29 : k0_chk29 (arg1.view.readAt (Elt F) (Rect.unit (s := S128) ![14] S1.size inb_S128_S1_14).toLoadRect (harg1.unread x0) (Shape.Idx.first (numel1_S1.symm ▸ Nat.one_pos)))) (k0_hw30 : k0_chk30 (arg2.view.readAt (Elt F) (Rect.unit (s := S128) ![14] S1.size inb_S128_S1_14).toLoadRect (harg2.unread x1) (Shape.Idx.first (numel1_S1.symm ▸ Nat.one_pos)))) (k0_hw31 : k0_chk31 (arg1.view.readAt (Elt F) (Rect.unit (s := S128) ![15] S1.size inb_S128_S1_15).toLoadRect (harg1.unread x0) (Shape.Idx.first (numel1_S1.symm ▸ Nat.one_pos)))) (k0_hw32 : k0_chk32 (arg2.view.readAt (Elt F) (Rect.unit (s := S128) ![15] S1.size inb_S128_S1_15).toLoadRect (harg2.unread x1) (Shape.Idx.first (numel1_S1.symm ▸ Nat.one_pos)))) (k0_hw33 : k0_chk33 (arg1.view.readAt (Elt F) (Rect.unit (s := S128) ![16] S1.size inb_S128_S1_16).toLoadRect (harg1.unread x0) (Shape.Idx.first (numel1_S1.symm ▸ Nat.one_pos)))) (k0_hw34 : k0_chk34 (arg2.view.readAt (Elt F) (Rect.unit (s := S128) ![16] S1.size inb_S128_S1_16).toLoadRect (harg2.unread x1) (Shape.Idx.first (numel1_S1.symm ▸ Nat.one_pos)))) (k0_hw35 : k0_chk35 (arg1.view.readAt (Elt F) (Rect.unit (s := S128) ![17] S1.size inb_S128_S1_17).toLoadRect (harg1.unread x0) (Shape.Idx.first (numel1_S1.symm ▸ Nat.one_pos)))) (k0_hw36 : k0_chk36 (arg2.view.readAt (Elt F) (Rect.unit (s := S128) ![17] S1.size inb_S128_S1_17).toLoadRect (harg2.unread x1) (Shape.Idx.first (numel1_S1.symm ▸ Nat.one_pos)))) (k0_hw37 : k0_chk37 (arg1.view.readAt (Elt F) (Rect.unit (s := S128) ![18] S1.size inb_S128_S1_18).toLoadRect (harg1.unread x0) (Shape.Idx.first (numel1_S1.symm ▸ Nat.one_pos)))) (k0_hw38 : k0_chk38 (arg2.view.readAt (Elt F) (Rect.unit (s := S128) ![18] S1.size inb_S128_S1_18).toLoadRect (harg2.unread x1) (Shape.Idx.first (numel1_S1.symm ▸ Nat.one_pos)))) (k0_hw39 : k0_chk39 (arg1.view.readAt (Elt F) (Rect.unit (s := S128) ![19] S1.size inb_S128_S1_19).toLoadRect (harg1.unread x0) (Shape.Idx.first (numel1_S1.symm ▸ Nat.one_pos)))) (k0_hw40 : k0_chk40 (arg2.view.readAt (Elt F) (Rect.unit (s := S128) ![19] S1.size inb_S128_S1_19).toLoadRect (harg2.unread x1) (Shape.Idx.first (numel1_S1.symm ▸ Nat.one_pos)))) (k0_hw41 : k0_chk41 (arg1.view.readAt (Elt F) (Rect.unit (s := S128) ![20] S1.size inb_S128_S1_20).toLoadRect (harg1.unread x0) (Shape.Idx.first (numel1_S1.symm ▸ Nat.one_pos)))) (k0_hw42 : k0_chk42 (arg2.view.readAt (Elt F) (Rect.unit (s := S128) ![20] S1.size inb_S128_S1_20).toLoadRect (harg2.unread x1) (Shape.Idx.first (numel1_S1.symm ▸ Nat.one_pos)))) (k0_hw43 : k0_chk43 (arg1.view.readAt (Elt F) (Rect.unit (s := S128) ![21] S1.size inb_S128_S1_21).toLoadRect (harg1.unread x0) (Shape.Idx.first (numel1_S1.symm ▸ Nat.one_pos)))) (k0_hw44 : k0_chk44 (arg2.view.readAt (Elt F) (Rect.unit (s := S128) ![21] S1.size inb_S128_S1_21).toLoadRect (harg2.unread x1) (Shape.Idx.first (numel1_S1.symm ▸ Nat.one_pos)))) (k0_hw45 : k0_chk45 (arg1.view.readAt (Elt F) (Rect.unit (s := S128) ![22] S1.size inb_S128_S1_22).toLoadRect (harg1.unread x0) (Shape.Idx.first (numel1_S1.symm ▸ Nat.one_pos)))) (k0_hw46 : k0_chk46 (arg2.view.readAt (Elt F) (Rect.unit (s := S128) ![22] S1.size inb_S128_S1_22).toLoadRect (harg2.unread x1) (Shape.Idx.first (numel1_S1.symm ▸ Nat.one_pos)))) (k0_hw47 : k0_chk47 (arg1.view.readAt (Elt F) (Rect.unit (s := S128) ![23] S1.size inb_S128_S1_23).toLoadRect (harg1.unread x0) (Shape.Idx.first (numel1_S1.symm ▸ Nat.one_pos)))) (k0_hw48 : k0_chk48 (arg2.view.readAt (Elt F) (Rect.unit (s := S128) ![23] S1.size inb_S128_S1_23).toLoadRect (harg2.unread x1) (Shape.Idx.first (numel1_S1.symm ▸ Nat.one_pos)))) (k0_hw49 : k0_chk49 (arg1.view.readAt (Elt F) (Rect.unit (s := S128) ![24] S1.size inb_S128_S1_24).toLoadRect (harg1.unread x0) (Shape.Idx.first (numel1_S1.symm ▸ Nat.one_pos)))) (k0_hw50 : k0_chk50 (arg2.view.readAt (Elt F) (Rect.unit (s := S128) ![24] S1.size inb_S128_S1_24).toLoadRect (harg2.unread x1) (Shape.Idx.first (numel1_S1.symm ▸ Nat.one_pos)))) (k0_hw51 : k0_chk51 (arg1.view.readAt (Elt F) (Rect.unit (s := S128) ![25] S1.size inb_S128_S1_25).toLoadRect (harg1.unread x0) (Shape.Idx.first (numel1_S1.symm ▸ Nat.one_pos)))) (k0_hw52 : k0_chk52 (arg2.view.readAt (Elt F) (Rect.unit (s := S128) ![25] S1.size inb_S128_S1_25).toLoadRect (harg2.unread x1) (Shape.Idx.first (numel1_S1.symm ▸ Nat.one_pos)))) (k0_hw53 : k0_chk53 (arg1.view.readAt (Elt F) (Rect.unit (s := S128) ![26] S1.size inb_S128_S1_26).toLoadRect (harg1.unread x0) (Shape.Idx.first (numel1_S1.symm ▸ Nat.one_pos)))) (k0_hw54 : k0_chk54 (arg2.view.readAt (Elt F) (Rect.unit (s := S128) ![26] S1.size inb_S128_S1_26).toLoadRect (harg2.unread x1) (Shape.Idx.first (numel1_S1.symm ▸ Nat.one_pos)))) (k0_hw55 : k0_chk55 (arg1.view.readAt (Elt F) (Rect.unit (s := S128) ![27] S1.size inb_S128_S1_27).toLoadRect (harg1.unread x0) (Shape.Idx.first (numel1_S1.symm ▸ Nat.one_pos)))) (k0_hw56 : k0_chk56 (arg2.view.readAt (Elt F) (Rect.unit (s := S128) ![27] S1.size inb_S128_S1_27).toLoadRect (harg2.unread x1) (Shape.Idx.first (numel1_S1.symm ▸ Nat.one_pos)))) (k0_hw57 : k0_chk57 (arg1.view.readAt (Elt F) (Rect.unit (s := S128) ![28] S1.size inb_S128_S1_28).toLoadRect (harg1.unread x0) (Shape.Idx.first (numel1_S1.symm ▸ Nat.one_pos)))) (k0_hw58 : k0_chk58 (arg2.view.readAt (Elt F) (Rect.unit (s := S128) ![28] S1.size inb_S128_S1_28).toLoadRect (harg2.unread x1) (Shape.Idx.first (numel1_S1.symm ▸ Nat.one_pos)))) (k0_hw59 : k0_chk59 (arg1.view.readAt (Elt F) (Rect.unit (s := S128) ![29] S1.size inb_S128_S1_29).toLoadRect (harg1.unread x0) (Shape.Idx.first (numel1_S1.symm ▸ Nat.one_pos)))) (k0_hw60 : k0_chk60 (arg2.view.readAt (Elt F) (Rect.unit (s := S128) ![29] S1.size inb_S128_S1_29).toLoadRect (harg2.unread x1) (Shape.Idx.first (numel1_S1.symm ▸ Nat.one_pos)))) (k0_hw61 : k0_chk61 (arg1.view.readAt (Elt F) (Rect.unit (s := S128) ![30] S1.size inb_S128_S1_30).toLoadRect (harg1.unread x0) (Shape.Idx.first (numel1_S1.symm ▸ Nat.one_pos)))) (k0_hw62 : k0_chk62 (arg2.view.readAt (Elt F) (Rect.unit (s := S128) ![30] S1.size inb_S128_S1_30).toLoadRect (harg2.unread x1) (Shape.Idx.first (numel1_S1.symm ▸ Nat.one_pos)))) (k0_hw63 : k0_chk63 (arg1.view.readAt (Elt F) (Rect.unit (s := S128) ![31] S1.size inb_S128_S1_31).toLoadRect (harg1.unread x0) (Shape.Idx.first (numel1_S1.symm ▸ Nat.one_pos)))) (k0_hw64 : k0_chk64 (arg2.view.readAt (Elt F) (Rect.unit (s := S128) ![31] S1.size inb_S128_S1_31).toLoadRect (harg2.unread x1) (Shape.Idx.first (numel1_S1.symm ▸ Nat.one_pos)))) (k0_hw65 : k0_chk65 (arg1.view.readAt (Elt F) (Rect.unit (s := S128) ![32] S1.size inb_S128_S1_32).toLoadRect (harg1.unread x0) (Shape.Idx.first (numel1_S1.symm ▸ Nat.one_pos)))) (k0_hw66 : k0_chk66 (arg2.view.readAt (Elt F) (Rect.unit (s := S128) ![32] S1.size inb_S128_S1_32).toLoadRect (harg2.unread x1) (Shape.Idx.first (numel1_S1.symm ▸ Nat.one_pos)))) (k0_hw67 : k0_chk67 (arg1.view.readAt (Elt F) (Rect.unit (s := S128) ![33] S1.size inb_S128_S1_33).toLoadRect (harg1.unread x0) (Shape.Idx.first (numel1_S1.symm ▸ Nat.one_pos)))) (k0_hw68 : k0_chk68 (arg2.view.readAt (Elt F) (Rect.unit (s := S128) ![33] S1.size inb_S128_S1_33).toLoadRect (harg2.unread x1) (Shape.Idx.first (numel1_S1.symm ▸ Nat.one_pos)))) (k0_hw69 : k0_chk69 (arg1.view.readAt (Elt F) (Rect.unit (s := S128) ![34] S1.size inb_S128_S1_34).toLoadRect (harg1.unread x0) (Shape.Idx.first (numel1_S1.symm ▸ Nat.one_pos)))) (k0_hw70 : k0_chk70 (arg2.view.readAt (Elt F) (Rect.unit (s := S128) ![34] S1.size inb_S128_S1_34).toLoadRect (harg2.unread x1) (Shape.Idx.first (numel1_S1.symm ▸ Nat.one_pos)))) (k0_hw71 : k0_chk71 (arg1.view.readAt (Elt F) (Rect.unit (s := S128) ![35] S1.size inb_S128_S1_35).toLoadRect (harg1.unread x0) (Shape.Idx.first (numel1_S1.symm ▸ Nat.one_pos)))) (k0_hw72 : k0_chk72 (arg2.view.readAt (Elt F) (Rect.unit (s := S128) ![35] S1.size inb_S128_S1_35).toLoadRect (harg2.unread x1) (Shape.Idx.first (numel1_S1.symm ▸ Nat.one_pos)))) (k0_hw73 : k0_chk73 (arg1.view.readAt (Elt F) (Rect.unit (s := S128) ![36] S1.size inb_S128_S1_36).toLoadRect (harg1.unread x0) (Shape.Idx.first (numel1_S1.symm ▸ Nat.one_pos)))) (k0_hw74 : k0_chk74 (arg2.view.readAt (Elt F) (Rect.unit (s := S128) ![36] S1.size inb_S128_S1_36).toLoadRect (harg2.unread x1) (Shape.Idx.first (numel1_S1.symm ▸ Nat.one_pos)))) (k0_hw75 : k0_chk75 (arg1.view.readAt (Elt F) (Rect.unit (s := S128) ![37] S1.size inb_S128_S1_37).toLoadRect (harg1.unread x0) (Shape.Idx.first (numel1_S1.symm ▸ Nat.one_pos)))) (k0_hw76 : k0_chk76 (arg2.view.readAt (Elt F) (Rect.unit (s := S128) ![37] S1.size inb_S128_S1_37).toLoadRect (harg2.unread x1) (Shape.Idx.first (numel1_S1.symm ▸ Nat.one_pos)))) (k0_hw77 : k0_chk77 (arg1.view.readAt (Elt F) (Rect.unit (s := S128) ![38] S1.size inb_S128_S1_38).toLoadRect (harg1.unread x0) (Shape.Idx.first (numel1_S1.symm ▸ Nat.one_pos)))) (k0_hw78 : k0_chk78 (arg2.view.readAt (Elt F) (Rect.unit (s := S128) ![38] S1.size inb_S128_S1_38).toLoadRect (harg2.unread x1) (Shape.Idx.first (numel1_S1.symm ▸ Nat.one_pos)))) (k0_hw79 : k0_chk79 (arg1.view.readAt (Elt F) (Rect.unit (s := S128) ![39] S1.size inb_S128_S1_39).toLoadRect (harg1.unread x0) (Shape.Idx.first (numel1_S1.symm ▸ Nat.one_pos)))) (k0_hw80 : k0_chk80 (arg2.view.readAt (Elt F) (Rect.unit (s := S128) ![39] S1.size inb_S128_S1_39).toLoadRect (harg2.unread x1) (Shape.Idx.first (numel1_S1.symm ▸ Nat.one_pos)))) (k0_hw81 : k0_chk81 (arg1.view.readAt (Elt F) (Rect.unit (s := S128) ![40] S1.size inb_S128_S1_40).toLoadRect (harg1.unread x0) (Shape.Idx.first (numel1_S1.symm ▸ Nat.one_pos)))) (k0_hw82 : k0_chk82 (arg2.view.readAt (Elt F) (Rect.unit (s := S128) ![40] S1.size inb_S128_S1_40).toLoadRect (harg2.unread x1) (Shape.Idx.first (numel1_S1.symm ▸ Nat.one_pos)))) (k0_hw83 : k0_chk83 (arg1.view.readAt (Elt F) (Rect.unit (s := S128) ![41] S1.size inb_S128_S1_41).toLoadRect (harg1.unread x0) (Shape.Idx.first (numel1_S1.symm ▸ Nat.one_pos)))) (k0_hw84 : k0_chk84 (arg2.view.readAt (Elt F) (Rect.unit (s := S128) ![41] S1.size inb_S128_S1_41).toLoadRect (harg2.unread x1) (Shape.Idx.first (numel1_S1.symm ▸ Nat.one_pos)))) (k0_hw85 : k0_chk85 (arg1.view.readAt (Elt F) (Rect.unit (s := S128) ![42] S1.size inb_S128_S1_42).toLoadRect (harg1.unread x0) (Shape.Idx.first (numel1_S1.symm ▸ Nat.one_pos)))) (k0_hw86 : k0_chk86 (arg2.view.readAt (Elt F) (Rect.unit (s := S128) ![42] S1.size inb_S128_S1_42).toLoadRect (harg2.unread x1) (Shape.Idx.first (numel1_S1.symm ▸ Nat.one_pos)))) (k0_hw87 : k0_chk87 (arg1.view.readAt (Elt F) (Rect.unit (s := S128) ![43] S1.size inb_S128_S1_43).toLoadRect (harg1.unread x0) (Shape.Idx.first (numel1_S1.symm ▸ Nat.one_pos)))) (k0_hw88 : k0_chk88 (arg2.view.readAt (Elt F) (Rect.unit (s := S128) ![43] S1.size inb_S128_S1_43).toLoadRect (harg2.unread x1) (Shape.Idx.first (numel1_S1.symm ▸ Nat.one_pos)))) (k0_hw89 : k0_chk89 (arg1.view.readAt (Elt F) (Rect.unit (s := S128) ![44] S1.size inb_S128_S1_44).toLoadRect (harg1.unread x0) (Shape.Idx.first (numel1_S1.symm ▸ Nat.one_pos)))) (k0_hw90 : k0_chk90 (arg2.view.readAt (Elt F) (Rect.unit (s := S128) ![44] S1.size inb_S128_S1_44).toLoadRect (harg2.unread x1) (Shape.Idx.first (numel1_S1.symm ▸ Nat.one_pos)))) (k0_hw91 : k0_chk91 (arg1.view.readAt (Elt F) (Rect.unit (s := S128) ![45] S1.size inb_S128_S1_45).toLoadRect (harg1.unread x0) (Shape.Idx.first (numel1_S1.symm ▸ Nat.one_pos)))) (k0_hw92 : k0_chk92 (arg2.view.readAt (Elt F) (Rect.unit (s := S128) ![45] S1.size inb_S128_S1_45).toLoadRect (harg2.unread x1) (Shape.Idx.first (numel1_S1.symm ▸ Nat.one_pos)))) (k0_hw93 : k0_chk93 (arg1.view.readAt (Elt F) (Rect.unit (s := S128) ![46] S1.size inb_S128_S1_46).toLoadRect (harg1.unread x0) (Shape.Idx.first (numel1_S1.symm ▸ Nat.one_pos)))) (k0_hw94 : k0_chk94 (arg2.view.readAt (Elt F) (Rect.unit (s := S128) ![46] S1.size inb_S128_S1_46).toLoadRect (harg2.unread x1) (Shape.Idx.first (numel1_S1.symm ▸ Nat.one_pos)))) (k0_hw95 : k0_chk95 (arg1.view.readAt (Elt F) (Rect.unit (s := S128) ![47] S1.size inb_S128_S1_47).toLoadRect (harg1.unread x0) (Shape.Idx.first (numel1_S1.symm ▸ Nat.one_pos)))) (k0_hw96 : k0_chk96 (arg2.view.readAt (Elt F) (Rect.unit (s := S128) ![47] S1.size inb_S128_S1_47).toLoadRect (harg2.unread x1) (Shape.Idx.first (numel1_S1.symm ▸ Nat.one_pos)))) (k0_hw97 : k0_chk97 (arg1.view.readAt (Elt F) (Rect.unit (s := S128) ![48] S1.size inb_S128_S1_48).toLoadRect (harg1.unread x0) (Shape.Idx.first (numel1_S1.symm ▸ Nat.one_pos)))) (k0_hw98 : k0_chk98 (arg2.view.readAt (Elt F) (Rect.unit (s := S128) ![48] S1.size inb_S128_S1_48).toLoadRect (harg2.unread x1) (Shape.Idx.first (numel1_S1.symm ▸ Nat.one_pos)))) (k0_hw99 : k0_chk99 (arg1.view.readAt (Elt F) (Rect.unit (s := S128) ![49] S1.size inb_S128_S1_49).toLoadRect (harg1.unread x0) (Shape.Idx.first (numel1_S1.symm ▸ Nat.one_pos)))) (k0_hw100 : k0_chk100 (arg2.view.readAt (Elt F) (Rect.unit (s := S128) ![49] S1.size inb_S128_S1_49).toLoadRect (harg2.unread x1) (Shape.Idx.first (numel1_S1.symm ▸ Nat.one_pos)))) (k0_hw101 : k0_chk101 (arg1.view.readAt (Elt F) (Rect.unit (s := S128) ![50] S1.size inb_S128_S1_50).toLoadRect (harg1.unread x0) (Shape.Idx.first (numel1_S1.symm ▸ Nat.one_pos)))) (k0_hw102 : k0_chk102 (arg2.view.readAt (Elt F) (Rect.unit (s := S128) ![50] S1.size inb_S128_S1_50).toLoadRect (harg2.unread x1) (Shape.Idx.first (numel1_S1.symm ▸ Nat.one_pos)))) (k0_hw103 : k0_chk103 (arg1.view.readAt (Elt F) (Rect.unit (s := S128) ![51] S1.size inb_S128_S1_51).toLoadRect (harg1.unread x0) (Shape.Idx.first (numel1_S1.symm ▸ Nat.one_pos)))) (k0_hw104 : k0_chk104 (arg2.view.readAt (Elt F) (Rect.unit (s := S128) ![51] S1.size inb_S128_S1_51).toLoadRect (harg2.unread x1) (Shape.Idx.first (numel1_S1.symm ▸ Nat.one_pos)))) (k0_hw105 : k0_chk105 (arg1.view.readAt (Elt F) (Rect.unit (s := S128) ![52] S1.size inb_S128_S1_52).toLoadRect (harg1.unread x0) (Shape.Idx.first (numel1_S1.symm ▸ Nat.one_pos)))) (k0_hw106 : k0_chk106 (arg2.view.readAt (Elt F) (Rect.unit (s := S128) ![52] S1.size inb_S128_S1_52).toLoadRect (harg2.unread x1) (Shape.Idx.first (numel1_S1.symm ▸ Nat.one_pos)))) (k0_hw107 : k0_chk107 (arg1.view.readAt (Elt F) (Rect.unit (s := S128) ![53] S1.size inb_S128_S1_53).toLoadRect (harg1.unread x0) (Shape.Idx.first (numel1_S1.symm ▸ Nat.one_pos)))) (k0_hw108 : k0_chk108 (arg2.view.readAt (Elt F) (Rect.unit (s := S128) ![53] S1.size inb_S128_S1_53).toLoadRect (harg2.unread x1) (Shape.Idx.first (numel1_S1.symm ▸ Nat.one_pos)))) (k0_hw109 : k0_chk109 (arg1.view.readAt (Elt F) (Rect.unit (s := S128) ![54] S1.size inb_S128_S1_54).toLoadRect (harg1.unread x0) (Shape.Idx.first (numel1_S1.symm ▸ Nat.one_pos)))) (k0_hw110 : k0_chk110 (arg2.view.readAt (Elt F) (Rect.unit (s := S128) ![54] S1.size inb_S128_S1_54).toLoadRect (harg2.unread x1) (Shape.Idx.first (numel1_S1.symm ▸ Nat.one_pos)))) (k0_hw111 : k0_chk111 (arg1.view.readAt (Elt F) (Rect.unit (s := S128) ![55] S1.size inb_S128_S1_55).toLoadRect (harg1.unread x0) (Shape.Idx.first (numel1_S1.symm ▸ Nat.one_pos)))) (k0_hw112 : k0_chk112 (arg2.view.readAt (Elt F) (Rect.unit (s := S128) ![55] S1.size inb_S128_S1_55).toLoadRect (harg2.unread x1) (Shape.Idx.first (numel1_S1.symm ▸ Nat.one_pos)))) (k0_hw113 : k0_chk113 (arg1.view.readAt (Elt F) (Rect.unit (s := S128) ![56] S1.size inb_S128_S1_56).toLoadRect (harg1.unread x0) (Shape.Idx.first (numel1_S1.symm ▸ Nat.one_pos)))) (k0_hw114 : k0_chk114 (arg2.view.readAt (Elt F) (Rect.unit (s := S128) ![56] S1.size inb_S128_S1_56).toLoadRect (harg2.unread x1) (Shape.Idx.first (numel1_S1.symm ▸ Nat.one_pos)))) (k0_hw115 : k0_chk115 (arg1.view.readAt (Elt F) (Rect.unit (s := S128) ![57] S1.size inb_S128_S1_57).toLoadRect (harg1.unread x0) (Shape.Idx.first (numel1_S1.symm ▸ Nat.one_pos)))) (k0_hw116 : k0_chk116 (arg2.view.readAt (Elt F) (Rect.unit (s := S128) ![57] S1.size inb_S128_S1_57).toLoadRect (harg2.unread x1) (Shape.Idx.first (numel1_S1.symm ▸ Nat.one_pos)))) (k0_hw117 : k0_chk117 (arg1.view.readAt (Elt F) (Rect.unit (s := S128) ![58] S1.size inb_S128_S1_58).toLoadRect (harg1.unread x0) (Shape.Idx.first (numel1_S1.symm ▸ Nat.one_pos)))) (k0_hw118 : k0_chk118 (arg2.view.readAt (Elt F) (Rect.unit (s := S128) ![58] S1.size inb_S128_S1_58).toLoadRect (harg2.unread x1) (Shape.Idx.first (numel1_S1.symm ▸ Nat.one_pos)))) (k0_hw119 : k0_chk119 (arg1.view.readAt (Elt F) (Rect.unit (s := S128) ![59] S1.size inb_S128_S1_59).toLoadRect (harg1.unread x0) (Shape.Idx.first (numel1_S1.symm ▸ Nat.one_pos)))) (k0_hw120 : k0_chk120 (arg2.view.readAt (Elt F) (Rect.unit (s := S128) ![59] S1.size inb_S128_S1_59).toLoadRect (harg2.unread x1) (Shape.Idx.first (numel1_S1.symm ▸ Nat.one_pos)))) (k0_hw121 : k0_chk121 (arg1.view.readAt (Elt F) (Rect.unit (s := S128) ![60] S1.size inb_S128_S1_60).toLoadRect (harg1.unread x0) (Shape.Idx.first (numel1_S1.symm ▸ Nat.one_pos)))) (k0_hw122 : k0_chk122 (arg2.view.readAt (Elt F) (Rect.unit (s := S128) ![60] S1.size inb_S128_S1_60).toLoadRect (harg2.unread x1) (Shape.Idx.first (numel1_S1.symm ▸ Nat.one_pos)))) (k0_hw123 : k0_chk123 (arg1.view.readAt (Elt F) (Rect.unit (s := S128) ![61] S1.size inb_S128_S1_61).toLoadRect (harg1.unread x0) (Shape.Idx.first (numel1_S1.symm ▸ Nat.one_pos)))) (k0_hw124 : k0_chk124 (arg2.view.readAt (Elt F) (Rect.unit (s := S128) ![61] S1.size inb_S128_S1_61).toLoadRect (harg2.unread x1) (Shape.Idx.first (numel1_S1.symm ▸ Nat.one_pos)))) (k0_hw125 : k0_chk125 (arg1.view.readAt (Elt F) (Rect.unit (s := S128) ![62] S1.size inb_S128_S1_62).toLoadRect (harg1.unread x0) (Shape.Idx.first (numel1_S1.symm ▸ Nat.one_pos)))) (k0_hw126 : k0_chk126 (arg2.view.readAt (Elt F) (Rect.unit (s := S128) ![62] S1.size inb_S128_S1_62).toLoadRect (harg2.unread x1) (Shape.Idx.first (numel1_S1.symm ▸ Nat.one_pos)))) (k0_hw127 : k0_chk127 (arg1.view.readAt (Elt F) (Rect.unit (s := S128) ![63] S1.size inb_S128_S1_63).toLoadRect (harg1.unread x0) (Shape.Idx.first (numel1_S1.symm ▸ Nat.one_pos)))) (k0_hw128 : k0_chk128 (arg2.view.readAt (Elt F) (Rect.unit (s := S128) ![63] S1.size inb_S128_S1_63).toLoadRect (harg2.unread x1) (Shape.Idx.first (numel1_S1.symm ▸ Nat.one_pos)))) (k0_hw129 : k0_chk129 (arg1.view.readAt (Elt F) (Rect.unit (s := S128) ![64] S1.size inb_S128_S1_64).toLoadRect (harg1.unread x0) (Shape.Idx.first (numel1_S1.symm ▸ Nat.one_pos)))) (k0_hw130 : k0_chk130 (arg2.view.readAt (Elt F) (Rect.unit (s := S128) ![64] S1.size inb_S128_S1_64).toLoadRect (harg2.unread x1) (Shape.Idx.first (numel1_S1.symm ▸ Nat.one_pos)))) (k0_hw131 : k0_chk131 (arg1.view.readAt (Elt F) (Rect.unit (s := S128) ![65] S1.size inb_S128_S1_65).toLoadRect (harg1.unread x0) (Shape.Idx.first (numel1_S1.symm ▸ Nat.one_pos)))) (k0_hw132 : k0_chk132 (arg2.view.readAt (Elt F) (Rect.unit (s := S128) ![65] S1.size inb_S128_S1_65).toLoadRect (harg2.unread x1) (Shape.Idx.first (numel1_S1.symm ▸ Nat.one_pos)))) (k0_hw133 : k0_chk133 (arg1.view.readAt (Elt F) (Rect.unit (s := S128) ![66] S1.size inb_S128_S1_66).toLoadRect (harg1.unread x0) (Shape.Idx.first (numel1_S1.symm ▸ Nat.one_pos)))) (k0_hw134 : k0_chk134 (arg2.view.readAt (Elt F) (Rect.unit (s := S128) ![66] S1.size inb_S128_S1_66).toLoadRect (harg2.unread x1) (Shape.Idx.first (numel1_S1.symm ▸ Nat.one_pos)))) (k0_hw135 : k0_chk135 (arg1.view.readAt (Elt F) (Rect.unit (s := S128) ![67] S1.size inb_S128_S1_67).toLoadRect (harg1.unread x0) (Shape.Idx.first (numel1_S1.symm ▸ Nat.one_pos)))) (k0_hw136 : k0_chk136 (arg2.view.readAt (Elt F) (Rect.unit (s := S128) ![67] S1.size inb_S128_S1_67).toLoadRect (harg2.unread x1) (Shape.Idx.first (numel1_S1.symm ▸ Nat.one_pos)))) (k0_hw137 : k0_chk137 (arg1.view.readAt (Elt F) (Rect.unit (s := S128) ![68] S1.size inb_S128_S1_68).toLoadRect (harg1.unread x0) (Shape.Idx.first (numel1_S1.symm ▸ Nat.one_pos)))) (k0_hw138 : k0_chk138 (arg2.view.readAt (Elt F) (Rect.unit (s := S128) ![68] S1.size inb_S128_S1_68).toLoadRect (harg2.unread x1) (Shape.Idx.first (numel1_S1.symm ▸ Nat.one_pos)))) (k0_hw139 : k0_chk139 (arg1.view.readAt (Elt F) (Rect.unit (s := S128) ![69] S1.size inb_S128_S1_69).toLoadRect (harg1.unread x0) (Shape.Idx.first (numel1_S1.symm ▸ Nat.one_pos)))) (k0_hw140 : k0_chk140 (arg2.view.readAt (Elt F) (Rect.unit (s := S128) ![69] S1.size inb_S128_S1_69).toLoadRect (harg2.unread x1) (Shape.Idx.first (numel1_S1.symm ▸ Nat.one_pos)))) (k0_hw141 : k0_chk141 (arg1.view.readAt (Elt F) (Rect.unit (s := S128) ![70] S1.size inb_S128_S1_70).toLoadRect (harg1.unread x0) (Shape.Idx.first (numel1_S1.symm ▸ Nat.one_pos)))) (k0_hw142 : k0_chk142 (arg2.view.readAt (Elt F) (Rect.unit (s := S128) ![70] S1.size inb_S128_S1_70).toLoadRect (harg2.unread x1) (Shape.Idx.first (numel1_S1.symm ▸ Nat.one_pos)))) (k0_hw143 : k0_chk143 (arg1.view.readAt (Elt F) (Rect.unit (s := S128) ![71] S1.size inb_S128_S1_71).toLoadRect (harg1.unread x0) (Shape.Idx.first (numel1_S1.symm ▸ Nat.one_pos)))) (k0_hw144 : k0_chk144 (arg2.view.readAt (Elt F) (Rect.unit (s := S128) ![71] S1.size inb_S128_S1_71).toLoadRect (harg2.unread x1) (Shape.Idx.first (numel1_S1.symm ▸ Nat.one_pos)))) (k0_hw145 : k0_chk145 (arg1.view.readAt (Elt F) (Rect.unit (s := S128) ![72] S1.size inb_S128_S1_72).toLoadRect (harg1.unread x0) (Shape.Idx.first (numel1_S1.symm ▸ Nat.one_pos)))) (k0_hw146 : k0_chk146 (arg2.view.readAt (Elt F) (Rect.unit (s := S128) ![72] S1.size inb_S128_S1_72).toLoadRect (harg2.unread x1) (Shape.Idx.first (numel1_S1.symm ▸ Nat.one_pos)))) (k0_hw147 : k0_chk147 (arg1.view.readAt (Elt F) (Rect.unit (s := S128) ![73] S1.size inb_S128_S1_73).toLoadRect (harg1.unread x0) (Shape.Idx.first (numel1_S1.symm ▸ Nat.one_pos)))) (k0_hw148 : k0_chk148 (arg2.view.readAt (Elt F) (Rect.unit (s := S128) ![73] S1.size inb_S128_S1_73).toLoadRect (harg2.unread x1) (Shape.Idx.first (numel1_S1.symm ▸ Nat.one_pos)))) (k0_hw149 : k0_chk149 (arg1.view.readAt (Elt F) (Rect.unit (s := S128) ![74] S1.size inb_S128_S1_74).toLoadRect (harg1.unread x0) (Shape.Idx.first (numel1_S1.symm ▸ Nat.one_pos)))) (k0_hw150 : k0_chk150 (arg2.view.readAt (Elt F) (Rect.unit (s := S128) ![74] S1.size inb_S128_S1_74).toLoadRect (harg2.unread x1) (Shape.Idx.first (numel1_S1.symm ▸ Nat.one_pos)))) (k0_hw151 : k0_chk151 (arg1.view.readAt (Elt F) (Rect.unit (s := S128) ![75] S1.size inb_S128_S1_75).toLoadRect (harg1.unread x0) (Shape.Idx.first (numel1_S1.symm ▸ Nat.one_pos)))) (k0_hw152 : k0_chk152 (arg2.view.readAt (Elt F) (Rect.unit (s := S128) ![75] S1.size inb_S128_S1_75).toLoadRect (harg2.unread x1) (Shape.Idx.first (numel1_S1.symm ▸ Nat.one_pos)))) (k0_hw153 : k0_chk153 (arg1.view.readAt (Elt F) (Rect.unit (s := S128) ![76] S1.size inb_S128_S1_76).toLoadRect (harg1.unread x0) (Shape.Idx.first (numel1_S1.symm ▸ Nat.one_pos)))) (k0_hw154 : k0_chk154 (arg2.view.readAt (Elt F) (Rect.unit (s := S128) ![76] S1.size inb_S128_S1_76).toLoadRect (harg2.unread x1) (Shape.Idx.first (numel1_S1.symm ▸ Nat.one_pos)))) (k0_hw155 : k0_chk155 (arg1.view.readAt (Elt F) (Rect.unit (s := S128) ![77] S1.size inb_S128_S1_77).toLoadRect (harg1.unread x0) (Shape.Idx.first (numel1_S1.symm ▸ Nat.one_pos)))) (k0_hw156 : k0_chk156 (arg2.view.readAt (Elt F) (Rect.unit (s := S128) ![77] S1.size inb_S128_S1_77).toLoadRect (harg2.unread x1) (Shape.Idx.first (numel1_S1.symm ▸ Nat.one_pos)))) (k0_hw157 : k0_chk157 (arg1.view.readAt (Elt F) (Rect.unit (s := S128) ![78] S1.size inb_S128_S1_78).toLoadRect (harg1.unread x0) (Shape.Idx.first (numel1_S1.symm ▸ Nat.one_pos)))) (k0_hw158 : k0_chk158 (arg2.view.readAt (Elt F) (Rect.unit (s := S128) ![78] S1.size inb_S128_S1_78).toLoadRect (harg2.unread x1) (Shape.Idx.first (numel1_S1.symm ▸ Nat.one_pos)))) (k0_hw159 : k0_chk159 (arg1.view.readAt (Elt F) (Rect.unit (s := S128) ![79] S1.size inb_S128_S1_79).toLoadRect (harg1.unread x0) (Shape.Idx.first (numel1_S1.symm ▸ Nat.one_pos)))) (k0_hw160 : k0_chk160 (arg2.view.readAt (Elt F) (Rect.unit (s := S128) ![79] S1.size inb_S128_S1_79).toLoadRect (harg2.unread x1) (Shape.Idx.first (numel1_S1.symm ▸ Nat.one_pos)))) (k0_hw161 : k0_chk161 (arg1.view.readAt (Elt F) (Rect.unit (s := S128) ![80] S1.size inb_S128_S1_80).toLoadRect (harg1.unread x0) (Shape.Idx.first (numel1_S1.symm ▸ Nat.one_pos)))) (k0_hw162 : k0_chk162 (arg2.view.readAt (Elt F) (Rect.unit (s := S128) ![80] S1.size inb_S128_S1_80).toLoadRect (harg2.unread x1) (Shape.Idx.first (numel1_S1.symm ▸ Nat.one_pos)))) (k0_hw163 : k0_chk163 (arg1.view.readAt (Elt F) (Rect.unit (s := S128) ![81] S1.size inb_S128_S1_81).toLoadRect (harg1.unread x0) (Shape.Idx.first (numel1_S1.symm ▸ Nat.one_pos)))) (k0_hw164 : k0_chk164 (arg2.view.readAt (Elt F) (Rect.unit (s := S128) ![81] S1.size inb_S128_S1_81).toLoadRect (harg2.unread x1) (Shape.Idx.first (numel1_S1.symm ▸ Nat.one_pos)))) (k0_hw165 : k0_chk165 (arg1.view.readAt (Elt F) (Rect.unit (s := S128) ![82] S1.size inb_S128_S1_82).toLoadRect (harg1.unread x0) (Shape.Idx.first (numel1_S1.symm ▸ Nat.one_pos)))) (k0_hw166 : k0_chk166 (arg2.view.readAt (Elt F) (Rect.unit (s := S128) ![82] S1.size inb_S128_S1_82).toLoadRect (harg2.unread x1) (Shape.Idx.first (numel1_S1.symm ▸ Nat.one_pos)))) (k0_hw167 : k0_chk167 (arg1.view.readAt (Elt F) (Rect.unit (s := S128) ![83] S1.size inb_S128_S1_83).toLoadRect (harg1.unread x0) (Shape.Idx.first (numel1_S1.symm ▸ Nat.one_pos)))) (k0_hw168 : k0_chk168 (arg2.view.readAt (Elt F) (Rect.unit (s := S128) ![83] S1.size inb_S128_S1_83).toLoadRect (harg2.unread x1) (Shape.Idx.first (numel1_S1.symm ▸ Nat.one_pos)))) (k0_hw169 : k0_chk169 (arg1.view.readAt (Elt F) (Rect.unit (s := S128) ![84] S1.size inb_S128_S1_84).toLoadRect (harg1.unread x0) (Shape.Idx.first (numel1_S1.symm ▸ Nat.one_pos)))) (k0_hw170 : k0_chk170 (arg2.view.readAt (Elt F) (Rect.unit (s := S128) ![84] S1.size inb_S128_S1_84).toLoadRect (harg2.unread x1) (Shape.Idx.first (numel1_S1.symm ▸ Nat.one_pos)))) (k0_hw171 : k0_chk171 (arg1.view.readAt (Elt F) (Rect.unit (s := S128) ![85] S1.size inb_S128_S1_85).toLoadRect (harg1.unread x0) (Shape.Idx.first (numel1_S1.symm ▸ Nat.one_pos)))) (k0_hw172 : k0_chk172 (arg2.view.readAt (Elt F) (Rect.unit (s := S128) ![85] S1.size inb_S128_S1_85).toLoadRect (harg2.unread x1) (Shape.Idx.first (numel1_S1.symm ▸ Nat.one_pos)))) (k0_hw173 : k0_chk173 (arg1.view.readAt (Elt F) (Rect.unit (s := S128) ![86] S1.size inb_S128_S1_86).toLoadRect (harg1.unread x0) (Shape.Idx.first (numel1_S1.symm ▸ Nat.one_pos)))) (k0_hw174 : k0_chk174 (arg2.view.readAt (Elt F) (Rect.unit (s := S128) ![86] S1.size inb_S128_S1_86).toLoadRect (harg2.unread x1) (Shape.Idx.first (numel1_S1.symm ▸ Nat.one_pos)))) (k0_hw175 : k0_chk175 (arg1.view.readAt (Elt F) (Rect.unit (s := S128) ![87] S1.size inb_S128_S1_87).toLoadRect (harg1.unread x0) (Shape.Idx.first (numel1_S1.symm ▸ Nat.one_pos)))) (k0_hw176 : k0_chk176 (arg2.view.readAt (Elt F) (Rect.unit (s := S128) ![87] S1.size inb_S128_S1_87).toLoadRect (harg2.unread x1) (Shape.Idx.first (numel1_S1.symm ▸ Nat.one_pos)))) (k0_hw177 : k0_chk177 (arg1.view.readAt (Elt F) (Rect.unit (s := S128) ![88] S1.size inb_S128_S1_88).toLoadRect (harg1.unread x0) (Shape.Idx.first (numel1_S1.symm ▸ Nat.one_pos)))) (k0_hw178 : k0_chk178 (arg2.view.readAt (Elt F) (Rect.unit (s := S128) ![88] S1.size inb_S128_S1_88).toLoadRect (harg2.unread x1) (Shape.Idx.first (numel1_S1.symm ▸ Nat.one_pos)))) (k0_hw179 : k0_chk179 (arg1.view.readAt (Elt F) (Rect.unit (s := S128) ![89] S1.size inb_S128_S1_89).toLoadRect (harg1.unread x0) (Shape.Idx.first (numel1_S1.symm ▸ Nat.one_pos)))) (k0_hw180 : k0_chk180 (arg2.view.readAt (Elt F) (Rect.unit (s := S128) ![89] S1.size inb_S128_S1_89).toLoadRect (harg2.unread x1) (Shape.Idx.first (numel1_S1.symm ▸ Nat.one_pos)))) (k0_hw181 : k0_chk181 (arg1.view.readAt (Elt F) (Rect.unit (s := S128) ![90] S1.size inb_S128_S1_90).toLoadRect (harg1.unread x0) (Shape.Idx.first (numel1_S1.symm ▸ Nat.one_pos)))) (k0_hw182 : k0_chk182 (arg2.view.readAt (Elt F) (Rect.unit (s := S128) ![90] S1.size inb_S128_S1_90).toLoadRect (harg2.unread x1) (Shape.Idx.first (numel1_S1.symm ▸ Nat.one_pos)))) (k0_hw183 : k0_chk183 (arg1.view.readAt (Elt F) (Rect.unit (s := S128) ![91] S1.size inb_S128_S1_91).toLoadRect (harg1.unread x0) (Shape.Idx.first (numel1_S1.symm ▸ Nat.one_pos)))) (k0_hw184 : k0_chk184 (arg2.view.readAt (Elt F) (Rect.unit (s := S128) ![91] S1.size inb_S128_S1_91).toLoadRect (harg2.unread x1) (Shape.Idx.first (numel1_S1.symm ▸ Nat.one_pos)))) (k0_hw185 : k0_chk185 (arg1.view.readAt (Elt F) (Rect.unit (s := S128) ![92] S1.size inb_S128_S1_92).toLoadRect (harg1.unread x0) (Shape.Idx.first (numel1_S1.symm ▸ Nat.one_pos)))) (k0_hw186 : k0_chk186 (arg2.view.readAt (Elt F) (Rect.unit (s := S128) ![92] S1.size inb_S128_S1_92).toLoadRect (harg2.unread x1) (Shape.Idx.first (numel1_S1.symm ▸ Nat.one_pos)))) (k0_hw187 : k0_chk187 (arg1.view.readAt (Elt F) (Rect.unit (s := S128) ![93] S1.size inb_S128_S1_93).toLoadRect (harg1.unread x0) (Shape.Idx.first (numel1_S1.symm ▸ Nat.one_pos)))) (k0_hw188 : k0_chk188 (arg2.view.readAt (Elt F) (Rect.unit (s := S128) ![93] S1.size inb_S128_S1_93).toLoadRect (harg2.unread x1) (Shape.Idx.first (numel1_S1.symm ▸ Nat.one_pos)))) (k0_hw189 : k0_chk189 (arg1.view.readAt (Elt F) (Rect.unit (s := S128) ![94] S1.size inb_S128_S1_94).toLoadRect (harg1.unread x0) (Shape.Idx.first (numel1_S1.symm ▸ Nat.one_pos)))) (k0_hw190 : k0_chk190 (arg2.view.readAt (Elt F) (Rect.unit (s := S128) ![94] S1.size inb_S128_S1_94).toLoadRect (harg2.unread x1) (Shape.Idx.first (numel1_S1.symm ▸ Nat.one_pos)))) (k0_hw191 : k0_chk191 (arg1.view.readAt (Elt F) (Rect.unit (s := S128) ![95] S1.size inb_S128_S1_95).toLoadRect (harg1.unread x0) (Shape.Idx.first (numel1_S1.symm ▸ Nat.one_pos)))) (k0_hw192 : k0_chk192 (arg2.view.readAt (Elt F) (Rect.unit (s := S128) ![95] S1.size inb_S128_S1_95).toLoadRect (harg2.unread x1) (Shape.Idx.first (numel1_S1.symm ▸ Nat.one_pos)))) (k0_hw193 : k0_chk193 (arg1.view.readAt (Elt F) (Rect.unit (s := S128) ![96] S1.size inb_S128_S1_96).toLoadRect (harg1.unread x0) (Shape.Idx.first (numel1_S1.symm ▸ Nat.one_pos)))) (k0_hw194 : k0_chk194 (arg2.view.readAt (Elt F) (Rect.unit (s := S128) ![96] S1.size inb_S128_S1_96).toLoadRect (harg2.unread x1) (Shape.Idx.first (numel1_S1.symm ▸ Nat.one_pos)))) (k0_hw195 : k0_chk195 (arg1.view.readAt (Elt F) (Rect.unit (s := S128) ![97] S1.size inb_S128_S1_97).toLoadRect (harg1.unread x0) (Shape.Idx.first (numel1_S1.symm ▸ Nat.one_pos)))) (k0_hw196 : k0_chk196 (arg2.view.readAt (Elt F) (Rect.unit (s := S128) ![97] S1.size inb_S128_S1_97).toLoadRect (harg2.unread x1) (Shape.Idx.first (numel1_S1.symm ▸ Nat.one_pos)))) (k0_hw197 : k0_chk197 (arg1.view.readAt (Elt F) (Rect.unit (s := S128) ![98] S1.size inb_S128_S1_98).toLoadRect (harg1.unread x0) (Shape.Idx.first (numel1_S1.symm ▸ Nat.one_pos)))) (k0_hw198 : k0_chk198 (arg2.view.readAt (Elt F) (Rect.unit (s := S128) ![98] S1.size inb_S128_S1_98).toLoadRect (harg2.unread x1) (Shape.Idx.first (numel1_S1.symm ▸ Nat.one_pos)))) (k0_hw199 : k0_chk199 (arg1.view.readAt (Elt F) (Rect.unit (s := S128) ![99] S1.size inb_S128_S1_99).toLoadRect (harg1.unread x0) (Shape.Idx.first (numel1_S1.symm ▸ Nat.one_pos)))) (k0_hw200 : k0_chk200 (arg2.view.readAt (Elt F) (Rect.unit (s := S128) ![99] S1.size inb_S128_S1_99).toLoadRect (harg2.unread x1) (Shape.Idx.first (numel1_S1.symm ▸ Nat.one_pos)))) (k0_hw201 : k0_chk201 (arg1.view.readAt (Elt F) (Rect.unit (s := S128) ![100] S1.size inb_S128_S1_100).toLoadRect (harg1.unread x0) (Shape.Idx.first (numel1_S1.symm ▸ Nat.one_pos)))) (k0_hw202 : k0_chk202 (arg2.view.readAt (Elt F) (Rect.unit (s := S128) ![100] S1.size inb_S128_S1_100).toLoadRect (harg2.unread x1) (Shape.Idx.first (numel1_S1.symm ▸ Nat.one_pos)))) (k0_hw203 : k0_chk203 (arg1.view.readAt (Elt F) (Rect.unit (s := S128) ![101] S1.size inb_S128_S1_101).toLoadRect (harg1.unread x0) (Shape.Idx.first (numel1_S1.symm ▸ Nat.one_pos)))) (k0_hw204 : k0_chk204 (arg2.view.readAt (Elt F) (Rect.unit (s := S128) ![101] S1.size inb_S128_S1_101).toLoadRect (harg2.unread x1) (Shape.Idx.first (numel1_S1.symm ▸ Nat.one_pos)))) (k0_hw205 : k0_chk205 (arg1.view.readAt (Elt F) (Rect.unit (s := S128) ![102] S1.size inb_S128_S1_102).toLoadRect (harg1.unread x0) (Shape.Idx.first (numel1_S1.symm ▸ Nat.one_pos)))) (k0_hw206 : k0_chk206 (arg2.view.readAt (Elt F) (Rect.unit (s := S128) ![102] S1.size inb_S128_S1_102).toLoadRect (harg2.unread x1) (Shape.Idx.first (numel1_S1.symm ▸ Nat.one_pos)))) (k0_hw207 : k0_chk207 (arg1.view.readAt (Elt F) (Rect.unit (s := S128) ![103] S1.size inb_S128_S1_103).toLoadRect (harg1.unread x0) (Shape.Idx.first (numel1_S1.symm ▸ Nat.one_pos)))) (k0_hw208 : k0_chk208 (arg2.view.readAt (Elt F) (Rect.unit (s := S128) ![103] S1.size inb_S128_S1_103).toLoadRect (harg2.unread x1) (Shape.Idx.first (numel1_S1.symm ▸ Nat.one_pos)))) (k0_hw209 : k0_chk209 (arg1.view.readAt (Elt F) (Rect.unit (s := S128) ![104] S1.size inb_S128_S1_104).toLoadRect (harg1.unread x0) (Shape.Idx.first (numel1_S1.symm ▸ Nat.one_pos)))) (k0_hw210 : k0_chk210 (arg2.view.readAt (Elt F) (Rect.unit (s := S128) ![104] S1.size inb_S128_S1_104).toLoadRect (harg2.unread x1) (Shape.Idx.first (numel1_S1.symm ▸ Nat.one_pos)))) (k0_hw211 : k0_chk211 (arg1.view.readAt (Elt F) (Rect.unit (s := S128) ![105] S1.size inb_S128_S1_105).toLoadRect (harg1.unread x0) (Shape.Idx.first (numel1_S1.symm ▸ Nat.one_pos)))) (k0_hw212 : k0_chk212 (arg2.view.readAt (Elt F) (Rect.unit (s := S128) ![105] S1.size inb_S128_S1_105).toLoadRect (harg2.unread x1) (Shape.Idx.first (numel1_S1.symm ▸ Nat.one_pos)))) (k0_hw213 : k0_chk213 (arg1.view.readAt (Elt F) (Rect.unit (s := S128) ![106] S1.size inb_S128_S1_106).toLoadRect (harg1.unread x0) (Shape.Idx.first (numel1_S1.symm ▸ Nat.one_pos)))) (k0_hw214 : k0_chk214 (arg2.view.readAt (Elt F) (Rect.unit (s := S128) ![106] S1.size inb_S128_S1_106).toLoadRect (harg2.unread x1) (Shape.Idx.first (numel1_S1.symm ▸ Nat.one_pos)))) (k0_hw215 : k0_chk215 (arg1.view.readAt (Elt F) (Rect.unit (s := S128) ![107] S1.size inb_S128_S1_107).toLoadRect (harg1.unread x0) (Shape.Idx.first (numel1_S1.symm ▸ Nat.one_pos)))) (k0_hw216 : k0_chk216 (arg2.view.readAt (Elt F) (Rect.unit (s := S128) ![107] S1.size inb_S128_S1_107).toLoadRect (harg2.unread x1) (Shape.Idx.first (numel1_S1.symm ▸ Nat.one_pos)))) (k0_hw217 : k0_chk217 (arg1.view.readAt (Elt F) (Rect.unit (s := S128) ![108] S1.size inb_S128_S1_108).toLoadRect (harg1.unread x0) (Shape.Idx.first (numel1_S1.symm ▸ Nat.one_pos)))) (k0_hw218 : k0_chk218 (arg2.view.readAt (Elt F) (Rect.unit (s := S128) ![108] S1.size inb_S128_S1_108).toLoadRect (harg2.unread x1) (Shape.Idx.first (numel1_S1.symm ▸ Nat.one_pos)))) (k0_hw219 : k0_chk219 (arg1.view.readAt (Elt F) (Rect.unit (s := S128) ![109] S1.size inb_S128_S1_109).toLoadRect (harg1.unread x0) (Shape.Idx.first (numel1_S1.symm ▸ Nat.one_pos)))) (k0_hw220 : k0_chk220 (arg2.view.readAt (Elt F) (Rect.unit (s := S128) ![109] S1.size inb_S128_S1_109).toLoadRect (harg2.unread x1) (Shape.Idx.first (numel1_S1.symm ▸ Nat.one_pos)))) (k0_hw221 : k0_chk221 (arg1.view.readAt (Elt F) (Rect.unit (s := S128) ![110] S1.size inb_S128_S1_110).toLoadRect (harg1.unread x0) (Shape.Idx.first (numel1_S1.symm ▸ Nat.one_pos)))) (k0_hw222 : k0_chk222 (arg2.view.readAt (Elt F) (Rect.unit (s := S128) ![110] S1.size inb_S128_S1_110).toLoadRect (harg2.unread x1) (Shape.Idx.first (numel1_S1.symm ▸ Nat.one_pos)))) (k0_hw223 : k0_chk223 (arg1.view.readAt (Elt F) (Rect.unit (s := S128) ![111] S1.size inb_S128_S1_111).toLoadRect (harg1.unread x0) (Shape.Idx.first (numel1_S1.symm ▸ Nat.one_pos)))) (k0_hw224 : k0_chk224 (arg2.view.readAt (Elt F) (Rect.unit (s := S128) ![111] S1.size inb_S128_S1_111).toLoadRect (harg2.unread x1) (Shape.Idx.first (numel1_S1.symm ▸ Nat.one_pos)))) (k0_hw225 : k0_chk225 (arg1.view.readAt (Elt F) (Rect.unit (s := S128) ![112] S1.size inb_S128_S1_112).toLoadRect (harg1.unread x0) (Shape.Idx.first (numel1_S1.symm ▸ Nat.one_pos)))) (k0_hw226 : k0_chk226 (arg2.view.readAt (Elt F) (Rect.unit (s := S128) ![112] S1.size inb_S128_S1_112).toLoadRect (harg2.unread x1) (Shape.Idx.first (numel1_S1.symm ▸ Nat.one_pos)))) (k0_hw227 : k0_chk227 (arg1.view.readAt (Elt F) (Rect.unit (s := S128) ![113] S1.size inb_S128_S1_113).toLoadRect (harg1.unread x0) (Shape.Idx.first (numel1_S1.symm ▸ Nat.one_pos)))) (k0_hw228 : k0_chk228 (arg2.view.readAt (Elt F) (Rect.unit (s := S128) ![113] S1.size inb_S128_S1_113).toLoadRect (harg2.unread x1) (Shape.Idx.first (numel1_S1.symm ▸ Nat.one_pos)))) (k0_hw229 : k0_chk229 (arg1.view.readAt (Elt F) (Rect.unit (s := S128) ![114] S1.size inb_S128_S1_114).toLoadRect (harg1.unread x0) (Shape.Idx.first (numel1_S1.symm ▸ Nat.one_pos)))) (k0_hw230 : k0_chk230 (arg2.view.readAt (Elt F) (Rect.unit (s := S128) ![114] S1.size inb_S128_S1_114).toLoadRect (harg2.unread x1) (Shape.Idx.first (numel1_S1.symm ▸ Nat.one_pos)))) (k0_hw231 : k0_chk231 (arg1.view.readAt (Elt F) (Rect.unit (s := S128) ![115] S1.size inb_S128_S1_115).toLoadRect (harg1.unread x0) (Shape.Idx.first (numel1_S1.symm ▸ Nat.one_pos)))) (k0_hw232 : k0_chk232 (arg2.view.readAt (Elt F) (Rect.unit (s := S128) ![115] S1.size inb_S128_S1_115).toLoadRect (harg2.unread x1) (Shape.Idx.first (numel1_S1.symm ▸ Nat.one_pos)))) (k0_hw233 : k0_chk233 (arg1.view.readAt (Elt F) (Rect.unit (s := S128) ![116] S1.size inb_S128_S1_116).toLoadRect (harg1.unread x0) (Shape.Idx.first (numel1_S1.symm ▸ Nat.one_pos)))) (k0_hw234 : k0_chk234 (arg2.view.readAt (Elt F) (Rect.unit (s := S128) ![116] S1.size inb_S128_S1_116).toLoadRect (harg2.unread x1) (Shape.Idx.first (numel1_S1.symm ▸ Nat.one_pos)))) (k0_hw235 : k0_chk235 (arg1.view.readAt (Elt F) (Rect.unit (s := S128) ![117] S1.size inb_S128_S1_117).toLoadRect (harg1.unread x0) (Shape.Idx.first (numel1_S1.symm ▸ Nat.one_pos)))) (k0_hw236 : k0_chk236 (arg2.view.readAt (Elt F) (Rect.unit (s := S128) ![117] S1.size inb_S128_S1_117).toLoadRect (harg2.unread x1) (Shape.Idx.first (numel1_S1.symm ▸ Nat.one_pos)))) (k0_hw237 : k0_chk237 (arg1.view.readAt (Elt F) (Rect.unit (s := S128) ![118] S1.size inb_S128_S1_118).toLoadRect (harg1.unread x0) (Shape.Idx.first (numel1_S1.symm ▸ Nat.one_pos)))) (k0_hw238 : k0_chk238 (arg2.view.readAt (Elt F) (Rect.unit (s := S128) ![118] S1.size inb_S128_S1_118).toLoadRect (harg2.unread x1) (Shape.Idx.first (numel1_S1.symm ▸ Nat.one_pos)))) (k0_hw239 : k0_chk239 (arg1.view.readAt (Elt F) (Rect.unit (s := S128) ![119] S1.size inb_S128_S1_119).toLoadRect (harg1.unread x0) (Shape.Idx.first (numel1_S1.symm ▸ Nat.one_pos)))) (k0_hw240 : k0_chk240 (arg2.view.readAt (Elt F) (Rect.unit (s := S128) ![119] S1.size inb_S128_S1_119).toLoadRect (harg2.unread x1) (Shape.Idx.first (numel1_S1.symm ▸ Nat.one_pos)))) (k0_hw241 : k0_chk241 (arg1.view.readAt (Elt F) (Rect.unit (s := S128) ![120] S1.size inb_S128_S1_120).toLoadRect (harg1.unread x0) (Shape.Idx.first (numel1_S1.symm ▸ Nat.one_pos)))) (k0_hw242 : k0_chk242 (arg2.view.readAt (Elt F) (Rect.unit (s := S128) ![120] S1.size inb_S128_S1_120).toLoadRect (harg2.unread x1) (Shape.Idx.first (numel1_S1.symm ▸ Nat.one_pos)))) (k0_hw243 : k0_chk243 (arg1.view.readAt (Elt F) (Rect.unit (s := S128) ![121] S1.size inb_S128_S1_121).toLoadRect (harg1.unread x0) (Shape.Idx.first (numel1_S1.symm ▸ Nat.one_pos)))) (k0_hw244 : k0_chk244 (arg2.view.readAt (Elt F) (Rect.unit (s := S128) ![121] S1.size inb_S128_S1_121).toLoadRect (harg2.unread x1) (Shape.Idx.first (numel1_S1.symm ▸ Nat.one_pos)))) (k0_hw245 : k0_chk245 (arg1.view.readAt (Elt F) (Rect.unit (s := S128) ![122] S1.size inb_S128_S1_122).toLoadRect (harg1.unread x0) (Shape.Idx.first (numel1_S1.symm ▸ Nat.one_pos)))) (k0_hw246 : k0_chk246 (arg2.view.readAt (Elt F) (Rect.unit (s := S128) ![122] S1.size inb_S128_S1_122).toLoadRect (harg2.unread x1) (Shape.Idx.first (numel1_S1.symm ▸ Nat.one_pos)))) (k0_hw247 : k0_chk247 (arg1.view.readAt (Elt F) (Rect.unit (s := S128) ![123] S1.size inb_S128_S1_123).toLoadRect (harg1.unread x0) (Shape.Idx.first (numel1_S1.symm ▸ Nat.one_pos)))) (k0_hw248 : k0_chk248 (arg2.view.readAt (Elt F) (Rect.unit (s := S128) ![123] S1.size inb_S128_S1_123).toLoadRect (harg2.unread x1) (Shape.Idx.first (numel1_S1.symm ▸ Nat.one_pos)))) (k0_hw249 : k0_chk249 (arg1.view.readAt (Elt F) (Rect.unit (s := S128) ![124] S1.size inb_S128_S1_124).toLoadRect (harg1.unread x0) (Shape.Idx.first (numel1_S1.symm ▸ Nat.one_pos)))) (k0_hw250 : k0_chk250 (arg2.view.readAt (Elt F) (Rect.unit (s := S128) ![124] S1.size inb_S128_S1_124).toLoadRect (harg2.unread x1) (Shape.Idx.first (numel1_S1.symm ▸ Nat.one_pos)))) (k0_hw251 : k0_chk251 (arg1.view.readAt (Elt F) (Rect.unit (s := S128) ![125] S1.size inb_S128_S1_125).toLoadRect (harg1.unread x0) (Shape.Idx.first (numel1_S1.symm ▸ Nat.one_pos)))) (k0_hw252 : k0_chk252 (arg2.view.readAt (Elt F) (Rect.unit (s := S128) ![125] S1.size inb_S128_S1_125).toLoadRect (harg2.unread x1) (Shape.Idx.first (numel1_S1.symm ▸ Nat.one_pos)))) (k0_hw253 : k0_chk253 (arg1.view.readAt (Elt F) (Rect.unit (s := S128) ![126] S1.size inb_S128_S1_126).toLoadRect (harg1.unread x0) (Shape.Idx.first (numel1_S1.symm ▸ Nat.one_pos)))) (k0_hw254 : k0_chk254 (arg2.view.readAt (Elt F) (Rect.unit (s := S128) ![126] S1.size inb_S128_S1_126).toLoadRect (harg2.unread x1) (Shape.Idx.first (numel1_S1.symm ▸ Nat.one_pos)))) (k0_hw255 : k0_chk255 (arg1.view.readAt (Elt F) (Rect.unit (s := S128) ![127] S1.size inb_S128_S1_127).toLoadRect (harg1.unread x0) (Shape.Idx.first (numel1_S1.symm ▸ Nat.one_pos)))) (k0_hw256 : k0_chk256 (arg2.view.readAt (Elt F) (Rect.unit (s := S128) ![127] S1.size inb_S128_S1_127).toLoadRect (harg2.unread x1) (Shape.Idx.first (numel1_S1.symm ▸ Nat.one_pos)))) :
    VO0_4.read (Elt F) (VO0_4.writes (Elt F) VO0_4.junk (kernelRun0_A c i arg1 harg1 arg2 harg2 arg4 harg4 arg5 harg5 arg6 harg6 arg7 harg7 arg8 harg8 x0 x1 x2 x3 d7 d8 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 k0_hw129 k0_hw130 k0_hw131 k0_hw132 k0_hw133 k0_hw134 k0_hw135 k0_hw136 k0_hw137 k0_hw138 k0_hw139 k0_hw140 k0_hw141 k0_hw142 k0_hw143 k0_hw144 k0_hw145 k0_hw146 k0_hw147 k0_hw148 k0_hw149 k0_hw150 k0_hw151 k0_hw152 k0_hw153 k0_hw154 k0_hw155 k0_hw156 k0_hw157 k0_hw158 k0_hw159 k0_hw160 k0_hw161 k0_hw162 k0_hw163 k0_hw164 k0_hw165 k0_hw166 k0_hw167 k0_hw168 k0_hw169 k0_hw170 k0_hw171 k0_hw172 k0_hw173 k0_hw174 k0_hw175 k0_hw176 k0_hw177 k0_hw178 k0_hw179 k0_hw180 k0_hw181 k0_hw182 k0_hw183 k0_hw184 k0_hw185 k0_hw186 k0_hw187 k0_hw188 k0_hw189 k0_hw190 k0_hw191 k0_hw192 k0_hw193 k0_hw194 k0_hw195 k0_hw196 k0_hw197 k0_hw198 k0_hw199 k0_hw200 k0_hw201 k0_hw202 k0_hw203 k0_hw204 k0_hw205 k0_hw206 k0_hw207 k0_hw208 k0_hw209 k0_hw210 k0_hw211 k0_hw212 k0_hw213 k0_hw214 k0_hw215 k0_hw216 k0_hw217 k0_hw218 k0_hw219 k0_hw220 k0_hw221 k0_hw222 k0_hw223 k0_hw224 k0_hw225 k0_hw226 k0_hw227 k0_hw228 k0_hw229 k0_hw230 k0_hw231 k0_hw232 k0_hw233 k0_hw234 k0_hw235 k0_hw236 k0_hw237 k0_hw238 k0_hw239 k0_hw240 k0_hw241 k0_hw242 k0_hw243 k0_hw244 k0_hw245 k0_hw246 k0_hw247 k0_hw248 k0_hw249 k0_hw250 k0_hw251 k0_hw252 k0_hw253 k0_hw254 k0_hw255 k0_hw256).1)
      = closedOut c fh0 x0 x1 x2 x3 := by
  -- the run's pieces are ONE store of the whole output block: what they leave is that store's payload
  rw [View.read_writes_junk_eq_canon]
  unfold kernelRun0_A
  dsimp only
  rw [View.canon_unit_zero zeroOff1]
  unfold closedOut
  unfold kernelRun0_A.sl.r_256 kernelRun0_A.sl.r_257
  -- the weight row and the bias are loaded whole from buffers that hold them
  have e3 : View.readAt (Elt F) arg4.view (Rect.unit ![0, 0] S1x128.size inb_S1x128_S1x128_0_0).toLoadRect (harg4.unread x2) = x2 := by
    simp only [View.readAt_eq_ld, harg4.read_unread, View.ld_unit_zero (S := S1x128) zeroOff2]
  have e4 : View.readAt (Elt F) arg5.view (Rect.unit ![0] ![1] inb_S1_S1_0).toLoadRect (harg5.unread x3) = x3 := by
    simp only [View.readAt_eq_ld, harg5.read_unread]
    exact View.ld_unit_zero (S := S1) zeroOff1 _ _
  rw [e3, e4]
  congr 2
  · -- the block is read back through its 128 row writes, last first: row k reads the row delivered into it, which is the
    -- table's row named by word k of the index block; the rows below k are what the earlier writes left
    unfold kernelRun0_A.sl.v
    rw [View.readAt_eq_ld, View.ld_unit_zero (S := S128x128) zeroOff2]
    refine (rows_all c arg7 (fun j d => fh0 (ix2 (Cert.EdgeScore.rowOf (x0 (ix1 j))) d)) _ ?_).trans rfl
    repeat' (first | exact rows_zero _ _ _ _ | refine rows_step c arg7 _ _ (by omega) _ _ _ ?_ (fun d => ?_))
    all_goals (
      sl_unfold_words
      refine (srcRow_read_word c _ _ fh0 d).trans ?_
      rw [View.readAt_apply, Memref.IsWhole.read_unread]
      refine congrArg (fun i => fh0 (ix2 (Cert.EdgeScore.rowOf (x0 i)) d)) (funext fun a => Fin.ext ?_)
      fin_cases a
      rfl)
  · -- the block is read back through its 128 row writes, last first: row k reads the row delivered into it, which is the
    -- table's row named by word k of the index block; the rows below k are what the earlier writes left
    unfold kernelRun0_A.sl.v3329
    rw [View.readAt_eq_ld, View.ld_unit_zero (S := S128x128) zeroOff2]
    refine (rows_all c arg8 (fun j d => fh0 (ix2 (Cert.EdgeScore.rowOf (x1 (ix1 j))) d)) _ ?_).trans rfl
    repeat' (first | exact rows_zero _ _ _ _ | refine rows_step c arg8 _ _ (by omega) _ _ _ ?_ (fun d => ?_))
    all_goals (
      sl_unfold_words
      refine (srcRow_read_word c _ _ fh0 d).trans ?_
      rw [View.readAt_apply, Memref.IsWhole.read_unread]
      refine congrArg (fun i => fh0 (ix2 (Cert.EdgeScore.rowOf (x1 i)) d)) (funext fun a => Fin.ext ?_)
      fin_cases a
      rfl)

end Cert.Kernel.Out

end
-- ==== Proof.Words.lean ====
/-
  A 32-bit index word that lies in [0, n) when read signed lies below n when read unsigned: the sign bit is clear, so the
  two readings agree. This is what turns the precondition's signed range test of an endpoint word into the bound the
  row transfers need of its unsigned value.
-/
import Idealize.ShloMosaic.PureOps.Vector
import Idealize.ShloMosaic.Lib.StableHlo.Predicate

namespace Cert.Words

open Idealize.ShloMosaic

/-- A bit made of a Boolean is 1 exactly when the Boolean holds. -/
theorem of_ofBool_eq_one : ∀ b : Bool, BitVec.ofBool b = 1#1 → b = true := by decide

/-- `0 ≤ w` and `w < n` as signed comparisons (with `n < 2 ^ 31`) give `w.toNat < n`. -/
theorem toNat_lt_of_signed_range (w : BitVec 32) (n : Nat) (hn : n < 2 ^ 31)
    (h0 : IntOp.cmpi .sge w (0#32) = 1#1) (h1 : IntOp.cmpi .slt w (BitVec.ofNat 32 n) = 1#1) : w.toNat < n := by
  have a0 : (0#32 : BitVec 32).sle w = true := of_ofBool_eq_one _ h0
  have a1 : w.slt (BitVec.ofNat 32 n) = true := of_ofBool_eq_one _ h1
  simp only [BitVec.sle, BitVec.slt, decide_eq_true_eq] at a0 a1
  rw [StableHlo.Predicate.toInt_ofNat_small n hn] at a1
  have z : (0#32 : BitVec 32).toInt = 0 := by decide
  rw [z] at a0
  have hw := w.isLt
  rw [BitVec.toInt_eq_toNat_cond] at a0 a1
  split at a0 <;> omega

end Cert.Words
-- ==== Proof.KernelHyps.lean ====
/-
  The side conditions the kernel body assumes of the endpoint words it reads, from the certificate's precondition.
  At each grid point the body reads 128 row-endpoint words and 128 column-endpoint words out of its two index
  windows and, before copying a table row, assumes that the word names a row of the [100000, 128] table: word < 100000
  unsigned. The windows are blocks of the two index arrays padded with 64 zero words to length 600064. The
  precondition says 0 ≤ word < 100000 (signed) of every word of the unpadded arrays; a padding word is 0. So every
  word of either padded array is below 100000 unsigned, hence so is every word of every block of it, hence so is
  every word the body reads.
-/
import proofs.«430914_j61323543052777_1_alg».proof.Defs
import proofs.«430914_j61323543052777_1_alg».proof.Proof.Gen.Kernel.Frame.Runs
import proofs.«430914_j61323543052777_1_alg».proof.Proof.Gen.Pre_finite_inputs
import proofs.«430914_j61323543052777_1_alg».proof.Proof.Words
import Idealize.ShloMosaic.Lib.ReduceAll
import Idealize.ShloMosaic.Lib.KernelVsHost
import Idealize.ShloMosaic.Lib.Pipeline.Value
import Idealize.ShloMosaic.Lib.StableHlo.Run

set_option maxRecDepth 16384

noncomputable section

namespace Cert.Kernel.HypsOfPre

open Cert.Kernel Cert.Kernel.Gen
open Idealize.ShloMosaic Idealize.ShloMosaic.TcCoe Idealize.SL.Sem

section AnyFloatFamily

variable {F : FTy → Type} [FloatOps F]

/-! ## The precondition decoded -/

/-- A shape of rank 0 has one index. -/
instance : Subsingleton Cert.Pre_finite_inputs.S_.Idx := ⟨fun a b => funext fun d => d.elim0⟩

/-- The precondition is a conjunction of seven "all" reductions; its last four say that every row-endpoint word and
    every column-endpoint word is ≥ 0 and < 100000 as a signed number, so each is below 100000 unsigned. The float
    conjuncts are not used, and the integer ones do not depend on the float family. -/
theorem pre_words (a0 : FVec F Cert.Pre_finite_inputs.S100000x128 .f32) (a1 a2 : IVec Cert.Pre_finite_inputs.S600000 32)
    (a3 : FVec F Cert.Pre_finite_inputs.S128x1 .f32) (a4 : FVec F Cert.Pre_finite_inputs.S1 .f32)
    (h : Cert.Pre_finite_inputs.fn (F := F) a0 a1 a2 a3 a4 = fun _ => 1#1) (i : Cert.Pre_finite_inputs.S600000.Idx) :
    (a1 i).toNat < 100000 ∧ (a2 i).toNat < 100000 := by
  have e := congrFun h ValueIdx.ix0
  unfold Cert.Pre_finite_inputs.fn Cert.Pre_finite_inputs.fn_part1 at e
  dsimp only at e
  -- the conjunction of two one-bit vectors at an index is the conjunction of their entries
  have hv : ∀ (x y : IVec Cert.Pre_finite_inputs.S_ 1) j, andi x y j = IntOp.andi (x j) (y j) := fun _ _ _ => rfl
  simp only [hv, IntOp.andi_eq_one] at e
  obtain ⟨⟨⟨⟨-, r0⟩, r1⟩, c0⟩, c1⟩ := e
  -- an "all" that is 1 had a 1 at every index; the comparison against a broadcast scalar at an index is the
  -- comparison of the entry against the scalar
  have r0' := Host.reduce_andi_all _ _ _ _ _ r0 i
  have r1' := Host.reduce_andi_all _ _ _ _ _ r1 i
  have c0' := Host.reduce_andi_all _ _ _ _ _ c0 i
  have c1' := Host.reduce_andi_all _ _ _ _ _ c1 i
  exact ⟨Cert.Words.toNat_lt_of_signed_range _ 100000 (by decide) r0' r1',
    Cert.Words.toNat_lt_of_signed_range _ 100000 (by decide) c0' c1'⟩

/-! ## The padded index arrays -/

/-- A [600000] array of words below 100000, padded with 64 zero words at its end, is a [600064] array of words
    below 100000: an index below 600000 reads the operand, any other reads the padding word 0. -/
theorem padded_lt (x : S600000.Idx → BitVec 32) (hx : ∀ i, (x i).toNat < 100000) (j : S600064.Idx) :
    (pad S600064 ![0] ![64] ![0] x (constantI S_ 32 0#32) pads_S600000_S600064_0640 h_S_ j).toNat < 100000 := by
  by_cases hj : (j 0).val < 600000
  · have hk : ∀ a : Fin S600000.rank, (j 0).val < S600000.size a := fun a => by
      have e : S600000.size a = 600000 := by fin_cases a; rfl
      omega
    rw [pad_apply_of_inside ![0] ![64] ![0] x _ pads_S600000_S600064_0640 h_S_ j (fun a => ⟨(j 0).val, hk a⟩)
      (fun a => by fin_cases a; show (j 0).val = 0 + (j 0).val * (0 + 1); omega)]
    exact hx _
  · rw [pad_apply_of_not_inside ![0] ![64] ![0] x _ pads_S600000_S600064_0640 h_S_ j 0 (by
      show ¬(0 ≤ (j 0).val ∧ ((j 0).val - 0) % (0 + 1) = 0 ∧ ((j 0).val - 0) / (0 + 1) < 600000)
      intro h; apply hj; have h3 := h.2.2
      simp only [Nat.sub_zero, Nat.zero_add, Nat.div_one] at h3; exact h3)]
    show (0#32 : BitVec 32).toNat < 100000
    decide

variable (m : (ℓ : Loc nD τ sig) → Buf (Elt F) ℓ)

/-- The first index array as the region finds it: the launch memory's row-endpoint array, padded. -/
theorem V_v0 (c : Dev nD) : (V m c main_v0 : S600064.Idx → BitVec 32)
    = pad S600064 ![0] ![64] ![0] (m ((c : Thread nD τ).loc main_arg1)) (constantI S_ 32 0#32) pads_S600000_S600064_0640 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The second index array as the region finds it: the launch memory's column-endpoint array, padded. -/
theorem V_v1 (c : Dev nD) : (V m c main_v1 : S600064.Idx → BitVec 32)
    = pad S600064 ![0] ![64] ![0] (m ((c : Thread nD τ).loc main_arg2)) (constantI S_ 32 0#32) pads_S600000_S600064_0640 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-! ## The words the body reads -/

/-- An element of a block of window 0 is an element of its array (the block's view reads the array at the
    element's place in it): a bound on every word of the array bounds every word of every block. -/
theorem blk0_lt (c : Dev nD) (t : Fin cfg0.N) (hV : ∀ j : S600064.Idx, ((V m c main_v0 : S600064.Idx → BitVec 32) j).toNat < 100000)
    (y : S128.Idx) : ((iblk m c 0 t : S128.Idx → BitVec 32) y).toNat < 100000 := by
  unfold iblk
  rw [View.read_apply]
  exact hV _

/-- The same of window 1. -/
theorem blk1_lt (c : Dev nD) (t : Fin cfg0.N) (hV : ∀ j : S600064.Idx, ((V m c main_v1 : S600064.Idx → BitVec 32) j).toNat < 100000)
    (y : S128.Idx) : ((iblk m c 1 t : S128.Idx → BitVec 32) y).toNat < 100000 := by
  unfold iblk
  rw [View.read_apply]
  exact hV _

/-- The word the body loads at any offset of window 0's staging buffer, held at the block's contents, is a word of
    the block: the load reads the buffer's contents at the rectangle's index, and a whole buffer holding contents
    that read X reads X. -/
theorem word_r (c : Dev nD) (t : Fin cfg0.N) (hV : ∀ j : S600064.Idx, ((V m c main_v0 : S600064.Idx → BitVec 32) j).toNat < 100000)
    (off : Fin 1 → Nat) (inb : ∀ a, off a + S1.size a ≤ S128.size a) (h1 : 0 < S1.numel) :
    ((ms0_0 t).view.readAt (Elt F) (Rect.unit (s := S128) off S1.size inb).toLoadRect ((hs0_0 t).unread (iblk m c 0 t)) (Shape.Idx.first h1)).toNat < 100000 := by
  rw [View.readAt_apply, Memref.IsWhole.read_unread]
  exact blk0_lt m c t hV _

/-- The same of window 1. -/
theorem word_c (c : Dev nD) (t : Fin cfg0.N) (hV : ∀ j : S600064.Idx, ((V m c main_v1 : S600064.Idx → BitVec 32) j).toNat < 100000)
    (off : Fin 1 → Nat) (inb : ∀ a, off a + S1.size a ≤ S128.size a) (h1 : 0 < S1.numel) :
    ((ms0_1 t).view.readAt (Elt F) (Rect.unit (s := S128) off S1.size inb).toLoadRect ((hs0_1 t).unread (iblk m c 1 t)) (Shape.Idx.first h1)).toNat < 100000 := by
  rw [View.readAt_apply, Memref.IsWhole.read_unread]
  exact blk1_lt m c t hV _

/-- The check the body assumes of a word w holds when w < 100000: row w, all 128 columns of it, lies inside the
    [100000, 128] table. -/
theorem chk (w : BitVec 32) (hw : w.toNat < 100000) : ∀ a, (![w.toNat, 0] : Fin 2 → Nat) a + S1x128.size a ≤ S100000x128.size a := by
  intro a
  fin_cases a
  · show w.toNat + 1 ≤ 100000
    omega
  · show 0 + 128 ≤ 128
    omega

/-- Every word of either padded index array, as the region finds it, is below 100000 when every word of the launch
    memory's two endpoint arrays is. -/
theorem V_lt (c : Dev nD) (h1 : ∀ i : S600000.Idx, (m ((c : Thread nD τ).loc main_arg1) i).toNat < 100000)
    (h2 : ∀ i : S600000.Idx, (m ((c : Thread nD τ).loc main_arg2) i).toNat < 100000) :
    (∀ j : S600064.Idx, ((V m c main_v0 : S600064.Idx → BitVec 32) j).toNat < 100000)
    ∧ (∀ j : S600064.Idx, ((V m c main_v1 : S600064.Idx → BitVec 32) j).toNat < 100000) := by
  constructor
  · intro j; rw [V_v0]; exact padded_lt _ h1 j
  · intro j; rw [V_v1]; exact padded_lt _ h2 j

/-- THE SIDE CONDITIONS from bounds on the launch memory's endpoint words, at any float family: each of the 256
    conjuncts is the check at a word the body reads from window 0 (odd checks) or window 1 (even checks). -/
theorem hyps_of_words (h1 : ∀ (c : Dev nD) (i : S600000.Idx), (m ((c : Thread nD τ).loc main_arg1) i).toNat < 100000)
    (h2 : ∀ (c : Dev nD) (i : S600000.Idx), (m ((c : Thread nD τ).loc main_arg2) i).toNat < 100000) : Hyps m := by
  intro c t
  obtain ⟨hr, hc⟩ := V_lt m c (h1 c) (h2 c)
  repeat (refine ⟨chk _ (word_r m c t hr _ _ _), chk _ (word_c m c t hc _ _ _), ?_⟩)
  exact ⟨chk _ (word_r m c t hr _ _ _), chk _ (word_c m c t hc _ _ _)⟩

end AnyFloatFamily

/-! ## At the certificate's instance -/

/-- every endpoint word of the launch memory names a row of the table -/
theorem words_lt (m : (ℓ : Loc Cert.Kernel.nD Cert.Kernel.τ Cert.Kernel.sig) → Buf (Elt Bits) ℓ) (h : Cert.Pre_Kernel m) (c : Dev Cert.Kernel.nD) :
    (∀ i : Cert.Kernel.S600000.Idx, (m ((c.tc : Thread Cert.Kernel.nD Cert.Kernel.τ).loc Cert.Kernel.main_arg1) i).toNat < 100000)
    ∧ (∀ i : Cert.Kernel.S600000.Idx, (m ((c.tc : Thread Cert.Kernel.nD Cert.Kernel.τ).loc Cert.Kernel.main_arg2) i).toNat < 100000) :=
  ⟨fun i => (pre_words _ _ _ _ _ (h c) i).1, fun i => (pre_words _ _ _ _ _ (h c) i).2⟩

/-- The side conditions the body assumes hold of any launch memory the precondition holds of. -/
theorem hyps_of_pre (m : (ℓ : Loc Cert.Kernel.nD Cert.Kernel.τ Cert.Kernel.sig) → Buf (Elt Bits) ℓ) (h : Cert.Pre_Kernel m) : Cert.Kernel.Gen.Hyps m :=
  hyps_of_words m (fun c => (words_lt m h c).1) (fun c => (words_lt m h c).2)

end Cert.Kernel.HypsOfPre

end
-- ==== Proof.KernelIdealRows.lean ====
/-
  One table row as a transfer's source.

  The [1,128] slice of the [100000,128] table at offsets (r, 0), read as a [128] vector, is at lane d the table's
  entry (r, d); when r is the value of a word below 100000 it is the row that word names.
-/
import proofs.«430914_j61323543052777_1_alg».proof.Proof.Gen.KernelIdeal.Frame.Runs
import proofs.«430914_j61323543052777_1_alg».proof.Proof.Spec
import Idealize.ShloMosaic.Lib.Pipeline.Value
import Idealize.ShloMosaic.Lib.ValueIdx

set_option maxRecDepth 16384

noncomputable section

namespace Cert.KernelIdeal.Rows

open Cert.KernelIdeal Cert.KernelIdeal.Gen
open Idealize.ShloMosaic Idealize.ShloMosaic.TcCoe Idealize.SL.Sem Idealize.ShloMosaic.ValueIdx

variable {F : FTy → Type} [FloatOps F]

/-- The [1,128] slice of the table at the offsets, as a [128] vector. -/
abbrev srcRow (off : Fin 2 → Nat) (inb : ∀ a, off a + S1x128.size a ≤ S100000x128.size a) : Memref sig .tc .hbm S128 .f32 :=
  ((Memref.whole main_arg0 : Memref sig .tc .hbm S100000x128 .f32).slice (Rect.unit (s := S100000x128) off S1x128.size inb) (fun _ => rfl)).squeeze S128 squeezes_S1x128_S128

/-- The row slice at offsets (r, 0), read at lane d, is the table's contents at (r, d). -/
theorem srcRow_read (c : Dev nD) (off : Fin 2 → Nat) (inb : ∀ a, off a + S1x128.size a ≤ S100000x128.size a) (h1 : off 1 = 0)
    (f : HbBuf0 (F := F) c hbM0_0) (d : Fin 128) :
    ReadAs.same.apply ((srcRow off inb).view.read (Elt F) f) (ix1 d)
      = f (ix2 (⟨off 0, by have := inb 0; simpa using this⟩ : Fin 100000) d) := by
  show f ((srcRow off inb).view.emb (ix1 d)) = _
  refine congrArg _ (funext fun a => Fin.ext ?_)
  have hre : Shape.reshapeEquiv (Shape.Squeezes.numel_eq squeezes_S1x128_S128) (ix1 d) = ix2 (0 : Fin 1) d :=
    Shape.reshapeEquiv_eq_of_rowMajor _ (by
      rw [Shape.rowMajor_val_two, Shape.rowMajor_val_one]
      show 0 * 128 + d.val = d.val
      rw [Nat.zero_mul, Nat.zero_add])
  show off a + 1 * ((Shape.reshapeEquiv (Shape.Squeezes.numel_eq squeezes_S1x128_S128) (ix1 d)) a).val = _
  rw [hre]
  match a with
  | ⟨0, _⟩ => show off 0 + 1 * 0 = off 0; omega
  | ⟨1, _⟩ => show off 1 + 1 * d.val = d.val; omega

/-- At the offsets (value of a word, 0), in bounds, the row slice read at lane d is the table's contents at the row the
word names. -/
theorem srcRow_read_word (c : Dev nD) (w : BitVec 32)
    (inb : ∀ a, (![w.toNat, 0] : Fin 2 → Nat) a + S1x128.size a ≤ S100000x128.size a)
    (f : HbBuf0 (F := F) c hbM0_0) (d : Fin 128) :
    ReadAs.same.apply ((srcRow ![w.toNat, 0] inb).view.read (Elt F) f) (ix1 d) = f (ix2 (Cert.EdgeScore.rowOf w) d) := by
  refine (srcRow_read c _ inb rfl f d).trans ?_
  refine congrArg (fun r => f (ix2 r d)) (Fin.ext ?_)
  have h0 : w.toNat + 1 ≤ 100000 := inb 0
  show w.toNat = (Cert.EdgeScore.rowOf w).val
  rw [Cert.EdgeScore.rowOf_val (by omega)]

/-! ## One row of a [128,128] block written through its [128] view -/

/-- The [1,128] slice of a [128,128] block at the offsets, as a [128] vector. -/
abbrev dstRow (M : Memref sig .tc .vmem S128x128 .f32) (off : Fin 2 → Nat) (inb : ∀ a, off a + S1x128.size a ≤ S128x128.size a) :
    Memref sig .tc .vmem S128 .f32 :=
  (M.slice (Rect.unit (s := S128x128) off S1x128.size inb) (fun _ => rfl)).squeeze S128 squeezes_S1x128_S128

/-- Lane d of the row slice at offsets (k, 0) is the block's element (k, d). -/
theorem dstRow_emb (M : Memref sig .tc .vmem S128x128 .f32) (off : Fin 2 → Nat) (inb : ∀ a, off a + S1x128.size a ≤ S128x128.size a)
    (k : Fin 128) (h0 : off 0 = k.val) (h1 : off 1 = 0) (d : Fin 128) :
    (dstRow M off inb).view.emb (ix1 d) = M.view.emb (ix2 k d) := by
  have hre : Shape.reshapeEquiv (Shape.Squeezes.numel_eq squeezes_S1x128_S128) (ix1 d) = ix2 (0 : Fin 1) d :=
    Shape.reshapeEquiv_eq_of_rowMajor _ (by
      rw [Shape.rowMajor_val_two, Shape.rowMajor_val_one]
      show 0 * 128 + d.val = d.val
      rw [Nat.zero_mul, Nat.zero_add])
  show M.view.emb ((Rect.unit (s := S128x128) off S1x128.size inb).emb
    (Shape.reshapeEquiv (Shape.Squeezes.numel_eq squeezes_S1x128_S128) (ix1 d))) = _
  rw [hre]
  refine congrArg _ (funext fun a => Fin.ext ?_)
  match a with
  | ⟨0, _⟩ => show off 0 + 1 * 0 = k.val; omega
  | ⟨1, _⟩ => show off 1 + 1 * d.val = d.val; omega

/-- After the row slice at offsets (k, 0) is written whole, the block reads the written vector on row k. -/
theorem read_write_row_hit' (c : Dev nD) (M : Memref sig .tc .vmem S128x128 .f32) (k : Fin 128) (off : Fin 2 → Nat)
    (inb : ∀ a, off a + S1x128.size a ≤ S128x128.size a) (h0 : off 0 = k.val) (h1 : off 1 = 0)
    (f : Buf (Elt F) (M.view.loc (c : Thread nD τ))) (w : S128.Idx → Elt F .f32) (d : Fin 128) :
    M.view.read (Elt F) ((dstRow M off inb).view.write (Elt F) f w Finset.univ) (ix2 k d) = w (ix1 d) := by
  refine Eq.trans ?_ (View.read_write_of_mem (v := (dstRow M off inb).view) f w (Finset.mem_univ (ix1 d)))
  rw [View.read_apply, View.read_apply, dstRow_emb M off inb k h0 h1 d]

/-- … and its old contents on every other row. -/
theorem read_write_row_miss' (c : Dev nD) (M : Memref sig .tc .vmem S128x128 .f32) (k : Fin 128) (off : Fin 2 → Nat)
    (inb : ∀ a, off a + S1x128.size a ≤ S128x128.size a) (h0 : off 0 = k.val) (h1 : off 1 = 0)
    (f : Buf (Elt F) (M.view.loc (c : Thread nD τ))) (w : S128.Idx → Elt F .f32) (j d : Fin 128) (hj : j ≠ k) :
    M.view.read (Elt F) ((dstRow M off inb).view.write (Elt F) f w Finset.univ) (ix2 j d) = M.view.read (Elt F) f (ix2 j d) := by
  rw [View.read_apply, View.read_apply]
  refine congrArg _ (View.write_of_not_mem (v := (dstRow M off inb).view) f w Finset.univ fun hm => hj ?_)
  obtain ⟨x, -, hx⟩ := Finset.mem_map.mp hm
  rw [eq_ix1 x] at hx
  have hx' : M.view.emb (ix2 k (x 0)) = M.view.emb (ix2 j d) := (dstRow_emb M off inb k h0 h1 (x 0)).symm.trans hx
  have := congrFun (M.view.emb.injective hx') 0
  exact this.symm

theorem read_write_row_hit (c : Dev nD) (M : Memref sig .tc .vmem S128x128 .f32) (k : Fin 128)
    (inb : ∀ a, (![k.val, 0] : Fin 2 → Nat) a + S1x128.size a ≤ S128x128.size a)
    (f : Buf (Elt F) (M.view.loc (c : Thread nD τ))) (w : S128.Idx → Elt F .f32) (d : Fin 128) :
    M.view.read (Elt F) ((dstRow M ![k.val, 0] inb).view.write (Elt F) f w Finset.univ) (ix2 k d) = w (ix1 d) :=
  read_write_row_hit' c M k _ inb rfl rfl f w d

theorem read_write_row_miss (c : Dev nD) (M : Memref sig .tc .vmem S128x128 .f32) (k : Fin 128)
    (inb : ∀ a, (![k.val, 0] : Fin 2 → Nat) a + S1x128.size a ≤ S128x128.size a)
    (f : Buf (Elt F) (M.view.loc (c : Thread nD τ))) (w : S128.Idx → Elt F .f32) (j d : Fin 128) (hj : j ≠ k) :
    M.view.read (Elt F) ((dstRow M ![k.val, 0] inb).view.write (Elt F) f w Finset.univ) (ix2 j d) = M.view.read (Elt F) f (ix2 j d) :=
  read_write_row_miss' c M k _ inb rfl rfl f w j d hj

/-- One step of filling the block row by row: rows below k hold the table T and row k is written with T's row k, so
rows below k + 1 hold T. -/
theorem rows_step' (c : Dev nD) (M : Memref sig .tc .vmem S128x128 .f32) (k : Fin 128) (off : Fin 2 → Nat)
    (inb : ∀ a, off a + S1x128.size a ≤ S128x128.size a) (h0 : off 0 = k.val) (h1 : off 1 = 0)
    (f : Buf (Elt F) (M.view.loc (c : Thread nD τ))) (w : S128.Idx → Elt F .f32) (T : Fin 128 → Fin 128 → Elt F .f32)
    (hprev : ∀ j : Fin 128, j.val < k.val → ∀ d, M.view.read (Elt F) f (ix2 j d) = T j d) (hw : ∀ d, w (ix1 d) = T k d) :
    ∀ j : Fin 128, j.val < k.val + 1 → ∀ d,
      M.view.read (Elt F) ((dstRow M off inb).view.write (Elt F) f w Finset.univ) (ix2 j d) = T j d := by
  intro j hjk d
  by_cases hj : j = k
  · subst hj
    rw [read_write_row_hit' c M j off inb h0 h1 f w d, hw]
  · have hlt : j.val < k.val := by
      have : j.val ≠ k.val := fun h => hj (Fin.ext h)
      omega
    rw [read_write_row_miss' c M k off inb h0 h1 f w j d hj, hprev j hlt d]

theorem rows_step_fin (c : Dev nD) (M : Memref sig .tc .vmem S128x128 .f32) (k : Fin 128)
    (inb : ∀ a, (![k.val, 0] : Fin 2 → Nat) a + S1x128.size a ≤ S128x128.size a)
    (f : Buf (Elt F) (M.view.loc (c : Thread nD τ))) (w : S128.Idx → Elt F .f32) (T : Fin 128 → Fin 128 → Elt F .f32)
    (hprev : ∀ j : Fin 128, j.val < k.val → ∀ d, M.view.read (Elt F) f (ix2 j d) = T j d) (hw : ∀ d, w (ix1 d) = T k d) :
    ∀ j : Fin 128, j.val < k.val + 1 → ∀ d,
      M.view.read (Elt F) ((dstRow M ![k.val, 0] inb).view.write (Elt F) f w Finset.univ) (ix2 j d) = T j d :=
  rows_step' c M k _ inb rfl rfl f w T hprev hw

/-! ## The block filled row by row -/

/-- Rows below n of the block hold the table T. -/
def RowsUpTo (c : Dev nD) (M : Memref sig .tc .vmem S128x128 .f32) (T : Fin 128 → Fin 128 → Elt F .f32) (n : Nat)
    (g : Buf (Elt F) (M.view.loc (c : Thread nD τ))) : Prop :=
  ∀ j : Fin 128, j.val < n → ∀ d : Fin 128, M.view.read (Elt F) g (ix2 j d) = T j d

/-- No row is below 0. -/
theorem rows_zero (c : Dev nD) (M : Memref sig .tc .vmem S128x128 .f32) (T : Fin 128 → Fin 128 → Elt F .f32)
    (g : Buf (Elt F) (M.view.loc (c : Thread nD τ))) : RowsUpTo c M T 0 g :=
  fun _ hj => absurd hj (Nat.not_lt_zero _)

/-- Rows below k hold T and row k is written with T's row k: rows below k + 1 hold T. -/
theorem rows_step (c : Dev nD) (M : Memref sig .tc .vmem S128x128 .f32) (T : Fin 128 → Fin 128 → Elt F .f32) (k : Nat) (hk : k < 128)
    (inb : ∀ a, (![k, 0] : Fin 2 → Nat) a + S1x128.size a ≤ S128x128.size a)
    (f : Buf (Elt F) (M.view.loc (c : Thread nD τ))) (w : S128.Idx → Elt F .f32)
    (hprev : RowsUpTo c M T k f) (hw : ∀ d : Fin 128, w (ix1 d) = T ⟨k, hk⟩ d) :
    RowsUpTo c M T (k + 1) ((dstRow M ![k, 0] inb).view.write (Elt F) f w Finset.univ) :=
  rows_step' c M ⟨k, hk⟩ _ inb rfl rfl f w T hprev hw

/-- All 128 rows hold T: the block reads T. -/
theorem rows_all (c : Dev nD) (M : Memref sig .tc .vmem S128x128 .f32) (T : Fin 128 → Fin 128 → Elt F .f32)
    (g : Buf (Elt F) (M.view.loc (c : Thread nD τ))) (h : RowsUpTo c M T 128 g) :
    M.view.read (Elt F) g = fun y => T (y 0) (y 1) :=
  funext fun y => (congrArg (M.view.read (Elt F) g) (eq_ix2 y)).trans (h (y 0) (y 0).isLt (y 1))

end Cert.KernelIdeal.Rows

end
-- ==== Proof.KernelIdealOut.lean ====
/-
  What the kernel body stores in the output's staging buffer at a grid point, as a value.

  The body copies, for each lane j of 128, the table row named by the j-th word of its first index block into row j of one
  scratch block and the row named by the j-th word of its second index block into row j of another, one transfer per
  row, and only after the last of them does it load the two blocks whole. Each transfer overwrites exactly its row, so
  whatever the blocks held on entry the first block reads, at (j, d), the table at (the row word j of the first index
  block names, d), and the second likewise (`rowsOf`). The one store of the output block is the body's arithmetic of
  those two blocks, the weight row and the bias (`closedOut`): it does not depend on what the scratch held before.
-/
import proofs.«430914_j61323543052777_1_alg».proof.Proof.KernelIdealRunA
import proofs.«430914_j61323543052777_1_alg».proof.Proof.KernelIdealRows
import proofs.«430914_j61323543052777_1_alg».proof.Proof.Spec
import Idealize.ShloMosaic.Lib.Pipeline.Value
import Idealize.ShloMosaic.Lib.ValueIdx

set_option maxRecDepth 65536

noncomputable section

namespace Cert.KernelIdeal.Out

open Cert.KernelIdeal Cert.KernelIdeal.Gen Cert.KernelIdeal.GenP Cert.KernelIdeal.Rows
open Idealize.ShloMosaic Idealize.ShloMosaic.TcCoe Idealize.ShloMosaic.Tactic Idealize.SL.Sem Idealize.ShloMosaic.ValueIdx

variable {F : FTy → Type} [FloatOps F]

/-- The block of table rows that 128 words name: entry (j, d) is the table at (the row word j names, d). -/
def rowsOf (c : Dev nD) (tab : HbBuf0 (F := F) c hbM0_0) (x : Vec F S128 .i32) : Vec F S128x128 .f32 :=
  fun y => tab (ix2 (Cert.EdgeScore.rowOf (x (ix1 (y 0)))) (y 1))

/-- The stored block: the body's arithmetic of the two gathered blocks, the weight row and the bias. -/
def closedOut (c : Dev nD) (tab : HbBuf0 (F := F) c hbM0_0) (x0 x1 : Vec F S128 .i32) (x2 : Vec F S1x128 .f32) (x3 : Vec F S1 .f32) :
    Vec F S128 .f32 :=
  k0_pay1 (k0_pay2 (rowsOf c tab x0) (rowsOf c tab x1)) (k0_pay3 x2) x3

/-- The all-zero offsets of a vector and of a matrix, as functions. -/
theorem zeroOff1 : (![0] : Fin 1 → Nat) = fun _ => 0 := funext fun a => by fin_cases a; rfl
theorem zeroOff2 : (![0, 0] : Fin 2 → Nat) = fun _ => 0 := funext fun a => by fin_cases a <;> rfl

set_option maxHeartbeats 16000000 in
/-- What the run's pieces leave in the output's staging buffer is the stored block's closed form, whatever the two
    scratch blocks held on entry. -/
theorem out_eq (c : Dev nD) (i : grid0.Coords) (arg1 : Memref sig .tc .smem S128 .i32) (harg1 : arg1.IsWhole) (arg2 : Memref sig .tc .smem S128 .i32) (harg2 : arg2.IsWhole) (arg4 : Memref sig .tc .vmem S1x128 .f32) (harg4 : arg4.IsWhole) (arg5 : Memref sig .tc .vmem S1 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128x128 .f32) (harg8 : arg8.IsWhole)
    (x0 : Vec F S128 .i32) (x1 : Vec F S128 .i32) (x2 : Vec F S1x128 .f32) (x3 : Vec F S1 .f32) (d7 : Vec F S128x128 .f32) (d8 : Vec F S128x128 .f32) (fh0 : HbBuf0 (F := F) c hbM0_0) (k0_hw1 : k0_chk1 (arg1.view.readAt (Elt F) (Rect.unit (s := S128) ![0] S1.size inb_S128_S1_0).toLoadRect (harg1.unread x0) (Shape.Idx.first (numel1_S1.symm ▸ Nat.one_pos)))) (k0_hw2 : k0_chk2 (arg2.view.readAt (Elt F) (Rect.unit (s := S128) ![0] S1.size inb_S128_S1_0).toLoadRect (harg2.unread x1) (Shape.Idx.first (numel1_S1.symm ▸ Nat.one_pos)))) (k0_hw3 : k0_chk3 (arg1.view.readAt (Elt F) (Rect.unit (s := S128) ![1] S1.size inb_S128_S1_1).toLoadRect (harg1.unread x0) (Shape.Idx.first (numel1_S1.symm ▸ Nat.one_pos)))) (k0_hw4 : k0_chk4 (arg2.view.readAt (Elt F) (Rect.unit (s := S128) ![1] S1.size inb_S128_S1_1).toLoadRect (harg2.unread x1) (Shape.Idx.first (numel1_S1.symm ▸ Nat.one_pos)))) (k0_hw5 : k0_chk5 (arg1.view.readAt (Elt F) (Rect.unit (s := S128) ![2] S1.size inb_S128_S1_2).toLoadRect (harg1.unread x0) (Shape.Idx.first (numel1_S1.symm ▸ Nat.one_pos)))) (k0_hw6 : k0_chk6 (arg2.view.readAt (Elt F) (Rect.unit (s := S128) ![2] S1.size inb_S128_S1_2).toLoadRect (harg2.unread x1) (Shape.Idx.first (numel1_S1.symm ▸ Nat.one_pos)))) (k0_hw7 : k0_chk7 (arg1.view.readAt (Elt F) (Rect.unit (s := S128) ![3] S1.size inb_S128_S1_3).toLoadRect (harg1.unread x0) (Shape.Idx.first (numel1_S1.symm ▸ Nat.one_pos)))) (k0_hw8 : k0_chk8 (arg2.view.readAt (Elt F) (Rect.unit (s := S128) ![3] S1.size inb_S128_S1_3).toLoadRect (harg2.unread x1) (Shape.Idx.first (numel1_S1.symm ▸ Nat.one_pos)))) (k0_hw9 : k0_chk9 (arg1.view.readAt (Elt F) (Rect.unit (s := S128) ![4] S1.size inb_S128_S1_4).toLoadRect (harg1.unread x0) (Shape.Idx.first (numel1_S1.symm ▸ Nat.one_pos)))) (k0_hw10 : k0_chk10 (arg2.view.readAt (Elt F) (Rect.unit (s := S128) ![4] S1.size inb_S128_S1_4).toLoadRect (harg2.unread x1) (Shape.Idx.first (numel1_S1.symm ▸ Nat.one_pos)))) (k0_hw11 : k0_chk11 (arg1.view.readAt (Elt F) (Rect.unit (s := S128) ![5] S1.size inb_S128_S1_5).toLoadRect (harg1.unread x0) (Shape.Idx.first (numel1_S1.symm ▸ Nat.one_pos)))) (k0_hw12 : k0_chk12 (arg2.view.readAt (Elt F) (Rect.unit (s := S128) ![5] S1.size inb_S128_S1_5).toLoadRect (harg2.unread x1) (Shape.Idx.first (numel1_S1.symm ▸ Nat.one_pos)))) (k0_hw13 : k0_chk13 (arg1.view.readAt (Elt F) (Rect.unit (s := S128) ![6] S1.size inb_S128_S1_6).toLoadRect (harg1.unread x0) (Shape.Idx.first (numel1_S1.symm ▸ Nat.one_pos)))) (k0_hw14 : k0_chk14 (arg2.view.readAt (Elt F) (Rect.unit (s := S128) ![6] S1.size inb_S128_S1_6).toLoadRect (harg2.unread x1) (Shape.Idx.first (numel1_S1.symm ▸ Nat.one_pos)))) (k0_hw15 : k0_chk15 (arg1.view.readAt (Elt F) (Rect.unit (s := S128) ![7] S1.size inb_S128_S1_7).toLoadRect (harg1.unread x0) (Shape.Idx.first (numel1_S1.symm ▸ Nat.one_pos)))) (k0_hw16 : k0_chk16 (arg2.view.readAt (Elt F) (Rect.unit (s := S128) ![7] S1.size inb_S128_S1_7).toLoadRect (harg2.unread x1) (Shape.Idx.first (numel1_S1.symm ▸ Nat.one_pos)))) (k0_hw17 : k0_chk17 (arg1.view.readAt (Elt F) (Rect.unit (s := S128) ![8] S1.size inb_S128_S1_8).toLoadRect (harg1.unread x0) (Shape.Idx.first (numel1_S1.symm ▸ Nat.one_pos)))) (k0_hw18 : k0_chk18 (arg2.view.readAt (Elt F) (Rect.unit (s := S128) ![8] S1.size inb_S128_S1_8).toLoadRect (harg2.unread x1) (Shape.Idx.first (numel1_S1.symm ▸ Nat.one_pos)))) (k0_hw19 : k0_chk19 (arg1.view.readAt (Elt F) (Rect.unit (s := S128) ![9] S1.size inb_S128_S1_9).toLoadRect (harg1.unread x0) (Shape.Idx.first (numel1_S1.symm ▸ Nat.one_pos)))) (k0_hw20 : k0_chk20 (arg2.view.readAt (Elt F) (Rect.unit (s := S128) ![9] S1.size inb_S128_S1_9).toLoadRect (harg2.unread x1) (Shape.Idx.first (numel1_S1.symm ▸ Nat.one_pos)))) (k0_hw21 : k0_chk21 (arg1.view.readAt (Elt F) (Rect.unit (s := S128) ![10] S1.size inb_S128_S1_10).toLoadRect (harg1.unread x0) (Shape.Idx.first (numel1_S1.symm ▸ Nat.one_pos)))) (k0_hw22 : k0_chk22 (arg2.view.readAt (Elt F) (Rect.unit (s := S128) ![10] S1.size inb_S128_S1_10).toLoadRect (harg2.unread x1) (Shape.Idx.first (numel1_S1.symm ▸ Nat.one_pos)))) (k0_hw23 : k0_chk23 (arg1.view.readAt (Elt F) (Rect.unit (s := S128) ![11] S1.size inb_S128_S1_11).toLoadRect (harg1.unread x0) (Shape.Idx.first (numel1_S1.symm ▸ Nat.one_pos)))) (k0_hw24 : k0_chk24 (arg2.view.readAt (Elt F) (Rect.unit (s := S128) ![11] S1.size inb_S128_S1_11).toLoadRect (harg2.unread x1) (Shape.Idx.first (numel1_S1.symm ▸ Nat.one_pos)))) (k0_hw25 : k0_chk25 (arg1.view.readAt (Elt F) (Rect.unit (s := S128) ![12] S1.size inb_S128_S1_12).toLoadRect (harg1.unread x0) (Shape.Idx.first (numel1_S1.symm ▸ Nat.one_pos)))) (k0_hw26 : k0_chk26 (arg2.view.readAt (Elt F) (Rect.unit (s := S128) ![12] S1.size inb_S128_S1_12).toLoadRect (harg2.unread x1) (Shape.Idx.first (numel1_S1.symm ▸ Nat.one_pos)))) (k0_hw27 : k0_chk27 (arg1.view.readAt (Elt F) (Rect.unit (s := S128) ![13] S1.size inb_S128_S1_13).toLoadRect (harg1.unread x0) (Shape.Idx.first (numel1_S1.symm ▸ Nat.one_pos)))) (k0_hw28 : k0_chk28 (arg2.view.readAt (Elt F) (Rect.unit (s := S128) ![13] S1.size inb_S128_S1_13).toLoadRect (harg2.unread x1) (Shape.Idx.first (numel1_S1.symm ▸ Nat.one_pos)))) (k0_hw29 : k0_chk29 (arg1.view.readAt (Elt F) (Rect.unit (s := S128) ![14] S1.size inb_S128_S1_14).toLoadRect (harg1.unread x0) (Shape.Idx.first (numel1_S1.symm ▸ Nat.one_pos)))) (k0_hw30 : k0_chk30 (arg2.view.readAt (Elt F) (Rect.unit (s := S128) ![14] S1.size inb_S128_S1_14).toLoadRect (harg2.unread x1) (Shape.Idx.first (numel1_S1.symm ▸ Nat.one_pos)))) (k0_hw31 : k0_chk31 (arg1.view.readAt (Elt F) (Rect.unit (s := S128) ![15] S1.size inb_S128_S1_15).toLoadRect (harg1.unread x0) (Shape.Idx.first (numel1_S1.symm ▸ Nat.one_pos)))) (k0_hw32 : k0_chk32 (arg2.view.readAt (Elt F) (Rect.unit (s := S128) ![15] S1.size inb_S128_S1_15).toLoadRect (harg2.unread x1) (Shape.Idx.first (numel1_S1.symm ▸ Nat.one_pos)))) (k0_hw33 : k0_chk33 (arg1.view.readAt (Elt F) (Rect.unit (s := S128) ![16] S1.size inb_S128_S1_16).toLoadRect (harg1.unread x0) (Shape.Idx.first (numel1_S1.symm ▸ Nat.one_pos)))) (k0_hw34 : k0_chk34 (arg2.view.readAt (Elt F) (Rect.unit (s := S128) ![16] S1.size inb_S128_S1_16).toLoadRect (harg2.unread x1) (Shape.Idx.first (numel1_S1.symm ▸ Nat.one_pos)))) (k0_hw35 : k0_chk35 (arg1.view.readAt (Elt F) (Rect.unit (s := S128) ![17] S1.size inb_S128_S1_17).toLoadRect (harg1.unread x0) (Shape.Idx.first (numel1_S1.symm ▸ Nat.one_pos)))) (k0_hw36 : k0_chk36 (arg2.view.readAt (Elt F) (Rect.unit (s := S128) ![17] S1.size inb_S128_S1_17).toLoadRect (harg2.unread x1) (Shape.Idx.first (numel1_S1.symm ▸ Nat.one_pos)))) (k0_hw37 : k0_chk37 (arg1.view.readAt (Elt F) (Rect.unit (s := S128) ![18] S1.size inb_S128_S1_18).toLoadRect (harg1.unread x0) (Shape.Idx.first (numel1_S1.symm ▸ Nat.one_pos)))) (k0_hw38 : k0_chk38 (arg2.view.readAt (Elt F) (Rect.unit (s := S128) ![18] S1.size inb_S128_S1_18).toLoadRect (harg2.unread x1) (Shape.Idx.first (numel1_S1.symm ▸ Nat.one_pos)))) (k0_hw39 : k0_chk39 (arg1.view.readAt (Elt F) (Rect.unit (s := S128) ![19] S1.size inb_S128_S1_19).toLoadRect (harg1.unread x0) (Shape.Idx.first (numel1_S1.symm ▸ Nat.one_pos)))) (k0_hw40 : k0_chk40 (arg2.view.readAt (Elt F) (Rect.unit (s := S128) ![19] S1.size inb_S128_S1_19).toLoadRect (harg2.unread x1) (Shape.Idx.first (numel1_S1.symm ▸ Nat.one_pos)))) (k0_hw41 : k0_chk41 (arg1.view.readAt (Elt F) (Rect.unit (s := S128) ![20] S1.size inb_S128_S1_20).toLoadRect (harg1.unread x0) (Shape.Idx.first (numel1_S1.symm ▸ Nat.one_pos)))) (k0_hw42 : k0_chk42 (arg2.view.readAt (Elt F) (Rect.unit (s := S128) ![20] S1.size inb_S128_S1_20).toLoadRect (harg2.unread x1) (Shape.Idx.first (numel1_S1.symm ▸ Nat.one_pos)))) (k0_hw43 : k0_chk43 (arg1.view.readAt (Elt F) (Rect.unit (s := S128) ![21] S1.size inb_S128_S1_21).toLoadRect (harg1.unread x0) (Shape.Idx.first (numel1_S1.symm ▸ Nat.one_pos)))) (k0_hw44 : k0_chk44 (arg2.view.readAt (Elt F) (Rect.unit (s := S128) ![21] S1.size inb_S128_S1_21).toLoadRect (harg2.unread x1) (Shape.Idx.first (numel1_S1.symm ▸ Nat.one_pos)))) (k0_hw45 : k0_chk45 (arg1.view.readAt (Elt F) (Rect.unit (s := S128) ![22] S1.size inb_S128_S1_22).toLoadRect (harg1.unread x0) (Shape.Idx.first (numel1_S1.symm ▸ Nat.one_pos)))) (k0_hw46 : k0_chk46 (arg2.view.readAt (Elt F) (Rect.unit (s := S128) ![22] S1.size inb_S128_S1_22).toLoadRect (harg2.unread x1) (Shape.Idx.first (numel1_S1.symm ▸ Nat.one_pos)))) (k0_hw47 : k0_chk47 (arg1.view.readAt (Elt F) (Rect.unit (s := S128) ![23] S1.size inb_S128_S1_23).toLoadRect (harg1.unread x0) (Shape.Idx.first (numel1_S1.symm ▸ Nat.one_pos)))) (k0_hw48 : k0_chk48 (arg2.view.readAt (Elt F) (Rect.unit (s := S128) ![23] S1.size inb_S128_S1_23).toLoadRect (harg2.unread x1) (Shape.Idx.first (numel1_S1.symm ▸ Nat.one_pos)))) (k0_hw49 : k0_chk49 (arg1.view.readAt (Elt F) (Rect.unit (s := S128) ![24] S1.size inb_S128_S1_24).toLoadRect (harg1.unread x0) (Shape.Idx.first (numel1_S1.symm ▸ Nat.one_pos)))) (k0_hw50 : k0_chk50 (arg2.view.readAt (Elt F) (Rect.unit (s := S128) ![24] S1.size inb_S128_S1_24).toLoadRect (harg2.unread x1) (Shape.Idx.first (numel1_S1.symm ▸ Nat.one_pos)))) (k0_hw51 : k0_chk51 (arg1.view.readAt (Elt F) (Rect.unit (s := S128) ![25] S1.size inb_S128_S1_25).toLoadRect (harg1.unread x0) (Shape.Idx.first (numel1_S1.symm ▸ Nat.one_pos)))) (k0_hw52 : k0_chk52 (arg2.view.readAt (Elt F) (Rect.unit (s := S128) ![25] S1.size inb_S128_S1_25).toLoadRect (harg2.unread x1) (Shape.Idx.first (numel1_S1.symm ▸ Nat.one_pos)))) (k0_hw53 : k0_chk53 (arg1.view.readAt (Elt F) (Rect.unit (s := S128) ![26] S1.size inb_S128_S1_26).toLoadRect (harg1.unread x0) (Shape.Idx.first (numel1_S1.symm ▸ Nat.one_pos)))) (k0_hw54 : k0_chk54 (arg2.view.readAt (Elt F) (Rect.unit (s := S128) ![26] S1.size inb_S128_S1_26).toLoadRect (harg2.unread x1) (Shape.Idx.first (numel1_S1.symm ▸ Nat.one_pos)))) (k0_hw55 : k0_chk55 (arg1.view.readAt (Elt F) (Rect.unit (s := S128) ![27] S1.size inb_S128_S1_27).toLoadRect (harg1.unread x0) (Shape.Idx.first (numel1_S1.symm ▸ Nat.one_pos)))) (k0_hw56 : k0_chk56 (arg2.view.readAt (Elt F) (Rect.unit (s := S128) ![27] S1.size inb_S128_S1_27).toLoadRect (harg2.unread x1) (Shape.Idx.first (numel1_S1.symm ▸ Nat.one_pos)))) (k0_hw57 : k0_chk57 (arg1.view.readAt (Elt F) (Rect.unit (s := S128) ![28] S1.size inb_S128_S1_28).toLoadRect (harg1.unread x0) (Shape.Idx.first (numel1_S1.symm ▸ Nat.one_pos)))) (k0_hw58 : k0_chk58 (arg2.view.readAt (Elt F) (Rect.unit (s := S128) ![28] S1.size inb_S128_S1_28).toLoadRect (harg2.unread x1) (Shape.Idx.first (numel1_S1.symm ▸ Nat.one_pos)))) (k0_hw59 : k0_chk59 (arg1.view.readAt (Elt F) (Rect.unit (s := S128) ![29] S1.size inb_S128_S1_29).toLoadRect (harg1.unread x0) (Shape.Idx.first (numel1_S1.symm ▸ Nat.one_pos)))) (k0_hw60 : k0_chk60 (arg2.view.readAt (Elt F) (Rect.unit (s := S128) ![29] S1.size inb_S128_S1_29).toLoadRect (harg2.unread x1) (Shape.Idx.first (numel1_S1.symm ▸ Nat.one_pos)))) (k0_hw61 : k0_chk61 (arg1.view.readAt (Elt F) (Rect.unit (s := S128) ![30] S1.size inb_S128_S1_30).toLoadRect (harg1.unread x0) (Shape.Idx.first (numel1_S1.symm ▸ Nat.one_pos)))) (k0_hw62 : k0_chk62 (arg2.view.readAt (Elt F) (Rect.unit (s := S128) ![30] S1.size inb_S128_S1_30).toLoadRect (harg2.unread x1) (Shape.Idx.first (numel1_S1.symm ▸ Nat.one_pos)))) (k0_hw63 : k0_chk63 (arg1.view.readAt (Elt F) (Rect.unit (s := S128) ![31] S1.size inb_S128_S1_31).toLoadRect (harg1.unread x0) (Shape.Idx.first (numel1_S1.symm ▸ Nat.one_pos)))) (k0_hw64 : k0_chk64 (arg2.view.readAt (Elt F) (Rect.unit (s := S128) ![31] S1.size inb_S128_S1_31).toLoadRect (harg2.unread x1) (Shape.Idx.first (numel1_S1.symm ▸ Nat.one_pos)))) (k0_hw65 : k0_chk65 (arg1.view.readAt (Elt F) (Rect.unit (s := S128) ![32] S1.size inb_S128_S1_32).toLoadRect (harg1.unread x0) (Shape.Idx.first (numel1_S1.symm ▸ Nat.one_pos)))) (k0_hw66 : k0_chk66 (arg2.view.readAt (Elt F) (Rect.unit (s := S128) ![32] S1.size inb_S128_S1_32).toLoadRect (harg2.unread x1) (Shape.Idx.first (numel1_S1.symm ▸ Nat.one_pos)))) (k0_hw67 : k0_chk67 (arg1.view.readAt (Elt F) (Rect.unit (s := S128) ![33] S1.size inb_S128_S1_33).toLoadRect (harg1.unread x0) (Shape.Idx.first (numel1_S1.symm ▸ Nat.one_pos)))) (k0_hw68 : k0_chk68 (arg2.view.readAt (Elt F) (Rect.unit (s := S128) ![33] S1.size inb_S128_S1_33).toLoadRect (harg2.unread x1) (Shape.Idx.first (numel1_S1.symm ▸ Nat.one_pos)))) (k0_hw69 : k0_chk69 (arg1.view.readAt (Elt F) (Rect.unit (s := S128) ![34] S1.size inb_S128_S1_34).toLoadRect (harg1.unread x0) (Shape.Idx.first (numel1_S1.symm ▸ Nat.one_pos)))) (k0_hw70 : k0_chk70 (arg2.view.readAt (Elt F) (Rect.unit (s := S128) ![34] S1.size inb_S128_S1_34).toLoadRect (harg2.unread x1) (Shape.Idx.first (numel1_S1.symm ▸ Nat.one_pos)))) (k0_hw71 : k0_chk71 (arg1.view.readAt (Elt F) (Rect.unit (s := S128) ![35] S1.size inb_S128_S1_35).toLoadRect (harg1.unread x0) (Shape.Idx.first (numel1_S1.symm ▸ Nat.one_pos)))) (k0_hw72 : k0_chk72 (arg2.view.readAt (Elt F) (Rect.unit (s := S128) ![35] S1.size inb_S128_S1_35).toLoadRect (harg2.unread x1) (Shape.Idx.first (numel1_S1.symm ▸ Nat.one_pos)))) (k0_hw73 : k0_chk73 (arg1.view.readAt (Elt F) (Rect.unit (s := S128) ![36] S1.size inb_S128_S1_36).toLoadRect (harg1.unread x0) (Shape.Idx.first (numel1_S1.symm ▸ Nat.one_pos)))) (k0_hw74 : k0_chk74 (arg2.view.readAt (Elt F) (Rect.unit (s := S128) ![36] S1.size inb_S128_S1_36).toLoadRect (harg2.unread x1) (Shape.Idx.first (numel1_S1.symm ▸ Nat.one_pos)))) (k0_hw75 : k0_chk75 (arg1.view.readAt (Elt F) (Rect.unit (s := S128) ![37] S1.size inb_S128_S1_37).toLoadRect (harg1.unread x0) (Shape.Idx.first (numel1_S1.symm ▸ Nat.one_pos)))) (k0_hw76 : k0_chk76 (arg2.view.readAt (Elt F) (Rect.unit (s := S128) ![37] S1.size inb_S128_S1_37).toLoadRect (harg2.unread x1) (Shape.Idx.first (numel1_S1.symm ▸ Nat.one_pos)))) (k0_hw77 : k0_chk77 (arg1.view.readAt (Elt F) (Rect.unit (s := S128) ![38] S1.size inb_S128_S1_38).toLoadRect (harg1.unread x0) (Shape.Idx.first (numel1_S1.symm ▸ Nat.one_pos)))) (k0_hw78 : k0_chk78 (arg2.view.readAt (Elt F) (Rect.unit (s := S128) ![38] S1.size inb_S128_S1_38).toLoadRect (harg2.unread x1) (Shape.Idx.first (numel1_S1.symm ▸ Nat.one_pos)))) (k0_hw79 : k0_chk79 (arg1.view.readAt (Elt F) (Rect.unit (s := S128) ![39] S1.size inb_S128_S1_39).toLoadRect (harg1.unread x0) (Shape.Idx.first (numel1_S1.symm ▸ Nat.one_pos)))) (k0_hw80 : k0_chk80 (arg2.view.readAt (Elt F) (Rect.unit (s := S128) ![39] S1.size inb_S128_S1_39).toLoadRect (harg2.unread x1) (Shape.Idx.first (numel1_S1.symm ▸ Nat.one_pos)))) (k0_hw81 : k0_chk81 (arg1.view.readAt (Elt F) (Rect.unit (s := S128) ![40] S1.size inb_S128_S1_40).toLoadRect (harg1.unread x0) (Shape.Idx.first (numel1_S1.symm ▸ Nat.one_pos)))) (k0_hw82 : k0_chk82 (arg2.view.readAt (Elt F) (Rect.unit (s := S128) ![40] S1.size inb_S128_S1_40).toLoadRect (harg2.unread x1) (Shape.Idx.first (numel1_S1.symm ▸ Nat.one_pos)))) (k0_hw83 : k0_chk83 (arg1.view.readAt (Elt F) (Rect.unit (s := S128) ![41] S1.size inb_S128_S1_41).toLoadRect (harg1.unread x0) (Shape.Idx.first (numel1_S1.symm ▸ Nat.one_pos)))) (k0_hw84 : k0_chk84 (arg2.view.readAt (Elt F) (Rect.unit (s := S128) ![41] S1.size inb_S128_S1_41).toLoadRect (harg2.unread x1) (Shape.Idx.first (numel1_S1.symm ▸ Nat.one_pos)))) (k0_hw85 : k0_chk85 (arg1.view.readAt (Elt F) (Rect.unit (s := S128) ![42] S1.size inb_S128_S1_42).toLoadRect (harg1.unread x0) (Shape.Idx.first (numel1_S1.symm ▸ Nat.one_pos)))) (k0_hw86 : k0_chk86 (arg2.view.readAt (Elt F) (Rect.unit (s := S128) ![42] S1.size inb_S128_S1_42).toLoadRect (harg2.unread x1) (Shape.Idx.first (numel1_S1.symm ▸ Nat.one_pos)))) (k0_hw87 : k0_chk87 (arg1.view.readAt (Elt F) (Rect.unit (s := S128) ![43] S1.size inb_S128_S1_43).toLoadRect (harg1.unread x0) (Shape.Idx.first (numel1_S1.symm ▸ Nat.one_pos)))) (k0_hw88 : k0_chk88 (arg2.view.readAt (Elt F) (Rect.unit (s := S128) ![43] S1.size inb_S128_S1_43).toLoadRect (harg2.unread x1) (Shape.Idx.first (numel1_S1.symm ▸ Nat.one_pos)))) (k0_hw89 : k0_chk89 (arg1.view.readAt (Elt F) (Rect.unit (s := S128) ![44] S1.size inb_S128_S1_44).toLoadRect (harg1.unread x0) (Shape.Idx.first (numel1_S1.symm ▸ Nat.one_pos)))) (k0_hw90 : k0_chk90 (arg2.view.readAt (Elt F) (Rect.unit (s := S128) ![44] S1.size inb_S128_S1_44).toLoadRect (harg2.unread x1) (Shape.Idx.first (numel1_S1.symm ▸ Nat.one_pos)))) (k0_hw91 : k0_chk91 (arg1.view.readAt (Elt F) (Rect.unit (s := S128) ![45] S1.size inb_S128_S1_45).toLoadRect (harg1.unread x0) (Shape.Idx.first (numel1_S1.symm ▸ Nat.one_pos)))) (k0_hw92 : k0_chk92 (arg2.view.readAt (Elt F) (Rect.unit (s := S128) ![45] S1.size inb_S128_S1_45).toLoadRect (harg2.unread x1) (Shape.Idx.first (numel1_S1.symm ▸ Nat.one_pos)))) (k0_hw93 : k0_chk93 (arg1.view.readAt (Elt F) (Rect.unit (s := S128) ![46] S1.size inb_S128_S1_46).toLoadRect (harg1.unread x0) (Shape.Idx.first (numel1_S1.symm ▸ Nat.one_pos)))) (k0_hw94 : k0_chk94 (arg2.view.readAt (Elt F) (Rect.unit (s := S128) ![46] S1.size inb_S128_S1_46).toLoadRect (harg2.unread x1) (Shape.Idx.first (numel1_S1.symm ▸ Nat.one_pos)))) (k0_hw95 : k0_chk95 (arg1.view.readAt (Elt F) (Rect.unit (s := S128) ![47] S1.size inb_S128_S1_47).toLoadRect (harg1.unread x0) (Shape.Idx.first (numel1_S1.symm ▸ Nat.one_pos)))) (k0_hw96 : k0_chk96 (arg2.view.readAt (Elt F) (Rect.unit (s := S128) ![47] S1.size inb_S128_S1_47).toLoadRect (harg2.unread x1) (Shape.Idx.first (numel1_S1.symm ▸ Nat.one_pos)))) (k0_hw97 : k0_chk97 (arg1.view.readAt (Elt F) (Rect.unit (s := S128) ![48] S1.size inb_S128_S1_48).toLoadRect (harg1.unread x0) (Shape.Idx.first (numel1_S1.symm ▸ Nat.one_pos)))) (k0_hw98 : k0_chk98 (arg2.view.readAt (Elt F) (Rect.unit (s := S128) ![48] S1.size inb_S128_S1_48).toLoadRect (harg2.unread x1) (Shape.Idx.first (numel1_S1.symm ▸ Nat.one_pos)))) (k0_hw99 : k0_chk99 (arg1.view.readAt (Elt F) (Rect.unit (s := S128) ![49] S1.size inb_S128_S1_49).toLoadRect (harg1.unread x0) (Shape.Idx.first (numel1_S1.symm ▸ Nat.one_pos)))) (k0_hw100 : k0_chk100 (arg2.view.readAt (Elt F) (Rect.unit (s := S128) ![49] S1.size inb_S128_S1_49).toLoadRect (harg2.unread x1) (Shape.Idx.first (numel1_S1.symm ▸ Nat.one_pos)))) (k0_hw101 : k0_chk101 (arg1.view.readAt (Elt F) (Rect.unit (s := S128) ![50] S1.size inb_S128_S1_50).toLoadRect (harg1.unread x0) (Shape.Idx.first (numel1_S1.symm ▸ Nat.one_pos)))) (k0_hw102 : k0_chk102 (arg2.view.readAt (Elt F) (Rect.unit (s := S128) ![50] S1.size inb_S128_S1_50).toLoadRect (harg2.unread x1) (Shape.Idx.first (numel1_S1.symm ▸ Nat.one_pos)))) (k0_hw103 : k0_chk103 (arg1.view.readAt (Elt F) (Rect.unit (s := S128) ![51] S1.size inb_S128_S1_51).toLoadRect (harg1.unread x0) (Shape.Idx.first (numel1_S1.symm ▸ Nat.one_pos)))) (k0_hw104 : k0_chk104 (arg2.view.readAt (Elt F) (Rect.unit (s := S128) ![51] S1.size inb_S128_S1_51).toLoadRect (harg2.unread x1) (Shape.Idx.first (numel1_S1.symm ▸ Nat.one_pos)))) (k0_hw105 : k0_chk105 (arg1.view.readAt (Elt F) (Rect.unit (s := S128) ![52] S1.size inb_S128_S1_52).toLoadRect (harg1.unread x0) (Shape.Idx.first (numel1_S1.symm ▸ Nat.one_pos)))) (k0_hw106 : k0_chk106 (arg2.view.readAt (Elt F) (Rect.unit (s := S128) ![52] S1.size inb_S128_S1_52).toLoadRect (harg2.unread x1) (Shape.Idx.first (numel1_S1.symm ▸ Nat.one_pos)))) (k0_hw107 : k0_chk107 (arg1.view.readAt (Elt F) (Rect.unit (s := S128) ![53] S1.size inb_S128_S1_53).toLoadRect (harg1.unread x0) (Shape.Idx.first (numel1_S1.symm ▸ Nat.one_pos)))) (k0_hw108 : k0_chk108 (arg2.view.readAt (Elt F) (Rect.unit (s := S128) ![53] S1.size inb_S128_S1_53).toLoadRect (harg2.unread x1) (Shape.Idx.first (numel1_S1.symm ▸ Nat.one_pos)))) (k0_hw109 : k0_chk109 (arg1.view.readAt (Elt F) (Rect.unit (s := S128) ![54] S1.size inb_S128_S1_54).toLoadRect (harg1.unread x0) (Shape.Idx.first (numel1_S1.symm ▸ Nat.one_pos)))) (k0_hw110 : k0_chk110 (arg2.view.readAt (Elt F) (Rect.unit (s := S128) ![54] S1.size inb_S128_S1_54).toLoadRect (harg2.unread x1) (Shape.Idx.first (numel1_S1.symm ▸ Nat.one_pos)))) (k0_hw111 : k0_chk111 (arg1.view.readAt (Elt F) (Rect.unit (s := S128) ![55] S1.size inb_S128_S1_55).toLoadRect (harg1.unread x0) (Shape.Idx.first (numel1_S1.symm ▸ Nat.one_pos)))) (k0_hw112 : k0_chk112 (arg2.view.readAt (Elt F) (Rect.unit (s := S128) ![55] S1.size inb_S128_S1_55).toLoadRect (harg2.unread x1) (Shape.Idx.first (numel1_S1.symm ▸ Nat.one_pos)))) (k0_hw113 : k0_chk113 (arg1.view.readAt (Elt F) (Rect.unit (s := S128) ![56] S1.size inb_S128_S1_56).toLoadRect (harg1.unread x0) (Shape.Idx.first (numel1_S1.symm ▸ Nat.one_pos)))) (k0_hw114 : k0_chk114 (arg2.view.readAt (Elt F) (Rect.unit (s := S128) ![56] S1.size inb_S128_S1_56).toLoadRect (harg2.unread x1) (Shape.Idx.first (numel1_S1.symm ▸ Nat.one_pos)))) (k0_hw115 : k0_chk115 (arg1.view.readAt (Elt F) (Rect.unit (s := S128) ![57] S1.size inb_S128_S1_57).toLoadRect (harg1.unread x0) (Shape.Idx.first (numel1_S1.symm ▸ Nat.one_pos)))) (k0_hw116 : k0_chk116 (arg2.view.readAt (Elt F) (Rect.unit (s := S128) ![57] S1.size inb_S128_S1_57).toLoadRect (harg2.unread x1) (Shape.Idx.first (numel1_S1.symm ▸ Nat.one_pos)))) (k0_hw117 : k0_chk117 (arg1.view.readAt (Elt F) (Rect.unit (s := S128) ![58] S1.size inb_S128_S1_58).toLoadRect (harg1.unread x0) (Shape.Idx.first (numel1_S1.symm ▸ Nat.one_pos)))) (k0_hw118 : k0_chk118 (arg2.view.readAt (Elt F) (Rect.unit (s := S128) ![58] S1.size inb_S128_S1_58).toLoadRect (harg2.unread x1) (Shape.Idx.first (numel1_S1.symm ▸ Nat.one_pos)))) (k0_hw119 : k0_chk119 (arg1.view.readAt (Elt F) (Rect.unit (s := S128) ![59] S1.size inb_S128_S1_59).toLoadRect (harg1.unread x0) (Shape.Idx.first (numel1_S1.symm ▸ Nat.one_pos)))) (k0_hw120 : k0_chk120 (arg2.view.readAt (Elt F) (Rect.unit (s := S128) ![59] S1.size inb_S128_S1_59).toLoadRect (harg2.unread x1) (Shape.Idx.first (numel1_S1.symm ▸ Nat.one_pos)))) (k0_hw121 : k0_chk121 (arg1.view.readAt (Elt F) (Rect.unit (s := S128) ![60] S1.size inb_S128_S1_60).toLoadRect (harg1.unread x0) (Shape.Idx.first (numel1_S1.symm ▸ Nat.one_pos)))) (k0_hw122 : k0_chk122 (arg2.view.readAt (Elt F) (Rect.unit (s := S128) ![60] S1.size inb_S128_S1_60).toLoadRect (harg2.unread x1) (Shape.Idx.first (numel1_S1.symm ▸ Nat.one_pos)))) (k0_hw123 : k0_chk123 (arg1.view.readAt (Elt F) (Rect.unit (s := S128) ![61] S1.size inb_S128_S1_61).toLoadRect (harg1.unread x0) (Shape.Idx.first (numel1_S1.symm ▸ Nat.one_pos)))) (k0_hw124 : k0_chk124 (arg2.view.readAt (Elt F) (Rect.unit (s := S128) ![61] S1.size inb_S128_S1_61).toLoadRect (harg2.unread x1) (Shape.Idx.first (numel1_S1.symm ▸ Nat.one_pos)))) (k0_hw125 : k0_chk125 (arg1.view.readAt (Elt F) (Rect.unit (s := S128) ![62] S1.size inb_S128_S1_62).toLoadRect (harg1.unread x0) (Shape.Idx.first (numel1_S1.symm ▸ Nat.one_pos)))) (k0_hw126 : k0_chk126 (arg2.view.readAt (Elt F) (Rect.unit (s := S128) ![62] S1.size inb_S128_S1_62).toLoadRect (harg2.unread x1) (Shape.Idx.first (numel1_S1.symm ▸ Nat.one_pos)))) (k0_hw127 : k0_chk127 (arg1.view.readAt (Elt F) (Rect.unit (s := S128) ![63] S1.size inb_S128_S1_63).toLoadRect (harg1.unread x0) (Shape.Idx.first (numel1_S1.symm ▸ Nat.one_pos)))) (k0_hw128 : k0_chk128 (arg2.view.readAt (Elt F) (Rect.unit (s := S128) ![63] S1.size inb_S128_S1_63).toLoadRect (harg2.unread x1) (Shape.Idx.first (numel1_S1.symm ▸ Nat.one_pos)))) (k0_hw129 : k0_chk129 (arg1.view.readAt (Elt F) (Rect.unit (s := S128) ![64] S1.size inb_S128_S1_64).toLoadRect (harg1.unread x0) (Shape.Idx.first (numel1_S1.symm ▸ Nat.one_pos)))) (k0_hw130 : k0_chk130 (arg2.view.readAt (Elt F) (Rect.unit (s := S128) ![64] S1.size inb_S128_S1_64).toLoadRect (harg2.unread x1) (Shape.Idx.first (numel1_S1.symm ▸ Nat.one_pos)))) (k0_hw131 : k0_chk131 (arg1.view.readAt (Elt F) (Rect.unit (s := S128) ![65] S1.size inb_S128_S1_65).toLoadRect (harg1.unread x0) (Shape.Idx.first (numel1_S1.symm ▸ Nat.one_pos)))) (k0_hw132 : k0_chk132 (arg2.view.readAt (Elt F) (Rect.unit (s := S128) ![65] S1.size inb_S128_S1_65).toLoadRect (harg2.unread x1) (Shape.Idx.first (numel1_S1.symm ▸ Nat.one_pos)))) (k0_hw133 : k0_chk133 (arg1.view.readAt (Elt F) (Rect.unit (s := S128) ![66] S1.size inb_S128_S1_66).toLoadRect (harg1.unread x0) (Shape.Idx.first (numel1_S1.symm ▸ Nat.one_pos)))) (k0_hw134 : k0_chk134 (arg2.view.readAt (Elt F) (Rect.unit (s := S128) ![66] S1.size inb_S128_S1_66).toLoadRect (harg2.unread x1) (Shape.Idx.first (numel1_S1.symm ▸ Nat.one_pos)))) (k0_hw135 : k0_chk135 (arg1.view.readAt (Elt F) (Rect.unit (s := S128) ![67] S1.size inb_S128_S1_67).toLoadRect (harg1.unread x0) (Shape.Idx.first (numel1_S1.symm ▸ Nat.one_pos)))) (k0_hw136 : k0_chk136 (arg2.view.readAt (Elt F) (Rect.unit (s := S128) ![67] S1.size inb_S128_S1_67).toLoadRect (harg2.unread x1) (Shape.Idx.first (numel1_S1.symm ▸ Nat.one_pos)))) (k0_hw137 : k0_chk137 (arg1.view.readAt (Elt F) (Rect.unit (s := S128) ![68] S1.size inb_S128_S1_68).toLoadRect (harg1.unread x0) (Shape.Idx.first (numel1_S1.symm ▸ Nat.one_pos)))) (k0_hw138 : k0_chk138 (arg2.view.readAt (Elt F) (Rect.unit (s := S128) ![68] S1.size inb_S128_S1_68).toLoadRect (harg2.unread x1) (Shape.Idx.first (numel1_S1.symm ▸ Nat.one_pos)))) (k0_hw139 : k0_chk139 (arg1.view.readAt (Elt F) (Rect.unit (s := S128) ![69] S1.size inb_S128_S1_69).toLoadRect (harg1.unread x0) (Shape.Idx.first (numel1_S1.symm ▸ Nat.one_pos)))) (k0_hw140 : k0_chk140 (arg2.view.readAt (Elt F) (Rect.unit (s := S128) ![69] S1.size inb_S128_S1_69).toLoadRect (harg2.unread x1) (Shape.Idx.first (numel1_S1.symm ▸ Nat.one_pos)))) (k0_hw141 : k0_chk141 (arg1.view.readAt (Elt F) (Rect.unit (s := S128) ![70] S1.size inb_S128_S1_70).toLoadRect (harg1.unread x0) (Shape.Idx.first (numel1_S1.symm ▸ Nat.one_pos)))) (k0_hw142 : k0_chk142 (arg2.view.readAt (Elt F) (Rect.unit (s := S128) ![70] S1.size inb_S128_S1_70).toLoadRect (harg2.unread x1) (Shape.Idx.first (numel1_S1.symm ▸ Nat.one_pos)))) (k0_hw143 : k0_chk143 (arg1.view.readAt (Elt F) (Rect.unit (s := S128) ![71] S1.size inb_S128_S1_71).toLoadRect (harg1.unread x0) (Shape.Idx.first (numel1_S1.symm ▸ Nat.one_pos)))) (k0_hw144 : k0_chk144 (arg2.view.readAt (Elt F) (Rect.unit (s := S128) ![71] S1.size inb_S128_S1_71).toLoadRect (harg2.unread x1) (Shape.Idx.first (numel1_S1.symm ▸ Nat.one_pos)))) (k0_hw145 : k0_chk145 (arg1.view.readAt (Elt F) (Rect.unit (s := S128) ![72] S1.size inb_S128_S1_72).toLoadRect (harg1.unread x0) (Shape.Idx.first (numel1_S1.symm ▸ Nat.one_pos)))) (k0_hw146 : k0_chk146 (arg2.view.readAt (Elt F) (Rect.unit (s := S128) ![72] S1.size inb_S128_S1_72).toLoadRect (harg2.unread x1) (Shape.Idx.first (numel1_S1.symm ▸ Nat.one_pos)))) (k0_hw147 : k0_chk147 (arg1.view.readAt (Elt F) (Rect.unit (s := S128) ![73] S1.size inb_S128_S1_73).toLoadRect (harg1.unread x0) (Shape.Idx.first (numel1_S1.symm ▸ Nat.one_pos)))) (k0_hw148 : k0_chk148 (arg2.view.readAt (Elt F) (Rect.unit (s := S128) ![73] S1.size inb_S128_S1_73).toLoadRect (harg2.unread x1) (Shape.Idx.first (numel1_S1.symm ▸ Nat.one_pos)))) (k0_hw149 : k0_chk149 (arg1.view.readAt (Elt F) (Rect.unit (s := S128) ![74] S1.size inb_S128_S1_74).toLoadRect (harg1.unread x0) (Shape.Idx.first (numel1_S1.symm ▸ Nat.one_pos)))) (k0_hw150 : k0_chk150 (arg2.view.readAt (Elt F) (Rect.unit (s := S128) ![74] S1.size inb_S128_S1_74).toLoadRect (harg2.unread x1) (Shape.Idx.first (numel1_S1.symm ▸ Nat.one_pos)))) (k0_hw151 : k0_chk151 (arg1.view.readAt (Elt F) (Rect.unit (s := S128) ![75] S1.size inb_S128_S1_75).toLoadRect (harg1.unread x0) (Shape.Idx.first (numel1_S1.symm ▸ Nat.one_pos)))) (k0_hw152 : k0_chk152 (arg2.view.readAt (Elt F) (Rect.unit (s := S128) ![75] S1.size inb_S128_S1_75).toLoadRect (harg2.unread x1) (Shape.Idx.first (numel1_S1.symm ▸ Nat.one_pos)))) (k0_hw153 : k0_chk153 (arg1.view.readAt (Elt F) (Rect.unit (s := S128) ![76] S1.size inb_S128_S1_76).toLoadRect (harg1.unread x0) (Shape.Idx.first (numel1_S1.symm ▸ Nat.one_pos)))) (k0_hw154 : k0_chk154 (arg2.view.readAt (Elt F) (Rect.unit (s := S128) ![76] S1.size inb_S128_S1_76).toLoadRect (harg2.unread x1) (Shape.Idx.first (numel1_S1.symm ▸ Nat.one_pos)))) (k0_hw155 : k0_chk155 (arg1.view.readAt (Elt F) (Rect.unit (s := S128) ![77] S1.size inb_S128_S1_77).toLoadRect (harg1.unread x0) (Shape.Idx.first (numel1_S1.symm ▸ Nat.one_pos)))) (k0_hw156 : k0_chk156 (arg2.view.readAt (Elt F) (Rect.unit (s := S128) ![77] S1.size inb_S128_S1_77).toLoadRect (harg2.unread x1) (Shape.Idx.first (numel1_S1.symm ▸ Nat.one_pos)))) (k0_hw157 : k0_chk157 (arg1.view.readAt (Elt F) (Rect.unit (s := S128) ![78] S1.size inb_S128_S1_78).toLoadRect (harg1.unread x0) (Shape.Idx.first (numel1_S1.symm ▸ Nat.one_pos)))) (k0_hw158 : k0_chk158 (arg2.view.readAt (Elt F) (Rect.unit (s := S128) ![78] S1.size inb_S128_S1_78).toLoadRect (harg2.unread x1) (Shape.Idx.first (numel1_S1.symm ▸ Nat.one_pos)))) (k0_hw159 : k0_chk159 (arg1.view.readAt (Elt F) (Rect.unit (s := S128) ![79] S1.size inb_S128_S1_79).toLoadRect (harg1.unread x0) (Shape.Idx.first (numel1_S1.symm ▸ Nat.one_pos)))) (k0_hw160 : k0_chk160 (arg2.view.readAt (Elt F) (Rect.unit (s := S128) ![79] S1.size inb_S128_S1_79).toLoadRect (harg2.unread x1) (Shape.Idx.first (numel1_S1.symm ▸ Nat.one_pos)))) (k0_hw161 : k0_chk161 (arg1.view.readAt (Elt F) (Rect.unit (s := S128) ![80] S1.size inb_S128_S1_80).toLoadRect (harg1.unread x0) (Shape.Idx.first (numel1_S1.symm ▸ Nat.one_pos)))) (k0_hw162 : k0_chk162 (arg2.view.readAt (Elt F) (Rect.unit (s := S128) ![80] S1.size inb_S128_S1_80).toLoadRect (harg2.unread x1) (Shape.Idx.first (numel1_S1.symm ▸ Nat.one_pos)))) (k0_hw163 : k0_chk163 (arg1.view.readAt (Elt F) (Rect.unit (s := S128) ![81] S1.size inb_S128_S1_81).toLoadRect (harg1.unread x0) (Shape.Idx.first (numel1_S1.symm ▸ Nat.one_pos)))) (k0_hw164 : k0_chk164 (arg2.view.readAt (Elt F) (Rect.unit (s := S128) ![81] S1.size inb_S128_S1_81).toLoadRect (harg2.unread x1) (Shape.Idx.first (numel1_S1.symm ▸ Nat.one_pos)))) (k0_hw165 : k0_chk165 (arg1.view.readAt (Elt F) (Rect.unit (s := S128) ![82] S1.size inb_S128_S1_82).toLoadRect (harg1.unread x0) (Shape.Idx.first (numel1_S1.symm ▸ Nat.one_pos)))) (k0_hw166 : k0_chk166 (arg2.view.readAt (Elt F) (Rect.unit (s := S128) ![82] S1.size inb_S128_S1_82).toLoadRect (harg2.unread x1) (Shape.Idx.first (numel1_S1.symm ▸ Nat.one_pos)))) (k0_hw167 : k0_chk167 (arg1.view.readAt (Elt F) (Rect.unit (s := S128) ![83] S1.size inb_S128_S1_83).toLoadRect (harg1.unread x0) (Shape.Idx.first (numel1_S1.symm ▸ Nat.one_pos)))) (k0_hw168 : k0_chk168 (arg2.view.readAt (Elt F) (Rect.unit (s := S128) ![83] S1.size inb_S128_S1_83).toLoadRect (harg2.unread x1) (Shape.Idx.first (numel1_S1.symm ▸ Nat.one_pos)))) (k0_hw169 : k0_chk169 (arg1.view.readAt (Elt F) (Rect.unit (s := S128) ![84] S1.size inb_S128_S1_84).toLoadRect (harg1.unread x0) (Shape.Idx.first (numel1_S1.symm ▸ Nat.one_pos)))) (k0_hw170 : k0_chk170 (arg2.view.readAt (Elt F) (Rect.unit (s := S128) ![84] S1.size inb_S128_S1_84).toLoadRect (harg2.unread x1) (Shape.Idx.first (numel1_S1.symm ▸ Nat.one_pos)))) (k0_hw171 : k0_chk171 (arg1.view.readAt (Elt F) (Rect.unit (s := S128) ![85] S1.size inb_S128_S1_85).toLoadRect (harg1.unread x0) (Shape.Idx.first (numel1_S1.symm ▸ Nat.one_pos)))) (k0_hw172 : k0_chk172 (arg2.view.readAt (Elt F) (Rect.unit (s := S128) ![85] S1.size inb_S128_S1_85).toLoadRect (harg2.unread x1) (Shape.Idx.first (numel1_S1.symm ▸ Nat.one_pos)))) (k0_hw173 : k0_chk173 (arg1.view.readAt (Elt F) (Rect.unit (s := S128) ![86] S1.size inb_S128_S1_86).toLoadRect (harg1.unread x0) (Shape.Idx.first (numel1_S1.symm ▸ Nat.one_pos)))) (k0_hw174 : k0_chk174 (arg2.view.readAt (Elt F) (Rect.unit (s := S128) ![86] S1.size inb_S128_S1_86).toLoadRect (harg2.unread x1) (Shape.Idx.first (numel1_S1.symm ▸ Nat.one_pos)))) (k0_hw175 : k0_chk175 (arg1.view.readAt (Elt F) (Rect.unit (s := S128) ![87] S1.size inb_S128_S1_87).toLoadRect (harg1.unread x0) (Shape.Idx.first (numel1_S1.symm ▸ Nat.one_pos)))) (k0_hw176 : k0_chk176 (arg2.view.readAt (Elt F) (Rect.unit (s := S128) ![87] S1.size inb_S128_S1_87).toLoadRect (harg2.unread x1) (Shape.Idx.first (numel1_S1.symm ▸ Nat.one_pos)))) (k0_hw177 : k0_chk177 (arg1.view.readAt (Elt F) (Rect.unit (s := S128) ![88] S1.size inb_S128_S1_88).toLoadRect (harg1.unread x0) (Shape.Idx.first (numel1_S1.symm ▸ Nat.one_pos)))) (k0_hw178 : k0_chk178 (arg2.view.readAt (Elt F) (Rect.unit (s := S128) ![88] S1.size inb_S128_S1_88).toLoadRect (harg2.unread x1) (Shape.Idx.first (numel1_S1.symm ▸ Nat.one_pos)))) (k0_hw179 : k0_chk179 (arg1.view.readAt (Elt F) (Rect.unit (s := S128) ![89] S1.size inb_S128_S1_89).toLoadRect (harg1.unread x0) (Shape.Idx.first (numel1_S1.symm ▸ Nat.one_pos)))) (k0_hw180 : k0_chk180 (arg2.view.readAt (Elt F) (Rect.unit (s := S128) ![89] S1.size inb_S128_S1_89).toLoadRect (harg2.unread x1) (Shape.Idx.first (numel1_S1.symm ▸ Nat.one_pos)))) (k0_hw181 : k0_chk181 (arg1.view.readAt (Elt F) (Rect.unit (s := S128) ![90] S1.size inb_S128_S1_90).toLoadRect (harg1.unread x0) (Shape.Idx.first (numel1_S1.symm ▸ Nat.one_pos)))) (k0_hw182 : k0_chk182 (arg2.view.readAt (Elt F) (Rect.unit (s := S128) ![90] S1.size inb_S128_S1_90).toLoadRect (harg2.unread x1) (Shape.Idx.first (numel1_S1.symm ▸ Nat.one_pos)))) (k0_hw183 : k0_chk183 (arg1.view.readAt (Elt F) (Rect.unit (s := S128) ![91] S1.size inb_S128_S1_91).toLoadRect (harg1.unread x0) (Shape.Idx.first (numel1_S1.symm ▸ Nat.one_pos)))) (k0_hw184 : k0_chk184 (arg2.view.readAt (Elt F) (Rect.unit (s := S128) ![91] S1.size inb_S128_S1_91).toLoadRect (harg2.unread x1) (Shape.Idx.first (numel1_S1.symm ▸ Nat.one_pos)))) (k0_hw185 : k0_chk185 (arg1.view.readAt (Elt F) (Rect.unit (s := S128) ![92] S1.size inb_S128_S1_92).toLoadRect (harg1.unread x0) (Shape.Idx.first (numel1_S1.symm ▸ Nat.one_pos)))) (k0_hw186 : k0_chk186 (arg2.view.readAt (Elt F) (Rect.unit (s := S128) ![92] S1.size inb_S128_S1_92).toLoadRect (harg2.unread x1) (Shape.Idx.first (numel1_S1.symm ▸ Nat.one_pos)))) (k0_hw187 : k0_chk187 (arg1.view.readAt (Elt F) (Rect.unit (s := S128) ![93] S1.size inb_S128_S1_93).toLoadRect (harg1.unread x0) (Shape.Idx.first (numel1_S1.symm ▸ Nat.one_pos)))) (k0_hw188 : k0_chk188 (arg2.view.readAt (Elt F) (Rect.unit (s := S128) ![93] S1.size inb_S128_S1_93).toLoadRect (harg2.unread x1) (Shape.Idx.first (numel1_S1.symm ▸ Nat.one_pos)))) (k0_hw189 : k0_chk189 (arg1.view.readAt (Elt F) (Rect.unit (s := S128) ![94] S1.size inb_S128_S1_94).toLoadRect (harg1.unread x0) (Shape.Idx.first (numel1_S1.symm ▸ Nat.one_pos)))) (k0_hw190 : k0_chk190 (arg2.view.readAt (Elt F) (Rect.unit (s := S128) ![94] S1.size inb_S128_S1_94).toLoadRect (harg2.unread x1) (Shape.Idx.first (numel1_S1.symm ▸ Nat.one_pos)))) (k0_hw191 : k0_chk191 (arg1.view.readAt (Elt F) (Rect.unit (s := S128) ![95] S1.size inb_S128_S1_95).toLoadRect (harg1.unread x0) (Shape.Idx.first (numel1_S1.symm ▸ Nat.one_pos)))) (k0_hw192 : k0_chk192 (arg2.view.readAt (Elt F) (Rect.unit (s := S128) ![95] S1.size inb_S128_S1_95).toLoadRect (harg2.unread x1) (Shape.Idx.first (numel1_S1.symm ▸ Nat.one_pos)))) (k0_hw193 : k0_chk193 (arg1.view.readAt (Elt F) (Rect.unit (s := S128) ![96] S1.size inb_S128_S1_96).toLoadRect (harg1.unread x0) (Shape.Idx.first (numel1_S1.symm ▸ Nat.one_pos)))) (k0_hw194 : k0_chk194 (arg2.view.readAt (Elt F) (Rect.unit (s := S128) ![96] S1.size inb_S128_S1_96).toLoadRect (harg2.unread x1) (Shape.Idx.first (numel1_S1.symm ▸ Nat.one_pos)))) (k0_hw195 : k0_chk195 (arg1.view.readAt (Elt F) (Rect.unit (s := S128) ![97] S1.size inb_S128_S1_97).toLoadRect (harg1.unread x0) (Shape.Idx.first (numel1_S1.symm ▸ Nat.one_pos)))) (k0_hw196 : k0_chk196 (arg2.view.readAt (Elt F) (Rect.unit (s := S128) ![97] S1.size inb_S128_S1_97).toLoadRect (harg2.unread x1) (Shape.Idx.first (numel1_S1.symm ▸ Nat.one_pos)))) (k0_hw197 : k0_chk197 (arg1.view.readAt (Elt F) (Rect.unit (s := S128) ![98] S1.size inb_S128_S1_98).toLoadRect (harg1.unread x0) (Shape.Idx.first (numel1_S1.symm ▸ Nat.one_pos)))) (k0_hw198 : k0_chk198 (arg2.view.readAt (Elt F) (Rect.unit (s := S128) ![98] S1.size inb_S128_S1_98).toLoadRect (harg2.unread x1) (Shape.Idx.first (numel1_S1.symm ▸ Nat.one_pos)))) (k0_hw199 : k0_chk199 (arg1.view.readAt (Elt F) (Rect.unit (s := S128) ![99] S1.size inb_S128_S1_99).toLoadRect (harg1.unread x0) (Shape.Idx.first (numel1_S1.symm ▸ Nat.one_pos)))) (k0_hw200 : k0_chk200 (arg2.view.readAt (Elt F) (Rect.unit (s := S128) ![99] S1.size inb_S128_S1_99).toLoadRect (harg2.unread x1) (Shape.Idx.first (numel1_S1.symm ▸ Nat.one_pos)))) (k0_hw201 : k0_chk201 (arg1.view.readAt (Elt F) (Rect.unit (s := S128) ![100] S1.size inb_S128_S1_100).toLoadRect (harg1.unread x0) (Shape.Idx.first (numel1_S1.symm ▸ Nat.one_pos)))) (k0_hw202 : k0_chk202 (arg2.view.readAt (Elt F) (Rect.unit (s := S128) ![100] S1.size inb_S128_S1_100).toLoadRect (harg2.unread x1) (Shape.Idx.first (numel1_S1.symm ▸ Nat.one_pos)))) (k0_hw203 : k0_chk203 (arg1.view.readAt (Elt F) (Rect.unit (s := S128) ![101] S1.size inb_S128_S1_101).toLoadRect (harg1.unread x0) (Shape.Idx.first (numel1_S1.symm ▸ Nat.one_pos)))) (k0_hw204 : k0_chk204 (arg2.view.readAt (Elt F) (Rect.unit (s := S128) ![101] S1.size inb_S128_S1_101).toLoadRect (harg2.unread x1) (Shape.Idx.first (numel1_S1.symm ▸ Nat.one_pos)))) (k0_hw205 : k0_chk205 (arg1.view.readAt (Elt F) (Rect.unit (s := S128) ![102] S1.size inb_S128_S1_102).toLoadRect (harg1.unread x0) (Shape.Idx.first (numel1_S1.symm ▸ Nat.one_pos)))) (k0_hw206 : k0_chk206 (arg2.view.readAt (Elt F) (Rect.unit (s := S128) ![102] S1.size inb_S128_S1_102).toLoadRect (harg2.unread x1) (Shape.Idx.first (numel1_S1.symm ▸ Nat.one_pos)))) (k0_hw207 : k0_chk207 (arg1.view.readAt (Elt F) (Rect.unit (s := S128) ![103] S1.size inb_S128_S1_103).toLoadRect (harg1.unread x0) (Shape.Idx.first (numel1_S1.symm ▸ Nat.one_pos)))) (k0_hw208 : k0_chk208 (arg2.view.readAt (Elt F) (Rect.unit (s := S128) ![103] S1.size inb_S128_S1_103).toLoadRect (harg2.unread x1) (Shape.Idx.first (numel1_S1.symm ▸ Nat.one_pos)))) (k0_hw209 : k0_chk209 (arg1.view.readAt (Elt F) (Rect.unit (s := S128) ![104] S1.size inb_S128_S1_104).toLoadRect (harg1.unread x0) (Shape.Idx.first (numel1_S1.symm ▸ Nat.one_pos)))) (k0_hw210 : k0_chk210 (arg2.view.readAt (Elt F) (Rect.unit (s := S128) ![104] S1.size inb_S128_S1_104).toLoadRect (harg2.unread x1) (Shape.Idx.first (numel1_S1.symm ▸ Nat.one_pos)))) (k0_hw211 : k0_chk211 (arg1.view.readAt (Elt F) (Rect.unit (s := S128) ![105] S1.size inb_S128_S1_105).toLoadRect (harg1.unread x0) (Shape.Idx.first (numel1_S1.symm ▸ Nat.one_pos)))) (k0_hw212 : k0_chk212 (arg2.view.readAt (Elt F) (Rect.unit (s := S128) ![105] S1.size inb_S128_S1_105).toLoadRect (harg2.unread x1) (Shape.Idx.first (numel1_S1.symm ▸ Nat.one_pos)))) (k0_hw213 : k0_chk213 (arg1.view.readAt (Elt F) (Rect.unit (s := S128) ![106] S1.size inb_S128_S1_106).toLoadRect (harg1.unread x0) (Shape.Idx.first (numel1_S1.symm ▸ Nat.one_pos)))) (k0_hw214 : k0_chk214 (arg2.view.readAt (Elt F) (Rect.unit (s := S128) ![106] S1.size inb_S128_S1_106).toLoadRect (harg2.unread x1) (Shape.Idx.first (numel1_S1.symm ▸ Nat.one_pos)))) (k0_hw215 : k0_chk215 (arg1.view.readAt (Elt F) (Rect.unit (s := S128) ![107] S1.size inb_S128_S1_107).toLoadRect (harg1.unread x0) (Shape.Idx.first (numel1_S1.symm ▸ Nat.one_pos)))) (k0_hw216 : k0_chk216 (arg2.view.readAt (Elt F) (Rect.unit (s := S128) ![107] S1.size inb_S128_S1_107).toLoadRect (harg2.unread x1) (Shape.Idx.first (numel1_S1.symm ▸ Nat.one_pos)))) (k0_hw217 : k0_chk217 (arg1.view.readAt (Elt F) (Rect.unit (s := S128) ![108] S1.size inb_S128_S1_108).toLoadRect (harg1.unread x0) (Shape.Idx.first (numel1_S1.symm ▸ Nat.one_pos)))) (k0_hw218 : k0_chk218 (arg2.view.readAt (Elt F) (Rect.unit (s := S128) ![108] S1.size inb_S128_S1_108).toLoadRect (harg2.unread x1) (Shape.Idx.first (numel1_S1.symm ▸ Nat.one_pos)))) (k0_hw219 : k0_chk219 (arg1.view.readAt (Elt F) (Rect.unit (s := S128) ![109] S1.size inb_S128_S1_109).toLoadRect (harg1.unread x0) (Shape.Idx.first (numel1_S1.symm ▸ Nat.one_pos)))) (k0_hw220 : k0_chk220 (arg2.view.readAt (Elt F) (Rect.unit (s := S128) ![109] S1.size inb_S128_S1_109).toLoadRect (harg2.unread x1) (Shape.Idx.first (numel1_S1.symm ▸ Nat.one_pos)))) (k0_hw221 : k0_chk221 (arg1.view.readAt (Elt F) (Rect.unit (s := S128) ![110] S1.size inb_S128_S1_110).toLoadRect (harg1.unread x0) (Shape.Idx.first (numel1_S1.symm ▸ Nat.one_pos)))) (k0_hw222 : k0_chk222 (arg2.view.readAt (Elt F) (Rect.unit (s := S128) ![110] S1.size inb_S128_S1_110).toLoadRect (harg2.unread x1) (Shape.Idx.first (numel1_S1.symm ▸ Nat.one_pos)))) (k0_hw223 : k0_chk223 (arg1.view.readAt (Elt F) (Rect.unit (s := S128) ![111] S1.size inb_S128_S1_111).toLoadRect (harg1.unread x0) (Shape.Idx.first (numel1_S1.symm ▸ Nat.one_pos)))) (k0_hw224 : k0_chk224 (arg2.view.readAt (Elt F) (Rect.unit (s := S128) ![111] S1.size inb_S128_S1_111).toLoadRect (harg2.unread x1) (Shape.Idx.first (numel1_S1.symm ▸ Nat.one_pos)))) (k0_hw225 : k0_chk225 (arg1.view.readAt (Elt F) (Rect.unit (s := S128) ![112] S1.size inb_S128_S1_112).toLoadRect (harg1.unread x0) (Shape.Idx.first (numel1_S1.symm ▸ Nat.one_pos)))) (k0_hw226 : k0_chk226 (arg2.view.readAt (Elt F) (Rect.unit (s := S128) ![112] S1.size inb_S128_S1_112).toLoadRect (harg2.unread x1) (Shape.Idx.first (numel1_S1.symm ▸ Nat.one_pos)))) (k0_hw227 : k0_chk227 (arg1.view.readAt (Elt F) (Rect.unit (s := S128) ![113] S1.size inb_S128_S1_113).toLoadRect (harg1.unread x0) (Shape.Idx.first (numel1_S1.symm ▸ Nat.one_pos)))) (k0_hw228 : k0_chk228 (arg2.view.readAt (Elt F) (Rect.unit (s := S128) ![113] S1.size inb_S128_S1_113).toLoadRect (harg2.unread x1) (Shape.Idx.first (numel1_S1.symm ▸ Nat.one_pos)))) (k0_hw229 : k0_chk229 (arg1.view.readAt (Elt F) (Rect.unit (s := S128) ![114] S1.size inb_S128_S1_114).toLoadRect (harg1.unread x0) (Shape.Idx.first (numel1_S1.symm ▸ Nat.one_pos)))) (k0_hw230 : k0_chk230 (arg2.view.readAt (Elt F) (Rect.unit (s := S128) ![114] S1.size inb_S128_S1_114).toLoadRect (harg2.unread x1) (Shape.Idx.first (numel1_S1.symm ▸ Nat.one_pos)))) (k0_hw231 : k0_chk231 (arg1.view.readAt (Elt F) (Rect.unit (s := S128) ![115] S1.size inb_S128_S1_115).toLoadRect (harg1.unread x0) (Shape.Idx.first (numel1_S1.symm ▸ Nat.one_pos)))) (k0_hw232 : k0_chk232 (arg2.view.readAt (Elt F) (Rect.unit (s := S128) ![115] S1.size inb_S128_S1_115).toLoadRect (harg2.unread x1) (Shape.Idx.first (numel1_S1.symm ▸ Nat.one_pos)))) (k0_hw233 : k0_chk233 (arg1.view.readAt (Elt F) (Rect.unit (s := S128) ![116] S1.size inb_S128_S1_116).toLoadRect (harg1.unread x0) (Shape.Idx.first (numel1_S1.symm ▸ Nat.one_pos)))) (k0_hw234 : k0_chk234 (arg2.view.readAt (Elt F) (Rect.unit (s := S128) ![116] S1.size inb_S128_S1_116).toLoadRect (harg2.unread x1) (Shape.Idx.first (numel1_S1.symm ▸ Nat.one_pos)))) (k0_hw235 : k0_chk235 (arg1.view.readAt (Elt F) (Rect.unit (s := S128) ![117] S1.size inb_S128_S1_117).toLoadRect (harg1.unread x0) (Shape.Idx.first (numel1_S1.symm ▸ Nat.one_pos)))) (k0_hw236 : k0_chk236 (arg2.view.readAt (Elt F) (Rect.unit (s := S128) ![117] S1.size inb_S128_S1_117).toLoadRect (harg2.unread x1) (Shape.Idx.first (numel1_S1.symm ▸ Nat.one_pos)))) (k0_hw237 : k0_chk237 (arg1.view.readAt (Elt F) (Rect.unit (s := S128) ![118] S1.size inb_S128_S1_118).toLoadRect (harg1.unread x0) (Shape.Idx.first (numel1_S1.symm ▸ Nat.one_pos)))) (k0_hw238 : k0_chk238 (arg2.view.readAt (Elt F) (Rect.unit (s := S128) ![118] S1.size inb_S128_S1_118).toLoadRect (harg2.unread x1) (Shape.Idx.first (numel1_S1.symm ▸ Nat.one_pos)))) (k0_hw239 : k0_chk239 (arg1.view.readAt (Elt F) (Rect.unit (s := S128) ![119] S1.size inb_S128_S1_119).toLoadRect (harg1.unread x0) (Shape.Idx.first (numel1_S1.symm ▸ Nat.one_pos)))) (k0_hw240 : k0_chk240 (arg2.view.readAt (Elt F) (Rect.unit (s := S128) ![119] S1.size inb_S128_S1_119).toLoadRect (harg2.unread x1) (Shape.Idx.first (numel1_S1.symm ▸ Nat.one_pos)))) (k0_hw241 : k0_chk241 (arg1.view.readAt (Elt F) (Rect.unit (s := S128) ![120] S1.size inb_S128_S1_120).toLoadRect (harg1.unread x0) (Shape.Idx.first (numel1_S1.symm ▸ Nat.one_pos)))) (k0_hw242 : k0_chk242 (arg2.view.readAt (Elt F) (Rect.unit (s := S128) ![120] S1.size inb_S128_S1_120).toLoadRect (harg2.unread x1) (Shape.Idx.first (numel1_S1.symm ▸ Nat.one_pos)))) (k0_hw243 : k0_chk243 (arg1.view.readAt (Elt F) (Rect.unit (s := S128) ![121] S1.size inb_S128_S1_121).toLoadRect (harg1.unread x0) (Shape.Idx.first (numel1_S1.symm ▸ Nat.one_pos)))) (k0_hw244 : k0_chk244 (arg2.view.readAt (Elt F) (Rect.unit (s := S128) ![121] S1.size inb_S128_S1_121).toLoadRect (harg2.unread x1) (Shape.Idx.first (numel1_S1.symm ▸ Nat.one_pos)))) (k0_hw245 : k0_chk245 (arg1.view.readAt (Elt F) (Rect.unit (s := S128) ![122] S1.size inb_S128_S1_122).toLoadRect (harg1.unread x0) (Shape.Idx.first (numel1_S1.symm ▸ Nat.one_pos)))) (k0_hw246 : k0_chk246 (arg2.view.readAt (Elt F) (Rect.unit (s := S128) ![122] S1.size inb_S128_S1_122).toLoadRect (harg2.unread x1) (Shape.Idx.first (numel1_S1.symm ▸ Nat.one_pos)))) (k0_hw247 : k0_chk247 (arg1.view.readAt (Elt F) (Rect.unit (s := S128) ![123] S1.size inb_S128_S1_123).toLoadRect (harg1.unread x0) (Shape.Idx.first (numel1_S1.symm ▸ Nat.one_pos)))) (k0_hw248 : k0_chk248 (arg2.view.readAt (Elt F) (Rect.unit (s := S128) ![123] S1.size inb_S128_S1_123).toLoadRect (harg2.unread x1) (Shape.Idx.first (numel1_S1.symm ▸ Nat.one_pos)))) (k0_hw249 : k0_chk249 (arg1.view.readAt (Elt F) (Rect.unit (s := S128) ![124] S1.size inb_S128_S1_124).toLoadRect (harg1.unread x0) (Shape.Idx.first (numel1_S1.symm ▸ Nat.one_pos)))) (k0_hw250 : k0_chk250 (arg2.view.readAt (Elt F) (Rect.unit (s := S128) ![124] S1.size inb_S128_S1_124).toLoadRect (harg2.unread x1) (Shape.Idx.first (numel1_S1.symm ▸ Nat.one_pos)))) (k0_hw251 : k0_chk251 (arg1.view.readAt (Elt F) (Rect.unit (s := S128) ![125] S1.size inb_S128_S1_125).toLoadRect (harg1.unread x0) (Shape.Idx.first (numel1_S1.symm ▸ Nat.one_pos)))) (k0_hw252 : k0_chk252 (arg2.view.readAt (Elt F) (Rect.unit (s := S128) ![125] S1.size inb_S128_S1_125).toLoadRect (harg2.unread x1) (Shape.Idx.first (numel1_S1.symm ▸ Nat.one_pos)))) (k0_hw253 : k0_chk253 (arg1.view.readAt (Elt F) (Rect.unit (s := S128) ![126] S1.size inb_S128_S1_126).toLoadRect (harg1.unread x0) (Shape.Idx.first (numel1_S1.symm ▸ Nat.one_pos)))) (k0_hw254 : k0_chk254 (arg2.view.readAt (Elt F) (Rect.unit (s := S128) ![126] S1.size inb_S128_S1_126).toLoadRect (harg2.unread x1) (Shape.Idx.first (numel1_S1.symm ▸ Nat.one_pos)))) (k0_hw255 : k0_chk255 (arg1.view.readAt (Elt F) (Rect.unit (s := S128) ![127] S1.size inb_S128_S1_127).toLoadRect (harg1.unread x0) (Shape.Idx.first (numel1_S1.symm ▸ Nat.one_pos)))) (k0_hw256 : k0_chk256 (arg2.view.readAt (Elt F) (Rect.unit (s := S128) ![127] S1.size inb_S128_S1_127).toLoadRect (harg2.unread x1) (Shape.Idx.first (numel1_S1.symm ▸ Nat.one_pos)))) :
    VO0_4.read (Elt F) (VO0_4.writes (Elt F) VO0_4.junk (kernelRun0_A c i arg1 harg1 arg2 harg2 arg4 harg4 arg5 harg5 arg6 harg6 arg7 harg7 arg8 harg8 x0 x1 x2 x3 d7 d8 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72 k0_hw73 k0_hw74 k0_hw75 k0_hw76 k0_hw77 k0_hw78 k0_hw79 k0_hw80 k0_hw81 k0_hw82 k0_hw83 k0_hw84 k0_hw85 k0_hw86 k0_hw87 k0_hw88 k0_hw89 k0_hw90 k0_hw91 k0_hw92 k0_hw93 k0_hw94 k0_hw95 k0_hw96 k0_hw97 k0_hw98 k0_hw99 k0_hw100 k0_hw101 k0_hw102 k0_hw103 k0_hw104 k0_hw105 k0_hw106 k0_hw107 k0_hw108 k0_hw109 k0_hw110 k0_hw111 k0_hw112 k0_hw113 k0_hw114 k0_hw115 k0_hw116 k0_hw117 k0_hw118 k0_hw119 k0_hw120 k0_hw121 k0_hw122 k0_hw123 k0_hw124 k0_hw125 k0_hw126 k0_hw127 k0_hw128 k0_hw129 k0_hw130 k0_hw131 k0_hw132 k0_hw133 k0_hw134 k0_hw135 k0_hw136 k0_hw137 k0_hw138 k0_hw139 k0_hw140 k0_hw141 k0_hw142 k0_hw143 k0_hw144 k0_hw145 k0_hw146 k0_hw147 k0_hw148 k0_hw149 k0_hw150 k0_hw151 k0_hw152 k0_hw153 k0_hw154 k0_hw155 k0_hw156 k0_hw157 k0_hw158 k0_hw159 k0_hw160 k0_hw161 k0_hw162 k0_hw163 k0_hw164 k0_hw165 k0_hw166 k0_hw167 k0_hw168 k0_hw169 k0_hw170 k0_hw171 k0_hw172 k0_hw173 k0_hw174 k0_hw175 k0_hw176 k0_hw177 k0_hw178 k0_hw179 k0_hw180 k0_hw181 k0_hw182 k0_hw183 k0_hw184 k0_hw185 k0_hw186 k0_hw187 k0_hw188 k0_hw189 k0_hw190 k0_hw191 k0_hw192 k0_hw193 k0_hw194 k0_hw195 k0_hw196 k0_hw197 k0_hw198 k0_hw199 k0_hw200 k0_hw201 k0_hw202 k0_hw203 k0_hw204 k0_hw205 k0_hw206 k0_hw207 k0_hw208 k0_hw209 k0_hw210 k0_hw211 k0_hw212 k0_hw213 k0_hw214 k0_hw215 k0_hw216 k0_hw217 k0_hw218 k0_hw219 k0_hw220 k0_hw221 k0_hw222 k0_hw223 k0_hw224 k0_hw225 k0_hw226 k0_hw227 k0_hw228 k0_hw229 k0_hw230 k0_hw231 k0_hw232 k0_hw233 k0_hw234 k0_hw235 k0_hw236 k0_hw237 k0_hw238 k0_hw239 k0_hw240 k0_hw241 k0_hw242 k0_hw243 k0_hw244 k0_hw245 k0_hw246 k0_hw247 k0_hw248 k0_hw249 k0_hw250 k0_hw251 k0_hw252 k0_hw253 k0_hw254 k0_hw255 k0_hw256).1)
      = closedOut c fh0 x0 x1 x2 x3 := by
  -- the run's pieces are ONE store of the whole output block: what they leave is that store's payload
  rw [View.read_writes_junk_eq_canon]
  unfold kernelRun0_A
  dsimp only
  rw [View.canon_unit_zero zeroOff1]
  unfold closedOut
  unfold kernelRun0_A.sl.r_256 kernelRun0_A.sl.r_257
  -- the weight row and the bias are loaded whole from buffers that hold them
  have e3 : View.readAt (Elt F) arg4.view (Rect.unit ![0, 0] S1x128.size inb_S1x128_S1x128_0_0).toLoadRect (harg4.unread x2) = x2 := by
    simp only [View.readAt_eq_ld, harg4.read_unread, View.ld_unit_zero (S := S1x128) zeroOff2]
  have e4 : View.readAt (Elt F) arg5.view (Rect.unit ![0] ![1] inb_S1_S1_0).toLoadRect (harg5.unread x3) = x3 := by
    simp only [View.readAt_eq_ld, harg5.read_unread]
    exact View.ld_unit_zero (S := S1) zeroOff1 _ _
  rw [e3, e4]
  congr 2
  · -- the block is read back through its 128 row writes, last first: row k reads the row delivered into it, which is the
    -- table's row named by word k of the index block; the rows below k are what the earlier writes left
    unfold kernelRun0_A.sl.v
    rw [View.readAt_eq_ld, View.ld_unit_zero (S := S128x128) zeroOff2]
    refine (rows_all c arg7 (fun j d => fh0 (ix2 (Cert.EdgeScore.rowOf (x0 (ix1 j))) d)) _ ?_).trans rfl
    repeat' (first | exact rows_zero _ _ _ _ | refine rows_step c arg7 _ _ (by omega) _ _ _ ?_ (fun d => ?_))
    all_goals (
      sl_unfold_words
      refine (srcRow_read_word c _ _ fh0 d).trans ?_
      rw [View.readAt_apply, Memref.IsWhole.read_unread]
      refine congrArg (fun i => fh0 (ix2 (Cert.EdgeScore.rowOf (x0 i)) d)) (funext fun a => Fin.ext ?_)
      fin_cases a
      rfl)
  · -- the block is read back through its 128 row writes, last first: row k reads the row delivered into it, which is the
    -- table's row named by word k of the index block; the rows below k are what the earlier writes left
    unfold kernelRun0_A.sl.v3329
    rw [View.readAt_eq_ld, View.ld_unit_zero (S := S128x128) zeroOff2]
    refine (rows_all c arg8 (fun j d => fh0 (ix2 (Cert.EdgeScore.rowOf (x1 (ix1 j))) d)) _ ?_).trans rfl
    repeat' (first | exact rows_zero _ _ _ _ | refine rows_step c arg8 _ _ (by omega) _ _ _ ?_ (fun d => ?_))
    all_goals (
      sl_unfold_words
      refine (srcRow_read_word c _ _ fh0 d).trans ?_
      rw [View.readAt_apply, Memref.IsWhole.read_unread]
      refine congrArg (fun i => fh0 (ix2 (Cert.EdgeScore.rowOf (x1 i)) d)) (funext fun a => Fin.ext ?_)
      fin_cases a
      rfl)

end Cert.KernelIdeal.Out

end
-- ==== Proof.KernelIdealHyps.lean ====
/-
  The side conditions the kernel body assumes of the endpoint words it reads, from the certificate's precondition.
  At each grid point the body reads 128 row-endpoint words and 128 column-endpoint words out of its two index
  windows and, before copying a table row, assumes that the word names a row of the [100000, 128] table: word < 100000
  unsigned. The windows are blocks of the two index arrays padded with 64 zero words to length 600064. The
  precondition says 0 ≤ word < 100000 (signed) of every word of the unpadded arrays; a padding word is 0. So every
  word of either padded array is below 100000 unsigned, hence so is every word of every block of it, hence so is
  every word the body reads.
-/
import proofs.«430914_j61323543052777_1_alg».proof.Defs
import proofs.«430914_j61323543052777_1_alg».proof.Proof.Gen.KernelIdeal.Frame.Runs
import proofs.«430914_j61323543052777_1_alg».proof.Proof.Gen.Pre_finite_inputs
import proofs.«430914_j61323543052777_1_alg».proof.Proof.Words
import Idealize.ShloMosaic.Lib.ReduceAll
import Idealize.ShloMosaic.Lib.KernelVsHost
import Idealize.ShloMosaic.Lib.Pipeline.Value
import Idealize.ShloMosaic.Lib.StableHlo.Run

set_option maxRecDepth 16384

noncomputable section

namespace Cert.KernelIdeal.HypsOfPre

open Cert.KernelIdeal Cert.KernelIdeal.Gen
open Idealize.ShloMosaic Idealize.ShloMosaic.TcCoe Idealize.SL.Sem

section AnyFloatFamily

variable {F : FTy → Type} [FloatOps F]

/-! ## The precondition decoded -/

/-- A shape of rank 0 has one index. -/
instance : Subsingleton Cert.Pre_finite_inputs.S_.Idx := ⟨fun a b => funext fun d => d.elim0⟩

/-- The precondition is a conjunction of seven "all" reductions; its last four say that every row-endpoint word and
    every column-endpoint word is ≥ 0 and < 100000 as a signed number, so each is below 100000 unsigned. The float
    conjuncts are not used, and the integer ones do not depend on the float family. -/
theorem pre_words (a0 : FVec F Cert.Pre_finite_inputs.S100000x128 .f32) (a1 a2 : IVec Cert.Pre_finite_inputs.S600000 32)
    (a3 : FVec F Cert.Pre_finite_inputs.S128x1 .f32) (a4 : FVec F Cert.Pre_finite_inputs.S1 .f32)
    (h : Cert.Pre_finite_inputs.fn (F := F) a0 a1 a2 a3 a4 = fun _ => 1#1) (i : Cert.Pre_finite_inputs.S600000.Idx) :
    (a1 i).toNat < 100000 ∧ (a2 i).toNat < 100000 := by
  have e := congrFun h ValueIdx.ix0
  unfold Cert.Pre_finite_inputs.fn Cert.Pre_finite_inputs.fn_part1 at e
  dsimp only at e
  -- the conjunction of two one-bit vectors at an index is the conjunction of their entries
  have hv : ∀ (x y : IVec Cert.Pre_finite_inputs.S_ 1) j, andi x y j = IntOp.andi (x j) (y j) := fun _ _ _ => rfl
  simp only [hv, IntOp.andi_eq_one] at e
  obtain ⟨⟨⟨⟨-, r0⟩, r1⟩, c0⟩, c1⟩ := e
  -- an "all" that is 1 had a 1 at every index; the comparison against a broadcast scalar at an index is the
  -- comparison of the entry against the scalar
  have r0' := Host.reduce_andi_all _ _ _ _ _ r0 i
  have r1' := Host.reduce_andi_all _ _ _ _ _ r1 i
  have c0' := Host.reduce_andi_all _ _ _ _ _ c0 i
  have c1' := Host.reduce_andi_all _ _ _ _ _ c1 i
  exact ⟨Cert.Words.toNat_lt_of_signed_range _ 100000 (by decide) r0' r1',
    Cert.Words.toNat_lt_of_signed_range _ 100000 (by decide) c0' c1'⟩

/-! ## The padded index arrays -/

/-- A [600000] array of words below 100000, padded with 64 zero words at its end, is a [600064] array of words
    below 100000: an index below 600000 reads the operand, any other reads the padding word 0. -/
theorem padded_lt (x : S600000.Idx → BitVec 32) (hx : ∀ i, (x i).toNat < 100000) (j : S600064.Idx) :
    (pad S600064 ![0] ![64] ![0] x (constantI S_ 32 0#32) pads_S600000_S600064_0640 h_S_ j).toNat < 100000 := by
  by_cases hj : (j 0).val < 600000
  · have hk : ∀ a : Fin S600000.rank, (j 0).val < S600000.size a := fun a => by
      have e : S600000.size a = 600000 := by fin_cases a; rfl
      omega
    rw [pad_apply_of_inside ![0] ![64] ![0] x _ pads_S600000_S600064_0640 h_S_ j (fun a => ⟨(j 0).val, hk a⟩)
      (fun a => by fin_cases a; show (j 0).val = 0 + (j 0).val * (0 + 1); omega)]
    exact hx _
  · rw [pad_apply_of_not_inside ![0] ![64] ![0] x _ pads_S600000_S600064_0640 h_S_ j 0 (by
      show ¬(0 ≤ (j 0).val ∧ ((j 0).val - 0) % (0 + 1) = 0 ∧ ((j 0).val - 0) / (0 + 1) < 600000)
      intro h; apply hj; have h3 := h.2.2
      simp only [Nat.sub_zero, Nat.zero_add, Nat.div_one] at h3; exact h3)]
    show (0#32 : BitVec 32).toNat < 100000
    decide

variable (m : (ℓ : Loc nD τ sig) → Buf (Elt F) ℓ)

/-- The first index array as the region finds it: the launch memory's row-endpoint array, padded. -/
theorem V_v0 (c : Dev nD) : (V m c main_v0 : S600064.Idx → BitVec 32)
    = pad S600064 ![0] ![64] ![0] (m ((c : Thread nD τ).loc main_arg1)) (constantI S_ 32 0#32) pads_S600000_S600064_0640 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The second index array as the region finds it: the launch memory's column-endpoint array, padded. -/
theorem V_v1 (c : Dev nD) : (V m c main_v1 : S600064.Idx → BitVec 32)
    = pad S600064 ![0] ![64] ![0] (m ((c : Thread nD τ).loc main_arg2)) (constantI S_ 32 0#32) pads_S600000_S600064_0640 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-! ## The words the body reads -/

/-- An element of a block of window 0 is an element of its array (the block's view reads the array at the
    element's place in it): a bound on every word of the array bounds every word of every block. -/
theorem blk0_lt (c : Dev nD) (t : Fin cfg0.N) (hV : ∀ j : S600064.Idx, ((V m c main_v0 : S600064.Idx → BitVec 32) j).toNat < 100000)
    (y : S128.Idx) : ((iblk m c 0 t : S128.Idx → BitVec 32) y).toNat < 100000 := by
  unfold iblk
  rw [View.read_apply]
  exact hV _

/-- The same of window 1. -/
theorem blk1_lt (c : Dev nD) (t : Fin cfg0.N) (hV : ∀ j : S600064.Idx, ((V m c main_v1 : S600064.Idx → BitVec 32) j).toNat < 100000)
    (y : S128.Idx) : ((iblk m c 1 t : S128.Idx → BitVec 32) y).toNat < 100000 := by
  unfold iblk
  rw [View.read_apply]
  exact hV _

/-- The word the body loads at any offset of window 0's staging buffer, held at the block's contents, is a word of
    the block: the load reads the buffer's contents at the rectangle's index, and a whole buffer holding contents
    that read X reads X. -/
theorem word_r (c : Dev nD) (t : Fin cfg0.N) (hV : ∀ j : S600064.Idx, ((V m c main_v0 : S600064.Idx → BitVec 32) j).toNat < 100000)
    (off : Fin 1 → Nat) (inb : ∀ a, off a + S1.size a ≤ S128.size a) (h1 : 0 < S1.numel) :
    ((ms0_0 t).view.readAt (Elt F) (Rect.unit (s := S128) off S1.size inb).toLoadRect ((hs0_0 t).unread (iblk m c 0 t)) (Shape.Idx.first h1)).toNat < 100000 := by
  rw [View.readAt_apply, Memref.IsWhole.read_unread]
  exact blk0_lt m c t hV _

/-- The same of window 1. -/
theorem word_c (c : Dev nD) (t : Fin cfg0.N) (hV : ∀ j : S600064.Idx, ((V m c main_v1 : S600064.Idx → BitVec 32) j).toNat < 100000)
    (off : Fin 1 → Nat) (inb : ∀ a, off a + S1.size a ≤ S128.size a) (h1 : 0 < S1.numel) :
    ((ms0_1 t).view.readAt (Elt F) (Rect.unit (s := S128) off S1.size inb).toLoadRect ((hs0_1 t).unread (iblk m c 1 t)) (Shape.Idx.first h1)).toNat < 100000 := by
  rw [View.readAt_apply, Memref.IsWhole.read_unread]
  exact blk1_lt m c t hV _

/-- The check the body assumes of a word w holds when w < 100000: row w, all 128 columns of it, lies inside the
    [100000, 128] table. -/
theorem chk (w : BitVec 32) (hw : w.toNat < 100000) : ∀ a, (![w.toNat, 0] : Fin 2 → Nat) a + S1x128.size a ≤ S100000x128.size a := by
  intro a
  fin_cases a
  · show w.toNat + 1 ≤ 100000
    omega
  · show 0 + 128 ≤ 128
    omega

/-- Every word of either padded index array, as the region finds it, is below 100000 when every word of the launch
    memory's two endpoint arrays is. -/
theorem V_lt (c : Dev nD) (h1 : ∀ i : S600000.Idx, (m ((c : Thread nD τ).loc main_arg1) i).toNat < 100000)
    (h2 : ∀ i : S600000.Idx, (m ((c : Thread nD τ).loc main_arg2) i).toNat < 100000) :
    (∀ j : S600064.Idx, ((V m c main_v0 : S600064.Idx → BitVec 32) j).toNat < 100000)
    ∧ (∀ j : S600064.Idx, ((V m c main_v1 : S600064.Idx → BitVec 32) j).toNat < 100000) := by
  constructor
  · intro j; rw [V_v0]; exact padded_lt _ h1 j
  · intro j; rw [V_v1]; exact padded_lt _ h2 j

/-- THE SIDE CONDITIONS from bounds on the launch memory's endpoint words, at any float family: each of the 256
    conjuncts is the check at a word the body reads from window 0 (odd checks) or window 1 (even checks). -/
theorem hyps_of_words (h1 : ∀ (c : Dev nD) (i : S600000.Idx), (m ((c : Thread nD τ).loc main_arg1) i).toNat < 100000)
    (h2 : ∀ (c : Dev nD) (i : S600000.Idx), (m ((c : Thread nD τ).loc main_arg2) i).toNat < 100000) : Hyps m := by
  intro c t
  obtain ⟨hr, hc⟩ := V_lt m c (h1 c) (h2 c)
  repeat (refine ⟨chk _ (word_r m c t hr _ _ _), chk _ (word_c m c t hc _ _ _), ?_⟩)
  exact ⟨chk _ (word_r m c t hr _ _ _), chk _ (word_c m c t hc _ _ _)⟩

end AnyFloatFamily

/-! ## At the certificate's instance -/

/-- every endpoint word of the launch memory names a row of the table -/
theorem words_lt (m : (ℓ : Loc Cert.KernelIdeal.nD Cert.KernelIdeal.τ Cert.KernelIdeal.sig) → Buf (Elt Ideal) ℓ) (h : Cert.Pre_KernelIdeal m) (c : Dev Cert.KernelIdeal.nD) :
    (∀ i : Cert.KernelIdeal.S600000.Idx, (m ((c.tc : Thread Cert.KernelIdeal.nD Cert.KernelIdeal.τ).loc Cert.KernelIdeal.main_arg1) i).toNat < 100000)
    ∧ (∀ i : Cert.KernelIdeal.S600000.Idx, (m ((c.tc : Thread Cert.KernelIdeal.nD Cert.KernelIdeal.τ).loc Cert.KernelIdeal.main_arg2) i).toNat < 100000) :=
  ⟨fun i => (pre_words _ _ _ _ _ (h c) i).1, fun i => (pre_words _ _ _ _ _ (h c) i).2⟩

/-- The side conditions the body assumes hold of any launch memory the precondition holds of. -/
theorem hyps_of_pre (m : (ℓ : Loc Cert.KernelIdeal.nD Cert.KernelIdeal.τ Cert.KernelIdeal.sig) → Buf (Elt Ideal) ℓ) (h : Cert.Pre_KernelIdeal m) : Cert.KernelIdeal.Gen.Hyps m :=
  hyps_of_words m (fun c => (words_lt m h c).1) (fun c => (words_lt m h c).2)

end Cert.KernelIdeal.HypsOfPre

end
-- ==== Proof.KernelIdealBlocks.lean ====
/-
  The kernel side's bookkeeping, for every float family.

  What the region finds in its windows' arrays: the two endpoint arrays padded with 64 zero words to 600064 (4688 blocks
  of 128), the weight column laid out as a row, the bias. Where a block's element sits in its array: block `t` of a
  padded endpoint array or of the output is the 128 entries from `128 * t`; the weight row and the bias are one block
  each. Which block covers an output index: block `i / 128`. And what the two host lines after the region make of the
  output array: its first 600000 entries as a column.
-/
import proofs.«430914_j61323543052777_1_alg».proof.Proof.Gen.KernelIdeal.Frame.Runs
import Idealize.ShloMosaic.Lib.Pipeline.Value
import Idealize.ShloMosaic.Lib.KernelVsHost
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F] (m : (ℓ : Loc nD τ sig) → Buf (Elt F) ℓ)

/-! ## The arrays as the region finds them -/

/-- The first endpoint array as the region finds it: the argument padded with 64 zero words at its end. -/
theorem V_v0 (c : Dev nD) : (V m c main_v0 : S600064.Idx → BitVec 32)
    = pad S600064 ![0] ![64] ![0] (m ((c : Thread nD τ).loc main_arg1)) (constantI S_ 32 0#32) pads_S600000_S600064_0640 h_S_ := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The second endpoint array as the region finds it: the argument padded with 64 zero words at its end. -/
theorem V_v1 (c : Dev nD) : (V m c main_v1 : S600064.Idx → BitVec 32)
    = pad S600064 ![0] ![64] ![0] (m ((c : Thread nD τ).loc main_arg2)) (constantI S_ 32 0#32) pads_S600000_S600064_0640 h_S_ := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The weights as the region finds them: the weight column laid out as a row. -/
theorem V_v2 (c : Dev nD) : V m c main_v2
    = shapeCast S1x128 (m ((c : Thread nD τ).loc main_arg3)) shapeCasts_S128x1_S1x128 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- An entry of the padded first endpoint array below 600000 is the argument's entry. -/
theorem padded0_lt (c : Dev nD) (i : Fin 600064) (h : i.val < 600000) :
    V m c main_v0 (ix1 i) = m ((c : Thread nD τ).loc main_arg1) (ix1 ⟨i.val, h⟩) := by
  rw [V_v0]
  exact pad_apply_of_inside ![0] ![64] ![0] _ _ pads_S600000_S600064_0640 h_S_ (ix1 i) (ix1 ⟨i.val, h⟩)
    (fun a => by match a with | ⟨0, _⟩ => show i.val = 0 + i.val * (0 + 1); omega)

/-- An entry of the padded first endpoint array from 600000 on is the zero word. -/
theorem padded0_ge (c : Dev nD) (i : Fin 600064) (h : 600000 ≤ i.val) : V m c main_v0 (ix1 i) = 0#32 := by
  rw [V_v0]
  exact pad_apply_of_not_inside (s := S600000) (t := S600064) ![0] ![64] ![0] _ _ pads_S600000_S600064_0640 h_S_ (ix1 i) (0 : Fin 1) (by
    show ¬(0 ≤ i.val ∧ (i.val - 0) % (0 + 1) = 0 ∧ (i.val - 0) / (0 + 1) < 600000)
    omega)

/-- An entry of the padded second endpoint array below 600000 is the argument's entry. -/
theorem padded1_lt (c : Dev nD) (i : Fin 600064) (h : i.val < 600000) :
    V m c main_v1 (ix1 i) = m ((c : Thread nD τ).loc main_arg2) (ix1 ⟨i.val, h⟩) := by
  rw [V_v1]
  exact pad_apply_of_inside ![0] ![64] ![0] _ _ pads_S600000_S600064_0640 h_S_ (ix1 i) (ix1 ⟨i.val, h⟩)
    (fun a => by match a with | ⟨0, _⟩ => show i.val = 0 + i.val * (0 + 1); omega)

/-- An entry of the padded second endpoint array from 600000 on is the zero word. -/
theorem padded1_ge (c : Dev nD) (i : Fin 600064) (h : 600000 ≤ i.val) : V m c main_v1 (ix1 i) = 0#32 := by
  rw [V_v1]
  exact pad_apply_of_not_inside (s := S600000) (t := S600064) ![0] ![64] ![0] _ _ pads_S600000_S600064_0640 h_S_ (ix1 i) (0 : Fin 1) (by
    show ¬(0 ≤ i.val ∧ (i.val - 0) % (0 + 1) = 0 ∧ (i.val - 0) / (0 + 1) < 600000)
    omega)

/-- Entry `d` of the weight row is entry `d` of the weight column. -/
theorem wrow (c : Dev nD) (d : Fin 128) :
    V m c main_v2 (ix2 (0 : Fin 1) d) = m ((c : Thread nD τ).loc main_arg3) (ix2 d (0 : Fin 1)) := by
  rw [V_v2]
  exact shapeCast_apply _ shapeCasts_S128x1_S1x128 (ix2 (0 : Fin 1) d) (ix2 d (0 : Fin 1)) (by
    rw [Shape.rowMajor_val_two, Shape.rowMajor_val_two]
    show d.val * 1 + 0 = 0 * 128 + d.val
    omega)

/-! ## Where a block's element sits -/

/-- A grid point is below 4688. -/
theorem point_lt (t : Fin cfg0.N) : t.val < 4688 := t.isLt.trans_eq N_0

/-- The printed index maps of the two endpoint windows and of the output window, decided over the grid: at point `t`
    each names block `t`. -/
theorem idx_facts : ∀ t : Fin cfg0.N, win0_0.index t (0 : Fin 1) = t.val ∧ win0_1.index t (0 : Fin 1) = t.val
    ∧ win0_4.index t (0 : Fin 1) = t.val :=
  (by decide +kernel : ∀ t : Fin grid0.N, win0_0.index t (0 : Fin 1) = t.val ∧ win0_1.index t (0 : Fin 1) = t.val
    ∧ win0_4.index t (0 : Fin 1) = t.val)

/-- Entry `j` of the first endpoint window's block at point `t` is entry `128 * t + j` of the padded array. -/
theorem iblk0 (c : Dev nD) (t : Fin cfg0.N) (j : Fin 128) :
    iblk m c 0 t (ix1 j)
      = V m c main_v0 (ix1 ⟨128 * t.val + j.val, by have := point_lt t; have := j.isLt; omega⟩) := by
  show (V m c main_v0 : S600064.Idx → BitVec 32) (((cfg0.win 0).blk t).view.emb (ix1 j)) = _
  refine congrArg (V m c main_v0 : S600064.Idx → BitVec 32) (funext fun a => Fin.ext ?_)
  match a with
  | ⟨0, _⟩ =>
    show win0_0.index t (0 : Fin 1) * 128 + 1 * j.val = 128 * t.val + j.val
    rw [(idx_facts t).1]; omega

/-- Entry `j` of the second endpoint window's block at point `t` is entry `128 * t + j` of the padded array. -/
theorem iblk1 (c : Dev nD) (t : Fin cfg0.N) (j : Fin 128) :
    iblk m c 1 t (ix1 j)
      = V m c main_v1 (ix1 ⟨128 * t.val + j.val, by have := point_lt t; have := j.isLt; omega⟩) := by
  show (V m c main_v1 : S600064.Idx → BitVec 32) (((cfg0.win 1).blk t).view.emb (ix1 j)) = _
  refine congrArg (V m c main_v1 : S600064.Idx → BitVec 32) (funext fun a => Fin.ext ?_)
  match a with
  | ⟨0, _⟩ =>
    show win0_1.index t (0 : Fin 1) * 128 + 1 * j.val = 128 * t.val + j.val
    rw [(idx_facts t).2.1]; omega

/-- The weight window's one block is the whole weight row. -/
theorem iblk2 (c : Dev nD) (t : Fin cfg0.N) : iblk m c 2 t = V m c main_v2 := by
  funext y
  show (V m c main_v2 : S1x128.Idx → Elt F .f32) (((cfg0.win 2).blk t).view.emb y) = _
  refine congrArg (V m c main_v2 : S1x128.Idx → Elt F .f32) (funext fun a => Fin.ext ?_)
  match a with
  | ⟨0, _⟩ =>
    show win0_2.index t (0 : Fin 2) * 1 + 1 * (y 0).val = (y 0).val
    have h : win0_2.index t (0 : Fin 2) = 0 := rfl
    rw [h]; omega
  | ⟨1, _⟩ =>
    show win0_2.index t (1 : Fin 2) * 128 + 1 * (y 1).val = (y 1).val
    have h : win0_2.index t (1 : Fin 2) = 0 := rfl
    rw [h]; omega

/-- The bias window's one block is the whole bias. -/
theorem iblk3 (c : Dev nD) (t : Fin cfg0.N) : iblk m c 3 t = V m c main_arg4 := by
  funext y
  show (V m c main_arg4 : S1.Idx → Elt F .f32) (((cfg0.win 3).blk t).view.emb y) = _
  refine congrArg (V m c main_arg4 : S1.Idx → Elt F .f32) (funext fun a => Fin.ext ?_)
  match a with
  | ⟨0, _⟩ =>
    show win0_3.index t (0 : Fin 1) * 1 + 1 * (y 0).val = (y 0).val
    have h : win0_3.index t (0 : Fin 1) = 0 := rfl
    rw [h]; omega

/-! ## Which block covers an output index -/

/-- Entry `y` of the output window's block at point `t` sits at entry `128 * t + y` of the output array. -/
theorem emb4 (t : Fin cfg0.N) (y : ((cfg0.win 4).xblock (cfg0.grid.coords t)).Idx) :
    (((cfg0.win 4).blk t).view.emb y 0).val = 128 * t.val + (y 0).val := by
  show win0_4.index t (0 : Fin 1) * 128 + 1 * (y 0).val = _
  rw [(idx_facts t).2.2]; omega

/-- An index of the output array is in point `t`'s block exactly when it is in the `t`-th run of 128 entries. -/
theorem mem_blk4 (t : Fin cfg0.N) (i : S600064.Idx) :
    i ∈ ((cfg0.win 4).blk t).view.set ↔ (i 0).val / 128 = t.val := by
  show i ∈ ((View.whole main_v3).slice (win0_4.rect t)).set ↔ _
  rw [View.set_slice_whole, Rect.mem_set_unit]
  constructor
  · intro h
    have b : win0_4.index t (0 : Fin 1) * 128 ≤ (i 0).val
        ∧ (i 0).val < win0_4.index t (0 : Fin 1) * 128 + 128 := h 0
    rw [(idx_facts t).2.2] at b
    omega
  · intro h a
    match a with
    | ⟨0, _⟩ =>
      show win0_4.index t (0 : Fin 1) * 128 ≤ (i 0).val ∧ (i 0).val < win0_4.index t (0 : Fin 1) * 128 + 128
      rw [(idx_facts t).2.2]; omega

/-- Every index of the output array is in the block of the point `i / 128`, which is written back. -/
theorem cover4 (i : S600064.Idx) :
    ∃ t : Fin cfg0.N, (cfg0.win 4).flush t = true ∧ i ∈ ((cfg0.win 4).blk t).view.set := by
  have hi : (i 0).val < 600064 := (i 0).isLt
  refine ⟨⟨(i 0).val / 128, lt_of_lt_of_eq (by omega : (i 0).val / 128 < 4688) N_0.symm⟩, flush0_4 _, ?_⟩
  rw [mem_blk4]

/-! ## What the host lines after the region make of the output array -/

/-- The result column after the two host lines that follow the region: the output array's first 600000 entries, laid
    out as a column. -/
theorem tail5_fn (dats : (p : Fin 1) → (c : Dev nD) → Dat τ (Elt F) Unit ℕ (Pipeline.UD sig nD τ) ℕ (cfgs p) c)
    (c : Dev nD) :
    (Pipeline.afterTail₀ cfgs dats 0 (V0 m) [hostOps1] c main_v5 : S600000x1.Idx → Elt F .f32)
      = shapeCast S600000x1 (extractStridedSlice S600000 ![0]
          ((dats 0 c).arrAt 4 cfg0.N : S600064.Idx → Elt F .f32) slices_S600064_S600000_0)
          shapeCasts_S600000_S600000x1 := by
  unfold Pipeline.afterTail₀
  show StableHlo.after hostOps1 _ (Proc.devRef .tc main_v5) = _
  after_results
  have e : Pipeline.withArrays (cfgs 0).spec c (V0 m c) (fun w => (dats 0 c).arrAt w (cfgs 0).N)
      (Proc.devRef .tc main_v3) = (dats 0 c).arrAt 4 cfg0.N :=
    Pipeline.withArrays_arr spec0 launch0.win.arr_inj c _ _ 4
  rw [e]
  rfl

/-- Entry `(e, 0)` of the result column is entry `e` of the output array after the run. -/
theorem tail5 (dats : (p : Fin 1) → (c : Dev nD) → Dat τ (Elt F) Unit ℕ (Pipeline.UD sig nD τ) ℕ (cfgs p) c)
    (c : Dev nD) (e : Fin 600000) :
    Pipeline.afterTail₀ cfgs dats 0 (V0 m) [hostOps1] c main_v5 (ix2 e (0 : Fin 1))
      = (dats 0 c).arrAt 4 cfg0.N (ix1 ⟨e.val, by omega⟩) := by
  show (Pipeline.afterTail₀ cfgs dats 0 (V0 m) [hostOps1] c main_v5 : S600000x1.Idx → Elt F .f32) (ix2 e (0 : Fin 1)) = _
  rw [tail5_fn]
  refine (shapeCast_apply _ shapeCasts_S600000_S600000x1 (ix2 e (0 : Fin 1)) (ix1 e) (by
    rw [Shape.rowMajor_val_two, Shape.rowMajor_val_one]
    show e.val = e.val * 1 + 0
    omega)).trans ?_
  exact extractStridedSlice_apply ![0] _ slices_S600064_S600000_0 (ix1 e) (ix1 ⟨e.val, by omega⟩)
    (fun a => by match a with | ⟨0, _⟩ => show e.val = 0 + e.val; omega)

end Cert.KernelIdeal.Blocks

end
-- ==== Proof.Payload.lean ====
/-
  The block the kernel stores, read at a lane.

  Of two [128,128] blocks R and C, a [1,128] weight row w and a one-entry bias b, the stored [128] block is, at lane e,

      (∑ d, max (R (e,d) − C (e,d)) (−(R (e,d) − C (e,d))) · w (0,d)) + b 0,

  the score of the rows R (e, ·) and C (e, ·): the difference and its absolute value are taken entry by entry, the weight
  row is repeated down the rows, the sum runs along each row from the zero word, the bias is repeated down the resulting
  column, and the column is read back as a vector.
-/
import proofs.«430914_j61323543052777_1_alg».proof.Proof.Gen.KernelIdeal.Skeleton
import proofs.«430914_j61323543052777_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Pay

open Cert.KernelIdeal Cert.KernelIdeal.Gen
open Idealize.ShloMosaic Idealize.ShloMosaic.ValueIdx
open scoped BigOperators

variable {α : Type}

/-- An [a, 1] column cast to [a] reads, at i, the column at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An [a] vector cast to an [a, 1] column reads, at (i, u), the vector at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1, 1] array broadcast to an [a, 1] column reads its one entry at every index. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The sum along the rows of a [128,128] block, from the zero word, at lane e: the sum over d of the block at (e, d). -/
theorem rowSum_apply (src : FVec Ideal S128x128 .f32) (h : S128x128.Reduces [1] S128) (hφ : FKind.Formats .f32)
    (hacc : (0x00000000#32 : BitVec 32) = FKind.add.neutral .f32 hφ) (e : Fin 128) :
    multiReduction (F := Ideal) .add [1] S128 src 0x00000000#32 h hφ hacc (ix1 e) = ∑ d : Fin 128, src (ix2 e d) := by
  refine (Ideal.multiReduction_add_single src 0x00000000#32 h hφ hacc (ix1 e)).trans ?_
  refine Finset.sum_congr rfl fun d _ => congrArg src ?_
  funext a
  match a with
  | ⟨0, _⟩ => rfl
  | ⟨1, _⟩ => rfl

/-- The stored block at lane e is the score of row e of R against row e of C under the weight row and the bias. -/
theorem pay_apply (R C : Vec Ideal S128x128 .f32) (w : Vec Ideal S1x128 .f32) (b : Vec Ideal S1 .f32) (e : Fin 128) :
    k0_pay1 (F := Ideal) (k0_pay2 (F := Ideal) R C) (k0_pay3 (F := Ideal) w) b (ix1 e)
      = Cert.EdgeScore.rowScore (fun d => R (ix2 e d)) (fun d => C (ix2 e d)) (fun d => w (ix2 (0 : Fin 1) d)) (b (ix1 (0 : Fin 1))) := by
  unfold k0_pay1 k0_pay2 k0_pay3
  refine (shapeCast_a1_a_apply _ _ e).trans ?_
  refine (addf_apply _ _ _).trans ?_
  unfold Cert.EdgeScore.rowScore
  refine congrArg₂ (· + ·) ?_ ?_
  · refine (shapeCast_a_a1_apply _ _ e 0).trans ?_
    refine (rowSum_apply _ _ _ _ e).trans ?_
    refine Finset.sum_congr rfl fun d _ => ?_
    refine (mulf_apply _ _ _).trans ?_
    refine congrArg₂ (· * ·) rfl ?_
    refine (broadcastTo_1b_ab_apply _ _ e d).trans ?_
    rw [shapeCast_self]
  · refine (broadcastTo_11_a1_apply _ _ e 0).trans ?_
    exact shapeCast_a_1a_apply _ _ 0 0

end Cert.KernelIdeal.Pay

end
-- ==== Proof.KernelIdealValue.lean ====
/-
  THE KERNEL'S RESULT IS THE EDGE SCORE, at the ideal instance.

  At grid point t the body gathers, for each lane j of its two blocks of 128 endpoint words, the table rows the two
  words name, and stores at lane j the score of that pair of rows under the weight row and the bias. Lane j of block t of
  a padded endpoint array is its entry 128 * t + j, so what point t stores is block t of one [600064] array, the score
  of every padded edge (padScore). The 4688 blocks tile the output array, so after the region the output array is that
  array. The two host lines after the region keep its first 600000 entries, as a column; below 600000 a padded endpoint
  array is the argument, the weight row is the weight column laid flat, and nothing wrote the table or the bias: the
  column is the edge score of the arguments.
-/
import proofs.«430914_j61323543052777_1_alg».proof.Defs
import proofs.«430914_j61323543052777_1_alg».proof.Proof.KernelIdealFrame
import proofs.«430914_j61323543052777_1_alg».proof.Proof.KernelIdealOut
import proofs.«430914_j61323543052777_1_alg».proof.Proof.KernelIdealBlocks
import proofs.«430914_j61323543052777_1_alg».proof.Proof.KernelIdealHyps
import proofs.«430914_j61323543052777_1_alg».proof.Proof.Payload
import proofs.«430914_j61323543052777_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

section Value

variable (m : (ℓ : Loc nD τ sig) → Buf (Elt Ideal) ℓ) (ρ : Dev nD → PrngReg)

/-- The score of every PADDED edge, over the arrays as the region finds them: entry i is the score of the table rows
    that entry i of the two padded endpoint arrays name, under the weight row and the bias. -/
def padScore (c : Dev nD) : S600064.Idx → EReal := fun i =>
  Cert.EdgeScore.rowScore
    (fun d => (V m c main_arg0 : S100000x128.Idx → EReal) (ix2 (Cert.EdgeScore.rowOf ((V m c main_v0 : S600064.Idx → BitVec 32) i)) d))
    (fun d => (V m c main_arg0 : S100000x128.Idx → EReal) (ix2 (Cert.EdgeScore.rowOf ((V m c main_v1 : S600064.Idx → BitVec 32) i)) d))
    (fun d => (V m c main_v2 : S1x128.Idx → EReal) (ix2 (0 : Fin 1) d))
    ((V m c main_arg4 : S1.Idx → EReal) (ix1 (0 : Fin 1)))

/-- The block of table rows that 128 words name, at entry (j, d): the table at (the row word j names, d). -/
theorem rowsOf_apply (c : Dev nD) (tab : HbBuf0 (F := Ideal) c hbM0_0) (x : Vec Ideal S128 .i32) (j d : Fin 128) :
    Cert.KernelIdeal.Out.rowsOf (F := Ideal) c tab x (ix2 j d)
      = (tab : S100000x128.Idx → EReal) (ix2 (Cert.EdgeScore.rowOf (x (ix1 j))) d) := rfl

/-- What point t stores is, by definition, the body's arithmetic of its four blocks and the table. -/
theorem outs_eq (hH : Hyps m) (c : Dev nD) (t : Fin cfg0.N) :
    outsAt0 m hH c t
      = k0_pay1 (F := Ideal)
          (k0_pay2 (F := Ideal) (Cert.KernelIdeal.Out.rowsOf (F := Ideal) c (V m c main_arg0) (iblk m c 0 t))
            (Cert.KernelIdeal.Out.rowsOf (F := Ideal) c (V m c main_arg0) (iblk m c 1 t)))
          (k0_pay3 (F := Ideal) (iblk m c 2 t)) (iblk m c 3 t) := by
  unfold outsAt0 Cert.KernelIdeal.Out.closedOut
  rfl

/-- LANE j OF WHAT POINT t STORES is the score of padded edge 128 * t + j: the two gathered rows are the rows that
    entry 128 * t + j of the padded endpoint arrays name, the weight block is the whole weight row and the bias block
    the whole bias. -/
theorem lane (hH : Hyps m) (c : Dev nD) (t : Fin cfg0.N) (j : Fin 128) :
    outsAt0 m hH c t (ix1 j)
      = padScore m c (ix1 ⟨128 * t.val + j.val, by have := Blocks.point_lt t; have := j.isLt; omega⟩) := by
  rw [outs_eq, Cert.KernelIdeal.Pay.pay_apply]
  unfold padScore
  refine congr (congr (congr (congrArg Cert.EdgeScore.rowScore ?_) ?_) ?_) ?_
  · funext d
    rw [rowsOf_apply]
    exact congrArg (fun w => (V m c main_arg0 : S100000x128.Idx → EReal) (ix2 (Cert.EdgeScore.rowOf w) d)) (Blocks.iblk0 m c t j)
  · funext d
    rw [rowsOf_apply]
    exact congrArg (fun w => (V m c main_arg0 : S100000x128.Idx → EReal) (ix2 (Cert.EdgeScore.rowOf w) d)) (Blocks.iblk1 m c t j)
  · funext d
    exact congrFun (Blocks.iblk2 m c t) (ix2 (0 : Fin 1) d)
  · exact congrFun (Blocks.iblk3 m c t) (ix1 (0 : Fin 1))

/-- What point t writes back is block t of the padded score: the output window is never cut, so the write-back is the
    whole stored block, and entry y of block t of the output array is its entry 128 * t + y. -/
theorem flushed_eq (hH : Hyps m) (c : Dev nD) (t : Fin cfg0.N) :
    (dats m hH 0 c).flushed 4 t = ((cfg0.win 4).blk t).view.read (Elt Ideal) (padScore m c) := by
  show (cfg0.win 4).cut (grid0.coords t) ((dats m hH 0 c).after 4 t) = _
  rw [after0_4]
  funext y
  have hy : (y 0).val < 128 := (y 0).isLt
  have e1 : ((cfg0.win 4).xinj (grid0.coords t) y : S128.Idx) = ix1 ⟨(y 0).val, hy⟩ :=
    funext fun (a : Fin 1) => by match a with | ⟨0, _⟩ => rfl
  have e2 : (((cfg0.win 4).blk t).view.emb y : S600064.Idx)
      = ix1 ⟨128 * t.val + (y 0).val, by have := Blocks.point_lt t; omega⟩ :=
    funext fun (a : Fin 1) => by match a with | ⟨0, _⟩ => exact Fin.ext (Blocks.emb4 t y)
  show outsAt0 m hH c t ((cfg0.win 4).xinj (grid0.coords t) y) = padScore m c (((cfg0.win 4).blk t).view.emb y)
  rw [e1, e2]
  exact lane m hH c t ⟨(y 0).val, hy⟩

/-- THE OUTPUT ARRAY after the region is the padded score: every point writes back its block of it, and the blocks
    cover the array. -/
theorem final (hH : Hyps m) (c : Dev nD) : (dats m hH 0 c).arrAt 4 cfg0.N = padScore m c :=
  (dats m hH 0 c).arrAt_eq_of_cover 4 (padScore m c) (fun t _ => flushed_eq m hH c t) Blocks.cover4

/-- THE RESULT COLUMN is the edge score of the arguments: entry (e, 0) is entry e < 600000 of the padded score, where
    the padded endpoint arrays are the arguments, the weight row is the weight column and the table and the bias are
    as launched. -/
theorem result (hH : Hyps m) (c : Dev nD) :
    (Pipeline.afterTail₀ cfgs (dats m hH) 0 (V0 m) [hostOps1] c main_v5 : S600000x1.Idx → EReal)
      = Cert.EdgeScore.score (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext i
  obtain ⟨e, u, rfl⟩ : ∃ (e : Fin 600000) (u : Fin 1), i = ix2 e u := ⟨i 0, i 1, eq_ix2 i⟩
  obtain rfl : u = 0 := Subsingleton.elim _ _
  have he : e.val < 600064 := by omega
  refine (Blocks.tail5 m (dats m hH) c e).trans ?_
  refine (congrFun (final m hH c) (ix1 ⟨e.val, he⟩)).trans ?_
  unfold padScore Cert.EdgeScore.score
  refine congr (congr (congr (congrArg Cert.EdgeScore.rowScore ?_) ?_) ?_) ?_
  · funext d
    rw [Blocks.padded0_lt m c ⟨e.val, he⟩ e.isLt, V_main_arg0 m c]
  · funext d
    rw [Blocks.padded1_lt m c ⟨e.val, he⟩ e.isLt, V_main_arg0 m c]
  · funext d
    exact Blocks.wrow m c d
  · rw [V_main_arg4 m c]

end Value

/-- THE RUN: from any launch memory the precondition holds of, the kernel program terminates with its result the edge
    score of its arguments and its arguments unchanged. The generated run leaves every unscoped buffer no window
    stages as the host lines after the region leave it, and every window's array as the write-backs leave it. -/
theorem run (m : (ℓ : Loc nD τ sig) → Buf (Elt Ideal) ℓ) (ρ : Dev nD → PrngReg) (hpre : Cert.Pre_KernelIdeal m) :
    θ_run defs (onTc (τ := τ) (main (F := Ideal))) ⟨m, fun _ => 0, ρ⟩ (fun r => ∀ c : Dev nD,
      r.2.mem ((c.tc : Thread nD τ).loc main_v5) = Cert.EdgeScore.score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hH : Hyps m := HypsOfPre.hyps_of_pre m hpre
  exact (θ_run defs _ _).mono (fun _ h c =>
    ⟨((h c).2 main_v5 (Pipeline.mem_restRefs_of main_v5 (by decide) (by decide))).trans (result m hH c),
      ((h c).2 main_arg0 (Pipeline.mem_restRefs_of main_arg0 (by decide) (by decide))).trans (W_main_arg0 m (dats m hH) c),
      ((h c).2 main_arg1 (Pipeline.mem_restRefs_of main_arg1 (by decide) (by decide))).trans (W_main_arg1 m (dats m hH) c),
      ((h c).2 main_arg2 (Pipeline.mem_restRefs_of main_arg2 (by decide) (by decide))).trans (W_main_arg2 m (dats m hH) c),
      ((h c).2 main_arg3 (Pipeline.mem_restRefs_of main_arg3 (by decide) (by decide))).trans (W_main_arg3 m (dats m hH) c),
      ((h c).1 3).trans (((dats m hH 0 c).arrAt_in 3 rfl _).trans ((A_eq m hH c 3).trans (V_main_arg4 m c)))⟩)
    (run_main m ρ hH)

end Cert.KernelIdeal.Val

end
-- ==== Proof.LibRowTake.lean ====
/-
  A table's row selected by an index column, read two ways.

  (1) THE ROW GATHER. jnp's `T[idx]` for a matrix `T : [K, C]` and a column of start indices `[n, 1]` is a
      `stablehlo.gather` whose axis 0 is collapsed and start-indexed, whose axis 1 is the one offset axis, with no
      batching axes and the index vector on axis 1. Its entry `(r, c)` is `T (k, c)`, where `k` is row `r`'s start
      index read signed and clamped into `[0, K - 1]` (`gather_rows`); when the word is the word of some `k₀ < K`
      that row is `k₀` itself (`gather_rows_of_word`).
  (2) THE ONE-HOT PRODUCT. Over the extended reals `∑ k, e k * T k = T k₀` when `e k₀ = 1` and `e k = 0` for
      `k ≠ k₀` (`sum_onehot_mul`): `0 * a = 0` and `a + 0 = a` hold for every extended real, the infinities included,
      so no finiteness is asked of `T`. The row `e` a kernel builds from a 32-bit word `w` — compare `w` with the word
      of each `k`, widen the bit to 32 bits, convert to a float — is that `e` when `w` is the word of `k₀`
      (`onehotWord`, `sum_onehotWord_mul`).
  So a matrix product with that one-hot row and the row gather read the same entry of the table.
-/
import Idealize.ShloMosaic.PureOps.Ideal
import Idealize.ShloMosaic.Lib.ValueIdx

noncomputable section

open scoped BigOperators

namespace Cert.RowTake

open Idealize.ShloMosaic Idealize.ShloMosaic.ValueIdx

/-! ## The row gather -/

/-- Entry `(r, c)` of the row gather is the table at `(k, c)`, `k` the start index of row `r` read signed and clamped
    into `[0, K - 1]`. The hypotheses are the printed dimension numbers, each by `rfl`. -/
theorem gather_rows {α : Type} {K C n w : Nat} (hK : 0 < K)
    (d : GatherDims ⟨2, ![K, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![K, C]⟩ : Shape).Idx → α) (idx : IVec ⟨2, ![n, 1]⟩ w) (r : Fin n) (c : Fin C) :
    Host.gather d x idx (ix2 r c)
      = x (ix2 (⟨min (idx (ix2 r (0 : Fin 1))).toInt.toNat (K - 1), by omega⟩ : Fin K) c) := by
  unfold Host.gather
  congr 1
  funext a
  apply Fin.ext
  have hb : ∀ a : Fin 2, a ∉ d.operandBatchingDims := fun a => by rw [hob]; exact List.not_mem_nil
  -- every offset axis of the result is axis 1, every batch axis is axis 0
  have hall1 : ∀ a ∈ d.offsetDims, a = (1 : Fin 2) := by
    rw [hoff]; intro a ha; exact List.mem_singleton.mp ha
  have hall0 : ∀ a ∈ d.batchDims, a = (0 : Fin 2) := by
    intro a ha
    have hne : a ∉ d.offsetDims := by
      have := (List.mem_filter.mp ha).2
      simpa using this
    rw [hoff, List.mem_singleton] at hne
    match a, hne with
    | ⟨0, _⟩, _ => rfl
    | ⟨1, _⟩, hne => exact absurd rfl hne
  match a with
  | ⟨0, _⟩ =>
    -- the collapsed, start-indexed axis: the clamped start index, nothing added
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r c) idx 0 + d.batchCoord (ix2 r c) 0 + d.offCoord (ix2 r c) 0 = _
    rw [GatherDims.batchCoord_eq_zero _ _ _ (hb 0), GatherDims.offCoord_eq_zero _ _ _ hk]
    simp only [Nat.add_zero]
    unfold GatherDims.start
    rw [dif_pos hm]
    show min (idx _).toInt.toNat (K - d.sliceSizes 0) = min (idx (ix2 r (0 : Fin 1))).toInt.toNat (K - 1)
    rw [hsl]
    congr 3
    congr 1
    funext b
    match b with
    | ⟨0, _⟩ =>
      -- the start indices' row is the result's batch coordinate, its row
      unfold GatherDims.siIdx
      rw [dif_neg (by rw [hivd]; simp)]
      unfold GatherDims.siCoord
      apply Fin.ext
      simp only [Fin.val_cast]
      have e : ∀ X : Fin 2, X = 0 → ((ix2 r c : (⟨2, ![n, C]⟩ : Shape).Idx) X).val = r.val := fun X hX => by
        subst hX; rfl
      exact e _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- the offset axis: no start, the result's column
    have hm : (1 : Fin 2) ∉ d.startIndexMap := by rw [hsim]; simp
    have hk : (1 : Fin 2) ∈ d.sKept := by rw [GatherDims.mem_sKept, hcoll]; exact ⟨by simp, hb 1⟩
    show d.start (ix2 r c) idx 1 + d.batchCoord (ix2 r c) 1 + d.offCoord (ix2 r c) 1 = c.val
    rw [GatherDims.batchCoord_eq_zero _ _ _ (hb 1)]
    unfold GatherDims.start GatherDims.offCoord
    rw [dif_neg hm, dif_pos hk]
    simp only [Nat.add_zero, Nat.zero_add]
    have e : ∀ X : Fin 2, X = 1 → ((ix2 r c : (⟨2, ![n, C]⟩ : Shape).Idx) X).val = c.val := fun X hX => by
      subst hX; rfl
    exact e _ (hall1 _ (List.getElem_mem _))

/-- A 32-bit word that is the word of `k < 2 ^ 31`, read signed, is `k`. -/
theorem toInt_toNat_ofNat (k : Nat) (hk : k < 2147483648) : (BitVec.ofNat 32 k).toInt.toNat = k := by
  have h1 : (BitVec.ofNat 32 k).toNat = k := by
    rw [BitVec.toNat_ofNat]; exact Nat.mod_eq_of_lt (by omega)
  rw [BitVec.toInt_eq_toNat_cond, h1]
  have : 2 * k < 2 ^ 32 := by omega
  rw [if_pos this]
  simp

/-- The row gather at a start index that is the word of `k₀ < K`: row `k₀`, no clamp. -/
theorem gather_rows_of_word {α : Type} {K C n : Nat} (hK32 : K ≤ 2147483648)
    (d : GatherDims ⟨2, ![K, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![K, C]⟩ : Shape).Idx → α) (idx : IVec ⟨2, ![n, 1]⟩ 32) (r : Fin n) (c : Fin C) (k₀ : Fin K)
    (hw : idx (ix2 r (0 : Fin 1)) = BitVec.ofNat 32 k₀.val) :
    Host.gather d x idx (ix2 r c) = x (ix2 k₀ c) := by
  have hk0 := k₀.isLt
  rw [gather_rows (by omega) d hoff hcoll hob hsim hivd]
  congr 2
  apply Fin.ext
  show min (idx (ix2 r (0 : Fin 1))).toInt.toNat (K - 1) = k₀.val
  rw [hw, toInt_toNat_ofNat _ (by omega)]
  omega

/-! ## The one-hot product -/

/-- A sum of products with a one-hot row is the entry it selects, on the extended reals. -/
theorem sum_onehot_mul {K : Nat} (e T : Fin K → EReal) (k₀ : Fin K) (h1 : e k₀ = 1) (h0 : ∀ k, k ≠ k₀ → e k = 0) :
    ∑ k : Fin K, e k * T k = T k₀ := by
  rw [Finset.sum_eq_single k₀ (fun k _ hk => by rw [h0 k hk, zero_mul])
    (fun h => absurd (Finset.mem_univ _) h), h1, one_mul]

/-- The float a kernel makes of "word `w` is `k`": the comparison's bit, widened to 32 bits, converted signed. -/
def onehotWord (w : BitVec 32) (k : Nat) : EReal :=
  ((((IntOp.cmpi .eq w (BitVec.ofNat 32 k)).setWidth 32).toInt : ℝ) : EReal)

theorem onehotWord_self (k : Nat) : onehotWord (BitVec.ofNat 32 k) k = 1 := by
  unfold onehotWord IntOp.cmpi
  simp

theorem onehotWord_ne (k₀ k : Nat) (h0 : k₀ < 4294967296) (hk : k < 4294967296) (hne : k ≠ k₀) :
    onehotWord (BitVec.ofNat 32 k₀) k = 0 := by
  unfold onehotWord IntOp.cmpi
  have hneq : (BitVec.ofNat 32 k₀ == BitVec.ofNat 32 k) = false := by
    rw [beq_eq_false_iff_ne]
    intro h
    have := congrArg BitVec.toNat h
    rw [BitVec.toNat_ofNat, BitVec.toNat_ofNat, Nat.mod_eq_of_lt (by omega), Nat.mod_eq_of_lt (by omega)] at this
    exact hne this.symm
  simp [hneq]

/-- The product of the one-hot row of word `w` with a table's column is the table at the row `w` names. -/
theorem sum_onehotWord_mul {K : Nat} (hK : K ≤ 4294967296) (w : BitVec 32) (T : Fin K → EReal) (k₀ : Fin K)
    (hw : w = BitVec.ofNat 32 k₀.val) :
    ∑ k : Fin K, onehotWord w k.val * T k = T k₀ := by
  subst hw
  have h0 := k₀.isLt
  exact sum_onehot_mul _ T k₀ (onehotWord_self _)
    (fun k hk => onehotWord_ne _ _ (by omega) (by have := k.isLt; omega) (fun h => hk (Fin.ext h)))

end Cert.RowTake

end
-- ==== Proof.RefScore.lean ====
/-
  The reference's result is the edge score: its run's term (the generated run of the host program), read one operation at a
  time (the generated read-at-an-index lemmas), is `Cert.EdgeScore.score` of the argument arrays when every endpoint word
  names a row of the table.
-/
import proofs.«430914_j61323543052777_1_alg».proof.Proof.Gen.ReferenceIdeal.Run
import proofs.«430914_j61323543052777_1_alg».proof.Proof.Gen.ReferenceIdeal.Read
import proofs.«430914_j61323543052777_1_alg».proof.Proof.Spec
import proofs.«430914_j61323543052777_1_alg».proof.Proof.LibRowTake

noncomputable section

namespace Cert.ReferenceIdeal.RefValue

open Cert.ReferenceIdeal Cert.ReferenceIdeal.Gen Cert.ReferenceIdeal.Value
open Idealize.ShloMosaic Idealize.ShloMosaic.ValueIdx

open Cert.ReferenceIdeal.Read
open scoped BigOperators

/-- A word below 100000 is not negative read signed, so the wrap of a negative index leaves it as it is. -/
theorem wrap_eq_self (w : BitVec 32) (h : w.toNat < 100000) :
    Scalar.select (IntOp.cmpi .slt w 0#32) (IntOp.addi w 100000#32) w = w := by
  have hs : w.slt 0#32 = false := by
    have z : (0#32 : BitVec 32).toInt = 0 := by decide
    simp only [BitVec.slt, z, decide_eq_false_iff_not, not_lt]
    rw [BitVec.toInt_eq_toNat_cond]
    split <;> omega
  show Scalar.select (BitVec.ofBool (w.slt 0#32)) _ _ = _
  rw [hs]
  rfl

/-- The first endpoint's wrapped word is the word itself. -/
theorem v4_eq (x1 : (⟨S600000, .i32⟩ : BufTy).Contents (Elt Ideal))
    (h1 : ∀ i : S600000.Idx, (x1 i).toNat < 100000) (j : S600000.Idx) :
    val_main_v4 (F := Ideal) x1 j = x1 j := by
  rw [val_main_v4_apply, val_main_v1_apply, val_main_v3_apply, val_main_v0_apply, val_main_c_apply,
    val_main_v2_apply, val_main_c_0_apply]
  exact wrap_eq_self _ (h1 j)

/-- The second endpoint's wrapped word is the word itself. -/
theorem v11_eq (x2 : (⟨S600000, .i32⟩ : BufTy).Contents (Elt Ideal))
    (h2 : ∀ i : S600000.Idx, (x2 i).toNat < 100000) (j : S600000.Idx) :
    val_main_v11 (F := Ideal) x2 j = x2 j := by
  rw [val_main_v11_apply, val_main_v8_apply, val_main_v10_apply, val_main_v7_apply, val_main_c_1_apply,
    val_main_v9_apply, val_main_c_2_apply]
  exact wrap_eq_self _ (h2 j)

/-- The first gather's entry `(e, d)` is the table at the row the first endpoint word of edge `e` names. -/
theorem v6_eq (x0 : (⟨S100000x128, .f32⟩ : BufTy).Contents (Elt Ideal))
    (x1 : (⟨S600000, .i32⟩ : BufTy).Contents (Elt Ideal))
    (h1 : ∀ i : S600000.Idx, (x1 i).toNat < 100000) (e : Fin 600000) (d : Fin 128) :
    val_main_v6 (F := Ideal) x0 x1 (ix2 e d) = x0 (ix2 (Cert.EdgeScore.rowOf (x1 (ix1 e))) d) := by
  unfold val_main_v6
  refine Cert.RowTake.gather_rows_of_word (by omega) _ rfl rfl rfl rfl rfl x0 _ e d
    (Cert.EdgeScore.rowOf (x1 (ix1 e))) ?_
  have hi : idx_main_v5 (ix2 e (0 : Fin 1)) = ix1 e :=
    funext fun a => Fin.ext (by match a with | ⟨0, _⟩ => rfl)
  rw [val_main_v5_apply, v4_eq x1 h1, hi]
  exact Cert.EdgeScore.eq_ofNat_rowOf (h1 _)

/-- The second gather's entry `(e, d)` is the table at the row the second endpoint word of edge `e` names. -/
theorem v13_eq (x0 : (⟨S100000x128, .f32⟩ : BufTy).Contents (Elt Ideal))
    (x2 : (⟨S600000, .i32⟩ : BufTy).Contents (Elt Ideal))
    (h2 : ∀ i : S600000.Idx, (x2 i).toNat < 100000) (e : Fin 600000) (d : Fin 128) :
    val_main_v13 (F := Ideal) x0 x2 (ix2 e d) = x0 (ix2 (Cert.EdgeScore.rowOf (x2 (ix1 e))) d) := by
  unfold val_main_v13
  refine Cert.RowTake.gather_rows_of_word (by omega) _ rfl rfl rfl rfl rfl x0 _ e d
    (Cert.EdgeScore.rowOf (x2 (ix1 e))) ?_
  have hi : idx_main_v12 (ix2 e (0 : Fin 1)) = ix1 e :=
    funext fun a => Fin.ext (by match a with | ⟨0, _⟩ => rfl)
  rw [val_main_v12_apply, v11_eq x2 h2, hi]
  exact Cert.EdgeScore.eq_ofNat_rowOf (h2 _)

/-- The reference's result is the edge score of its arguments when every endpoint word names a row of the table. -/
theorem ref_eq_score
    (x0 : (⟨S100000x128, .f32⟩ : BufTy).Contents (Elt Ideal)) (x1 x2 : (⟨S600000, .i32⟩ : BufTy).Contents (Elt Ideal))
    (x3 : (⟨S128x1, .f32⟩ : BufTy).Contents (Elt Ideal)) (x4 : (⟨S1, .f32⟩ : BufTy).Contents (Elt Ideal))
    (h1 : ∀ i : S600000.Idx, (x1 i).toNat < 100000) (h2 : ∀ i : S600000.Idx, (x2 i).toNat < 100000) :
    Cert.ReferenceIdeal.Read.val_main_v19 (F := Ideal) x0 x1 x2 x3 x4 = Cert.EdgeScore.score x0 x1 x2 x3 x4 := by
  funext i
  obtain ⟨e, z, rfl⟩ : ∃ (e : Fin 600000) (z : Fin 1), i = ix2 e z := ⟨i 0, i 1, ValueIdx.eq_ix2 i⟩
  obtain rfl : z = 0 := Subsingleton.elim _ _
  rw [val_main_v19_apply, val_main_v16_apply, val_main_v18_apply, val_main_v17_apply]
  have hb : idx_main_v17 (idx_main_v18 (ix2 e (0 : Fin 1))) = ix1 (0 : Fin 1) :=
    funext fun a => Fin.ext (by match a with | ⟨0, _⟩ => rfl)
  rw [hb]
  unfold Cert.EdgeScore.score Cert.EdgeScore.rowScore
  rw [Ideal.addf_def]
  congr 1
  refine Finset.sum_congr rfl fun k _ => ?_
  have hl : lidx_main_v16 (ix2 e (0 : Fin 1)) k = ix2 e k :=
    funext fun a => Fin.ext (by match a with | ⟨0, _⟩ => rfl | ⟨1, _⟩ => rfl)
  have hr : ridx_main_v16 (ix2 e (0 : Fin 1)) k = ix2 k (0 : Fin 1) :=
    funext fun a => Fin.ext (by match a with | ⟨0, _⟩ => rfl | ⟨1, _⟩ => rfl)
  rw [hl, hr, val_main_v15_apply, val_main_v14_apply, v6_eq x0 x1 h1, v13_eq x0 x2 h2]
  rfl

end Cert.ReferenceIdeal.RefValue

end
-- ==== Proof.lean ====
/-
  The certificate of the edge-score kernel against its jnp reference.

  For every edge `e` of 600000, with endpoint words `r e` and `c e` naming rows of a [100000, 128] feature table `x`, both
  programs compute

      score e = (∑ d, |x (r e, d) − x (c e, d)| · W (d, 0)) + b 0

  (`Cert.EdgeScore.score`, Proof/Spec.lean). The kernel does it 128 edges at a grid point: it copies the two rows of each
  edge from the table into two scratch blocks, one row per transfer, takes the absolute difference of the blocks, weighs
  it by the weight row, sums along each row from zero and adds the bias; the reference gathers the rows, subtracts, takes
  absolute values and contracts the feature axis against `W`. Over the extended reals the two are the same sum of the same
  terms, so no finiteness is used for the value; the precondition is used for the endpoint words only: each lies in
  [0, 100000), which is what makes every row transfer of the kernel a transfer out of the table (the frames) and the
  reference's gather a plain row read.

  The three frames: the kernel's two are its frame certificate under the side conditions the body assumes of the words it
  loads, which the precondition gives (Proof/KernelHyps.lean, Proof/KernelIdealHyps.lean); the reference's is its run with
  the result dropped. The ideal pass rewrote nothing, so `preserves` is `True`. The value claim pairs the kernel's run
  (Proof/KernelIdealValue.lean: the result array is `score` of the arguments) with the reference's (Proof/RefScore.lean).
-/
import proofs.«430914_j61323543052777_1_alg».proof.Defs
import proofs.«430914_j61323543052777_1_alg».proof.Proof.Gen.Kernel
import proofs.«430914_j61323543052777_1_alg».proof.Proof.Gen.KernelIdeal
import proofs.«430914_j61323543052777_1_alg».proof.Proof.Gen.ReferenceIdeal
import proofs.«430914_j61323543052777_1_alg».proof.Proof.Gen.Pre_finite_inputs
import proofs.«430914_j61323543052777_1_alg».proof.Proof.KernelFrame
import proofs.«430914_j61323543052777_1_alg».proof.Proof.KernelHyps
import proofs.«430914_j61323543052777_1_alg».proof.Proof.KernelIdealFrame
import proofs.«430914_j61323543052777_1_alg».proof.Proof.KernelIdealHyps
import proofs.«430914_j61323543052777_1_alg».proof.Proof.KernelIdealValue
import proofs.«430914_j61323543052777_1_alg».proof.Proof.RefScore
import Idealize.ShloMosaic.Adequacy
import Idealize.ShloMosaic.Init

noncomputable section

namespace Cert.Proof

open Idealize.ShloMosaic Idealize.ShloMosaic.TcCoe Idealize.SL.Sem

/-- The word-level kernel runs and keeps its arguments: its frame certificate, under the precondition's word ranges. -/
theorem frame_kernel : Cert.frame_Kernel := fun m ρ h =>
  Cert.Kernel.GenP.frame m ρ (Cert.Kernel.HypsOfPre.hyps_of_pre m h)

/-- The idealized kernel likewise. -/
theorem frame_kernelIdeal : Cert.frame_KernelIdeal := fun m ρ h =>
  Cert.KernelIdeal.GenP.frame m ρ (Cert.KernelIdeal.HypsOfPre.hyps_of_pre m h)

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the edge score of the arguments. -/
theorem algebraic : Cert.algebraic_KernelIdeal_ReferenceIdeal := by
  intro m ρ m' ρ' hpre hagree
  refine ⟨_, Cert.KernelIdeal.Val.run m ρ hpre, ?_⟩
  refine (θ_run Cert.ReferenceIdeal.defs _ _).mono (fun _ h c => ⟨(h c).1.trans ?_, (h c).2⟩)
    (Cert.ReferenceIdeal.Value.run (F := Ideal) m' ρ')
  have hw := Cert.KernelIdeal.HypsOfPre.words_lt m hpre c
  rw [Cert.ReferenceIdeal.Read.val_main_v19_eq, (hagree c).1, (hagree c).2.1, (hagree c).2.2.1, (hagree c).2.2.2.1,
    (hagree c).2.2.2.2]
  exact Cert.ReferenceIdeal.RefValue.ref_eq_score _ _ _ _ _ hw.1 hw.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
